-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_10000" .f32 0x38D1B717#32 ((1 / 10000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x160000 : Shape := ⟨2, ![2, 160000]⟩
abbrev S256 : Shape := ⟨1, ![256]⟩
abbrev S256x256 : Shape := ⟨2, ![256, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S2x160000 : S_.BroadcastsInDim S2x160000 (![] : Fin 0 → Fin S2x160000.rank)
  reducesTo_S2x160000_S_d0_1 : S2x160000.ReducesTo [0, 1] S_

variable [Facts]

def fn_part2 {F : FTy → Type} [FloatOps F] (main_arg1 : IVec S2x160000 32) (main_v33 : IVec S_ 1) : IVec S_ 1 :=
  let main_c_12 : IVec S_ 32 := constantI S_ 32 0#32
  let main_v34 : IVec S2x160000 32 := broadcastInDim S2x160000 ![] bcast_S_S2x160000 main_c_12
  let main_v35 : IVec S2x160000 1 := cmpi .sge main_arg1 main_v34
  let main_c_13 : IVec S_ 1 := constantI S_ 1 1#1
  let main_v36 : IVec S_ 1 := (fun x v => Host.reduce IntOp.andi x v reducesTo_S2x160000_S_d0_1 h_S_) main_v35 main_c_13
  let main_v37 : IVec S_ 1 := andi main_v33 main_v36
  let main_c_14 : IVec S_ 32 := constantI S_ 32 10000#32
  let main_v38 : IVec S2x160000 32 := broadcastInDim S2x160000 ![] bcast_S_S2x160000 main_c_14
  let main_v39 : IVec S2x160000 1 := cmpi .slt main_arg1 main_v38
  let main_c_15 : IVec S_ 1 := constantI S_ 1 1#1
  let main_v40 : IVec S_ 1 := (fun x v => Host.reduce IntOp.andi x v reducesTo_S2x160000_S_d0_1 h_S_) main_v39 main_c_15
  let main_v41 : IVec S_ 1 := andi main_v37 main_v40
  main_v41

def fn_part1 {F : FTy → Type} [FloatOps F] (main_arg1 : IVec S2x160000 32) (main_arg5 : FVec F S256 .f32) (main_arg6 : FVec F S256x256 .f32) (main_arg7 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_v33

def fn {F : FTy → Type} [FloatOps F] (main_arg0 : FVec F S10000x256 .f32) (main_arg1 : IVec S2x160000 32) (main_arg2 : FVec F S256 .f32) (main_arg3 : FVec F S256 .f32) (main_arg4 : FVec F S256x256 .f32) (main_arg5 : FVec F S256 .f32) (main_arg6 : FVec F S256x256 .f32) (main_arg7 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg5 main_arg6 main_arg7 main_v13 main_v16
-- ==== Kernel.lean ====
abbrev S10000x256 : Shape := ⟨2, ![10000, 256]⟩
abbrev S2x160000 : Shape := ⟨2, ![2, 160000]⟩
abbrev S256 : Shape := ⟨1, ![256]⟩
abbrev S256x256 : Shape := ⟨2, ![256, 256]⟩
abbrev S1x160000 : Shape := ⟨2, ![1, 160000]⟩
abbrev S160000 : Shape := ⟨1, ![160000]⟩
abbrev S1x256 : Shape := ⟨2, ![1, 256]⟩
abbrev S_ : Shape := ⟨0, ![]⟩
abbrev S10000 : Shape := ⟨1, ![10000]⟩
abbrev S160000x1 : Shape := ⟨2, ![160000, 1]⟩
abbrev S10000x1 : Shape := ⟨2, ![10000, 1]⟩
abbrev S160000x256 : Shape := ⟨2, ![160000, 256]⟩

abbrev nBuf : Space → Nat
  | .hbm => 80
  | .vmem => 13
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x160000, .i32⟩
  | .hbm, ⟨9, _⟩ => ⟨S160000, .i32⟩
  | .hbm, ⟨10, _⟩ => ⟨S1x160000, .i32⟩
  | .hbm, ⟨11, _⟩ => ⟨S160000, .i32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S10000x256, .f32⟩
  | .hbm, ⟨17, _⟩ => ⟨S_, .f32⟩
  | .hbm, ⟨18, _⟩ => ⟨S10000, .f32⟩
  | .hbm, ⟨19, _⟩ => ⟨S_, .i32⟩
  | .hbm, ⟨20, _⟩ => ⟨S160000, .i32⟩
  | .hbm, ⟨21, _⟩ => ⟨S160000, .i1⟩
  | .hbm, ⟨22, _⟩ => ⟨S_, .i32⟩
  | .hbm, ⟨23, _⟩ => ⟨S160000, .i32⟩
  | .hbm, ⟨24, _⟩ => ⟨S160000, .i32⟩
  | .hbm, ⟨25, _⟩ => ⟨S160000, .i32⟩
  | .hbm, ⟨26, _⟩ => ⟨S160000x1, .i32⟩
  | .hbm, ⟨27, _⟩ => ⟨S_, .f32⟩
  | .hbm, ⟨28, _⟩ => ⟨S160000, .f32⟩
  | .hbm, ⟨29, _⟩ => ⟨S10000, .f32⟩
  | .hbm, ⟨30, _⟩ => ⟨S_, .f32⟩
  | .hbm, ⟨31, _⟩ => ⟨S10000, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x256, .f32⟩
  | .hbm, ⟨36, _⟩ => ⟨S10000x256, .f32⟩
  | .hbm, ⟨37, _⟩ => ⟨S_, .f32⟩
  | .hbm, ⟨38, _⟩ => ⟨S10000x256, .f32⟩
  | .hbm, ⟨39, _⟩ => ⟨S_, .i32⟩
  | .hbm, ⟨40, _⟩ => ⟨S160000, .i32⟩
  | .hbm, ⟨41, _⟩ => ⟨S160000, .i1⟩
  | .hbm, ⟨42, _⟩ => ⟨S_, .i32⟩
  | .hbm, ⟨43, _⟩ => ⟨S160000, .i32⟩
  | .hbm, ⟨44, _⟩ => ⟨S160000, .i32⟩
  | .hbm, ⟨45, _⟩ => ⟨S160000, .i32⟩
  | .hbm, ⟨46, _⟩ => ⟨S160000x1, .i32⟩
  | .hbm, ⟨47, _⟩ => ⟨S160000x256, .f32⟩
  | .hbm, ⟨48, _⟩ => ⟨S_, .i32⟩
  | .hbm, ⟨49, _⟩ => ⟨S160000, .i32⟩
  | .hbm, ⟨50, _⟩ => ⟨S160000, .i1⟩
  | .hbm, ⟨51, _⟩ => ⟨S_, .i32⟩
  | .hbm, ⟨52, _⟩ => ⟨S160000, .i32⟩
  | .hbm, ⟨53, _⟩ => ⟨S160000, .i32⟩
  | .hbm, ⟨54, _⟩ => ⟨S160000, .i32⟩
  | .hbm, ⟨55, _⟩ => ⟨S160000x1, .i32⟩
  | .hbm, ⟨56, _⟩ => ⟨S10000x256, .f32⟩
  | .hbm, ⟨57, _⟩ => ⟨S_, .f32⟩
  | .hbm, ⟨58, _⟩ => ⟨S10000, .f32⟩
  | .hbm, ⟨59, _⟩ => ⟨S_, .i32⟩
  | .hbm, ⟨60, _⟩ => ⟨S160000, .i32⟩
  | .hbm, ⟨61, _⟩ => ⟨S160000, .i1⟩
  | .hbm, ⟨62, _⟩ => ⟨S_, .i32⟩
  | .hbm, ⟨63, _⟩ => ⟨S160000, .i32⟩
  | .hbm, ⟨64, _⟩ => ⟨S160000, .i32⟩
  | .hbm, ⟨65, _⟩ => ⟨S160000, .i32⟩
  | .hbm, ⟨66, _⟩ => ⟨S160000x1, .i32⟩
  | .hbm, ⟨67, _⟩ => ⟨S160000, .f32⟩
  | .hbm, ⟨68, _⟩ => ⟨S_, .i32⟩
  | .hbm, ⟨69, _⟩ => ⟨S160000, .i32⟩
  | .hbm, ⟨70, _⟩ => ⟨S160000, .i1⟩
  | .hbm, ⟨71, _⟩ => ⟨S_, .i32⟩
  | .hbm, ⟨72, _⟩ => ⟨S160000, .i32⟩
  | .hbm, ⟨73, _⟩ => ⟨S160000, .i32⟩
  | .hbm, ⟨74, _⟩ => ⟨S160000, .i32⟩
  | .hbm, ⟨75, _⟩ => ⟨S160000x1, .i32⟩
  | .hbm, ⟨76, _⟩ => ⟨S10000, .f32⟩
  | .hbm, ⟨77, _⟩ => ⟨S10000x1, .f32⟩
  | .hbm, ⟨78, _⟩ => ⟨S10000x1, .f32⟩
  | .hbm, ⟨79, _⟩ => ⟨S1x256, .f32⟩
  | .local _ .vmem, ⟨0, _⟩ => ⟨S10000x256, .f32⟩
  | .local _ .vmem, ⟨1, _⟩ => ⟨S1x256, .f32⟩
  | .local _ .vmem, ⟨2, _⟩ => ⟨S1x256, .f32⟩
  | .local _ .vmem, ⟨3, _⟩ => ⟨S256x256, .f32⟩
  | .local _ .vmem, ⟨4, _⟩ => ⟨S10000x256, .f32⟩
  | .local _ .vmem, ⟨5, _⟩ => ⟨S10000x256, .f32⟩
  | .local _ .vmem, ⟨6, _⟩ => ⟨S10000x256, .f32⟩
  | .local _ .vmem, ⟨7, _⟩ => ⟨S10000x1, .f32⟩
  | .local _ .vmem, ⟨8, _⟩ => ⟨S10000x1, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S1x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_c_9 : Ref sig .tc := ⟨.hbm, 59, rfl⟩
abbrev main_v40 : Ref sig .tc := ⟨.hbm, 60, rfl⟩
abbrev main_v41 : Ref sig .tc := ⟨.hbm, 61, rfl⟩
abbrev main_c_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_c_12 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12

abbrev nD : Nat := 1
abbrev τ : Topo := Topo.v7x

variable {F : FTy → Type} [FloatOps F]

abbrev grid0 : Pipeline.Grid := .none

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10000x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := .none

abbrev stage1_0 : Fin 1 → Memref sig .tc .vmem S10000x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S10000x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S10000x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S10000x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  shapeCasts_S256_S1x256 : S256.ShapeCasts S1x256
  inb_S10000x256_S10000x256_0_0 : ∀ a, (![0, 0] : Fin 2 → Nat) a + S10000x256.size a ≤ S10000x256.size a
  h_S10000x256 : 0 < S10000x256.numel
  reduces_S10000x256_S256 : S10000x256.Reduces [0] S256
  broadcasts_S1x256_S10000x256 : S1x256.Broadcasts S10000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x256_S256x256_0_0 : ∀ a, (![0, 0] : Fin 2 → Nat) a + S256x256.size a ≤ S256x256.size a
  h_S256x256 : 0 < S256x256.numel
  bcast_S_S10000 : S_.BroadcastsInDim S10000 (![] : Fin 0 → Fin S10000.rank)
  bcast_S_S160000 : S_.BroadcastsInDim S160000 (![] : Fin 0 → Fin S160000.rank)
  bcast_S160000_S160000x1_0 : S160000.BroadcastsInDim S160000x1 (![0] : Fin 1 → Fin S160000x1.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S_S10000x256 : S_.BroadcastsInDim S10000x256 (![] : Fin 0 → Fin S10000x256.rank)
  shapeCasts_S10000_S10000x1 : S10000.ShapeCasts S10000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  shapeCasts_S10000x256_S10000x256 : S10000x256.ShapeCasts S10000x256
  broadcasts_S10000x1_S10000x256 : S10000x1.Broadcasts S10000x256
  dot_S10000x256_S256x256_S10000x256_1_0_0_1_n_n_wf : DotDims.WF S10000x256 S256x256 S10000x256 [1] [0] [0] [1] [] []
  scatter_S10000_S160000x1_S160000_n_0_0_1_wf : ScatterDims.WF S10000 S160000x1 S160000 [] [0] [0] 1
  gather_S10000x256_S160000x1_S160000x256_1_0_n_n_0_1_1256_wf : GatherDims.WF S10000x256 S160000x1 S160000x256 [1] [0] [] [0] [] 1 ![1, 256]
  scatter_S10000x256_S160000x1_S160000x256_1_0_0_1_wf : ScatterDims.WF S10000x256 S160000x1 S160000x256 [1] [0] [0] 1
  gather_S10000_S160000x1_S160000_n_0_n_n_0_1_1_wf : GatherDims.WF S10000 S160000x1 S160000 [] [0] [] [0] [] 1 ![1]
  dot_S1x256_S256x256_S1x256_1_0_0_1_n_n_wf : DotDims.WF S1x256 S256x256 S1x256 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole
  hstage1_5 : ∀ j, (stage1_5 j).IsWhole
  hstage1_6 : ∀ j, (stage1_6 j).IsWhole
  hstage1_7 : ∀ j, (stage1_7 j).IsWhole

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v4) false false (stage0_1 0) (sem0_1 0) (Memref.isWhole_whole _) (hstage0_1 0)

abbrev win0_2 : Pipeline.Window sig grid0 :=
  Pipeline.Window.whole (Memref.whole main_v5) false false (stage0_2 0) (sem0_2 0) (Memref.isWhole_whole _) (hstage0_2 0)

abbrev win0_3 : Pipeline.Window sig grid0 :=
  Pipeline.Window.whole (Memref.whole main_arg4) false false (stage0_3 0) (sem0_3 0) (Memref.isWhole_whole _) (hstage0_3 0)

abbrev win0_4 : Pipeline.Window sig grid0 :=
  Pipeline.Window.whole (Memref.whole main_v8) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.whole (Memref.whole main_v38) false false (stage1_0 0) (sem1_0 0) (Memref.isWhole_whole _) (hstage1_0 0)

abbrev win1_1 : Pipeline.Window sig grid1 :=
  Pipeline.Window.whole (Memref.whole main_v23) false false (stage1_1 0) (sem1_1 0) (Memref.isWhole_whole _) (hstage1_1 0)

abbrev win1_2 : Pipeline.Window sig grid1 :=
  Pipeline.Window.whole (Memref.whole main_v54) false false (stage1_2 0) (sem1_2 0) (Memref.isWhole_whole _) (hstage1_2 0)

abbrev win1_3 : Pipeline.Window sig grid1 :=
  Pipeline.Window.whole (Memref.whole main_v55) false false (stage1_3 0) (sem1_3 0) (Memref.isWhole_whole _) (hstage1_3 0)

abbrev win1_4 : Pipeline.Window sig grid1 :=
  Pipeline.Window.whole (Memref.whole main_v6) false false (stage1_4 0) (sem1_4 0) (Memref.isWhole_whole _) (hstage1_4 0)

abbrev win1_5 : Pipeline.Window sig grid1 :=
  Pipeline.Window.whole (Memref.whole main_arg6) false false (stage1_5 0) (sem1_5 0) (Memref.isWhole_whole _) (hstage1_5 0)

abbrev win1_6 : Pipeline.Window sig grid1 :=
  Pipeline.Window.whole (Memref.whole main_v7) false false (stage1_6 0) (sem1_6 0) (Memref.isWhole_whole _) (hstage1_6 0)

abbrev win1_7 : Pipeline.Window sig grid1 :=
  Pipeline.Window.whole (Memref.whole main_v56) true false (stage1_7 0) (sem1_7 0) (Memref.isWhole_whole _) (hstage1_7 0)

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S10000x256 : Shape := ⟨2, ![10000, 256]⟩
abbrev S2x160000 : Shape := ⟨2, ![2, 160000]⟩
abbrev S256 : Shape := ⟨1, ![256]⟩
abbrev S256x256 : Shape := ⟨2, ![256, 256]⟩
abbrev S_ : Shape := ⟨0, ![]⟩
abbrev S1x256 : Shape := ⟨2, ![1, 256]⟩
abbrev S1x160000 : Shape := ⟨2, ![1, 160000]⟩
abbrev S160000 : Shape := ⟨1, ![160000]⟩
abbrev S10000 : Shape := ⟨1, ![10000]⟩
abbrev S170000 : Shape := ⟨1, ![170000]⟩
abbrev S170000x1 : Shape := ⟨2, ![170000, 1]⟩
abbrev S170000x256 : Shape := ⟨2, ![170000, 256]⟩

abbrev nBuf : Space → Nat
  | .hbm => 209
  | .vmem => 0
  | .smem => 0
  | _ => 0

abbrev hbmTy0_0 (i : Nat) : BufTy := match i % 128 with
  | 0 => ⟨S10000x256, .f32⟩
  | 1 => ⟨S2x160000, .i32⟩
  | 2 => ⟨S256, .f32⟩
  | 3 => ⟨S256, .f32⟩
  | 4 => ⟨S256x256, .f32⟩
  | 5 => ⟨S256, .f32⟩
  | 6 => ⟨S256x256, .f32⟩
  | 7 => ⟨S256, .f32⟩
  | 8 => ⟨S_, .f32⟩
  | 9 => ⟨S256, .f32⟩
  | 10 => ⟨S_, .f32⟩
  | 11 => ⟨S256, .f32⟩
  | 12 => ⟨S256, .f32⟩
  | 13 => ⟨S_, .i32⟩
  | 14 => ⟨S_, .f32⟩
  | 15 => ⟨S256, .f32⟩
  | 16 => ⟨S1x256, .f32⟩
  | 17 => ⟨S_, .f32⟩
  | 18 => ⟨S1x256, .f32⟩
  | 19 => ⟨S1x256, .f32⟩
  | 20 => ⟨S10000x256, .f32⟩
  | 21 => ⟨S10000x256, .f32⟩
  | 22 => ⟨S10000x256, .f32⟩
  | 23 => ⟨S_, .f32⟩
  | 24 => ⟨S_, .f32⟩
  | 25 => ⟨S_, .f32⟩
  | 26 => ⟨S_, .f32⟩
  | 27 => ⟨S256, .f32⟩
  | 28 => ⟨S256, .f32⟩
  | 29 => ⟨S256, .f32⟩
  | 30 => ⟨S_, .f32⟩
  | 31 => ⟨S_, .i1⟩
  | 32 => ⟨S_, .f32⟩
  | 33 => ⟨S_, .f32⟩
  | 34 => ⟨S256, .f32⟩
  | 35 => ⟨S256, .f32⟩
  | 36 => ⟨S1x256, .f32⟩
  | 37 => ⟨S10000x256, .f32⟩
  | 38 => ⟨S10000x256, .f32⟩
  | 39 => ⟨S_, .f32⟩
  | 40 => ⟨S256, .f32⟩
  | 41 => ⟨S256, .f32⟩
  | 42 => ⟨S256, .f32⟩
  | 43 => ⟨S1x256, .f32⟩
  | 44 => ⟨S10000x256, .f32⟩
  | 45 => ⟨S10000x256, .f32⟩
  | 46 => ⟨S1x256, .f32⟩
  | 47 => ⟨S10000x256, .f32⟩
  | 48 => ⟨S10000x256, .f32⟩
  | 49 => ⟨S1x256, .f32⟩
  | 50 => ⟨S10000x256, .f32⟩
  | 51 => ⟨S10000x256, .f32⟩
  | 52 => ⟨S1x160000, .i32⟩
  | 53 => ⟨S160000, .i32⟩
  | 54 => ⟨S1x160000, .i32⟩
  | 55 => ⟨S160000, .i32⟩
  | 56 => ⟨S10000x256, .f32⟩
  | 57 => ⟨S10000, .i32⟩
  | 58 => ⟨S170000, .i32⟩
  | 59 => ⟨S170000, .i32⟩
  | 60 => ⟨S_, .f32⟩
  | 61 => ⟨S10000, .f32⟩
  | 62 => ⟨S_, .i32⟩
  | 63 => ⟨S170000, .i32⟩
  | 64 => ⟨S170000, .i1⟩
  | 65 => ⟨S_, .i32⟩
  | 66 => ⟨S170000, .i32⟩
  | 67 => ⟨S170000, .i32⟩
  | 68 => ⟨S170000, .i32⟩
  | 69 => ⟨S170000x1, .i32⟩
  | 70 => ⟨S_, .f32⟩
  | 71 => ⟨S170000, .f32⟩
  | 72 => ⟨S10000, .f32⟩
  | 73 => ⟨S_, .f32⟩
  | 74 => ⟨S10000, .f32⟩
  | 75 => ⟨S10000, .i1⟩
  | 76 => ⟨S10000, .f32⟩
  | 77 => ⟨S_, .f32⟩
  | 78 => ⟨S_, .f32⟩
  | 79 => ⟨S10000, .f32⟩
  | 80 => ⟨S10000, .f32⟩
  | 81 => ⟨S_, .i32⟩
  | 82 => ⟨S170000, .i32⟩
  | 83 => ⟨S170000, .i1⟩
  | 84 => ⟨S_, .i32⟩
  | 85 => ⟨S170000, .i32⟩
  | 86 => ⟨S170000, .i32⟩
  | 87 => ⟨S170000, .i32⟩
  | 88 => ⟨S170000x1, .i32⟩
  | 89 => ⟨S170000, .f32⟩
  | 90 => ⟨S_, .i32⟩
  | 91 => ⟨S170000, .i32⟩
  | 92 => ⟨S170000, .i1⟩
  | 93 => ⟨S_, .i32⟩
  | 94 => ⟨S170000, .i32⟩
  | 95 => ⟨S170000, .i32⟩
  | 96 => ⟨S170000, .i32⟩
  | 97 => ⟨S170000x1, .i32⟩
  | 98 => ⟨S170000, .f32⟩
  | 99 => ⟨S170000, .f32⟩
  | 100 => ⟨S_, .i32⟩
  | 101 => ⟨S170000, .i32⟩
  | 102 => ⟨S170000, .i1⟩
  | 103 => ⟨S_, .i32⟩
  | 104 => ⟨S170000, .i32⟩
  | 105 => ⟨S170000, .i32⟩
  | 106 => ⟨S170000, .i32⟩
  | 107 => ⟨S170000x1, .i32⟩
  | 108 => ⟨S170000x256, .f32⟩
  | 109 => ⟨S170000x1, .f32⟩
  | 110 => ⟨S170000x256, .f32⟩
  | 111 => ⟨S170000x256, .f32⟩
  | 112 => ⟨S_, .f32⟩
  | 113 => ⟨S10000x256, .f32⟩
  | 114 => ⟨S_, .i32⟩
  | 115 => ⟨S170000, .i32⟩
  | 116 => ⟨S170000, .i1⟩
  | 117 => ⟨S_, .i32⟩
  | 118 => ⟨S170000, .i32⟩
  | 119 => ⟨S170000, .i32⟩
  | 120 => ⟨S170000, .i32⟩
  | 121 => ⟨S170000x1, .i32⟩
  | 122 => ⟨S10000x256, .f32⟩
  | 123 => ⟨S1x256, .f32⟩
  | 124 => ⟨S10000x256, .f32⟩
  | 125 => ⟨S10000x256, .f32⟩
  | 126 => ⟨S_, .f32⟩
  | 127 => ⟨S10000x256, .f32⟩
  | _ => ⟨S10000x256, .f32⟩

abbrev hbmTy0_1 (i : Nat) : BufTy := match i % 128 with
  | 0 => ⟨S10000x256, .i1⟩
  | 1 => ⟨S_, .f32⟩
  | 2 => ⟨S10000x256, .f32⟩
  | 3 => ⟨S10000x256, .f32⟩
  | 4 => ⟨S10000x256, .f32⟩
  | 5 => ⟨S10000x256, .f32⟩
  | 6 => ⟨S10000, .i32⟩
  | 7 => ⟨S170000, .i32⟩
  | 8 => ⟨S170000, .i32⟩
  | 9 => ⟨S_, .f32⟩
  | 10 => ⟨S10000, .f32⟩
  | 11 => ⟨S_, .i32⟩
  | 12 => ⟨S170000, .i32⟩
  | 13 => ⟨S170000, .i1⟩
  | 14 => ⟨S_, .i32⟩
  | 15 => ⟨S170000, .i32⟩
  | 16 => ⟨S170000, .i32⟩
  | 17 => ⟨S170000, .i32⟩
  | 18 => ⟨S170000x1, .i32⟩
  | 19 => ⟨S_, .f32⟩
  | 20 => ⟨S170000, .f32⟩
  | 21 => ⟨S10000, .f32⟩
  | 22 => ⟨S_, .f32⟩
  | 23 => ⟨S10000, .f32⟩
  | 24 => ⟨S10000, .i1⟩
  | 25 => ⟨S10000, .f32⟩
  | 26 => ⟨S_, .f32⟩
  | 27 => ⟨S_, .f32⟩
  | 28 => ⟨S10000, .f32⟩
  | 29 => ⟨S10000, .f32⟩
  | 30 => ⟨S_, .i32⟩
  | 31 => ⟨S170000, .i32⟩
  | 32 => ⟨S170000, .i1⟩
  | 33 => ⟨S_, .i32⟩
  | 34 => ⟨S170000, .i32⟩
  | 35 => ⟨S170000, .i32⟩
  | 36 => ⟨S170000, .i32⟩
  | 37 => ⟨S170000x1, .i32⟩
  | 38 => ⟨S170000, .f32⟩
  | 39 => ⟨S_, .i32⟩
  | 40 => ⟨S170000, .i32⟩
  | 41 => ⟨S170000, .i1⟩
  | 42 => ⟨S_, .i32⟩
  | 43 => ⟨S170000, .i32⟩
  | 44 => ⟨S170000, .i32⟩
  | 45 => ⟨S170000, .i32⟩
  | 46 => ⟨S170000x1, .i32⟩
  | 47 => ⟨S170000, .f32⟩
  | 48 => ⟨S170000, .f32⟩
  | 49 => ⟨S_, .i32⟩
  | 50 => ⟨S170000, .i32⟩
  | 51 => ⟨S170000, .i1⟩
  | 52 => ⟨S_, .i32⟩
  | 53 => ⟨S170000, .i32⟩
  | 54 => ⟨S170000, .i32⟩
  | 55 => ⟨S170000, .i32⟩
  | 56 => ⟨S170000x1, .i32⟩
  | 57 => ⟨S170000x256, .f32⟩
  | 58 => ⟨S170000x1, .f32⟩
  | 59 => ⟨S170000x256, .f32⟩
  | 60 => ⟨S170000x256, .f32⟩
  | 61 => ⟨S_, .f32⟩
  | 62 => ⟨S10000x256, .f32⟩
  | 63 => ⟨S_, .i32⟩
  | 64 => ⟨S170000, .i32⟩
  | 65 => ⟨S170000, .i1⟩
  | 66 => ⟨S_, .i32⟩
  | 67 => ⟨S170000, .i32⟩
  | 68 => ⟨S170000, .i32⟩
  | 69 => ⟨S170000, .i32⟩
  | 70 => ⟨S170000x1, .i32⟩
  | 71 => ⟨S10000x256, .f32⟩
  | 72 => ⟨S1x256, .f32⟩
  | 73 => ⟨S10000x256, .f32⟩
  | 74 => ⟨S10000x256, .f32⟩
  | 75 => ⟨S_, .f32⟩
  | 76 => ⟨S256, .f32⟩
  | 77 => ⟨S1x256, .f32⟩
  | 78 => ⟨S_, .f32⟩
  | 79 => ⟨S1x256, .f32⟩
  | 80 => ⟨S1x256, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_cst_3 : Ref sig .tc := ⟨.hbm, 30, rfl⟩
abbrev main_call0_v12 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_2 : Ref sig .tc := ⟨.hbm, 60, rfl⟩
abbrev main_v27 : Ref sig .tc := ⟨.hbm, 61, rfl⟩
abbrev main_c_3 : Ref sig .tc := ⟨.hbm, 62, rfl⟩
abbrev main_v28 : Ref sig .tc := ⟨.hbm, 63, rfl⟩
abbrev main_v29 : Ref sig .tc := ⟨.hbm, 64, rfl⟩
abbrev main_c_4 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_cst_5 : Ref sig .tc := ⟨.hbm, 70, rfl⟩
abbrev main_v34 : Ref sig .tc := ⟨.hbm, 71, rfl⟩
abbrev main_v35 : Ref sig .tc := ⟨.hbm, 72, rfl⟩
abbrev main_cst_6 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_7 : Ref sig .tc := ⟨.hbm, 77, rfl⟩
abbrev main_call1_v0 : Ref sig .tc := ⟨.hbm, 78, rfl⟩
abbrev main_call1_v1 : Ref sig .tc := ⟨.hbm, 79, rfl⟩
abbrev main_v39 : Ref sig .tc := ⟨.hbm, 80, rfl⟩
abbrev main_c_8 : Ref sig .tc := ⟨.hbm, 81, rfl⟩
abbrev main_v40 : Ref sig .tc := ⟨.hbm, 82, rfl⟩
abbrev main_v41 : Ref sig .tc := ⟨.hbm, 83, rfl⟩
abbrev main_c_9 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_c_10 : Ref sig .tc := ⟨.hbm, 90, rfl⟩
abbrev main_v47 : Ref sig .tc := ⟨.hbm, 91, rfl⟩
abbrev main_v48 : Ref sig .tc := ⟨.hbm, 92, rfl⟩
abbrev main_c_11 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_c_12 : Ref sig .tc := ⟨.hbm, 100, rfl⟩
abbrev main_v55 : Ref sig .tc := ⟨.hbm, 101, rfl⟩
abbrev main_v56 : Ref sig .tc := ⟨.hbm, 102, rfl⟩
abbrev main_c_13 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_cst_14 : Ref sig .tc := ⟨.hbm, 112, rfl⟩
abbrev main_v65 : Ref sig .tc := ⟨.hbm, 113, rfl⟩
abbrev main_c_15 : Ref sig .tc := ⟨.hbm, 114, rfl⟩
abbrev main_v66 : Ref sig .tc := ⟨.hbm, 115, rfl⟩
abbrev main_v67 : Ref sig .tc := ⟨.hbm, 116, rfl⟩
abbrev main_c_16 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_cst_17 : Ref sig .tc := ⟨.hbm, 126, rfl⟩
abbrev main_v76 : Ref sig .tc := ⟨.hbm, 127, rfl⟩
abbrev main_v77 : Ref sig .tc := ⟨.hbm, 128, rfl⟩
abbrev main_cst_18 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_cst_19 : Ref sig .tc := ⟨.hbm, 137, rfl⟩
abbrev main_v85 : Ref sig .tc := ⟨.hbm, 138, rfl⟩
abbrev main_c_20 : Ref sig .tc := ⟨.hbm, 139, rfl⟩
abbrev main_v86 : Ref sig .tc := ⟨.hbm, 140, rfl⟩
abbrev main_v87 : Ref sig .tc := ⟨.hbm, 141, rfl⟩
abbrev main_c_21 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_cst_22 : Ref sig .tc := ⟨.hbm, 147, rfl⟩
abbrev main_v92 : Ref sig .tc := ⟨.hbm, 148, rfl⟩
abbrev main_v93 : Ref sig .tc := ⟨.hbm, 149, rfl⟩
abbrev main_cst_23 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_cst_24 : Ref sig .tc := ⟨.hbm, 154, rfl⟩
abbrev main_call3_v0 : Ref sig .tc := ⟨.hbm, 155, rfl⟩
abbrev main_call3_v1 : Ref sig .tc := ⟨.hbm, 156, rfl⟩
abbrev main_v97 : Ref sig .tc := ⟨.hbm, 157, rfl⟩
abbrev main_c_25 : Ref sig .tc := ⟨.hbm, 158, rfl⟩
abbrev main_v98 : Ref sig .tc := ⟨.hbm, 159, rfl⟩
abbrev main_v99 : Ref sig .tc := ⟨.hbm, 160, rfl⟩
abbrev main_c_26 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_c_27 : Ref sig .tc := ⟨.hbm, 167, rfl⟩
abbrev main_v105 : Ref sig .tc := ⟨.hbm, 168, rfl⟩
abbrev main_v106 : Ref sig .tc := ⟨.hbm, 169, rfl⟩
abbrev main_c_28 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_c_29 : Ref sig .tc := ⟨.hbm, 177, rfl⟩
abbrev main_v113 : Ref sig .tc := ⟨.hbm, 178, rfl⟩
abbrev main_v114 : Ref sig .tc := ⟨.hbm, 179, rfl⟩
abbrev main_c_30 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_cst_31 : Ref sig .tc := ⟨.hbm, 189, rfl⟩
abbrev main_v123 : Ref sig .tc := ⟨.hbm, 190, rfl⟩
abbrev main_c_32 : Ref sig .tc := ⟨.hbm, 191, rfl⟩
abbrev main_v124 : Ref sig .tc := ⟨.hbm, 192, rfl⟩
abbrev main_v125 : Ref sig .tc := ⟨.hbm, 193, rfl⟩
abbrev main_c_33 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_cst_34 : Ref sig .tc := ⟨.hbm, 203, rfl⟩
abbrev main_v134 : Ref sig .tc := ⟨.hbm, 204, rfl⟩
abbrev main_v135 : Ref sig .tc := ⟨.hbm, 205, rfl⟩
abbrev main_cst_35 : Ref sig .tc := ⟨.hbm, 206, rfl⟩
abbrev main_v136 : Ref sig .tc := ⟨.hbm, 207, rfl⟩
abbrev main_v137 : Ref sig .tc := ⟨.hbm, 208, rfl⟩

abbrev nD : Nat := 1
abbrev τ : Topo := Topo.v7x

variable {F : FTy → Type} [FloatOps F]

class Facts₀ : Prop where
  reducesTo_S10000x256_S256_d0 : S10000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S10000x256_0_1 : S1x256.BroadcastsInDim S10000x256 (![0, 1] : Fin 2 → Fin S10000x256.rank)
  slices_S2x160000_S1x160000_0_0 : S2x160000.Slices ![0, 0] S1x160000
  shapeCasts_S1x160000_S160000 : S1x160000.ShapeCasts S160000
  slices_S2x160000_S1x160000_1_0 : S2x160000.Slices ![1, 0] S1x160000
  concatenates_S160000_S10000_S170000_d0 : Shape.Concatenates [S160000, S10000] S170000 0
  bcast_S_S10000 : S_.BroadcastsInDim S10000 (![] : Fin 0 → Fin S10000.rank)
  bcast_S_S170000 : S_.BroadcastsInDim S170000 (![] : Fin 0 → Fin S170000.rank)
  bcast_S170000_S170000x1_0 : S170000.BroadcastsInDim S170000x1 (![0] : Fin 1 → Fin S170000x1.rank)
  bcast_S170000x1_S170000x256_0_1 : S170000x1.BroadcastsInDim S170000x256 (![0, 1] : Fin 2 → Fin S170000x256.rank)
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  gather_S10000x256_S170000x1_S170000x256_1_0_n_n_0_1_1256_wf : GatherDims.WF S10000x256 S170000x1 S170000x256 [1] [0] [] [0] [] 1 ![1, 256]
  scatter_S10000x256_S170000x1_S170000x256_1_0_0_1_wf : ScatterDims.WF S10000x256 S170000x1 S170000x256 [1] [0] [0] 1

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def gather_S10000x256_S170000x1_S170000x256_1_0_n_n_0_1_1256 : GatherDims S10000x256 S170000x1 S170000x256 where
  offsetDims := [1]
  collapsedSliceDims := [0]
  operandBatchingDims := []
  startIndicesBatchingDims := []
  startIndexMap := [0]
  indexVectorDim := 1
  sliceSizes := ![1, 256]
  wf := gather_S10000x256_S170000x1_S170000x256_1_0_n_n_0_1_1256_wf
def scatter_S10000x256_S170000x1_S170000x256_1_0_0_1 : ScatterDims S10000x256 S170000x1 S170000x256 where
  updateWindowDims := [1]
  insertedWindowDims := [0]
  scatterDimsToOperandDims := [0]
  indexVectorDim := 1
  wf := scatter_S10000x256_S170000x1_S170000x256_1_0_0_1_wf

class Facts : Prop extends Facts₀ where

variable [Facts]
-- ==== Proof.PreDecode.lean ====
/-
  The precondition, read back. The predicate is the conjunction of nine universal statements, each a
  reduction by `and` of an array of one-bit words down to a single word, and the claim states that the conjunction is 1.
  Seven of them say, of a float argument, that every entry's absolute value is strictly below +∞; at the extended
  reals the absolute value is max x (−x), so the entry is neither ⊤ nor ⊥: it is a real number. The other two say, of
  the integer argument, that every word read signed is at least 0 and below 10000.
-/
import proofs.«150153_g58806692217087_cont_9to1_m_85_2_alg».proof.Pre_finite_inputs
import proofs.«150153_g58806692217087_cont_9to1_m_85_2_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreDecode

open Idealize.ShloMosaic Cert.Pre_finite_inputs Cert.Pre_finite_inputs.Gen

/-- The shape of rank 0 has one index. -/
instance subsingleton_S_ : Subsingleton S_.Idx := ⟨fun a b => funext fun d => d.elim0⟩

/-- The f32 pattern 0x7F800000 denotes +∞. -/
theorem ofBits_inf : Ideal.ofBits .f32 0x7F800000#32 = (⊤ : EReal) := by simp [Ideal.ofBits, Ideal.ieee]

/-- One entry: |x| < +∞, with |x| = max x (−x), leaves x neither ⊤ nor ⊥, so x is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [ofBits_inf] at h'
  unfold Ideal.cmp at h'
  have hlt : max (x : EReal) (-(x : EReal)) < ⊤ := by
    by_contra hn
    simp [hn] at h'
  rw [max_lt_iff] at hlt
  induction x using EReal.rec with
  | bot => simp at hlt
  | coe r => exact ⟨r, rfl⟩
  | top => simp at hlt

/-- One float argument: the reduction by `and` of the words "|A i| < +∞" being 1 makes every entry real. -/
theorem all_real {s : Shape} {axes : List (Fin s.rank)} (A : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf A) (broadcastInDim s ![] hb (constant (F := Ideal) S_ .f32 0x7F800000#32))) init hr hu j = 1#1) :
    ∀ i, ∃ r : ℝ, A i = (r : EReal) := by
  intro i
  have hi := Host.reduce_andi_all _ init hr hu j e i
  exact real_of_abs_lt_inf (A i) hi

theorem decode (A0 : FVec Ideal S10000x256 .f32) (A1 : IVec S2x160000 32) (A2 A3 : FVec Ideal S256 .f32)
    (A4 : FVec Ideal S256x256 .f32) (A5 : FVec Ideal S256 .f32) (A6 : FVec Ideal S256x256 .f32) (A7 : FVec Ideal S256 .f32)
    (h : Cert.Pre_finite_inputs.fn (F := Ideal) A0 A1 A2 A3 A4 A5 A6 A7 = fun _ => 1#1) :
    (∀ i, ∃ r : ℝ, A0 i = (r : EReal)) ∧ (∀ i, ∃ r : ℝ, A2 i = (r : EReal)) ∧ (∀ i, ∃ r : ℝ, A3 i = (r : EReal)) ∧
    (∀ i, ∃ r : ℝ, A4 i = (r : EReal)) ∧ (∀ i, ∃ r : ℝ, A5 i = (r : EReal)) ∧ (∀ i, ∃ r : ℝ, A6 i = (r : EReal)) ∧
    (∀ i, ∃ r : ℝ, A7 i = (r : EReal)) ∧ (∀ i, 0 ≤ (A1 i).toInt ∧ (A1 i).toInt < 10000) := by
  have h0 := congrFun h ValueIdx.ix0
  dsimp only [fn, fn_part1, fn_part2] at h0
  simp only [andi, IntOp.andi_eq_one] at h0
  obtain ⟨⟨⟨⟨⟨⟨⟨⟨e0, e2⟩, e3⟩, e4⟩, e5⟩, e6⟩, e7⟩, ege⟩, elt⟩ := h0
  refine ⟨all_real A0 _ _ _ _ _ e0, all_real A2 _ _ _ _ _ e2, all_real A3 _ _ _ _ _ e3, all_real A4 _ _ _ _ _ e4,
    all_real A5 _ _ _ _ _ e5, all_real A6 _ _ _ _ _ e6, all_real A7 _ _ _ _ _ e7, ?_⟩
  intro i
  have hge := Host.reduce_andi_all _ _ _ _ _ ege i
  have hlt := Host.reduce_andi_all _ _ _ _ _ elt i
  -- the broadcast of a constant word is that word at every index
  have hge' : IntOp.cmpi .sge (A1 i) 0#32 = 1#1 := hge
  have hlt' : IntOp.cmpi .slt (A1 i) 10000#32 = 1#1 := hlt
  have h1 : (0#32 : BitVec 32).toInt ≤ (A1 i).toInt := IntOp.cmpi_sge.1 hge'
  have h2 : (A1 i).toInt < (10000#32 : BitVec 32).toInt := IntOp.cmpi_slt.1 hlt'
  have z0 : (0#32 : BitVec 32).toInt = 0 := by decide
  have z1 : (10000#32 : BitVec 32).toInt = 10000 := by decide
  rw [z0] at h1
  rw [z1] at h2
  exact ⟨h1, h2⟩

end Cert.PreDecode

end
-- ==== Proof.Spec.lean ====
/-
  The mathematics of the certificate, over the real numbers and for all sizes.

  A graph has n nodes with d features each and e directed edges (src t → dst t). Batch normalisation of the node features,
  a linear map, a graph convolution with symmetric normalisation and self loops, a leaky rectifier, a second linear map
  and convolution, and the mean over the nodes. One side evaluates the second convolution node by node and then averages;
  the other first sums the normalised adjacency's columns (the weight of node u is dis u · (dis u + Σ over the edges leaving
  u of dis at the edge's target)) and applies the second linear map to the weighted average of the hidden features.
  The two agree because the mean of A·(H·W) over the rows is ((column sums of A)ᵀ·H / n)·W.
-/
import Idealize.ShloMosaic.PureOps.Ideal

noncomputable section

namespace Cert.Spec

variable {n d e : ℕ}

/-! ## Batch normalisation and a linear map -/

/-- Column mean. -/
def mean (x : Fin n → Fin d → ℝ) (j : Fin d) : ℝ := (∑ i, x i j) / (n : ℝ)
/-- Centred entry. -/
def cen (x : Fin n → Fin d → ℝ) (i : Fin n) (j : Fin d) : ℝ := x i j - mean x j
/-- Column variance (mean of the squared centred entries). -/
def var (x : Fin n → Fin d → ℝ) (j : Fin d) : ℝ := (∑ i, cen x i j * cen x i j) / (n : ℝ)

theorem var_nonneg (x : Fin n → Fin d → ℝ) (j : Fin d) : 0 ≤ var x j := by
  unfold var
  apply div_nonneg
  · exact Finset.sum_nonneg (fun i _ => mul_self_nonneg _)
  · exact Nat.cast_nonneg n

/-- Normalised features, the scale folded with the reciprocal root first. -/
def bnK (x : Fin n → Fin d → ℝ) (γ β : Fin d → ℝ) (eps : ℝ) (i : Fin n) (j : Fin d) : ℝ :=
  cen x i j * (γ j * (Real.sqrt (var x j + eps))⁻¹) + β j
/-- Normalised features, divided by the root and then scaled. -/
def bnR (x : Fin n → Fin d → ℝ) (γ β : Fin d → ℝ) (eps : ℝ) (i : Fin n) (j : Fin d) : ℝ :=
  cen x i j / Real.sqrt (var x j + eps) * γ j + β j

theorem bnR_eq_bnK (x : Fin n → Fin d → ℝ) (γ β : Fin d → ℝ) (eps : ℝ) : bnR x γ β eps = bnK x γ β eps := by
  funext i j
  unfold bnR bnK
  rw [div_eq_mul_inv]
  ring

/-- A linear map applied to every node's features. -/
def lin (h : Fin n → Fin d → ℝ) (W : Fin d → Fin d → ℝ) (i : Fin n) (k : Fin d) : ℝ := ∑ j, h i j * W j k

/-! ## Degrees -/

/-- The number of edges that end at v. -/
def cnt (dst : Fin e → Fin n) (v : Fin n) : ℝ := ∑ t : Fin e, if dst t = v then (1 : ℝ) else 0
theorem cnt_nonneg (dst : Fin e → Fin n) (v : Fin n) : 0 ≤ cnt dst v := by
  unfold cnt
  apply Finset.sum_nonneg
  intro t _
  split_ifs
  · exact zero_le_one
  · exact le_refl 0
/-- The reciprocal root of the degree with the self loop counted. -/
def dis (dst : Fin e → Fin n) (v : Fin n) : ℝ := (Real.sqrt (cnt dst v + 1))⁻¹
theorem deg_pos (dst : Fin e → Fin n) (v : Fin n) : 0 < cnt dst v + 1 := by
  have h := cnt_nonneg dst v
  linarith

/-! ## One graph convolution, two ways -/

/-- Features scaled by the source-side factor. -/
def zt (dst : Fin e → Fin n) (g : Fin n → Fin d → ℝ) (v : Fin n) (k : Fin d) : ℝ := dis dst v * g v k
/-- The scaled features summed over the edges that end at v. -/
def accK (src dst : Fin e → Fin n) (g : Fin n → Fin d → ℝ) (v : Fin n) (k : Fin d) : ℝ :=
  ∑ t : Fin e, if dst t = v then zt dst g (src t) k else 0
/-- The convolution with the target-side factor taken out of the sum. -/
def convK (src dst : Fin e → Fin n) (g : Fin n → Fin d → ℝ) (b : Fin d → ℝ) (v : Fin n) (k : Fin d) : ℝ :=
  dis dst v * (accK src dst g v k + zt dst g v k) + b k
/-- The convolution edge by edge, then the self loop, then the bias. -/
def convR (src dst : Fin e → Fin n) (g : Fin n → Fin d → ℝ) (b : Fin d → ℝ) (v : Fin n) (k : Fin d) : ℝ :=
  ((∑ t : Fin e, if dst t = v then g (src t) k * (dis dst (src t) * dis dst (dst t)) else 0)
      + g v k * (dis dst v * dis dst v)) + b k

theorem convK_eq_convR (src dst : Fin e → Fin n) (g : Fin n → Fin d → ℝ) (b : Fin d → ℝ) :
    convK src dst g b = convR src dst g b := by
  funext v k
  unfold convK convR accK zt
  rw [mul_add, Finset.mul_sum]
  congr 1
  congr 1
  · -- edge by edge: on an edge that ends at v the target-side factor is dis v
    apply Finset.sum_congr rfl
    intro t _
    split_ifs with h
    · rw [h]; ring
    · exact mul_zero _
  · ring

/-- Summing over the nodes v the edges t with p t = v counts every edge once, at v = p t. -/
theorem sum_sum_ite_node (p : Fin e → Fin n) (f : Fin e → Fin n → ℝ) :
    (∑ v : Fin n, ∑ t : Fin e, (if p t = v then f t v else 0)) = ∑ t : Fin e, f t (p t) := by
  rw [Finset.sum_comm]
  apply Finset.sum_congr rfl
  intro t _
  rw [Finset.sum_ite_eq]
  simp

/-- The leaky rectifier. -/
def leaky (slope t : ℝ) : ℝ := if 0 < t then t else slope * t

/-! ## The second convolution and the mean over the nodes, two ways -/

/-- For node u, the factors of the edges that leave it, summed. -/
def ss (src dst : Fin e → Fin n) (u : Fin n) : ℝ := ∑ t : Fin e, if src t = u then dis dst (dst t) else 0
/-- Node u's column sum of the normalised adjacency with self loops. -/
def wcol (src dst : Fin e → Fin n) (u : Fin n) : ℝ := dis dst u * (dis dst u + ss src dst u)
/-- The weighted average of the hidden features. -/
def pooled (src dst : Fin e → Fin n) (h1 : Fin n → Fin d → ℝ) (k : Fin d) : ℝ :=
  (∑ u, h1 u k * wcol src dst u) * (1 / (n : ℝ))
/-- Average first, then the linear map and the bias. -/
def outK (src dst : Fin e → Fin n) (W2 : Fin d → Fin d → ℝ) (b2 : Fin d → ℝ) (h1 : Fin n → Fin d → ℝ) (j : Fin d) : ℝ :=
  (∑ k, pooled src dst h1 k * W2 k j) + b2 j
/-- Linear map and convolution node by node, then the mean. -/
def outR (src dst : Fin e → Fin n) (W2 : Fin d → Fin d → ℝ) (b2 : Fin d → ℝ) (h1 : Fin n → Fin d → ℝ) (j : Fin d) : ℝ :=
  (∑ v, convR src dst (lin h1 W2) b2 v j) / (n : ℝ)

theorem outK_eq_outR (hn : 0 < n) (src dst : Fin e → Fin n) (W2 : Fin d → Fin d → ℝ) (b2 : Fin d → ℝ)
    (h1 : Fin n → Fin d → ℝ) : outK src dst W2 b2 h1 = outR src dst W2 b2 h1 := by
  funext j
  have hn' : (n : ℝ) ≠ 0 := by exact_mod_cast hn.ne'
  -- the weighted column sum of the hidden features, split into self loops and edges
  have hk : ∀ k, (∑ u, h1 u k * wcol src dst u)
      = (∑ u, h1 u k * (dis dst u * dis dst u))
        + ∑ t : Fin e, h1 (src t) k * (dis dst (src t) * dis dst (dst t)) := by
    intro k
    rw [← sum_sum_ite_node src (fun t u => h1 u k * (dis dst u * dis dst (dst t)))]
    rw [← Finset.sum_add_distrib]
    apply Finset.sum_congr rfl
    intro u _
    unfold wcol ss
    rw [mul_add, mul_add, Finset.mul_sum, Finset.mul_sum]
    congr 1
    apply Finset.sum_congr rfl
    intro t _
    split_ifs
    · rfl
    · rw [mul_zero, mul_zero]
  -- the edge part of the node-by-node side, the sum over the features taken outward
  have hE : (∑ t : Fin e, lin h1 W2 (src t) j * (dis dst (src t) * dis dst (dst t)))
      = ∑ k, (∑ t : Fin e, h1 (src t) k * (dis dst (src t) * dis dst (dst t))) * W2 k j := by
    unfold lin
    simp_rw [Finset.sum_mul]
    rw [Finset.sum_comm]
    apply Finset.sum_congr rfl; intro k _
    apply Finset.sum_congr rfl; intro t _
    ring
  -- the self-loop part likewise
  have hS : (∑ v, lin h1 W2 v j * (dis dst v * dis dst v))
      = ∑ k, (∑ u, h1 u k * (dis dst u * dis dst u)) * W2 k j := by
    unfold lin
    simp_rw [Finset.sum_mul]
    rw [Finset.sum_comm]
    apply Finset.sum_congr rfl; intro k _
    apply Finset.sum_congr rfl; intro u _
    ring
  -- the sum over the nodes of the node-by-node side
  have hR : (∑ v, convR src dst (lin h1 W2) b2 v j)
      = (∑ k, (∑ u, h1 u k * wcol src dst u) * W2 k j) + (n : ℝ) * b2 j := by
    unfold convR
    rw [Finset.sum_add_distrib, Finset.sum_add_distrib]
    rw [sum_sum_ite_node dst
      (fun t _ => lin h1 W2 (src t) j * (dis dst (src t) * dis dst (dst t)))]
    rw [Finset.sum_const, Finset.card_univ, Fintype.card_fin, nsmul_eq_mul]
    congr 1
    rw [hE, hS, ← Finset.sum_add_distrib]
    apply Finset.sum_congr rfl; intro k _
    rw [hk k]; ring
  unfold outK outR pooled
  rw [hR, add_div, mul_div_cancel_left₀ _ hn']
  congr 1
  rw [Finset.sum_div]
  apply Finset.sum_congr rfl
  intro k _
  ring

/-! ## The whole network -/

/-- The hidden features after the first convolution and the rectifier. -/
def hidden (x : Fin n → Fin d → ℝ) (src dst : Fin e → Fin n) (γ β : Fin d → ℝ) (W1 : Fin d → Fin d → ℝ) (b1 : Fin d → ℝ)
    (eps slope : ℝ) (v : Fin n) (k : Fin d) : ℝ :=
  leaky slope (convR src dst (lin (bnK x γ β eps) W1) b1 v k)

/-- The network's result: one row of d numbers. -/
def result (x : Fin n → Fin d → ℝ) (src dst : Fin e → Fin n) (γ β : Fin d → ℝ) (W1 : Fin d → Fin d → ℝ) (b1 : Fin d → ℝ)
    (W2 : Fin d → Fin d → ℝ) (b2 : Fin d → ℝ) (eps slope : ℝ) (j : Fin d) : ℝ :=
  outR src dst W2 b2 (hidden x src dst γ β W1 b1 eps slope) j

end Cert.Spec

end
-- ==== Proof.RealLift.lean ====
/-
  An extended-real array that is a real array, entry by entry; and the node an index word names.
-/
import Idealize.ShloMosaic.PureOps.Ideal
import Idealize.ShloMosaic.Lib.ValueIdx

noncomputable section

namespace Cert.RealLift

open Idealize.ShloMosaic Idealize.ShloMosaic.ValueIdx

/-- A rank-0 array holds the real r. -/
def IsReal0 (A : (⟨0, ![]⟩ : Shape).Idx → EReal) (r : ℝ) : Prop := ∀ i, A i = (r : EReal)
/-- A rank-1 array is the real vector a'. -/
def IsReal1 {a : ℕ} (A : (⟨1, ![a]⟩ : Shape).Idx → EReal) (A' : Fin a → ℝ) : Prop := ∀ i, A (ix1 i) = (A' i : EReal)
/-- A rank-2 array is the real matrix A'. -/
def IsReal2 {a b : ℕ} (A : (⟨2, ![a, b]⟩ : Shape).Idx → EReal) (A' : Fin a → Fin b → ℝ) : Prop :=
  ∀ i j, A (ix2 i j) = (A' i j : EReal)

/-- The real matrix an entrywise finite array is. -/
def toReal2 {a b : ℕ} (A : (⟨2, ![a, b]⟩ : Shape).Idx → EReal) (i : Fin a) (j : Fin b) : ℝ := (A (ix2 i j)).toReal
/-- The real vector an entrywise finite array is. -/
def toReal1 {a : ℕ} (A : (⟨1, ![a]⟩ : Shape).Idx → EReal) (i : Fin a) : ℝ := (A (ix1 i)).toReal

theorem isReal2_toReal {a b : ℕ} (A : (⟨2, ![a, b]⟩ : Shape).Idx → EReal) (h : ∀ i, ∃ r : ℝ, A i = (r : EReal)) :
    IsReal2 A (toReal2 A) := by
  intro i j
  obtain ⟨r, hr⟩ := h (ix2 i j)
  unfold toReal2
  rw [hr, EReal.toReal_coe]

theorem isReal1_toReal {a : ℕ} (A : (⟨1, ![a]⟩ : Shape).Idx → EReal) (h : ∀ i, ∃ r : ℝ, A i = (r : EReal)) :
    IsReal1 A (toReal1 A) := by
  intro i
  obtain ⟨r, hr⟩ := h (ix1 i)
  unfold toReal1
  rw [hr, EReal.toReal_coe]

/-- The node a 32-bit word names when it is read signed and clamped into [0, n - 1]. -/
def node {n : ℕ} (hn : 0 < n) (w : BitVec 32) : Fin n := ⟨min w.toInt.toNat (n - 1), by omega⟩

/-- A word in range names the node of its own value. -/
theorem node_val {n : ℕ} (hn : 0 < n) (w : BitVec 32) (h0 : 0 ≤ w.toInt) (h1 : w.toInt < (n : Int)) :
    ((node hn w).val : Int) = w.toInt := by
  unfold node
  show ((min w.toInt.toNat (n - 1) : ℕ) : Int) = w.toInt
  omega

/-- For a word in range, "its signed value is v" says it names v. -/
theorem toInt_eq_iff_node {n : ℕ} (hn : 0 < n) (w : BitVec 32) (h0 : 0 ≤ w.toInt) (h1 : w.toInt < (n : Int)) (v : Fin n) :
    w.toInt = (v.val : Int) ↔ node hn w = v := by
  constructor
  · intro h; apply Fin.ext; have := node_val hn w h0 h1; omega
  · intro h; rw [← h]; exact (node_val hn w h0 h1).symm

end Cert.RealLift

end
-- ==== Proof.LibColumnForms.lean ====
/-
  General lemmas for kernels that keep a reduced axis as a unit axis (`keepdims`) and for one-axis minima, read at an index.

  * `shapeCast_a_a1_apply`: an `[a]` array cast to a column `[a, 1]`, read at `(i, u)`, is the operand at `i`.
  * `broadcastTo_a1_ab_apply`: a column `[a, 1]` broadcast to `[a, b]`, read at `(p, c)`, is the column at `p`.
  * `shapeCast_a1b_ab_apply`: an `[a, 1, b]` array cast to `[a, b]`, read at `(i, j)`, is the operand at `(i, 0, j)`.
  * `lift_axis1`, `lift_axis0`: the source index of a rank-2 reduction along axis 1 (along axis 0) over a lane, with the
    reduced coordinate inserted, by coordinates.
  * `multiReduction_minimumf_single`: a float `vector.multi_reduction <minimumf>` over one axis at the ideal values is
    the fold of `min` from the accumulator's value over that axis's coordinates (the library states this for
    `<maximumf>`).
  Generic in the extents; nothing here mentions a program.
-/
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.ColumnForms

open Idealize.ShloMosaic Idealize.ShloMosaic.ValueIdx

section Layout
variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, b]` array cast to `[a, b]` reads, at `(i, j)`, the operand at `(i, 0, j)`: the same row-major position. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Layout

section Reduce

/-- The source index over lane `r` of a reduction along axis 1 with coordinate `k` inserted is `(r, k)`. -/
theorem lift_axis1 {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- The source index over lane `c` of a reduction along axis 0 with coordinate `k` inserted is `(k, c)`. -/
theorem lift_axis0 {a b : ℕ} (h : (⟨2, ![a, b]⟩ : Shape).Reduces [0] ⟨1, ![b]⟩) (c : Fin b) (k : Fin a) :
    h.lift (ix1 c) k = ix2 k c := by
  funext d
  apply Fin.ext
  match d with
  | ⟨0, _⟩ => rfl
  | ⟨1, _⟩ => rfl

/-- A float `vector.multi_reduction <minimumf>` over one axis, read at the ideal values: the fold of `min` from the
    accumulator's value over that axis's coordinates. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]
  exact h.fold_filter_drop_single _ _ src j

end Reduce

end Cert.ColumnForms

end
-- ==== Proof.LiftPointwise.lean ====
/-
  Closure of the real arrays under constants, pointwise operations and layout operations.

  An extended-real array that is, entry by entry, the coercion of a real array stays one under: the float words the
  programs spell (each a real number); a scalar spread over a shape; entrywise sum, difference and product; entrywise
  quotient by nonzero reals; reciprocal square root of positive reals and square root of nonnegative reals; a select
  on a comparison with zero; and the re-indexings that add a unit axis or repeat a row or a column. Each statement
  names the real array the result is.
-/
import Idealize.ShloMosaic.PureOps.Ideal
import Idealize.ShloMosaic.Lib.ValueIdx
import Idealize.ShloMosaic.Lib.IdealHost
import Idealize.ShloMosaic.Lib.Pipeline.Value
import proofs.«150153_g58806692217087_cont_9to1_m_85_2_alg».proof.Proof.RealLift
import proofs.«150153_g58806692217087_cont_9to1_m_85_2_alg».proof.Proof.LibColumnForms

noncomputable section

namespace Cert.RealLift

open Idealize.ShloMosaic Idealize.ShloMosaic.ValueIdx

/-! ## Sums of coercions -/

/-- A finite sum of coerced reals is the coercion of the real sum. -/
theorem sum_coe_finset {ι : Type*} (s : Finset ι) (f : ι → ℝ) :
    (∑ i ∈ s, ((f i : ℝ) : EReal)) = ((∑ i ∈ s, f i : ℝ) : EReal) := by
  classical
  induction s using Finset.induction_on with
  | empty => simp
  | insert x s hx ih => rw [Finset.sum_insert hx, Finset.sum_insert hx, ih, EReal.coe_add]

/-- The same over a whole finite type. -/
theorem sum_coe {ι : Type*} [Fintype ι] (f : ι → ℝ) :
    (∑ i, ((f i : ℝ) : EReal)) = ((∑ i, f i : ℝ) : EReal) := sum_coe_finset _ f

/-- A sum of coerced reals over the indices a predicate keeps (zero elsewhere) is the coercion of the real one. -/
theorem sum_ite_coe {ι : Type*} [Fintype ι] (p : ι → Prop) [DecidablePred p] (f : ι → ℝ) :
    (∑ i, if p i then ((f i : ℝ) : EReal) else 0) = ((∑ i, if p i then f i else 0 : ℝ) : EReal) := by
  rw [← sum_coe]
  refine Finset.sum_congr rfl fun i _ => ?_
  by_cases h : p i
  · rw [if_pos h, if_pos h]
  · rw [if_neg h, if_neg h, EReal.coe_zero]

/-! ## The float words the programs spell -/

/-- The word of +0.0 is the real 0. -/
theorem ofBits_zero : Ideal.ofBits .f32 0x00000000#32 = ((0 : ℝ) : EReal) := by
  simp [Ideal.ofBits, Ideal.ieee]

/-- The word 0x3F800000 is the real 1. -/
theorem ofBits_one : Ideal.ofBits .f32 0x3F800000#32 = ((1 : ℝ) : EReal) := by
  simp [Ideal.ofBits, Ideal.ieee, -EReal.coe_mul]; norm_num

/-- The word 0x461C4000 is the real 10000. -/
theorem ofBits_10000 : Ideal.ofBits .f32 0x461C4000#32 = ((10000 : ℝ) : EReal) := by
  simp [Ideal.ofBits, Ideal.ieee, -EReal.coe_mul]; norm_num

/-- The real the variance's additive constant (the word 0x3727C5AC, about 1e-5) denotes. -/
def eps : ℝ := (Ideal.ofBits .f32 0x3727C5AC#32).toReal

/-- The word 0x3727C5AC: exponent field 110, fraction field 2606508. -/
theorem ofBits_eps_explicit : Ideal.ofBits .f32 0x3727C5AC#32 = (((10995116 : ℝ) / 2 ^ 40 : ℝ) : EReal) := by
  simp [Ideal.ofBits, Ideal.ieee, -EReal.coe_mul]; norm_num

theorem eps_eq : eps = 10995116 / 2 ^ 40 := by
  unfold eps; rw [ofBits_eps_explicit, EReal.toReal_coe]

theorem ofBits_eps : Ideal.ofBits .f32 0x3727C5AC#32 = ((eps : ℝ) : EReal) := by
  rw [eps_eq]; exact ofBits_eps_explicit

theorem eps_pos : 0 < eps := by
  rw [eps_eq]; positivity

/-- The real the negative-side slope (the word 0x3DCCCCCD, about 0.1) denotes. -/
def slope : ℝ := (Ideal.ofBits .f32 0x3DCCCCCD#32).toReal

/-- The word 0x3DCCCCCD: exponent field 123, fraction field 5033165. -/
theorem ofBits_slope_explicit : Ideal.ofBits .f32 0x3DCCCCCD#32 = (((13421773 : ℝ) / 2 ^ 27 : ℝ) : EReal) := by
  simp [Ideal.ofBits, Ideal.ieee, -EReal.coe_mul]; norm_num

theorem slope_eq : slope = 13421773 / 2 ^ 27 := by
  unfold slope; rw [ofBits_slope_explicit, EReal.toReal_coe]

theorem ofBits_slope : Ideal.ofBits .f32 0x3DCCCCCD#32 = ((slope : ℝ) : EReal) := by
  rw [slope_eq]; exact ofBits_slope_explicit

theorem slope_pos : 0 < slope := by
  rw [slope_eq]; positivity

/-- A scalar built from a word is the word's extended real. -/
theorem scalar_ofBits (w : BitVec 32) : (Scalar.ofBits (F := Ideal) .f32 w : Ideal .f32) = Ideal.ofBits .f32 w := rfl

/-- A rank-0 constant of a word that denotes the real r holds r. -/
theorem isReal0_constant (w : BitVec 32) (r : ℝ) (hw : Ideal.ofBits .f32 w = (r : EReal)) :
    IsReal0 (constant (F := Ideal) ⟨0, ![]⟩ .f32 w) r := by
  intro i; exact hw

/-! ## A scalar spread over a shape -/

/-- A real scalar spread over a vector is the constant real vector. -/
theorem isReal1_broadcast {a : ℕ} (c : Ideal .f32) (r : ℝ) (hc : c = (r : EReal)) :
    IsReal1 (broadcast (⟨1, ![a]⟩ : Shape) c) (fun _ => r) := by
  intro i; exact hc

/-- A real scalar spread over a matrix is the constant real matrix. -/
theorem isReal2_broadcast {a b : ℕ} (c : Ideal .f32) (r : ℝ) (hc : c = (r : EReal)) :
    IsReal2 (broadcast (⟨2, ![a, b]⟩ : Shape) c) (fun _ _ => r) := by
  intro i j; exact hc

/-- A rank-0 real array spread over a vector is the constant real vector. -/
theorem isReal1_broadcastInDim_scalar {a : ℕ} (h : (⟨0, ![]⟩ : Shape).BroadcastsInDim ⟨1, ![a]⟩ ![])
    (A : (⟨0, ![]⟩ : Shape).Idx → EReal) (r : ℝ) (hA : IsReal0 A r) :
    IsReal1 (broadcastInDim ⟨1, ![a]⟩ ![] h A) (fun _ => r) := by
  intro i; rw [broadcastInDim_scalar_apply]; exact hA _

/-- A rank-0 real array spread over a matrix is the constant real matrix. -/
theorem isReal2_broadcastInDim_scalar {a b : ℕ} (h : (⟨0, ![]⟩ : Shape).BroadcastsInDim ⟨2, ![a, b]⟩ ![])
    (A : (⟨0, ![]⟩ : Shape).Idx → EReal) (r : ℝ) (hA : IsReal0 A r) :
    IsReal2 (broadcastInDim ⟨2, ![a, b]⟩ ![] h A) (fun _ _ => r) := by
  intro i j; rw [broadcastInDim_scalar_apply]; exact hA _

/-- A vector constant of a word that denotes r is the constant real vector. -/
theorem isReal1_constant {a : ℕ} (w : BitVec 32) (r : ℝ) (hw : Ideal.ofBits .f32 w = (r : EReal)) :
    IsReal1 (constant (F := Ideal) ⟨1, ![a]⟩ .f32 w) (fun _ => r) := by
  intro i; exact hw

/-- A matrix constant of a word that denotes r is the constant real matrix. -/
theorem isReal2_constant {a b : ℕ} (w : BitVec 32) (r : ℝ) (hw : Ideal.ofBits .f32 w = (r : EReal)) :
    IsReal2 (constant (F := Ideal) ⟨2, ![a, b]⟩ .f32 w) (fun _ _ => r) := by
  intro i j; exact hw

/-! ## Entrywise sum, difference, product -/

section Arith
variable {a b : ℕ}

theorem isReal0_addf {A B : FVec Ideal ⟨0, ![]⟩ .f32} {r s : ℝ} (hA : IsReal0 A r) (hB : IsReal0 B s) :
    IsReal0 (addf A B) (r + s) := by
  intro i
  rw [addf_apply, hA i, hB i]
  exact (EReal.coe_add _ _).symm

theorem isReal0_subf {A B : FVec Ideal ⟨0, ![]⟩ .f32} {r s : ℝ} (hA : IsReal0 A r) (hB : IsReal0 B s) :
    IsReal0 (subf A B) (r - s) := by
  intro i
  rw [subf_apply, hA i, hB i]
  exact (EReal.coe_sub _ _).symm

theorem isReal0_mulf {A B : FVec Ideal ⟨0, ![]⟩ .f32} {r s : ℝ} (hA : IsReal0 A r) (hB : IsReal0 B s) :
    IsReal0 (mulf A B) (r * s) := by
  intro i
  rw [mulf_apply, hA i, hB i]
  exact (EReal.coe_mul _ _).symm

theorem isReal1_addf {A B : FVec Ideal ⟨1, ![a]⟩ .f32} {A' B' : Fin a → ℝ} (hA : IsReal1 A A') (hB : IsReal1 B B') :
    IsReal1 (addf A B) (fun i => A' i + B' i) := by
  intro i
  rw [addf_apply, hA i, hB i]
  exact (EReal.coe_add _ _).symm

theorem isReal1_subf {A B : FVec Ideal ⟨1, ![a]⟩ .f32} {A' B' : Fin a → ℝ} (hA : IsReal1 A A') (hB : IsReal1 B B') :
    IsReal1 (subf A B) (fun i => A' i - B' i) := by
  intro i
  rw [subf_apply, hA i, hB i]
  exact (EReal.coe_sub _ _).symm

theorem isReal1_mulf {A B : FVec Ideal ⟨1, ![a]⟩ .f32} {A' B' : Fin a → ℝ} (hA : IsReal1 A A') (hB : IsReal1 B B') :
    IsReal1 (mulf A B) (fun i => A' i * B' i) := by
  intro i
  rw [mulf_apply, hA i, hB i]
  exact (EReal.coe_mul _ _).symm

theorem isReal2_addf {A B : FVec Ideal ⟨2, ![a, b]⟩ .f32} {A' B' : Fin a → Fin b → ℝ} (hA : IsReal2 A A')
    (hB : IsReal2 B B') : IsReal2 (addf A B) (fun i j => A' i j + B' i j) := by
  intro i j
  rw [addf_apply, hA i j, hB i j]
  exact (EReal.coe_add _ _).symm

theorem isReal2_subf {A B : FVec Ideal ⟨2, ![a, b]⟩ .f32} {A' B' : Fin a → Fin b → ℝ} (hA : IsReal2 A A')
    (hB : IsReal2 B B') : IsReal2 (subf A B) (fun i j => A' i j - B' i j) := by
  intro i j
  rw [subf_apply, hA i j, hB i j]
  exact (EReal.coe_sub _ _).symm

theorem isReal2_mulf {A B : FVec Ideal ⟨2, ![a, b]⟩ .f32} {A' B' : Fin a → Fin b → ℝ} (hA : IsReal2 A A')
    (hB : IsReal2 B B') : IsReal2 (mulf A B) (fun i j => A' i j * B' i j) := by
  intro i j
  rw [mulf_apply, hA i j, hB i j]
  exact (EReal.coe_mul _ _).symm

/-! ## Entrywise quotient by nonzero reals -/

/-- The quotient of a real by a nonzero real is the real quotient. -/
theorem div_coe_coe (x y : ℝ) (hy : y ≠ 0) : Ideal.div (x : EReal) (y : EReal) = ((x / y : ℝ) : EReal) := by
  rw [Ideal.div_coe hy, ← EReal.coe_mul, mul_one_div]

theorem isReal1_divf {A B : FVec Ideal ⟨1, ![a]⟩ .f32} {A' B' : Fin a → ℝ} (hA : IsReal1 A A') (hB : IsReal1 B B')
    (hB0 : ∀ i, B' i ≠ 0) : IsReal1 (divf A B) (fun i => A' i / B' i) := by
  intro i
  rw [divf_apply, hA i, hB i, div_coe_coe _ _ (hB0 i)]

theorem isReal2_divf {A B : FVec Ideal ⟨2, ![a, b]⟩ .f32} {A' B' : Fin a → Fin b → ℝ} (hA : IsReal2 A A')
    (hB : IsReal2 B B') (hB0 : ∀ i j, B' i j ≠ 0) : IsReal2 (divf A B) (fun i j => A' i j / B' i j) := by
  intro i j
  rw [divf_apply, hA i j, hB i j, div_coe_coe _ _ (hB0 i j)]

theorem isReal1_hostDivf {A B : FVec Ideal ⟨1, ![a]⟩ .f32} {A' B' : Fin a → ℝ} (hA : IsReal1 A A') (hB : IsReal1 B B')
    (hB0 : ∀ i, B' i ≠ 0) : IsReal1 (Host.divf A B) (fun i => A' i / B' i) := by
  intro i
  rw [hostDivf_apply, hA i, hB i, div_coe_coe _ _ (hB0 i)]

theorem isReal2_hostDivf {A B : FVec Ideal ⟨2, ![a, b]⟩ .f32} {A' B' : Fin a → Fin b → ℝ} (hA : IsReal2 A A')
    (hB : IsReal2 B B') (hB0 : ∀ i j, B' i j ≠ 0) : IsReal2 (Host.divf A B) (fun i j => A' i j / B' i j) := by
  intro i j
  rw [hostDivf_apply, hA i j, hB i j, div_coe_coe _ _ (hB0 i j)]

/-! ## Square roots -/

/-- The reciprocal square root of a positive real. -/
theorem rsqrt_coe_pos (x : ℝ) (hx : 0 < x) : Ideal.rsqrt (x : EReal) = (((Real.sqrt x)⁻¹ : ℝ) : EReal) := by
  rw [Ideal.rsqrt_coe, if_neg (not_lt.mpr hx.le), if_neg hx.ne']

/-- The square root of a nonnegative real. -/
theorem sqrt_coe_nonneg (x : ℝ) (hx : 0 ≤ x) : Ideal.sqrt (x : EReal) = ((Real.sqrt x : ℝ) : EReal) := by
  rw [Ideal.sqrt_coe, if_neg (not_lt.mpr hx)]

theorem isReal1_rsqrt {A : FVec Ideal ⟨1, ![a]⟩ .f32} {A' : Fin a → ℝ} (hA : IsReal1 A A') (hpos : ∀ i, 0 < A' i) :
    IsReal1 (rsqrt A) (fun i => (Real.sqrt (A' i))⁻¹) := by
  intro i
  show Ideal.rsqrt (A (ix1 i)) = _
  rw [hA i, rsqrt_coe_pos _ (hpos i)]

theorem isReal2_rsqrt {A : FVec Ideal ⟨2, ![a, b]⟩ .f32} {A' : Fin a → Fin b → ℝ} (hA : IsReal2 A A')
    (hpos : ∀ i j, 0 < A' i j) : IsReal2 (rsqrt A) (fun i j => (Real.sqrt (A' i j))⁻¹) := by
  intro i j
  show Ideal.rsqrt (A (ix2 i j)) = _
  rw [hA i j, rsqrt_coe_pos _ (hpos i j)]

theorem isReal1_hostRsqrt {A : FVec Ideal ⟨1, ![a]⟩ .f32} {A' : Fin a → ℝ} (hA : IsReal1 A A') (hpos : ∀ i, 0 < A' i) :
    IsReal1 (Host.rsqrt A) (fun i => (Real.sqrt (A' i))⁻¹) := by
  intro i
  show Ideal.rsqrt (A (ix1 i)) = _
  rw [hA i, rsqrt_coe_pos _ (hpos i)]

theorem isReal2_hostRsqrt {A : FVec Ideal ⟨2, ![a, b]⟩ .f32} {A' : Fin a → Fin b → ℝ} (hA : IsReal2 A A')
    (hpos : ∀ i j, 0 < A' i j) : IsReal2 (Host.rsqrt A) (fun i j => (Real.sqrt (A' i j))⁻¹) := by
  intro i j
  show Ideal.rsqrt (A (ix2 i j)) = _
  rw [hA i j, rsqrt_coe_pos _ (hpos i j)]

theorem isReal1_hostSqrt {A : FVec Ideal ⟨1, ![a]⟩ .f32} {A' : Fin a → ℝ} (hA : IsReal1 A A') (hnn : ∀ i, 0 ≤ A' i) :
    IsReal1 (Host.sqrt A) (fun i => Real.sqrt (A' i)) := by
  intro i
  show Ideal.sqrt (A (ix1 i)) = _
  rw [hA i, sqrt_coe_nonneg _ (hnn i)]

theorem isReal2_hostSqrt {A : FVec Ideal ⟨2, ![a, b]⟩ .f32} {A' : Fin a → Fin b → ℝ} (hA : IsReal2 A A')
    (hnn : ∀ i j, 0 ≤ A' i j) : IsReal2 (Host.sqrt A) (fun i j => Real.sqrt (A' i j)) := by
  intro i j
  show Ideal.sqrt (A (ix2 i j)) = _
  rw [hA i j, sqrt_coe_nonneg _ (hnn i j)]

end Arith

/-! ## Compare with zero and select -/

section Select
variable {a b : ℕ}

/-- The comparison "x exceeds y" of two reals, as a bit. -/
theorem cmp_ogt_coe (x y : ℝ) : Ideal.cmp .ogt (x : EReal) (y : EReal) = if y < x then 1#1 else 0#1 := by
  unfold Ideal.cmp
  by_cases h : y < x
  · have h' : (y : EReal) < (x : EReal) := EReal.coe_lt_coe_iff.mpr h
    simp [h, h']
  · have h' : ¬ (y : EReal) < (x : EReal) := fun c => h (EReal.coe_lt_coe_iff.mp c)
    simp [h, h']

/-- Entry by entry: where A exceeds zero take C, elsewhere B. -/
theorem isReal2_select_ogt_gen {A Z C B : FVec Ideal ⟨2, ![a, b]⟩ .f32} {A' C' B' : Fin a → Fin b → ℝ}
    (hA : IsReal2 A A') (hZ : IsReal2 Z (fun _ _ => 0)) (hC : IsReal2 C C') (hB : IsReal2 B B') :
    IsReal2 (select (cmpf .ogt A Z) C B) (fun i j => if 0 < A' i j then C' i j else B' i j) := by
  intro i j
  show Scalar.select (Ideal.cmp .ogt (A (ix2 i j)) (Z (ix2 i j))) (C (ix2 i j)) (B (ix2 i j)) = _
  rw [hA i j, hZ i j, hC i j, hB i j, cmp_ogt_coe]
  by_cases h : 0 < A' i j
  · rw [if_pos h, select_one]; show _ = ((if 0 < A' i j then C' i j else B' i j : ℝ) : EReal); rw [if_pos h]
  · rw [if_neg h, select_zero]; show _ = ((if 0 < A' i j then C' i j else B' i j : ℝ) : EReal); rw [if_neg h]

/-- Entry by entry: a positive entry of A is kept, elsewhere B's entry is taken. -/
theorem isReal2_select_ogt {A Z B : FVec Ideal ⟨2, ![a, b]⟩ .f32} {A' B' : Fin a → Fin b → ℝ}
    (hA : IsReal2 A A') (hZ : IsReal2 Z (fun _ _ => 0)) (hB : IsReal2 B B') :
    IsReal2 (select (cmpf .ogt A Z) A B) (fun i j => if 0 < A' i j then A' i j else B' i j) :=
  isReal2_select_ogt_gen hA hZ hA hB

/-- Where every entry of A is positive, the select on "A exceeds zero" is its first branch. -/
theorem select_ogt_pos1 {α : Type} {A Z : FVec Ideal ⟨1, ![a]⟩ .f32} {A' : Fin a → ℝ} (hA : IsReal1 A A')
    (hZ : IsReal1 Z (fun _ => 0)) (hpos : ∀ i, 0 < A' i) (R Q : (⟨1, ![a]⟩ : Shape).Idx → α) :
    select (cmpf .ogt A Z) R Q = R := by
  funext j
  obtain ⟨k, rfl⟩ : ∃ k, j = ix1 k := ⟨j 0, eq_ix1 j⟩
  show Scalar.select (Ideal.cmp .ogt (A (ix1 k)) (Z (ix1 k))) (R (ix1 k)) (Q (ix1 k)) = R (ix1 k)
  rw [hA k, hZ k, cmp_ogt_coe, if_pos (hpos k), select_one]

/-- A select whose predicate is one rank-0 comparison r > s that holds, spread over the vector, is its first branch. -/
theorem select_scalar_ogt {α : Type} (h : (⟨0, ![]⟩ : Shape).BroadcastsInDim ⟨1, ![a]⟩ ![])
    {P S : FVec Ideal ⟨0, ![]⟩ .f32} {r s : ℝ} (hP : IsReal0 P r) (hS : IsReal0 S s) (hrs : s < r)
    (X Q : (⟨1, ![a]⟩ : Shape).Idx → α) :
    (fun (p : IVec ⟨0, ![]⟩ 1) (x y : (⟨1, ![a]⟩ : Shape).Idx → α) =>
        select (broadcastInDim ⟨1, ![a]⟩ ![] h p) x y) (cmpf .ogt P S) X Q = X := by
  funext j
  show Scalar.select (broadcastInDim ⟨1, ![a]⟩ ![] h (cmpf .ogt P S) j) (X j) (Q j) = X j
  rw [broadcastInDim_scalar_apply]
  show Scalar.select (Ideal.cmp .ogt (P ix0) (S ix0)) (X j) (Q j) = X j
  rw [hP ix0, hS ix0, cmp_ogt_coe, if_pos hrs, select_one]

/-- The integer word 0 converted to a float is the real 0. -/
theorem isReal0_sitofp_zero (x : IVec ⟨0, ![]⟩ 32) (hx : ∀ i, x i = 0#32) :
    IsReal0 (sitofp (F := Ideal) .f32 x) 0 := by
  intro i
  show (((x i).toInt : ℝ) : EReal) = ((0 : ℝ) : EReal)
  rw [hx i]
  simp

theorem isReal0_sitofp_constantI_zero : IsReal0 (sitofp (F := Ideal) .f32 (constantI ⟨0, ![]⟩ 32 0#32)) 0 :=
  isReal0_sitofp_zero _ fun _ => rfl

end Select

/-! ## Layout -/

section Layout
variable {a b : ℕ}

/-- A coordinate of an axis is itself, and zero when the axis has one point. -/
theorem val_eq_ite_one {n : ℕ} (i : Fin n) : i.val = if n = 1 then 0 else i.val := by
  split
  · have := i.isLt; omega
  · rfl

theorem isReal1_shapeCast_self {A : (⟨1, ![a]⟩ : Shape).Idx → EReal} {A' : Fin a → ℝ}
    (h : (⟨1, ![a]⟩ : Shape).ShapeCasts ⟨1, ![a]⟩) (hA : IsReal1 A A') : IsReal1 (shapeCast ⟨1, ![a]⟩ A h) A' := by
  rw [shapeCast_self]; exact hA

theorem isReal2_shapeCast_self {A : (⟨2, ![a, b]⟩ : Shape).Idx → EReal} {A' : Fin a → Fin b → ℝ}
    (h : (⟨2, ![a, b]⟩ : Shape).ShapeCasts ⟨2, ![a, b]⟩) (hA : IsReal2 A A') :
    IsReal2 (shapeCast ⟨2, ![a, b]⟩ A h) A' := by
  rw [shapeCast_self]; exact hA

/-- A vector cast to a one-row matrix is that row. -/
theorem isReal2_shapeCast_row {v : (⟨1, ![b]⟩ : Shape).Idx → EReal} {v' : Fin b → ℝ}
    (h : (⟨1, ![b]⟩ : Shape).ShapeCasts ⟨2, ![1, b]⟩) (hv : IsReal1 v v') :
    IsReal2 (shapeCast ⟨2, ![1, b]⟩ v h) (fun _ j => v' j) := by
  intro i j
  rw [shapeCast_apply v h (ix2 i j) (ix1 j) (by
    have hi : i.val = 0 := by omega
    rw [Shape.rowMajor_val_two, Shape.rowMajor_val_one]
    show j.val = i.val * b + j.val
    rw [hi, Nat.zero_mul, Nat.zero_add])]
  exact hv j

/-- A vector cast to a one-column matrix is that column. -/
theorem isReal2_shapeCast_col {v : (⟨1, ![a]⟩ : Shape).Idx → EReal} {v' : Fin a → ℝ}
    (h : (⟨1, ![a]⟩ : Shape).ShapeCasts ⟨2, ![a, 1]⟩) (hv : IsReal1 v v') :
    IsReal2 (shapeCast ⟨2, ![a, 1]⟩ v h) (fun i _ => v' i) := by
  intro i u
  rw [Cert.ColumnForms.shapeCast_a_a1_apply]
  exact hv i

/-- A reshape's cast along an equation of an element type with itself changes nothing. -/
theorem reshape_cast_eq {Val : EltTy → Type} {e : EltTy} (he : e = e) {s t : Shape} (A : s.Idx → Val e)
    (h : s.ShapeCasts t) : (fun i => he ▸ shapeCast t A h i : t.Idx → Val e) = shapeCast t A h := by
  rfl

/-- The host's reshape of a vector to a one-row matrix. -/
theorem isReal2_reshape_row (he : EltTy.f32 = EltTy.f32) {v : (⟨1, ![b]⟩ : Shape).Idx → EReal} {v' : Fin b → ℝ}
    (h : (⟨1, ![b]⟩ : Shape).ShapeCasts ⟨2, ![1, b]⟩) (hv : IsReal1 v v') :
    IsReal2 (fun i => he ▸ shapeCast (α := Elt Ideal .f32) ⟨2, ![1, b]⟩ v h i : (⟨2, ![1, b]⟩ : Shape).Idx → Elt Ideal .f32)
      (fun _ j => v' j) := by
  exact isReal2_shapeCast_row h hv

/-- The host's reshape of a vector to a one-column matrix. -/
theorem isReal2_reshape_col (he : EltTy.f32 = EltTy.f32) {v : (⟨1, ![a]⟩ : Shape).Idx → EReal} {v' : Fin a → ℝ}
    (h : (⟨1, ![a]⟩ : Shape).ShapeCasts ⟨2, ![a, 1]⟩) (hv : IsReal1 v v') :
    IsReal2 (fun i => he ▸ shapeCast (α := Elt Ideal .f32) ⟨2, ![a, 1]⟩ v h i : (⟨2, ![a, 1]⟩ : Shape).Idx → Elt Ideal .f32)
      (fun i _ => v' i) := by
  exact isReal2_shapeCast_col h hv

/-- A one-row matrix repeated down the rows. -/
theorem isReal2_broadcastTo_row {v : (⟨2, ![1, b]⟩ : Shape).Idx → EReal} {v' : Fin 1 → Fin b → ℝ}
    (h : (⟨2, ![1, b]⟩ : Shape).Broadcasts ⟨2, ![a, b]⟩) (hv : IsReal2 v v') :
    IsReal2 (broadcastTo ⟨2, ![a, b]⟩ v h) (fun _ j => v' 0 j) := by
  intro i j
  rw [broadcastTo_apply v h (ix2 i j) (ix2 (0 : Fin 1) j) (fun ax => by
    match ax with
    | ⟨0, _⟩ => rfl
    | ⟨1, _⟩ => exact val_eq_ite_one j)]
  exact hv 0 j

/-- A one-column matrix repeated along the columns. -/
theorem isReal2_broadcastTo_col {v : (⟨2, ![a, 1]⟩ : Shape).Idx → EReal} {v' : Fin a → Fin 1 → ℝ}
    (h : (⟨2, ![a, 1]⟩ : Shape).Broadcasts ⟨2, ![a, b]⟩) (hv : IsReal2 v v') :
    IsReal2 (broadcastTo ⟨2, ![a, b]⟩ v h) (fun i _ => v' i 0) := by
  intro i j
  rw [Cert.ColumnForms.broadcastTo_a1_ab_apply]
  exact hv i 0

/-- A vector placed as the one row of a matrix. -/
theorem isReal2_broadcastInDim_vec_row {v : (⟨1, ![b]⟩ : Shape).Idx → EReal} {v' : Fin b → ℝ}
    (h : (⟨1, ![b]⟩ : Shape).BroadcastsInDim ⟨2, ![1, b]⟩ ![1]) (hv : IsReal1 v v') :
    IsReal2 (broadcastInDim ⟨2, ![1, b]⟩ ![1] h v) (fun _ j => v' j) := by
  intro i j
  rw [broadcastInDim_apply _ h v (ix2 i j) (ix1 j) (fun ax => by
    match ax with
    | ⟨0, _⟩ => exact val_eq_ite_one j)]
  exact hv j

/-- A one-row matrix repeated down the rows. -/
theorem isReal2_broadcastInDim_row {v : (⟨2, ![1, b]⟩ : Shape).Idx → EReal} {v' : Fin 1 → Fin b → ℝ}
    (h : (⟨2, ![1, b]⟩ : Shape).BroadcastsInDim ⟨2, ![a, b]⟩ ![0, 1]) (hv : IsReal2 v v') :
    IsReal2 (broadcastInDim ⟨2, ![a, b]⟩ ![0, 1] h v) (fun _ j => v' 0 j) := by
  intro i j
  rw [broadcastInDim_apply _ h v (ix2 i j) (ix2 (0 : Fin 1) j) (fun ax => by
    match ax with
    | ⟨0, _⟩ => rfl
    | ⟨1, _⟩ => exact val_eq_ite_one j)]
  exact hv 0 j

/-- A vector placed as the one column of a matrix. -/
theorem isReal2_broadcastInDim_vec_col {v : (⟨1, ![a]⟩ : Shape).Idx → EReal} {v' : Fin a → ℝ}
    (h : (⟨1, ![a]⟩ : Shape).BroadcastsInDim ⟨2, ![a, 1]⟩ ![0]) (hv : IsReal1 v v') :
    IsReal2 (broadcastInDim ⟨2, ![a, 1]⟩ ![0] h v) (fun i _ => v' i) := by
  intro i u
  rw [broadcastInDim_apply _ h v (ix2 i u) (ix1 i) (fun ax => by
    match ax with
    | ⟨0, _⟩ => exact val_eq_ite_one i)]
  exact hv i

/-- A one-column matrix repeated along the columns. -/
theorem isReal2_broadcastInDim_col {v : (⟨2, ![a, 1]⟩ : Shape).Idx → EReal} {v' : Fin a → Fin 1 → ℝ}
    (h : (⟨2, ![a, 1]⟩ : Shape).BroadcastsInDim ⟨2, ![a, b]⟩ ![0, 1]) (hv : IsReal2 v v') :
    IsReal2 (broadcastInDim ⟨2, ![a, b]⟩ ![0, 1] h v) (fun i _ => v' i 0) := by
  intro i j
  rw [broadcastInDim_apply _ h v (ix2 i j) (ix2 i (0 : Fin 1)) (fun ax => by
    match ax with
    | ⟨0, _⟩ => exact val_eq_ite_one i
    | ⟨1, _⟩ => rfl)]
  exact hv i 0

end Layout

end Cert.RealLift

end
-- ==== Proof.Result.lean ====
/-
  The one value both programs end with, as a function of the eight argument arrays: each float array read as the
  real array it is entry by entry, the two rows of the edge table read as the source and target node of each edge,
  and the specification's result — a row of 256 reals — injected back into the extended reals as a 1 × 256 array.
  `Ok` is what the precondition says of the arguments: every float entry is a real number and every word of the
  edge table, read signed, names one of the 10000 nodes.
-/
import proofs.«150153_g58806692217087_cont_9to1_m_85_2_alg».proof.Proof.Spec
import proofs.«150153_g58806692217087_cont_9to1_m_85_2_alg».proof.Proof.RealLift
import proofs.«150153_g58806692217087_cont_9to1_m_85_2_alg».proof.Proof.LiftPointwise

noncomputable section

namespace Cert.Result

open Idealize.ShloMosaic Idealize.ShloMosaic.ValueIdx Cert.RealLift

/-- Edge t's source node: row 0 of the edge table. -/
def srcOf (A1 : IVec ⟨2, ![2, 160000]⟩ 32) (t : Fin 160000) : Fin 10000 :=
  Cert.RealLift.node (by decide) (A1 (ValueIdx.ix2 (0 : Fin 2) t))
/-- Edge t's target node: row 1 of the edge table. -/
def dstOf (A1 : IVec ⟨2, ![2, 160000]⟩ 32) (t : Fin 160000) : Fin 10000 :=
  Cert.RealLift.node (by decide) (A1 (ValueIdx.ix2 (1 : Fin 2) t))

/-- The result array: the specification's row at the arguments read as real arrays. -/
def val (A0 : (⟨2, ![10000, 256]⟩ : Shape).Idx → EReal) (A1 : IVec ⟨2, ![2, 160000]⟩ 32)
    (A2 A3 : (⟨1, ![256]⟩ : Shape).Idx → EReal) (A4 : (⟨2, ![256, 256]⟩ : Shape).Idx → EReal)
    (A5 : (⟨1, ![256]⟩ : Shape).Idx → EReal) (A6 : (⟨2, ![256, 256]⟩ : Shape).Idx → EReal)
    (A7 : (⟨1, ![256]⟩ : Shape).Idx → EReal) : (⟨2, ![1, 256]⟩ : Shape).Idx → EReal :=
  fun i => ((Cert.Spec.result (toReal2 A0) (srcOf A1) (dstOf A1) (toReal1 A2) (toReal1 A3) (toReal2 A4) (toReal1 A5)
    (toReal2 A6) (toReal1 A7) eps slope (i 1) : ℝ) : EReal)

/-- A 1 × 256 array that is the specification's row, entry by entry, is `val`: its first coordinate has one value. -/
theorem val_of_isReal2 {A0 : (⟨2, ![10000, 256]⟩ : Shape).Idx → EReal} {A1 : IVec ⟨2, ![2, 160000]⟩ 32}
    {A2 A3 : (⟨1, ![256]⟩ : Shape).Idx → EReal} {A4 : (⟨2, ![256, 256]⟩ : Shape).Idx → EReal}
    {A5 : (⟨1, ![256]⟩ : Shape).Idx → EReal} {A6 : (⟨2, ![256, 256]⟩ : Shape).Idx → EReal}
    {A7 : (⟨1, ![256]⟩ : Shape).Idx → EReal} {B : (⟨2, ![1, 256]⟩ : Shape).Idx → EReal}
    (h : Cert.RealLift.IsReal2 B (fun _ j => Cert.Spec.result (toReal2 A0) (srcOf A1) (dstOf A1) (toReal1 A2) (toReal1 A3)
      (toReal2 A4) (toReal1 A5) (toReal2 A6) (toReal1 A7) eps slope j)) :
    B = val A0 A1 A2 A3 A4 A5 A6 A7 := by
  funext i
  exact (congrArg B (eq_ix2 i)).trans (h (i 0) (i 1))

/-- What the precondition says of the arguments: the float entries are real numbers, the edge table's words name nodes. -/
def Ok (A0 : (⟨2, ![10000, 256]⟩ : Shape).Idx → EReal) (A1 : IVec ⟨2, ![2, 160000]⟩ 32)
    (A2 A3 : (⟨1, ![256]⟩ : Shape).Idx → EReal) (A4 : (⟨2, ![256, 256]⟩ : Shape).Idx → EReal)
    (A5 : (⟨1, ![256]⟩ : Shape).Idx → EReal) (A6 : (⟨2, ![256, 256]⟩ : Shape).Idx → EReal)
    (A7 : (⟨1, ![256]⟩ : Shape).Idx → EReal) : Prop :=
  (∀ i, ∃ r : ℝ, A0 i = (r : EReal)) ∧ (∀ i, ∃ r : ℝ, A2 i = (r : EReal)) ∧ (∀ i, ∃ r : ℝ, A3 i = (r : EReal)) ∧
  (∀ i, ∃ r : ℝ, A4 i = (r : EReal)) ∧ (∀ i, ∃ r : ℝ, A5 i = (r : EReal)) ∧ (∀ i, ∃ r : ℝ, A6 i = (r : EReal)) ∧
  (∀ i, ∃ r : ℝ, A7 i = (r : EReal)) ∧ (∀ i, 0 ≤ (A1 i).toInt ∧ (A1 i).toInt < 10000)

end Cert.Result

end
-- ==== Proof.LibAfterAt.lean ====
/-
  Reading a straight line of operations in which every buffer is written at most once after the place that matters.

  A line `ops` comes with the list `wl` of the references its operations write, position by position. A reference outside
  `wl` keeps its contents over the whole line; the result of the operation at position `k`, if no later operation writes
  it, is that operation's function of what its operands hold after the first `k` operations; and an operand that no operation
  from position `k` on writes holds after the first `k` operations what it holds at the end. Together: each result at
  the END of the line is its operation's function of its operands at the END of the line.
-/
import Idealize.ShloMosaic.Lib.StableHlo.Run

noncomputable section

namespace Idealize.ShloMosaic.StableHlo

open Idealize.SL.Sem

variable {τ : Topo} {sig : RefSig} {Val : EltTy → Type}

/-- A line run to the end is its first `k` operations, then the rest. -/
theorem after_take_drop : ∀ (ops : List (HloOp τ sig Val)) (k : Nat) (V : Valuation τ sig Val),
    after ops V = after (ops.drop k) (after (ops.take k) V)
  | [], k, V => by rw [List.drop_nil, List.take_nil]; rfl
  | _ :: _, 0, _ => rfl
  | op :: ops, k + 1, V => by
    rw [List.drop_succ_cons, List.take_succ_cons, after_cons, after_cons]
    exact after_take_drop ops k _

/-- `wl` lists, position by position, the one reference each operation of `ops` writes. -/
def WritesAre (ops : List (HloOp τ sig Val)) (wl : List (Ref sig .tc)) : Prop :=
  List.Forall₂ (fun op r => op.writes = {Proc.devRef (τ := τ) .tc r}) ops wl

theorem WritesAre.drop {ops : List (HloOp τ sig Val)} {wl : List (Ref sig .tc)} (h : WritesAre ops wl) (k : Nat) :
    WritesAre (ops.drop k) (wl.drop k) := List.forall₂_drop k h

/-- A reference the line never writes keeps its contents. -/
theorem after_of_writesAre {ops : List (HloOp τ sig Val)} {wl : List (Ref sig .tc)} (h : WritesAre ops wl)
    (V : Valuation τ sig Val) {r : Ref sig .tc} (hr : r ∉ wl) :
    after ops V (Proc.devRef .tc r) = V (Proc.devRef .tc r) := by
  induction h generalizing V with
  | nil => rfl
  | cons hop _ ih =>
    rw [after_cons, ih _ (fun hm => hr (List.mem_cons_of_mem _ hm)), HloOp.result_of_not_mem]
    rw [hop, Finset.mem_singleton]
    exact devRef_ne_of_ne (fun e => hr (e ▸ List.mem_cons_self))

/-- The result of the operation at position `k`, not written again, is the operation's result on the first `k`. -/
theorem after_at {ops : List (HloOp τ sig Val)} {wl : List (Ref sig .tc)} (h : WritesAre ops wl)
    (V : Valuation τ sig Val) (k : Nat) {op : HloOp τ sig Val} (hk : ops[k]? = some op) {y : Ref sig .tc}
    (hy : y ∉ wl.drop (k + 1)) :
    after ops V (Proc.devRef .tc y) = op.result (after (ops.take k) V) (Proc.devRef .tc y) := by
  obtain ⟨hlt, hop⟩ := List.getElem?_eq_some_iff.mp hk
  rw [after_take_drop ops k V, List.drop_eq_getElem_cons hlt, hop, after_cons, after_of_writesAre (h.drop (k + 1)) _ hy]

/-- An operand no operation from position `k` on writes: after the first `k` it holds what it holds at the end. -/
theorem after_before {ops : List (HloOp τ sig Val)} {wl : List (Ref sig .tc)} (h : WritesAre ops wl)
    (V : Valuation τ sig Val) (k : Nat) {x : Ref sig .tc} (hx : x ∉ wl.drop k) :
    after (ops.take k) V (Proc.devRef .tc x) = after ops V (Proc.devRef .tc x) := by
  rw [after_take_drop ops k V, after_of_writesAre (h.drop k) _ hx]

section Builders

variable {ops : List (HloOp τ sig Val)} {wl : List (Ref sig .tc)} (h : WritesAre ops wl) (V : Valuation τ sig Val) (k : Nat)
variable {x a b c y : Ref sig .tc}
include h

theorem after_nullary_at {v : y.ty.Contents Val} {hy} (hk : ops[k]? = some (nullary y v hy))
    (hy' : y ∉ wl.drop (k + 1)) : after ops V (Proc.devRef .tc y) = v := by
  rw [after_at h V k hk hy', nullary_result]

theorem after_unary_at {f : x.ty.Contents Val → y.ty.Contents Val} {hx hy} (hk : ops[k]? = some (unary x y f hx hy))
    (hx' : x ∉ wl.drop k) (hy' : y ∉ wl.drop (k + 1)) :
    after ops V (Proc.devRef .tc y) = f (after ops V (Proc.devRef .tc x)) := by
  rw [after_at h V k hk hy', unary_result, ← after_before h V k hx']

theorem after_binary_at {f : a.ty.Contents Val → b.ty.Contents Val → y.ty.Contents Val} {ha hb hy}
    (hk : ops[k]? = some (binary a b y f ha hb hy)) (ha' : a ∉ wl.drop k) (hb' : b ∉ wl.drop k) (hy' : y ∉ wl.drop (k + 1)) :
    after ops V (Proc.devRef .tc y) = f (after ops V (Proc.devRef .tc a)) (after ops V (Proc.devRef .tc b)) := by
  rw [after_at h V k hk hy', binary_result, ← after_before h V k ha', ← after_before h V k hb']

theorem after_ternary_at {f : c.ty.Contents Val → a.ty.Contents Val → b.ty.Contents Val → y.ty.Contents Val} {hc ha hb hy}
    (hk : ops[k]? = some (ternary c a b y f hc ha hb hy)) (hc' : c ∉ wl.drop k) (ha' : a ∉ wl.drop k) (hb' : b ∉ wl.drop k)
    (hy' : y ∉ wl.drop (k + 1)) :
    after ops V (Proc.devRef .tc y)
      = f (after ops V (Proc.devRef .tc c)) (after ops V (Proc.devRef .tc a)) (after ops V (Proc.devRef .tc b)) := by
  rw [after_at h V k hk hy', ternary_result, ← after_before h V k hc', ← after_before h V k ha', ← after_before h V k hb']

theorem after_reshape_at {he : x.ty.elt = y.ty.elt} {hn : x.ty.shape.ShapeCasts y.ty.shape} {hx hy}
    (hk : ops[k]? = some (reshape x y he hn hx hy)) (hx' : x ∉ wl.drop k) (hy' : y ∉ wl.drop (k + 1)) :
    after ops V (Proc.devRef .tc y) = fun i => he ▸ shapeCast y.ty.shape (after ops V (Proc.devRef .tc x)) hn i := by
  rw [after_at h V k hk hy', reshape_result, ← after_before h V k hx']

end Builders

end Idealize.ShloMosaic.StableHlo

end
-- ==== Proof.KernelStages.lean ====
/-
  The values the idealized program's run leaves, stage by stage.

  The generated frame names the TensorCore's buffer contents at each boundary of @main as a fold from the launch
  memory: W0 (launch), W1 (after the first host stretch), W2 (after the first kernel region), W3 (after the second
  host stretch), W4 (after the second kernel region). This file reads that fold off as equations: each region's
  result array is the region's payload function of its input arrays (a grid of ONE point whose windows are the
  whole arrays, so the one block written back is the whole result and each input block is the whole input), every
  other buffer passes a region unchanged, and each host operation's result, read at the end of its stretch, is the
  operation's function of its operands read at the end of the stretch (every buffer is written at most once).
-/
import proofs.«150153_g58806692217087_cont_9to1_m_85_2_alg».proof.Proof.Gen.KernelIdeal.Frame
import proofs.«150153_g58806692217087_cont_9to1_m_85_2_alg».proof.Proof.LibAfterAt
import Idealize.ShloMosaic.Lib.Pipeline.Value

set_option maxRecDepth 16384

noncomputable section

namespace Cert.KernelSide

open Cert.KernelIdeal Cert.KernelIdeal.Gen
open Idealize.ShloMosaic Idealize.ShloMosaic.TcCoe
open Idealize.SL.Sem
open Idealize.ShloMosaic.Pipeline (Dat Cfg Window)

variable {F : FTy → Type} [FloatOps F] [Named F]
variable (m : (ℓ : Loc nD τ sig) → Buf (Elt F) ℓ) (ρ : Dev nD → PrngReg)

/-- The zero offsets of a rank-2 access, as the printed program spells them. -/
theorem hz2 : (![0, 0] : Fin 2 → Nat) = fun _ => 0 := funext fun a => by fin_cases a <;> rfl

/-! ## Region 1 (the second kernel region), at any entry contents `V` -/

section Region1
variable (V : (c : Dev nD) → (b : Ref sig .tc) → Buf (Elt F) ((c : Thread nD τ).loc b))

/-! An input window's one block is its whole array: the window is the whole array at block index 0, so the block
    is read through the array's own sizes at zero offsets. -/
theorem iblk1_0 (c : Dev nD) (t : Fin cfg1.N) : iblk1 V c 0 t = V c main_v38 := by
  unfold iblk1
  exact Memref.read_access_unit_zero (Elt F) main_v38 (funext fun a => Nat.zero_mul _) _ _
theorem iblk1_1 (c : Dev nD) (t : Fin cfg1.N) : iblk1 V c 1 t = V c main_v23 := by
  unfold iblk1
  exact Memref.read_access_unit_zero (Elt F) main_v23 (funext fun a => Nat.zero_mul _) _ _
theorem iblk1_2 (c : Dev nD) (t : Fin cfg1.N) : iblk1 V c 2 t = V c main_v54 := by
  unfold iblk1
  exact Memref.read_access_unit_zero (Elt F) main_v54 (funext fun a => Nat.zero_mul _) _ _
theorem iblk1_3 (c : Dev nD) (t : Fin cfg1.N) : iblk1 V c 3 t = V c main_v55 := by
  unfold iblk1
  exact Memref.read_access_unit_zero (Elt F) main_v55 (funext fun a => Nat.zero_mul _) _ _
theorem iblk1_4 (c : Dev nD) (t : Fin cfg1.N) : iblk1 V c 4 t = V c main_v6 := by
  unfold iblk1
  exact Memref.read_access_unit_zero (Elt F) main_v6 (funext fun a => Nat.zero_mul _) _ _
theorem iblk1_5 (c : Dev nD) (t : Fin cfg1.N) : iblk1 V c 5 t = V c main_arg6 := by
  unfold iblk1
  exact Memref.read_access_unit_zero (Elt F) main_arg6 (funext fun a => Nat.zero_mul _) _ _
theorem iblk1_6 (c : Dev nD) (t : Fin cfg1.N) : iblk1 V c 6 t = V c main_v7 := by
  unfold iblk1
  exact Memref.read_access_unit_zero (Elt F) main_v7 (funext fun a => Nat.zero_mul _) _ _

/-- What the one point writes back to the result window: the payload of the input arrays, read as the block of
    itself (the result window is the whole array too). -/
theorem flushed1_7 (c : Dev nD) (t : Fin cfg1.N) :
    (dat1 V c).flushed 7 t = ((cfg1.win 7).blk t).view.read (Elt F)
      (k1_pay1 (V c main_v54) (V c main_v38) (V c main_v23) (V c main_v6) (V c main_v55) (V c main_arg6) (V c main_v7)
        : Buf (Elt F) ((c : Thread nD τ).loc main_v56)) := by
  show (cfg1.win 7).cut (cfg1.grid.coords t) ((dat1 V c).after 7 t) = _
  rw [after1_7, iblk1_0, iblk1_1, iblk1_2, iblk1_3, iblk1_4, iblk1_5, iblk1_6]
  unfold out1_7
  rw [View.canon_unit_zero hz2]
  simp only [View.ld_unit_zero (S := S10000x1) hz2, View.ld_unit_zero (S := S10000x256) hz2,
    View.ld_unit_zero (S := S1x256) hz2, View.ld_unit_zero (S := S256x256) hz2]
  exact (Memref.read_access_unit_zero (Elt F) main_v56 (funext fun a => Nat.zero_mul _) _ _).symm

/-- The one point's block covers the result array. -/
theorem cover1_7' (c : Dev nD) (i : ((cfg1.win 7).arr.view.loc (c.tc : Thread nD τ)).2.ty.Idx) :
    ∃ t : Fin cfg1.N, (cfg1.win 7).flush t = true ∧ i ∈ ((cfg1.win 7).blk t).view.set := by
  refine ⟨t1_0, by decide, ?_⟩
  show i ∈ ((View.whole main_v56).slice (win1_7.rect t1_0)).set
  rw [View.set_slice_whole]
  exact View.mem_set_unit_zero (S := S1x256) (funext fun a => Nat.zero_mul _) _ i

/-- The result array after the region: the payload of the input arrays as the region finds them. -/
theorem arrAt1_7 (c : Dev nD) :
    (dat1 V c).arrAt 7 cfg1.N
      = (k1_pay1 (V c main_v54) (V c main_v38) (V c main_v23) (V c main_v6) (V c main_v55) (V c main_arg6) (V c main_v7)
        : Buf (Elt F) ((c : Thread nD τ).loc main_v56)) :=
  (dat1 V c).arrAt_eq_of_cover 7 _ (fun t _ => flushed1_7 V c t) (cover1_7' c)

end Region1

/-- W4 AT THE RESULT: the second region's payload of its seven input arrays at the region's entry contents W3. -/
theorem W4_result (c : Dev nD) :
    Gen.W4 m ρ c (Proc.devRef .tc main_v56)
      = Gen.k1_pay1 (Gen.W3 m ρ c (Proc.devRef .tc main_v54)) (Gen.W3 m ρ c (Proc.devRef .tc main_v38))
          (Gen.W3 m ρ c (Proc.devRef .tc main_v23)) (Gen.W3 m ρ c (Proc.devRef .tc main_v6))
          (Gen.W3 m ρ c (Proc.devRef .tc main_v55)) (Gen.W3 m ρ c (Proc.devRef .tc main_arg6))
          (Gen.W3 m ρ c (Proc.devRef .tc main_v7)) :=
  (W4_arr m ρ c 7).trans (arrAt1_7 (V3 m ρ) c)

/-! ## Region 0 (the first kernel region), at any entry contents `V` -/

section Region0
variable (V : (c : Dev nD) → (b : Ref sig .tc) → Buf (Elt F) ((c : Thread nD τ).loc b))

/-! An input window's one block is its whole array. -/
theorem iblk0_0 (c : Dev nD) (t : Fin cfg0.N) : iblk0 V c 0 t = V c main_arg0 := by
  unfold iblk0
  exact Memref.read_access_unit_zero (Elt F) main_arg0 (funext fun a => Nat.zero_mul _) _ _
theorem iblk0_1 (c : Dev nD) (t : Fin cfg0.N) : iblk0 V c 1 t = V c main_v4 := by
  unfold iblk0
  exact Memref.read_access_unit_zero (Elt F) main_v4 (funext fun a => Nat.zero_mul _) _ _
theorem iblk0_2 (c : Dev nD) (t : Fin cfg0.N) : iblk0 V c 2 t = V c main_v5 := by
  unfold iblk0
  exact Memref.read_access_unit_zero (Elt F) main_v5 (funext fun a => Nat.zero_mul _) _ _
theorem iblk0_3 (c : Dev nD) (t : Fin cfg0.N) : iblk0 V c 3 t = V c main_arg4 := by
  unfold iblk0
  exact Memref.read_access_unit_zero (Elt F) main_arg4 (funext fun a => Nat.zero_mul _) _ _

/-- What the one point writes back to the result window: the payload of the input arrays, read as the block of
    itself. -/
theorem flushed0_4 (c : Dev nD) (t : Fin cfg0.N) :
    (dat0 V c).flushed 4 t = ((cfg0.win 4).blk t).view.read (Elt F)
      (k0_pay1 (V c main_arg0) (V c main_v4) (V c main_v5) (V c main_arg4)
        : Buf (Elt F) ((c : Thread nD τ).loc main_v8)) := by
  show (cfg0.win 4).cut (cfg0.grid.coords t) ((dat0 V c).after 4 t) = _
  rw [after0_4, iblk0_0, iblk0_1, iblk0_2, iblk0_3]
  unfold out0_4
  rw [View.canon_unit_zero hz2]
  simp only [View.ld_unit_zero (S := S10000x256) hz2, View.ld_unit_zero (S := S1x256) hz2,
    View.ld_unit_zero (S := S256x256) hz2]
  exact (Memref.read_access_unit_zero (Elt F) main_v8 (funext fun a => Nat.zero_mul _) _ _).symm

/-- The one point's block covers the result array. -/
theorem cover0_4' (c : Dev nD) (i : ((cfg0.win 4).arr.view.loc (c.tc : Thread nD τ)).2.ty.Idx) :
    ∃ t : Fin cfg0.N, (cfg0.win 4).flush t = true ∧ i ∈ ((cfg0.win 4).blk t).view.set := by
  refine ⟨t0_0, by decide, ?_⟩
  show i ∈ ((View.whole main_v8).slice (win0_4.rect t0_0)).set
  rw [View.set_slice_whole]
  exact View.mem_set_unit_zero (S := S10000x256) (funext fun a => Nat.zero_mul _) _ i

/-- The result array after the region: the payload of the input arrays as the region finds them. -/
theorem arrAt0_4 (c : Dev nD) :
    (dat0 V c).arrAt 4 cfg0.N
      = (k0_pay1 (V c main_arg0) (V c main_v4) (V c main_v5) (V c main_arg4)
        : Buf (Elt F) ((c : Thread nD τ).loc main_v8)) :=
  (dat0 V c).arrAt_eq_of_cover 4 _ (fun t _ => flushed0_4 V c t) (cover0_4' c)

end Region0

/-- W2 AT THE FIRST REGION'S RESULT: the region's payload of its four input arrays at its entry contents W1. -/
theorem W2_main_v8 (c : Dev nD) :
    Gen.W2 m ρ c (Proc.devRef .tc main_v8)
      = Gen.k0_pay1 (Gen.W1 m ρ c (Proc.devRef .tc main_arg0)) (Gen.W1 m ρ c (Proc.devRef .tc main_v4))
          (Gen.W1 m ρ c (Proc.devRef .tc main_v5)) (Gen.W1 m ρ c (Proc.devRef .tc main_arg4)) :=
  (W2_arr m ρ c 4).trans (arrAt0_4 (V1 m ρ) c)

/-! Every other buffer passes the first region unchanged: an input window's array is never written, and a buffer
    that is no window's array is not touched. -/
theorem keepR0_main_arg0 (c : Dev nD) :
    Gen.W2 m ρ c (Proc.devRef .tc main_arg0) = Gen.W1 m ρ c (Proc.devRef .tc main_arg0) :=
  (W2_arr m ρ c 0).trans (((dat0 (V1 m ρ) c).arrAt_in 0 rfl _).trans (A_eq0 (V1 m ρ) c 0))
theorem keepR0_main_v4 (c : Dev nD) :
    Gen.W2 m ρ c (Proc.devRef .tc main_v4) = Gen.W1 m ρ c (Proc.devRef .tc main_v4) :=
  (W2_arr m ρ c 1).trans (((dat0 (V1 m ρ) c).arrAt_in 1 rfl _).trans (A_eq0 (V1 m ρ) c 1))
theorem keepR0_main_v5 (c : Dev nD) :
    Gen.W2 m ρ c (Proc.devRef .tc main_v5) = Gen.W1 m ρ c (Proc.devRef .tc main_v5) :=
  (W2_arr m ρ c 2).trans (((dat0 (V1 m ρ) c).arrAt_in 2 rfl _).trans (A_eq0 (V1 m ρ) c 2))
theorem keepR0_main_arg4 (c : Dev nD) :
    Gen.W2 m ρ c (Proc.devRef .tc main_arg4) = Gen.W1 m ρ c (Proc.devRef .tc main_arg4) :=
  (W2_arr m ρ c 3).trans (((dat0 (V1 m ρ) c).arrAt_in 3 rfl _).trans (A_eq0 (V1 m ρ) c 3))
theorem keepR0_main_v0 (c : Dev nD) :
    Gen.W2 m ρ c (Proc.devRef .tc main_v0) = Gen.W1 m ρ c (Proc.devRef .tc main_v0) :=
  W2_of_ne m ρ c main_v0 (by decide)
theorem keepR0_main_v1 (c : Dev nD) :
    Gen.W2 m ρ c (Proc.devRef .tc main_v1) = Gen.W1 m ρ c (Proc.devRef .tc main_v1) :=
  W2_of_ne m ρ c main_v1 (by decide)
theorem keepR0_main_v2 (c : Dev nD) :
    Gen.W2 m ρ c (Proc.devRef .tc main_v2) = Gen.W1 m ρ c (Proc.devRef .tc main_v2) :=
  W2_of_ne m ρ c main_v2 (by decide)
theorem keepR0_main_v3 (c : Dev nD) :
    Gen.W2 m ρ c (Proc.devRef .tc main_v3) = Gen.W1 m ρ c (Proc.devRef .tc main_v3) :=
  W2_of_ne m ρ c main_v3 (by decide)
theorem keepR0_main_v6 (c : Dev nD) :
    Gen.W2 m ρ c (Proc.devRef .tc main_v6) = Gen.W1 m ρ c (Proc.devRef .tc main_v6) :=
  W2_of_ne m ρ c main_v6 (by decide)
theorem keepR0_main_v7 (c : Dev nD) :
    Gen.W2 m ρ c (Proc.devRef .tc main_v7) = Gen.W1 m ρ c (Proc.devRef .tc main_v7) :=
  W2_of_ne m ρ c main_v7 (by decide)
theorem keepR0_main_arg1 (c : Dev nD) :
    Gen.W2 m ρ c (Proc.devRef .tc main_arg1) = Gen.W1 m ρ c (Proc.devRef .tc main_arg1) :=
  W2_of_ne m ρ c main_arg1 (by decide)
theorem keepR0_main_arg2 (c : Dev nD) :
    Gen.W2 m ρ c (Proc.devRef .tc main_arg2) = Gen.W1 m ρ c (Proc.devRef .tc main_arg2) :=
  W2_of_ne m ρ c main_arg2 (by decide)
theorem keepR0_main_arg3 (c : Dev nD) :
    Gen.W2 m ρ c (Proc.devRef .tc main_arg3) = Gen.W1 m ρ c (Proc.devRef .tc main_arg3) :=
  W2_of_ne m ρ c main_arg3 (by decide)
theorem keepR0_main_arg5 (c : Dev nD) :
    Gen.W2 m ρ c (Proc.devRef .tc main_arg5) = Gen.W1 m ρ c (Proc.devRef .tc main_arg5) :=
  W2_of_ne m ρ c main_arg5 (by decide)
theorem keepR0_main_arg6 (c : Dev nD) :
    Gen.W2 m ρ c (Proc.devRef .tc main_arg6) = Gen.W1 m ρ c (Proc.devRef .tc main_arg6) :=
  W2_of_ne m ρ c main_arg6 (by decide)
theorem keepR0_main_arg7 (c : Dev nD) :
    Gen.W2 m ρ c (Proc.devRef .tc main_arg7) = Gen.W1 m ρ c (Proc.devRef .tc main_arg7) :=
  W2_of_ne m ρ c main_arg7 (by decide)

/-! ## The first host stretch (8 operations), from the launch contents W0 to W1 -/

/-- The references the first host stretch writes, operation by operation. -/
def wl0 : List (Ref sig .tc) :=
  [main_v0, main_v1, main_v2, main_v3, main_v4, main_v5, main_v6, main_v7]

/-- Each operation of the first host stretch writes exactly the reference listed for it. -/
theorem writes0 : StableHlo.WritesAre (τ := τ) (hostOps0 : List (HloOp τ sig (Elt F))) wl0 := by
  unfold StableHlo.WritesAre
  repeat' constructor

theorem st0_main_v0 (c : Dev nD) :
    Gen.W1 m ρ c (Proc.devRef .tc main_v0)
      = (extractStridedSlice S1x160000 ![0, 0] (Gen.W1 m ρ c (Proc.devRef .tc main_arg1)) slices_S2x160000_S1x160000_0_0 : (⟨S1x160000, .i32⟩ : BufTy).Contents (Elt F)) := by
  have h := StableHlo.after_unary_at (writes0 (F := F)) (Gen.W0 m ρ c) 0 rfl (by decide) (by decide)
  exact h
theorem st0_main_v1 (c : Dev nD) :
    Gen.W1 m ρ c (Proc.devRef .tc main_v1)
      = shapeCast S160000 (Gen.W1 m ρ c (Proc.devRef .tc main_v0)) shapeCasts_S1x160000_S160000 := by
  have h := StableHlo.after_reshape_at (writes0 (F := F)) (Gen.W0 m ρ c) 1 rfl (by decide) (by decide)
  exact h
theorem st0_main_v2 (c : Dev nD) :
    Gen.W1 m ρ c (Proc.devRef .tc main_v2)
      = (extractStridedSlice S1x160000 ![1, 0] (Gen.W1 m ρ c (Proc.devRef .tc main_arg1)) slices_S2x160000_S1x160000_1_0 : (⟨S1x160000, .i32⟩ : BufTy).Contents (Elt F)) := by
  have h := StableHlo.after_unary_at (writes0 (F := F)) (Gen.W0 m ρ c) 2 rfl (by decide) (by decide)
  exact h
theorem st0_main_v3 (c : Dev nD) :
    Gen.W1 m ρ c (Proc.devRef .tc main_v3)
      = shapeCast S160000 (Gen.W1 m ρ c (Proc.devRef .tc main_v2)) shapeCasts_S1x160000_S160000 := by
  have h := StableHlo.after_reshape_at (writes0 (F := F)) (Gen.W0 m ρ c) 3 rfl (by decide) (by decide)
  exact h
theorem st0_main_v4 (c : Dev nD) :
    Gen.W1 m ρ c (Proc.devRef .tc main_v4)
      = shapeCast S1x256 (Gen.W1 m ρ c (Proc.devRef .tc main_arg2)) shapeCasts_S256_S1x256 := by
  have h := StableHlo.after_reshape_at (writes0 (F := F)) (Gen.W0 m ρ c) 4 rfl (by decide) (by decide)
  exact h
theorem st0_main_v5 (c : Dev nD) :
    Gen.W1 m ρ c (Proc.devRef .tc main_v5)
      = shapeCast S1x256 (Gen.W1 m ρ c (Proc.devRef .tc main_arg3)) shapeCasts_S256_S1x256 := by
  have h := StableHlo.after_reshape_at (writes0 (F := F)) (Gen.W0 m ρ c) 5 rfl (by decide) (by decide)
  exact h
theorem st0_main_v6 (c : Dev nD) :
    Gen.W1 m ρ c (Proc.devRef .tc main_v6)
      = shapeCast S1x256 (Gen.W1 m ρ c (Proc.devRef .tc main_arg5)) shapeCasts_S256_S1x256 := by
  have h := StableHlo.after_reshape_at (writes0 (F := F)) (Gen.W0 m ρ c) 6 rfl (by decide) (by decide)
  exact h
theorem st0_main_v7 (c : Dev nD) :
    Gen.W1 m ρ c (Proc.devRef .tc main_v7)
      = shapeCast S1x256 (Gen.W1 m ρ c (Proc.devRef .tc main_arg7)) shapeCasts_S256_S1x256 := by
  have h := StableHlo.after_reshape_at (writes0 (F := F)) (Gen.W0 m ρ c) 7 rfl (by decide) (by decide)
  exact h

/-! The argument arrays are not written by the first host stretch, and at launch they hold the launch memory. -/
theorem keep0_main_arg0 (c : Dev nD) :
    Gen.W1 m ρ c (Proc.devRef .tc main_arg0) = Gen.W0 m ρ c (Proc.devRef .tc main_arg0) :=
  StableHlo.after_of_writesAre (writes0 (F := F)) (Gen.W0 m ρ c) (by decide)
theorem keep0_main_arg1 (c : Dev nD) :
    Gen.W1 m ρ c (Proc.devRef .tc main_arg1) = Gen.W0 m ρ c (Proc.devRef .tc main_arg1) :=
  StableHlo.after_of_writesAre (writes0 (F := F)) (Gen.W0 m ρ c) (by decide)
theorem keep0_main_arg2 (c : Dev nD) :
    Gen.W1 m ρ c (Proc.devRef .tc main_arg2) = Gen.W0 m ρ c (Proc.devRef .tc main_arg2) :=
  StableHlo.after_of_writesAre (writes0 (F := F)) (Gen.W0 m ρ c) (by decide)
theorem keep0_main_arg3 (c : Dev nD) :
    Gen.W1 m ρ c (Proc.devRef .tc main_arg3) = Gen.W0 m ρ c (Proc.devRef .tc main_arg3) :=
  StableHlo.after_of_writesAre (writes0 (F := F)) (Gen.W0 m ρ c) (by decide)
theorem keep0_main_arg4 (c : Dev nD) :
    Gen.W1 m ρ c (Proc.devRef .tc main_arg4) = Gen.W0 m ρ c (Proc.devRef .tc main_arg4) :=
  StableHlo.after_of_writesAre (writes0 (F := F)) (Gen.W0 m ρ c) (by decide)
theorem keep0_main_arg5 (c : Dev nD) :
    Gen.W1 m ρ c (Proc.devRef .tc main_arg5) = Gen.W0 m ρ c (Proc.devRef .tc main_arg5) :=
  StableHlo.after_of_writesAre (writes0 (F := F)) (Gen.W0 m ρ c) (by decide)
theorem keep0_main_arg6 (c : Dev nD) :
    Gen.W1 m ρ c (Proc.devRef .tc main_arg6) = Gen.W0 m ρ c (Proc.devRef .tc main_arg6) :=
  StableHlo.after_of_writesAre (writes0 (F := F)) (Gen.W0 m ρ c) (by decide)
theorem keep0_main_arg7 (c : Dev nD) :
    Gen.W1 m ρ c (Proc.devRef .tc main_arg7) = Gen.W0 m ρ c (Proc.devRef .tc main_arg7) :=
  StableHlo.after_of_writesAre (writes0 (F := F)) (Gen.W0 m ρ c) (by decide)
theorem launch_main_arg0 (c : Dev nD) :
    Gen.W0 m ρ c (Proc.devRef .tc main_arg0) = m ((c.tc : Thread nD τ).loc main_arg0) := rfl
theorem launch_main_arg1 (c : Dev nD) :
    Gen.W0 m ρ c (Proc.devRef .tc main_arg1) = m ((c.tc : Thread nD τ).loc main_arg1) := rfl
theorem launch_main_arg2 (c : Dev nD) :
    Gen.W0 m ρ c (Proc.devRef .tc main_arg2) = m ((c.tc : Thread nD τ).loc main_arg2) := rfl
theorem launch_main_arg3 (c : Dev nD) :
    Gen.W0 m ρ c (Proc.devRef .tc main_arg3) = m ((c.tc : Thread nD τ).loc main_arg3) := rfl
theorem launch_main_arg4 (c : Dev nD) :
    Gen.W0 m ρ c (Proc.devRef .tc main_arg4) = m ((c.tc : Thread nD τ).loc main_arg4) := rfl
theorem launch_main_arg5 (c : Dev nD) :
    Gen.W0 m ρ c (Proc.devRef .tc main_arg5) = m ((c.tc : Thread nD τ).loc main_arg5) := rfl
theorem launch_main_arg6 (c : Dev nD) :
    Gen.W0 m ρ c (Proc.devRef .tc main_arg6) = m ((c.tc : Thread nD τ).loc main_arg6) := rfl
theorem launch_main_arg7 (c : Dev nD) :
    Gen.W0 m ρ c (Proc.devRef .tc main_arg7) = m ((c.tc : Thread nD τ).loc main_arg7) := rfl

/-! ## The second host stretch (62 operations), from W2 to W3 -/

/-- The references the second host stretch writes, operation by operation. -/
def wl1 : List (Ref sig .tc) :=
  [main_cst, main_v9, main_c, main_v10, main_v11, main_c_0, main_v12, main_v13, main_v14, main_v15, main_cst_1, main_v16, main_v17, main_cst_2, main_v18, main_v19, main_v20, main_v21, main_v22, main_v23, main_cst_3, main_v24, main_c_4, main_v25, main_v26, main_c_5, main_v27, main_v28, main_v29, main_v30, main_v31, main_c_6, main_v32, main_v33, main_c_7, main_v34, main_v35, main_v36, main_v37, main_v38, main_cst_8, main_v39, main_c_9, main_v40, main_v41, main_c_10, main_v42, main_v43, main_v44, main_v45, main_v46, main_c_11, main_v47, main_v48, main_c_12, main_v49, main_v50, main_v51, main_v52, main_v53, main_v54, main_v55]

/-- Each operation of the second host stretch writes exactly the reference listed for it. -/
theorem writes1 : StableHlo.WritesAre (τ := τ) (hostOps1 : List (HloOp τ sig (Elt F))) wl1 := by
  unfold StableHlo.WritesAre
  repeat' constructor

/-! One equation per operation: its result at the END of the stretch is its function of its operands at the END
    of the stretch (no later operation writes the result or an operand). -/
theorem st1_main_cst (c : Dev nD) :
    Gen.W3 m ρ c (Proc.devRef .tc main_cst)
      = (constant S_ .f32 0x00000000#32) := by
  have h := StableHlo.after_nullary_at (writes1 (F := F)) (Gen.W2 m ρ c) 0 rfl (by decide)
  exact h
theorem st1_main_v9 (c : Dev nD) :
    Gen.W3 m ρ c (Proc.devRef .tc main_v9)
      = (broadcastInDim S10000 ![] bcast_S_S10000 : (⟨S_, .f32⟩ : BufTy).Contents (Elt F) → (⟨S10000, .f32⟩ : BufTy).Contents (Elt F)) (Gen.W3 m ρ c (Proc.devRef .tc main_cst)) := by
  have h := StableHlo.after_unary_at (writes1 (F := F)) (Gen.W2 m ρ c) 1 rfl (by decide) (by decide)
  exact h
theorem st1_main_c (c : Dev nD) :
    Gen.W3 m ρ c (Proc.devRef .tc main_c)
      = (constantI S_ 32 0#32) := by
  have h := StableHlo.after_nullary_at (writes1 (F := F)) (Gen.W2 m ρ c) 2 rfl (by decide)
  exact h
theorem st1_main_v10 (c : Dev nD) :
    Gen.W3 m ρ c (Proc.devRef .tc main_v10)
      = (broadcastInDim S160000 ![] bcast_S_S160000 : (⟨S_, .i32⟩ : BufTy).Contents (Elt F) → (⟨S160000, .i32⟩ : BufTy).Contents (Elt F)) (Gen.W3 m ρ c (Proc.devRef .tc main_c)) := by
  have h := StableHlo.after_unary_at (writes1 (F := F)) (Gen.W2 m ρ c) 3 rfl (by decide) (by decide)
  exact h
theorem st1_main_v11 (c : Dev nD) :
    Gen.W3 m ρ c (Proc.devRef .tc main_v11)
      = (cmpi .slt : (⟨S160000, .i32⟩ : BufTy).Contents (Elt F) → (⟨S160000, .i32⟩ : BufTy).Contents (Elt F) → (⟨S160000, .i1⟩ : BufTy).Contents (Elt F)) (Gen.W3 m ρ c (Proc.devRef .tc main_v3)) (Gen.W3 m ρ c (Proc.devRef .tc main_v10)) := by
  have h := StableHlo.after_binary_at (writes1 (F := F)) (Gen.W2 m ρ c) 4 rfl (by decide) (by decide) (by decide)
  exact h
theorem st1_main_c_0 (c : Dev nD) :
    Gen.W3 m ρ c (Proc.devRef .tc main_c_0)
      = (constantI S_ 32 10000#32) := by
  have h := StableHlo.after_nullary_at (writes1 (F := F)) (Gen.W2 m ρ c) 5 rfl (by decide)
  exact h
theorem st1_main_v12 (c : Dev nD) :
    Gen.W3 m ρ c (Proc.devRef .tc main_v12)
      = (broadcastInDim S160000 ![] bcast_S_S160000 : (⟨S_, .i32⟩ : BufTy).Contents (Elt F) → (⟨S160000, .i32⟩ : BufTy).Contents (Elt F)) (Gen.W3 m ρ c (Proc.devRef .tc main_c_0)) := by
  have h := StableHlo.after_unary_at (writes1 (F := F)) (Gen.W2 m ρ c) 6 rfl (by decide) (by decide)
  exact h
theorem st1_main_v13 (c : Dev nD) :
    Gen.W3 m ρ c (Proc.devRef .tc main_v13)
      = (addi : (⟨S160000, .i32⟩ : BufTy).Contents (Elt F) → (⟨S160000, .i32⟩ : BufTy).Contents (Elt F) → (⟨S160000, .i32⟩ : BufTy).Contents (Elt F)) (Gen.W3 m ρ c (Proc.devRef .tc main_v3)) (Gen.W3 m ρ c (Proc.devRef .tc main_v12)) := by
  have h := StableHlo.after_binary_at (writes1 (F := F)) (Gen.W2 m ρ c) 7 rfl (by decide) (by decide) (by decide)
  exact h
theorem st1_main_v14 (c : Dev nD) :
    Gen.W3 m ρ c (Proc.devRef .tc main_v14)
      = (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)) (Gen.W3 m ρ c (Proc.devRef .tc main_v11)) (Gen.W3 m ρ c (Proc.devRef .tc main_v13)) (Gen.W3 m ρ c (Proc.devRef .tc main_v3)) := by
  have h := StableHlo.after_ternary_at (writes1 (F := F)) (Gen.W2 m ρ c) 8 rfl (by decide) (by decide) (by decide) (by decide)
  exact h
theorem st1_main_v15 (c : Dev nD) :
    Gen.W3 m ρ c (Proc.devRef .tc main_v15)
      = (broadcastInDim S160000x1 ![0] bcast_S160000_S160000x1_0 : (⟨S160000, .i32⟩ : BufTy).Contents (Elt F) → (⟨S160000x1, .i32⟩ : BufTy).Contents (Elt F)) (Gen.W3 m ρ c (Proc.devRef .tc main_v14)) := by
  have h := StableHlo.after_unary_at (writes1 (F := F)) (Gen.W2 m ρ c) 9 rfl (by decide) (by decide)
  exact h
theorem st1_main_cst_1 (c : Dev nD) :
    Gen.W3 m ρ c (Proc.devRef .tc main_cst_1)
      = (constant S_ .f32 0x3F800000#32) := by
  have h := StableHlo.after_nullary_at (writes1 (F := F)) (Gen.W2 m ρ c) 10 rfl (by decide)
  exact h
theorem st1_main_v16 (c : Dev nD) :
    Gen.W3 m ρ c (Proc.devRef .tc main_v16)
      = (broadcastInDim S160000 ![] bcast_S_S160000 : (⟨S_, .f32⟩ : BufTy).Contents (Elt F) → (⟨S160000, .f32⟩ : BufTy).Contents (Elt F)) (Gen.W3 m ρ c (Proc.devRef .tc main_cst_1)) := by
  have h := StableHlo.after_unary_at (writes1 (F := F)) (Gen.W2 m ρ c) 11 rfl (by decide) (by decide)
  exact h
theorem st1_main_v17 (c : Dev nD) :
    Gen.W3 m ρ c (Proc.devRef .tc main_v17)
      = (Host.scatterAdd scatter_S10000_S160000x1_S160000_n_0_0_1 (Gen.W3 m ρ c (Proc.devRef .tc main_v9)) (Gen.W3 m ρ c (Proc.devRef .tc main_v15)) (Gen.W3 m ρ c (Proc.devRef .tc main_v16)) : (⟨S10000, .f32⟩ : BufTy).Contents (Elt F)) := by
  have h := StableHlo.after_ternary_at (writes1 (F := F)) (Gen.W2 m ρ c) 12 rfl (by decide) (by decide) (by decide) (by decide)
  exact h
theorem st1_main_cst_2 (c : Dev nD) :
    Gen.W3 m ρ c (Proc.devRef .tc main_cst_2)
      = (constant S_ .f32 0x3F800000#32) := by
  have h := StableHlo.after_nullary_at (writes1 (F := F)) (Gen.W2 m ρ c) 13 rfl (by decide)
  exact h
theorem st1_main_v18 (c : Dev nD) :
    Gen.W3 m ρ c (Proc.devRef .tc main_v18)
      = (broadcastInDim S10000 ![] bcast_S_S10000 : (⟨S_, .f32⟩ : BufTy).Contents (Elt F) → (⟨S10000, .f32⟩ : BufTy).Contents (Elt F)) (Gen.W3 m ρ c (Proc.devRef .tc main_cst_2)) := by
  have h := StableHlo.after_unary_at (writes1 (F := F)) (Gen.W2 m ρ c) 14 rfl (by decide) (by decide)
  exact h
theorem st1_main_v19 (c : Dev nD) :
    Gen.W3 m ρ c (Proc.devRef .tc main_v19)
      = (addf : (⟨S10000, .f32⟩ : BufTy).Contents (Elt F) → (⟨S10000, .f32⟩ : BufTy).Contents (Elt F) → (⟨S10000, .f32⟩ : BufTy).Contents (Elt F)) (Gen.W3 m ρ c (Proc.devRef .tc main_v17)) (Gen.W3 m ρ c (Proc.devRef .tc main_v18)) := by
  have h := StableHlo.after_binary_at (writes1 (F := F)) (Gen.W2 m ρ c) 15 rfl (by decide) (by decide) (by decide)
  exact h
theorem st1_main_v20 (c : Dev nD) :
    Gen.W3 m ρ c (Proc.devRef .tc main_v20)
      = (Host.rsqrt : (⟨S10000, .f32⟩ : BufTy).Contents (Elt F) → (⟨S10000, .f32⟩ : BufTy).Contents (Elt F)) (Gen.W3 m ρ c (Proc.devRef .tc main_v19)) := by
  have h := StableHlo.after_unary_at (writes1 (F := F)) (Gen.W2 m ρ c) 16 rfl (by decide) (by decide)
  exact h
theorem st1_main_v21 (c : Dev nD) :
    Gen.W3 m ρ c (Proc.devRef .tc main_v21)
      = (broadcastInDim S10000x1 ![0] bcast_S10000_S10000x1_0 : (⟨S10000, .f32⟩ : BufTy).Contents (Elt F) → (⟨S10000x1, .f32⟩ : BufTy).Contents (Elt F)) (Gen.W3 m ρ c (Proc.devRef .tc main_v20)) := by
  have h := StableHlo.after_unary_at (writes1 (F := F)) (Gen.W2 m ρ c) 17 rfl (by decide) (by decide)
  exact h
theorem st1_main_v22 (c : Dev nD) :
    Gen.W3 m ρ c (Proc.devRef .tc main_v22)
      = (broadcastInDim S10000x256 ![0, 1] bcast_S10000x1_S10000x256_0_1 : (⟨S10000x1, .f32⟩ : BufTy).Contents (Elt F) → (⟨S10000x256, .f32⟩ : BufTy).Contents (Elt F)) (Gen.W3 m ρ c (Proc.devRef .tc main_v21)) := by
  have h := StableHlo.after_unary_at (writes1 (F := F)) (Gen.W2 m ρ c) 18 rfl (by decide) (by decide)
  exact h
theorem st1_main_v23 (c : Dev nD) :
    Gen.W3 m ρ c (Proc.devRef .tc main_v23)
      = (mulf : (⟨S10000x256, .f32⟩ : BufTy).Contents (Elt F) → (⟨S10000x256, .f32⟩ : BufTy).Contents (Elt F) → (⟨S10000x256, .f32⟩ : BufTy).Contents (Elt F)) (Gen.W3 m ρ c (Proc.devRef .tc main_v22)) (Gen.W3 m ρ c (Proc.devRef .tc main_v8)) := by
  have h := StableHlo.after_binary_at (writes1 (F := F)) (Gen.W2 m ρ c) 19 rfl (by decide) (by decide) (by decide)
  exact h
theorem st1_main_cst_3 (c : Dev nD) :
    Gen.W3 m ρ c (Proc.devRef .tc main_cst_3)
      = (constant S_ .f32 0x00000000#32) := by
  have h := StableHlo.after_nullary_at (writes1 (F := F)) (Gen.W2 m ρ c) 20 rfl (by decide)
  exact h
theorem st1_main_v24 (c : Dev nD) :
    Gen.W3 m ρ c (Proc.devRef .tc main_v24)
      = (broadcastInDim S10000x256 ![] bcast_S_S10000x256 : (⟨S_, .f32⟩ : BufTy).Contents (Elt F) → (⟨S10000x256, .f32⟩ : BufTy).Contents (Elt F)) (Gen.W3 m ρ c (Proc.devRef .tc main_cst_3)) := by
  have h := StableHlo.after_unary_at (writes1 (F := F)) (Gen.W2 m ρ c) 21 rfl (by decide) (by decide)
  exact h
theorem st1_main_c_4 (c : Dev nD) :
    Gen.W3 m ρ c (Proc.devRef .tc main_c_4)
      = (constantI S_ 32 0#32) := by
  have h := StableHlo.after_nullary_at (writes1 (F := F)) (Gen.W2 m ρ c) 22 rfl (by decide)
  exact h
theorem st1_main_v25 (c : Dev nD) :
    Gen.W3 m ρ c (Proc.devRef .tc main_v25)
      = (broadcastInDim S160000 ![] bcast_S_S160000 : (⟨S_, .i32⟩ : BufTy).Contents (Elt F) → (⟨S160000, .i32⟩ : BufTy).Contents (Elt F)) (Gen.W3 m ρ c (Proc.devRef .tc main_c_4)) := by
  have h := StableHlo.after_unary_at (writes1 (F := F)) (Gen.W2 m ρ c) 23 rfl (by decide) (by decide)
  exact h
theorem st1_main_v26 (c : Dev nD) :
    Gen.W3 m ρ c (Proc.devRef .tc main_v26)
      = (cmpi .slt : (⟨S160000, .i32⟩ : BufTy).Contents (Elt F) → (⟨S160000, .i32⟩ : BufTy).Contents (Elt F) → (⟨S160000, .i1⟩ : BufTy).Contents (Elt F)) (Gen.W3 m ρ c (Proc.devRef .tc main_v1)) (Gen.W3 m ρ c (Proc.devRef .tc main_v25)) := by
  have h := StableHlo.after_binary_at (writes1 (F := F)) (Gen.W2 m ρ c) 24 rfl (by decide) (by decide) (by decide)
  exact h
theorem st1_main_c_5 (c : Dev nD) :
    Gen.W3 m ρ c (Proc.devRef .tc main_c_5)
      = (constantI S_ 32 10000#32) := by
  have h := StableHlo.after_nullary_at (writes1 (F := F)) (Gen.W2 m ρ c) 25 rfl (by decide)
  exact h
theorem st1_main_v27 (c : Dev nD) :
    Gen.W3 m ρ c (Proc.devRef .tc main_v27)
      = (broadcastInDim S160000 ![] bcast_S_S160000 : (⟨S_, .i32⟩ : BufTy).Contents (Elt F) → (⟨S160000, .i32⟩ : BufTy).Contents (Elt F)) (Gen.W3 m ρ c (Proc.devRef .tc main_c_5)) := by
  have h := StableHlo.after_unary_at (writes1 (F := F)) (Gen.W2 m ρ c) 26 rfl (by decide) (by decide)
  exact h
theorem st1_main_v28 (c : Dev nD) :
    Gen.W3 m ρ c (Proc.devRef .tc main_v28)
      = (addi : (⟨S160000, .i32⟩ : BufTy).Contents (Elt F) → (⟨S160000, .i32⟩ : BufTy).Contents (Elt F) → (⟨S160000, .i32⟩ : BufTy).Contents (Elt F)) (Gen.W3 m ρ c (Proc.devRef .tc main_v1)) (Gen.W3 m ρ c (Proc.devRef .tc main_v27)) := by
  have h := StableHlo.after_binary_at (writes1 (F := F)) (Gen.W2 m ρ c) 27 rfl (by decide) (by decide) (by decide)
  exact h
theorem st1_main_v29 (c : Dev nD) :
    Gen.W3 m ρ c (Proc.devRef .tc main_v29)
      = (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)) (Gen.W3 m ρ c (Proc.devRef .tc main_v26)) (Gen.W3 m ρ c (Proc.devRef .tc main_v28)) (Gen.W3 m ρ c (Proc.devRef .tc main_v1)) := by
  have h := StableHlo.after_ternary_at (writes1 (F := F)) (Gen.W2 m ρ c) 28 rfl (by decide) (by decide) (by decide) (by decide)
  exact h
theorem st1_main_v30 (c : Dev nD) :
    Gen.W3 m ρ c (Proc.devRef .tc main_v30)
      = (broadcastInDim S160000x1 ![0] bcast_S160000_S160000x1_0 : (⟨S160000, .i32⟩ : BufTy).Contents (Elt F) → (⟨S160000x1, .i32⟩ : BufTy).Contents (Elt F)) (Gen.W3 m ρ c (Proc.devRef .tc main_v29)) := by
  have h := StableHlo.after_unary_at (writes1 (F := F)) (Gen.W2 m ρ c) 29 rfl (by decide) (by decide)
  exact h
theorem st1_main_v31 (c : Dev nD) :
    Gen.W3 m ρ c (Proc.devRef .tc main_v31)
      = (Host.gather gather_S10000x256_S160000x1_S160000x256_1_0_n_n_0_1_1256 (Gen.W3 m ρ c (Proc.devRef .tc main_v23)) (Gen.W3 m ρ c (Proc.devRef .tc main_v30)) : (⟨S160000x256, .f32⟩ : BufTy).Contents (Elt F)) := by
  have h := StableHlo.after_binary_at (writes1 (F := F)) (Gen.W2 m ρ c) 30 rfl (by decide) (by decide) (by decide)
  exact h
theorem st1_main_c_6 (c : Dev nD) :
    Gen.W3 m ρ c (Proc.devRef .tc main_c_6)
      = (constantI S_ 32 0#32) := by
  have h := StableHlo.after_nullary_at (writes1 (F := F)) (Gen.W2 m ρ c) 31 rfl (by decide)
  exact h
theorem st1_main_v32 (c : Dev nD) :
    Gen.W3 m ρ c (Proc.devRef .tc main_v32)
      = (broadcastInDim S160000 ![] bcast_S_S160000 : (⟨S_, .i32⟩ : BufTy).Contents (Elt F) → (⟨S160000, .i32⟩ : BufTy).Contents (Elt F)) (Gen.W3 m ρ c (Proc.devRef .tc main_c_6)) := by
  have h := StableHlo.after_unary_at (writes1 (F := F)) (Gen.W2 m ρ c) 32 rfl (by decide) (by decide)
  exact h
theorem st1_main_v33 (c : Dev nD) :
    Gen.W3 m ρ c (Proc.devRef .tc main_v33)
      = (cmpi .slt : (⟨S160000, .i32⟩ : BufTy).Contents (Elt F) → (⟨S160000, .i32⟩ : BufTy).Contents (Elt F) → (⟨S160000, .i1⟩ : BufTy).Contents (Elt F)) (Gen.W3 m ρ c (Proc.devRef .tc main_v3)) (Gen.W3 m ρ c (Proc.devRef .tc main_v32)) := by
  have h := StableHlo.after_binary_at (writes1 (F := F)) (Gen.W2 m ρ c) 33 rfl (by decide) (by decide) (by decide)
  exact h
theorem st1_main_c_7 (c : Dev nD) :
    Gen.W3 m ρ c (Proc.devRef .tc main_c_7)
      = (constantI S_ 32 10000#32) := by
  have h := StableHlo.after_nullary_at (writes1 (F := F)) (Gen.W2 m ρ c) 34 rfl (by decide)
  exact h
theorem st1_main_v34 (c : Dev nD) :
    Gen.W3 m ρ c (Proc.devRef .tc main_v34)
      = (broadcastInDim S160000 ![] bcast_S_S160000 : (⟨S_, .i32⟩ : BufTy).Contents (Elt F) → (⟨S160000, .i32⟩ : BufTy).Contents (Elt F)) (Gen.W3 m ρ c (Proc.devRef .tc main_c_7)) := by
  have h := StableHlo.after_unary_at (writes1 (F := F)) (Gen.W2 m ρ c) 35 rfl (by decide) (by decide)
  exact h
theorem st1_main_v35 (c : Dev nD) :
    Gen.W3 m ρ c (Proc.devRef .tc main_v35)
      = (addi : (⟨S160000, .i32⟩ : BufTy).Contents (Elt F) → (⟨S160000, .i32⟩ : BufTy).Contents (Elt F) → (⟨S160000, .i32⟩ : BufTy).Contents (Elt F)) (Gen.W3 m ρ c (Proc.devRef .tc main_v3)) (Gen.W3 m ρ c (Proc.devRef .tc main_v34)) := by
  have h := StableHlo.after_binary_at (writes1 (F := F)) (Gen.W2 m ρ c) 36 rfl (by decide) (by decide) (by decide)
  exact h
theorem st1_main_v36 (c : Dev nD) :
    Gen.W3 m ρ c (Proc.devRef .tc main_v36)
      = (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)) (Gen.W3 m ρ c (Proc.devRef .tc main_v33)) (Gen.W3 m ρ c (Proc.devRef .tc main_v35)) (Gen.W3 m ρ c (Proc.devRef .tc main_v3)) := by
  have h := StableHlo.after_ternary_at (writes1 (F := F)) (Gen.W2 m ρ c) 37 rfl (by decide) (by decide) (by decide) (by decide)
  exact h
theorem st1_main_v37 (c : Dev nD) :
    Gen.W3 m ρ c (Proc.devRef .tc main_v37)
      = (broadcastInDim S160000x1 ![0] bcast_S160000_S160000x1_0 : (⟨S160000, .i32⟩ : BufTy).Contents (Elt F) → (⟨S160000x1, .i32⟩ : BufTy).Contents (Elt F)) (Gen.W3 m ρ c (Proc.devRef .tc main_v36)) := by
  have h := StableHlo.after_unary_at (writes1 (F := F)) (Gen.W2 m ρ c) 38 rfl (by decide) (by decide)
  exact h
theorem st1_main_v38 (c : Dev nD) :
    Gen.W3 m ρ c (Proc.devRef .tc main_v38)
      = (Host.scatterAdd scatter_S10000x256_S160000x1_S160000x256_1_0_0_1 (Gen.W3 m ρ c (Proc.devRef .tc main_v24)) (Gen.W3 m ρ c (Proc.devRef .tc main_v37)) (Gen.W3 m ρ c (Proc.devRef .tc main_v31)) : (⟨S10000x256, .f32⟩ : BufTy).Contents (Elt F)) := by
  have h := StableHlo.after_ternary_at (writes1 (F := F)) (Gen.W2 m ρ c) 39 rfl (by decide) (by decide) (by decide) (by decide)
  exact h
theorem st1_main_cst_8 (c : Dev nD) :
    Gen.W3 m ρ c (Proc.devRef .tc main_cst_8)
      = (constant S_ .f32 0x00000000#32) := by
  have h := StableHlo.after_nullary_at (writes1 (F := F)) (Gen.W2 m ρ c) 40 rfl (by decide)
  exact h
theorem st1_main_v39 (c : Dev nD) :
    Gen.W3 m ρ c (Proc.devRef .tc main_v39)
      = (broadcastInDim S10000 ![] bcast_S_S10000 : (⟨S_, .f32⟩ : BufTy).Contents (Elt F) → (⟨S10000, .f32⟩ : BufTy).Contents (Elt F)) (Gen.W3 m ρ c (Proc.devRef .tc main_cst_8)) := by
  have h := StableHlo.after_unary_at (writes1 (F := F)) (Gen.W2 m ρ c) 41 rfl (by decide) (by decide)
  exact h
theorem st1_main_c_9 (c : Dev nD) :
    Gen.W3 m ρ c (Proc.devRef .tc main_c_9)
      = (constantI S_ 32 0#32) := by
  have h := StableHlo.after_nullary_at (writes1 (F := F)) (Gen.W2 m ρ c) 42 rfl (by decide)
  exact h
theorem st1_main_v40 (c : Dev nD) :
    Gen.W3 m ρ c (Proc.devRef .tc main_v40)
      = (broadcastInDim S160000 ![] bcast_S_S160000 : (⟨S_, .i32⟩ : BufTy).Contents (Elt F) → (⟨S160000, .i32⟩ : BufTy).Contents (Elt F)) (Gen.W3 m ρ c (Proc.devRef .tc main_c_9)) := by
  have h := StableHlo.after_unary_at (writes1 (F := F)) (Gen.W2 m ρ c) 43 rfl (by decide) (by decide)
  exact h
theorem st1_main_v41 (c : Dev nD) :
    Gen.W3 m ρ c (Proc.devRef .tc main_v41)
      = (cmpi .slt : (⟨S160000, .i32⟩ : BufTy).Contents (Elt F) → (⟨S160000, .i32⟩ : BufTy).Contents (Elt F) → (⟨S160000, .i1⟩ : BufTy).Contents (Elt F)) (Gen.W3 m ρ c (Proc.devRef .tc main_v3)) (Gen.W3 m ρ c (Proc.devRef .tc main_v40)) := by
  have h := StableHlo.after_binary_at (writes1 (F := F)) (Gen.W2 m ρ c) 44 rfl (by decide) (by decide) (by decide)
  exact h
theorem st1_main_c_10 (c : Dev nD) :
    Gen.W3 m ρ c (Proc.devRef .tc main_c_10)
      = (constantI S_ 32 10000#32) := by
  have h := StableHlo.after_nullary_at (writes1 (F := F)) (Gen.W2 m ρ c) 45 rfl (by decide)
  exact h
theorem st1_main_v42 (c : Dev nD) :
    Gen.W3 m ρ c (Proc.devRef .tc main_v42)
      = (broadcastInDim S160000 ![] bcast_S_S160000 : (⟨S_, .i32⟩ : BufTy).Contents (Elt F) → (⟨S160000, .i32⟩ : BufTy).Contents (Elt F)) (Gen.W3 m ρ c (Proc.devRef .tc main_c_10)) := by
  have h := StableHlo.after_unary_at (writes1 (F := F)) (Gen.W2 m ρ c) 46 rfl (by decide) (by decide)
  exact h
theorem st1_main_v43 (c : Dev nD) :
    Gen.W3 m ρ c (Proc.devRef .tc main_v43)
      = (addi : (⟨S160000, .i32⟩ : BufTy).Contents (Elt F) → (⟨S160000, .i32⟩ : BufTy).Contents (Elt F) → (⟨S160000, .i32⟩ : BufTy).Contents (Elt F)) (Gen.W3 m ρ c (Proc.devRef .tc main_v3)) (Gen.W3 m ρ c (Proc.devRef .tc main_v42)) := by
  have h := StableHlo.after_binary_at (writes1 (F := F)) (Gen.W2 m ρ c) 47 rfl (by decide) (by decide) (by decide)
  exact h
theorem st1_main_v44 (c : Dev nD) :
    Gen.W3 m ρ c (Proc.devRef .tc main_v44)
      = (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)) (Gen.W3 m ρ c (Proc.devRef .tc main_v41)) (Gen.W3 m ρ c (Proc.devRef .tc main_v43)) (Gen.W3 m ρ c (Proc.devRef .tc main_v3)) := by
  have h := StableHlo.after_ternary_at (writes1 (F := F)) (Gen.W2 m ρ c) 48 rfl (by decide) (by decide) (by decide) (by decide)
  exact h
theorem st1_main_v45 (c : Dev nD) :
    Gen.W3 m ρ c (Proc.devRef .tc main_v45)
      = (broadcastInDim S160000x1 ![0] bcast_S160000_S160000x1_0 : (⟨S160000, .i32⟩ : BufTy).Contents (Elt F) → (⟨S160000x1, .i32⟩ : BufTy).Contents (Elt F)) (Gen.W3 m ρ c (Proc.devRef .tc main_v44)) := by
  have h := StableHlo.after_unary_at (writes1 (F := F)) (Gen.W2 m ρ c) 49 rfl (by decide) (by decide)
  exact h
theorem st1_main_v46 (c : Dev nD) :
    Gen.W3 m ρ c (Proc.devRef .tc main_v46)
      = (Host.gather gather_S10000_S160000x1_S160000_n_0_n_n_0_1_1 (Gen.W3 m ρ c (Proc.devRef .tc main_v20)) (Gen.W3 m ρ c (Proc.devRef .tc main_v45)) : (⟨S160000, .f32⟩ : BufTy).Contents (Elt F)) := by
  have h := StableHlo.after_binary_at (writes1 (F := F)) (Gen.W2 m ρ c) 50 rfl (by decide) (by decide) (by decide)
  exact h
theorem st1_main_c_11 (c : Dev nD) :
    Gen.W3 m ρ c (Proc.devRef .tc main_c_11)
      = (constantI S_ 32 0#32) := by
  have h := StableHlo.after_nullary_at (writes1 (F := F)) (Gen.W2 m ρ c) 51 rfl (by decide)
  exact h
theorem st1_main_v47 (c : Dev nD) :
    Gen.W3 m ρ c (Proc.devRef .tc main_v47)
      = (broadcastInDim S160000 ![] bcast_S_S160000 : (⟨S_, .i32⟩ : BufTy).Contents (Elt F) → (⟨S160000, .i32⟩ : BufTy).Contents (Elt F)) (Gen.W3 m ρ c (Proc.devRef .tc main_c_11)) := by
  have h := StableHlo.after_unary_at (writes1 (F := F)) (Gen.W2 m ρ c) 52 rfl (by decide) (by decide)
  exact h
theorem st1_main_v48 (c : Dev nD) :
    Gen.W3 m ρ c (Proc.devRef .tc main_v48)
      = (cmpi .slt : (⟨S160000, .i32⟩ : BufTy).Contents (Elt F) → (⟨S160000, .i32⟩ : BufTy).Contents (Elt F) → (⟨S160000, .i1⟩ : BufTy).Contents (Elt F)) (Gen.W3 m ρ c (Proc.devRef .tc main_v1)) (Gen.W3 m ρ c (Proc.devRef .tc main_v47)) := by
  have h := StableHlo.after_binary_at (writes1 (F := F)) (Gen.W2 m ρ c) 53 rfl (by decide) (by decide) (by decide)
  exact h
theorem st1_main_c_12 (c : Dev nD) :
    Gen.W3 m ρ c (Proc.devRef .tc main_c_12)
      = (constantI S_ 32 10000#32) := by
  have h := StableHlo.after_nullary_at (writes1 (F := F)) (Gen.W2 m ρ c) 54 rfl (by decide)
  exact h
theorem st1_main_v49 (c : Dev nD) :
    Gen.W3 m ρ c (Proc.devRef .tc main_v49)
      = (broadcastInDim S160000 ![] bcast_S_S160000 : (⟨S_, .i32⟩ : BufTy).Contents (Elt F) → (⟨S160000, .i32⟩ : BufTy).Contents (Elt F)) (Gen.W3 m ρ c (Proc.devRef .tc main_c_12)) := by
  have h := StableHlo.after_unary_at (writes1 (F := F)) (Gen.W2 m ρ c) 55 rfl (by decide) (by decide)
  exact h
theorem st1_main_v50 (c : Dev nD) :
    Gen.W3 m ρ c (Proc.devRef .tc main_v50)
      = (addi : (⟨S160000, .i32⟩ : BufTy).Contents (Elt F) → (⟨S160000, .i32⟩ : BufTy).Contents (Elt F) → (⟨S160000, .i32⟩ : BufTy).Contents (Elt F)) (Gen.W3 m ρ c (Proc.devRef .tc main_v1)) (Gen.W3 m ρ c (Proc.devRef .tc main_v49)) := by
  have h := StableHlo.after_binary_at (writes1 (F := F)) (Gen.W2 m ρ c) 56 rfl (by decide) (by decide) (by decide)
  exact h
theorem st1_main_v51 (c : Dev nD) :
    Gen.W3 m ρ c (Proc.devRef .tc main_v51)
      = (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)) (Gen.W3 m ρ c (Proc.devRef .tc main_v48)) (Gen.W3 m ρ c (Proc.devRef .tc main_v50)) (Gen.W3 m ρ c (Proc.devRef .tc main_v1)) := by
  have h := StableHlo.after_ternary_at (writes1 (F := F)) (Gen.W2 m ρ c) 57 rfl (by decide) (by decide) (by decide) (by decide)
  exact h
theorem st1_main_v52 (c : Dev nD) :
    Gen.W3 m ρ c (Proc.devRef .tc main_v52)
      = (broadcastInDim S160000x1 ![0] bcast_S160000_S160000x1_0 : (⟨S160000, .i32⟩ : BufTy).Contents (Elt F) → (⟨S160000x1, .i32⟩ : BufTy).Contents (Elt F)) (Gen.W3 m ρ c (Proc.devRef .tc main_v51)) := by
  have h := StableHlo.after_unary_at (writes1 (F := F)) (Gen.W2 m ρ c) 58 rfl (by decide) (by decide)
  exact h
theorem st1_main_v53 (c : Dev nD) :
    Gen.W3 m ρ c (Proc.devRef .tc main_v53)
      = (Host.scatterAdd scatter_S10000_S160000x1_S160000_n_0_0_1 (Gen.W3 m ρ c (Proc.devRef .tc main_v39)) (Gen.W3 m ρ c (Proc.devRef .tc main_v52)) (Gen.W3 m ρ c (Proc.devRef .tc main_v46)) : (⟨S10000, .f32⟩ : BufTy).Contents (Elt F)) := by
  have h := StableHlo.after_ternary_at (writes1 (F := F)) (Gen.W2 m ρ c) 59 rfl (by decide) (by decide) (by decide) (by decide)
  exact h
theorem st1_main_v54 (c : Dev nD) :
    Gen.W3 m ρ c (Proc.devRef .tc main_v54)
      = shapeCast S10000x1 (Gen.W3 m ρ c (Proc.devRef .tc main_v20)) shapeCasts_S10000_S10000x1 := by
  have h := StableHlo.after_reshape_at (writes1 (F := F)) (Gen.W2 m ρ c) 60 rfl (by decide) (by decide)
  exact h
theorem st1_main_v55 (c : Dev nD) :
    Gen.W3 m ρ c (Proc.devRef .tc main_v55)
      = shapeCast S10000x1 (Gen.W3 m ρ c (Proc.devRef .tc main_v53)) shapeCasts_S10000_S10000x1 := by
  have h := StableHlo.after_reshape_at (writes1 (F := F)) (Gen.W2 m ρ c) 61 rfl (by decide) (by decide)
  exact h

/-! A buffer the second host stretch does not write holds at its end what it held at its start. -/
theorem keep1_main_v8 (c : Dev nD) :
    Gen.W3 m ρ c (Proc.devRef .tc main_v8) = Gen.W2 m ρ c (Proc.devRef .tc main_v8) :=
  StableHlo.after_of_writesAre (writes1 (F := F)) (Gen.W2 m ρ c) (by decide)
theorem keep1_main_v0 (c : Dev nD) :
    Gen.W3 m ρ c (Proc.devRef .tc main_v0) = Gen.W2 m ρ c (Proc.devRef .tc main_v0) :=
  StableHlo.after_of_writesAre (writes1 (F := F)) (Gen.W2 m ρ c) (by decide)
theorem keep1_main_v1 (c : Dev nD) :
    Gen.W3 m ρ c (Proc.devRef .tc main_v1) = Gen.W2 m ρ c (Proc.devRef .tc main_v1) :=
  StableHlo.after_of_writesAre (writes1 (F := F)) (Gen.W2 m ρ c) (by decide)
theorem keep1_main_v2 (c : Dev nD) :
    Gen.W3 m ρ c (Proc.devRef .tc main_v2) = Gen.W2 m ρ c (Proc.devRef .tc main_v2) :=
  StableHlo.after_of_writesAre (writes1 (F := F)) (Gen.W2 m ρ c) (by decide)
theorem keep1_main_v3 (c : Dev nD) :
    Gen.W3 m ρ c (Proc.devRef .tc main_v3) = Gen.W2 m ρ c (Proc.devRef .tc main_v3) :=
  StableHlo.after_of_writesAre (writes1 (F := F)) (Gen.W2 m ρ c) (by decide)
theorem keep1_main_v4 (c : Dev nD) :
    Gen.W3 m ρ c (Proc.devRef .tc main_v4) = Gen.W2 m ρ c (Proc.devRef .tc main_v4) :=
  StableHlo.after_of_writesAre (writes1 (F := F)) (Gen.W2 m ρ c) (by decide)
theorem keep1_main_v5 (c : Dev nD) :
    Gen.W3 m ρ c (Proc.devRef .tc main_v5) = Gen.W2 m ρ c (Proc.devRef .tc main_v5) :=
  StableHlo.after_of_writesAre (writes1 (F := F)) (Gen.W2 m ρ c) (by decide)
theorem keep1_main_v6 (c : Dev nD) :
    Gen.W3 m ρ c (Proc.devRef .tc main_v6) = Gen.W2 m ρ c (Proc.devRef .tc main_v6) :=
  StableHlo.after_of_writesAre (writes1 (F := F)) (Gen.W2 m ρ c) (by decide)
theorem keep1_main_v7 (c : Dev nD) :
    Gen.W3 m ρ c (Proc.devRef .tc main_v7) = Gen.W2 m ρ c (Proc.devRef .tc main_v7) :=
  StableHlo.after_of_writesAre (writes1 (F := F)) (Gen.W2 m ρ c) (by decide)
theorem keep1_main_arg0 (c : Dev nD) :
    Gen.W3 m ρ c (Proc.devRef .tc main_arg0) = Gen.W2 m ρ c (Proc.devRef .tc main_arg0) :=
  StableHlo.after_of_writesAre (writes1 (F := F)) (Gen.W2 m ρ c) (by decide)
theorem keep1_main_arg1 (c : Dev nD) :
    Gen.W3 m ρ c (Proc.devRef .tc main_arg1) = Gen.W2 m ρ c (Proc.devRef .tc main_arg1) :=
  StableHlo.after_of_writesAre (writes1 (F := F)) (Gen.W2 m ρ c) (by decide)
theorem keep1_main_arg2 (c : Dev nD) :
    Gen.W3 m ρ c (Proc.devRef .tc main_arg2) = Gen.W2 m ρ c (Proc.devRef .tc main_arg2) :=
  StableHlo.after_of_writesAre (writes1 (F := F)) (Gen.W2 m ρ c) (by decide)
theorem keep1_main_arg3 (c : Dev nD) :
    Gen.W3 m ρ c (Proc.devRef .tc main_arg3) = Gen.W2 m ρ c (Proc.devRef .tc main_arg3) :=
  StableHlo.after_of_writesAre (writes1 (F := F)) (Gen.W2 m ρ c) (by decide)
theorem keep1_main_arg4 (c : Dev nD) :
    Gen.W3 m ρ c (Proc.devRef .tc main_arg4) = Gen.W2 m ρ c (Proc.devRef .tc main_arg4) :=
  StableHlo.after_of_writesAre (writes1 (F := F)) (Gen.W2 m ρ c) (by decide)
theorem keep1_main_arg5 (c : Dev nD) :
    Gen.W3 m ρ c (Proc.devRef .tc main_arg5) = Gen.W2 m ρ c (Proc.devRef .tc main_arg5) :=
  StableHlo.after_of_writesAre (writes1 (F := F)) (Gen.W2 m ρ c) (by decide)
theorem keep1_main_arg6 (c : Dev nD) :
    Gen.W3 m ρ c (Proc.devRef .tc main_arg6) = Gen.W2 m ρ c (Proc.devRef .tc main_arg6) :=
  StableHlo.after_of_writesAre (writes1 (F := F)) (Gen.W2 m ρ c) (by decide)
theorem keep1_main_arg7 (c : Dev nD) :
    Gen.W3 m ρ c (Proc.devRef .tc main_arg7) = Gen.W2 m ρ c (Proc.devRef .tc main_arg7) :=
  StableHlo.after_of_writesAre (writes1 (F := F)) (Gen.W2 m ρ c) (by decide)

end Cert.KernelSide

end
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.LibDotPlain.lean ====
/-
  A general lemma. The host's plain matrix product of an [M, K] array by a [K, N] array (the left operand contracted
  on its second axis, the right on its first, no batch axes), read at the exact instance, is at entry (p, q) the
  finite sum over the contraction coordinate k of left (p, k) · right (k, q). The host product has no accumulator, so
  nothing is added in front of the sum. It holds for all sizes, both operands' formats and any precision key.
-/
import Idealize.ShloMosaic.Lib.ValueIdx
import Idealize.ShloMosaic.PureOps.Ideal.Laws
import proofs.«150153_g58806692217087_cont_9to1_m_85_2_alg».proof.Proof.LibMatmulPlain

namespace Idealize.ShloMosaic.DotPlain

open Idealize.ShloMosaic Idealize.ShloMosaic.ValueIdx Idealize.ShloMosaic.MatmulPlain

variable {M K N : ℕ}

/-- Entry (p, q) of the host's plain product is ∑ k, left (p, k) · right (k, q). -/
theorem dotGeneral_apply {φ₁ φ₂ : FTy} (prec : Option ContractPrecision)
    (l : FVec Ideal ⟨2, ![M, K]⟩ φ₁) (r : FVec Ideal ⟨2, ![K, N]⟩ φ₂) (p : Fin M) (q : Fin N) :
    Host.dotGeneral (DotDims.plain M K N) prec l r (ix2 p q) = ∑ k : Fin K, l (ix2 p k) * r (ix2 k q) := by
  show FloatOps.dotGeneral (DotDims.plain M K N) prec .single l r (ix2 p q) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.DotPlain
-- ==== Proof.LiftReduce.lean ====
/-
  Sums over an axis and matrix products of arrays that are real arrays, entry by entry.

  * the sum of the coercions of finitely many reals is the coercion of their sum;
  * the column sum of a real matrix (the kernel's reduction over axis 0 and the host's reduction with the start value 0)
    is the real vector of column sums;
  * the plain product of two real matrices (the kernel's product into a zero accumulator and the host's product)
    is the real matrix product.
  Every statement holds for all extents.
-/
import Idealize.ShloMosaic.PureOps.Ideal
import Idealize.ShloMosaic.PureOps.Ideal.Laws
import Idealize.ShloMosaic.PureOps.Reduce
import Idealize.ShloMosaic.Lib.ValueIdx
import proofs.«150153_g58806692217087_cont_9to1_m_85_2_alg».proof.Proof.RealLift
import proofs.«150153_g58806692217087_cont_9to1_m_85_2_alg».proof.Proof.LibMatmulPlain
import proofs.«150153_g58806692217087_cont_9to1_m_85_2_alg».proof.Proof.LibDotPlain
import proofs.«150153_g58806692217087_cont_9to1_m_85_2_alg».proof.Proof.LibColumnForms

noncomputable section

namespace Cert.RealLift

open Idealize.ShloMosaic Idealize.ShloMosaic.ValueIdx

/-- The sum of the coercions of finitely many reals is the coercion of their sum. -/
private theorem sum_coe_fin {ι : Type} (s : Finset ι) (f : ι → ℝ) :
    ∑ i ∈ s, ((f i : ℝ) : EReal) = ((∑ i ∈ s, f i : ℝ) : EReal) := by
  classical
  refine Finset.induction_on s ?_ ?_
  · simp
  · intro x s hx ih
    rw [Finset.sum_insert hx, Finset.sum_insert hx, ih, EReal.coe_add]

/-- The kernel's sum over axis 0 of a real matrix is the real vector of column sums. -/
theorem isReal1_multiReduction_add_axis0 {a b : ℕ} {φ : FTy} (A : FVec Ideal ⟨2, ![a, b]⟩ φ) (A' : Fin a → Fin b → ℝ)
    (acc : BitVec φ.bits) (h : (⟨2, ![a, b]⟩ : Shape).Reduces [0] ⟨1, ![b]⟩) (hφ : FKind.Formats φ)
    (hacc : acc = FKind.add.neutral φ hφ) (hA : IsReal2 A A') :
    IsReal1 (multiReduction (F := Ideal) .add [0] ⟨1, ![b]⟩ A acc h hφ hacc) (fun j => ∑ i, A' i j) := by
  intro j
  rw [Ideal.multiReduction_add_single A acc h hφ hacc (ix1 j)]
  have hk : ∀ k : Fin a, A (h.lift (ix1 j) k) = ((A' k j : ℝ) : EReal) := fun k => by
    rw [Cert.ColumnForms.lift_axis0 h j k]; exact hA k j
  show ∑ k : Fin a, A (h.lift (ix1 j) k) = _
  rw [Finset.sum_congr rfl (fun k _ => hk k)]
  exact sum_coe_fin _ _

/-- The host's sum over axis 0 of a real matrix, from the start value 0, is the real vector of column sums. -/
theorem isReal1_hostReduceAdd_axis0 {a b : ℕ} {φ : FTy} (A : FVec Ideal ⟨2, ![a, b]⟩ φ) (A' : Fin a → Fin b → ℝ)
    (z : (⟨0, ![]⟩ : Shape).Idx → Ideal φ) (h : (⟨2, ![a, b]⟩ : Shape).ReducesTo [0] ⟨1, ![b]⟩)
    (hu : 0 < (⟨0, ![]⟩ : Shape).numel) (hA : IsReal2 A A') (hz : IsReal0 z 0) :
    IsReal1 (Host.reduceAdd (F := Ideal) A z h hu) (fun j => ∑ i, A' i j) := by
  intro j
  have hr : (⟨2, ![a, b]⟩ : Shape).Reduces [0] ⟨1, ![b]⟩ := ⟨h.1, Nat.one_pos, h.2⟩
  show Ideal.hostReduceAdd h A (z (Shape.Idx.first hu)) (ix1 j) = _
  rw [Ideal.hostReduceAdd_single h hr A _ (ix1 j), hz (Shape.Idx.first hu)]
  have hk : ∀ k : Fin a, A (hr.lift (ix1 j) k) = ((A' k j : ℝ) : EReal) := fun k => by
    rw [Cert.ColumnForms.lift_axis0 hr j k]; exact hA k j
  show ((0 : ℝ) : EReal) + ∑ k : Fin a, A (hr.lift (ix1 j) k) = _
  rw [Finset.sum_congr rfl (fun k _ => hk k), EReal.coe_zero, zero_add]
  exact sum_coe_fin _ _

/-- The kernel's plain product of two real matrices into a zero accumulator is the real matrix product. -/
theorem isReal2_matmul_zero {m k n : ℕ} {φ₁ φ₂ : FTy} (D : DotDims ⟨2, ![m, k]⟩ ⟨2, ![k, n]⟩ ⟨2, ![m, n]⟩)
    (hD : D = DotDims.plain m k n) (prec : Option ContractPrecision)
    (L : FVec Ideal ⟨2, ![m, k]⟩ φ₁) (R : FVec Ideal ⟨2, ![k, n]⟩ φ₂) (L' : Fin m → Fin k → ℝ) (R' : Fin k → Fin n → ℝ)
    (hL : IsReal2 L L') (hR : IsReal2 R R') :
    IsReal2 (matmul D prec L R (constant (F := Ideal) ⟨2, ![m, n]⟩ .f32 0x00000000#32)) (fun p q => ∑ t, L' p t * R' t q) := by
  subst hD
  intro p q
  rw [MatmulPlain.matmul_zero_apply prec L R p q]
  have hk : ∀ t : Fin k, L (ix2 p t) * R (ix2 t q) = ((L' p t * R' t q : ℝ) : EReal) := fun t => by
    rw [hL p t, hR t q, EReal.coe_mul]
  rw [Finset.sum_congr rfl (fun t _ => hk t)]
  exact sum_coe_fin _ _

/-- The host's plain product of two real matrices is the real matrix product. -/
theorem isReal2_dotGeneral {m k n : ℕ} {φ₁ φ₂ : FTy} (D : DotDims ⟨2, ![m, k]⟩ ⟨2, ![k, n]⟩ ⟨2, ![m, n]⟩)
    (hD : D = DotDims.plain m k n) (prec : Option ContractPrecision)
    (L : FVec Ideal ⟨2, ![m, k]⟩ φ₁) (R : FVec Ideal ⟨2, ![k, n]⟩ φ₂) (L' : Fin m → Fin k → ℝ) (R' : Fin k → Fin n → ℝ)
    (hL : IsReal2 L L') (hR : IsReal2 R R') :
    IsReal2 (Host.dotGeneral (F := Ideal) D prec L R) (fun p q => ∑ t, L' p t * R' t q) := by
  subst hD
  intro p q
  rw [DotPlain.dotGeneral_apply prec L R p q]
  have hk : ∀ t : Fin k, L (ix2 p t) * R (ix2 t q) = ((L' p t * R' t q : ℝ) : EReal) := fun t => by
    rw [hL p t, hR t q, EReal.coe_mul]
  rw [Finset.sum_congr rfl (fun t _ => hk t)]
  exact sum_coe_fin _ _

/-- A record of dimension numbers with the plain product's six lists is the plain product's record. -/
theorem dotDims_eq_plain {m k n : ℕ} (D : DotDims ⟨2, ![m, k]⟩ ⟨2, ![k, n]⟩ ⟨2, ![m, n]⟩)
    (h1 : D.lhsContracting = [1]) (h2 : D.rhsContracting = [0]) (h3 : D.lhsNonContracting = [0])
    (h4 : D.rhsNonContracting = [1]) (h5 : D.lhsBatch = []) (h6 : D.rhsBatch = []) : D = DotDims.plain m k n := by
  cases D with
  | mk lc rc ln rn lb rb wf =>
    simp only at h1 h2 h3 h4 h5 h6
    subst h1 h2 h3 h4 h5 h6
    rfl

end Cert.RealLift

end
-- ==== Proof.LibRowIndex.lean ====
/-
  Reading a row gather and a row scatter-add at an index.

  `x[idx]` over the rows of a matrix `x : [N, C]` at a column of row numbers `idx : [n, 1]` is the gather whose
  result row `i` is row `idx[i]` of `x`, the number read signed and clamped into `[0, N - 1]`.
  `segment_sum` of the rows of `upd : [n, C]` by the row numbers `idx : [n, 1]` into `x : [R, C]` is the
  scatter with an add body: at the ideal instance element `(r, c)` of the result is `x (r, c)` plus the sum over
  the update rows `i` whose number, read signed and NOT clamped, is `r`, of `upd (i, c)`; a row whose number is
  outside `[0, R)` contributes nowhere.
-/
import Idealize.ShloMosaic.PureOps.Ideal
import Idealize.ShloMosaic.Lib.ValueIdx

noncomputable section

namespace Idealize.ShloMosaic.RowIndex

open Idealize.ShloMosaic Idealize.ShloMosaic.ValueIdx

/-- The dimension numbers of a gather of whole rows: operand `[N, C]`, row numbers `[n, 1]`, result `[n, C]`. -/
abbrev rowGatherDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- Result element `(i, j)` of a row gather is the operand at row `idx[i, 0]` (signed, clamped), column `j`. -/
theorem gather_rows_apply {α : Type} {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (i : Fin n) (j : Fin C) :
    Host.gather (rowGatherDims N C n wf) x idx (ix2 i j)
      = x (ix2 (⟨min (idx (ix2 i (0 : Fin 1))).toInt.toNat (N - 1), by omega⟩ : Fin N) j) := by
  unfold Host.gather
  congr 1
  funext a
  refine Fin.ext ?_
  match a with
  | ⟨0, _⟩ =>
    -- the row axis is collapsed and named by the start index map: the clamped row number, no batch or offset part
    show (rowGatherDims N C n wf).start (ix2 i j) idx 0 + (rowGatherDims N C n wf).batchCoord (ix2 i j) 0
        + (rowGatherDims N C n wf).offCoord (ix2 i j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C n wf).startIndexMap from List.mem_singleton.mpr rfl)]
    have hsi : (rowGatherDims N C n wf).siIdx (ix2 i j) ⟨List.idxOf (0 : Fin 2) (rowGatherDims N C n wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    -- the column axis is the one offset axis: the slice starts at 0 and the offset is the result's column
    show (rowGatherDims N C n wf).start (ix2 i j) idx 1 + (rowGatherDims N C n wf).batchCoord (ix2 i j) 1
        + (rowGatherDims N C n wf).offCoord (ix2 i j) 1 = j.val
    rw [GatherDims.batchCoord_eq_zero _ _ _ List.not_mem_nil]
    have hs : (rowGatherDims N C n wf).start (ix2 i j) idx 1 = 0 := by
      unfold GatherDims.start
      rw [dif_neg (show (1 : Fin 2) ∉ ([0] : List (Fin 2)) by decide)]
    have ho : (rowGatherDims N C n wf).offCoord (ix2 i j) 1 = j.val := by
      unfold GatherDims.offCoord
      rw [dif_pos ((GatherDims.mem_sKept _ _).2 ⟨show (1 : Fin 2) ∉ ([0] : List (Fin 2)) by decide, List.not_mem_nil⟩)]
      rfl
    rw [hs, ho]; omega

/-- The dimension numbers of a scatter of whole rows: operand `[R, C]`, row numbers `[n, 1]`, updates `[n, C]`. -/
abbrev rowScatterDims (R C n : Nat)
    (wf : ScatterDims.WF ⟨2, ![R, C]⟩ ⟨2, ![n, 1]⟩ ⟨2, ![n, C]⟩ [1] [0] [0] 1) :
    ScatterDims ⟨2, ![R, C]⟩ ⟨2, ![n, 1]⟩ ⟨2, ![n, C]⟩ where
  updateWindowDims := [1]
  insertedWindowDims := [0]
  scatterDimsToOperandDims := [0]
  indexVectorDim := 1
  wf := wf

/-- On the row axis the window of update element `(i, c')` starts at row `i`'s number, read signed. -/
theorem start_rows_zero {R C n w : Nat}
    (wf : ScatterDims.WF ⟨2, ![R, C]⟩ ⟨2, ![n, 1]⟩ ⟨2, ![n, C]⟩ [1] [0] [0] 1)
    (idx : IVec ⟨2, ![n, 1]⟩ w) (i : Fin n) (c' : Fin C) :
    (rowScatterDims R C n wf).start (ix2 i c') idx 0 = (idx (ix2 i (0 : Fin 1))).toInt := by
  unfold ScatterDims.start
  rw [dif_pos (show (0 : Fin 2) ∈ (rowScatterDims R C n wf).scatterDimsToOperandDims from List.mem_singleton.mpr rfl)]
  have hsi : (rowScatterDims R C n wf).siIdx (ix2 i c')
      ⟨List.idxOf (0 : Fin 2) (rowScatterDims R C n wf).scatterDimsToOperandDims,
        List.idxOf_lt_length_iff.2 (List.mem_singleton.mpr rfl)⟩ = ix2 i (0 : Fin 1) := by
    funext b; refine Fin.ext ?_
    match b with
    | ⟨0, _⟩ => rfl
    | ⟨1, _⟩ => rfl
  rw [hsi]

/-- On the column axis, which the scatter indices do not name, the window starts at `0`. -/
theorem start_rows_one {R C n w : Nat}
    (wf : ScatterDims.WF ⟨2, ![R, C]⟩ ⟨2, ![n, 1]⟩ ⟨2, ![n, C]⟩ [1] [0] [0] 1)
    (idx : IVec ⟨2, ![n, 1]⟩ w) (i : Fin n) (c' : Fin C) :
    (rowScatterDims R C n wf).start (ix2 i c') idx 1 = 0 := by
  unfold ScatterDims.start
  rw [dif_neg (show (1 : Fin 2) ∉ ([0] : List (Fin 2)) by decide)]

/-- The row axis is inserted: the window coordinate there is `0`. -/
theorem window_rows_zero {R C n : Nat}
    (wf : ScatterDims.WF ⟨2, ![R, C]⟩ ⟨2, ![n, 1]⟩ ⟨2, ![n, C]⟩ [1] [0] [0] 1)
    (i : Fin n) (c' : Fin C) :
    (rowScatterDims R C n wf).window (ix2 i c') 0 = 0 := by
  unfold ScatterDims.window
  have h : (0 : Fin 2) ∉ (rowScatterDims R C n wf).sKept := by
    show (0 : Fin 2) ∉ (List.finRange 2).filter (· ∉ ([0] : List (Fin 2)))
    decide
  rw [dif_neg h]

/-- The column axis is the one window axis: the window coordinate there is the update's column. -/
theorem window_rows_one {R C n : Nat}
    (wf : ScatterDims.WF ⟨2, ![R, C]⟩ ⟨2, ![n, 1]⟩ ⟨2, ![n, C]⟩ [1] [0] [0] 1)
    (i : Fin n) (c' : Fin C) :
    (rowScatterDims R C n wf).window (ix2 i c') 1 = c'.val := by
  unfold ScatterDims.window
  have h : (1 : Fin 2) ∈ (rowScatterDims R C n wf).sKept := by
    show (1 : Fin 2) ∈ (List.finRange 2).filter (· ∉ ([0] : List (Fin 2)))
    decide
  rw [dif_pos h]
  rfl

/-- Where update element `(i, c')` of a row scatter lands: at `(r, c)` exactly when row `i`'s number is `r` and
    `c' = c`. -/
theorem resultIdx_rows_iff {R C n w : Nat}
    (wf : ScatterDims.WF ⟨2, ![R, C]⟩ ⟨2, ![n, 1]⟩ ⟨2, ![n, C]⟩ [1] [0] [0] 1)
    (idx : IVec ⟨2, ![n, 1]⟩ w) (i : Fin n) (c' : Fin C) (r : Fin R) (c : Fin C) :
    (rowScatterDims R C n wf).resultIdx? (ix2 i c') idx = some (ix2 r c)
      ↔ (idx (ix2 i (0 : Fin 1))).toInt = (r.val : Int) ∧ c' = c := by
  have hs0 := start_rows_zero wf idx i c'
  have hs1 := start_rows_one wf idx i c'
  have hw0 := window_rows_zero wf i c'
  have hw1 := window_rows_one wf i c'
  have hr := r.isLt
  have hc := c.isLt
  have hc' := c'.isLt
  unfold ScatterDims.resultIdx?
  by_cases h : ∀ a : Fin 2, 0 ≤ (rowScatterDims R C n wf).start (ix2 i c') idx a + (rowScatterDims R C n wf).window (ix2 i c') a
      ∧ (rowScatterDims R C n wf).start (ix2 i c') idx a + (rowScatterDims R C n wf).window (ix2 i c') a
          < ((⟨2, ![R, C]⟩ : Shape).size a : Int)
  · -- the window is inside the operand: the landing index is (row number + 0, 0 + c')
    rw [dif_pos h, Option.some.injEq]
    have h0 := h 0
    have h1 := h 1
    rw [hs0, hw0] at h0
    rw [hs1, hw1] at h1
    constructor
    · intro hEq
      have e0 : ((rowScatterDims R C n wf).start (ix2 i c') idx 0 + (rowScatterDims R C n wf).window (ix2 i c') 0).toNat = r.val :=
        congrArg Fin.val (congrFun hEq 0)
      have e1 : ((rowScatterDims R C n wf).start (ix2 i c') idx 1 + (rowScatterDims R C n wf).window (ix2 i c') 1).toNat = c.val :=
        congrArg Fin.val (congrFun hEq 1)
      rw [hs0, hw0] at e0
      rw [hs1, hw1] at e1
      exact ⟨by omega, Fin.ext (by omega)⟩
    · rintro ⟨hrow, hcol⟩
      funext a
      refine Fin.ext ?_
      match a with
      | ⟨0, _⟩ =>
        show ((rowScatterDims R C n wf).start (ix2 i c') idx 0 + (rowScatterDims R C n wf).window (ix2 i c') 0).toNat = r.val
        rw [hs0, hw0]; omega
      | ⟨1, _⟩ =>
        show ((rowScatterDims R C n wf).start (ix2 i c') idx 1 + (rowScatterDims R C n wf).window (ix2 i c') 1).toNat = c.val
        rw [hs1, hw1, hcol]; omega
  · -- the window leaves the operand: the update is dropped, and a row number equal to some `r < R` would be inside
    rw [dif_neg h]
    constructor
    · intro hEq; cases hEq
    · rintro ⟨hrow, hcol⟩
      exfalso; apply h
      intro a
      match a with
      | ⟨0, _⟩ =>
        show 0 ≤ (rowScatterDims R C n wf).start (ix2 i c') idx 0 + (rowScatterDims R C n wf).window (ix2 i c') 0
          ∧ (rowScatterDims R C n wf).start (ix2 i c') idx 0 + (rowScatterDims R C n wf).window (ix2 i c') 0 < (R : Int)
        rw [hs0, hw0]; omega
      | ⟨1, _⟩ =>
        show 0 ≤ (rowScatterDims R C n wf).start (ix2 i c') idx 1 + (rowScatterDims R C n wf).window (ix2 i c') 1
          ∧ (rowScatterDims R C n wf).start (ix2 i c') idx 1 + (rowScatterDims R C n wf).window (ix2 i c') 1 < (C : Int)
        rw [hs1, hw1]; omega

/-- Element `(r, c)` of a row scatter-add at the ideal instance: the operand's element plus the updates of the rows
    numbered `r`. -/
theorem scatterAdd_rows_apply {R C n w : Nat}
    (wf : ScatterDims.WF ⟨2, ![R, C]⟩ ⟨2, ![n, 1]⟩ ⟨2, ![n, C]⟩ [1] [0] [0] 1)
    (x : (⟨2, ![R, C]⟩ : Shape).Idx → EReal) (idx : IVec ⟨2, ![n, 1]⟩ w)
    (upd : (⟨2, ![n, C]⟩ : Shape).Idx → EReal) (r : Fin R) (c : Fin C) :
    Ideal.hostScatterAdd (rowScatterDims R C n wf) x idx upd (ix2 r c)
      = x (ix2 r c) + ∑ i : Fin n, if (idx (ix2 i (0 : Fin 1))).toInt = (r.val : Int) then upd (ix2 i c) else 0 := by
  unfold Ideal.hostScatterAdd
  show _ + _ = _ + _
  congr 1
  rw [Finset.sum_filter, sum_idx2]
  refine Finset.sum_congr rfl fun i _ => ?_
  -- row by row: a row numbered `r` contributes its column-`c` element alone, any other row nothing
  by_cases hrow : (idx (ix2 i (0 : Fin 1))).toInt = (r.val : Int)
  · rw [if_pos hrow, Finset.sum_eq_single c]
    · rw [if_pos ((resultIdx_rows_iff wf idx i c r c).2 ⟨hrow, rfl⟩)]
    · intro c' _ hne
      rw [if_neg fun h => hne ((resultIdx_rows_iff wf idx i c' r c).1 h).2]
    · intro h; exact absurd (Finset.mem_univ c) h
  · rw [if_neg hrow]
    refine Finset.sum_eq_zero fun c' _ => ?_
    rw [if_neg fun h => hrow ((resultIdx_rows_iff wf idx i c' r c).1 h).1]

end Idealize.ShloMosaic.RowIndex

end
-- ==== Proof.LibVecIndex.lean ====
/-
  Reading a vector gather and a vector scatter-add at an index.

  `x[idx]` over a vector `x : [N]` at a column of positions `idx : [n, 1]` is the gather whose result element `i` is
  `x` at position `idx[i]`, the number read signed and clamped into `[0, N - 1]`.
  `segment_sum` of a vector `upd : [n]` by the positions `idx : [n, 1]` into `x : [R]` is the scatter with an add
  body: at the ideal instance element `r` of the result is `x r` plus the sum over the update elements `i` whose
  position, read signed and NOT clamped, is `r`, of `upd i`; an element whose position is outside `[0, R)`
  contributes nowhere.
-/
import Idealize.ShloMosaic.PureOps.Ideal
import Idealize.ShloMosaic.Lib.ValueIdx

noncomputable section

namespace Idealize.ShloMosaic.VecIndex

open Idealize.ShloMosaic Idealize.ShloMosaic.ValueIdx

/-- The dimension numbers of a gather of single elements: operand `[N]`, positions `[n, 1]`, result `[n]`. -/
abbrev vecGatherDims (N n : Nat)
    (wf : GatherDims.WF ⟨1, ![N]⟩ ⟨2, ![n, 1]⟩ ⟨1, ![n]⟩ [] [0] [] [0] [] 1 ![1]) :
    GatherDims ⟨1, ![N]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

/-- Result element `i` of a vector gather is the operand at position `idx[i, 0]` (signed, clamped). -/
theorem gather_vec_apply {α : Type} {N n w : Nat} (hN : 0 < N)
    (wf : GatherDims.WF ⟨1, ![N]⟩ ⟨2, ![n, 1]⟩ ⟨1, ![n]⟩ [] [0] [] [0] [] 1 ![1])
    (x : (⟨1, ![N]⟩ : Shape).Idx → α) (idx : IVec ⟨2, ![n, 1]⟩ w) (i : Fin n) :
    Host.gather (vecGatherDims N n wf) x idx (ix1 i)
      = x (ix1 (⟨min (idx (ix2 i (0 : Fin 1))).toInt.toNat (N - 1), by omega⟩ : Fin N)) := by
  unfold Host.gather
  congr 1
  funext a
  -- the operand has one axis: it is collapsed and named by the start index map, so the coordinate read there is the
  -- clamped position alone, with no batch part and no offset part
  obtain rfl : a = 0 := Subsingleton.elim _ _
  refine Fin.ext ?_
  show (vecGatherDims N n wf).start (ix1 i) idx 0 + (vecGatherDims N n wf).batchCoord (ix1 i) 0
      + (vecGatherDims N n wf).offCoord (ix1 i) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N n wf).startIndexMap from List.mem_singleton.mpr rfl)]
  have hsi : (vecGatherDims N n wf).siIdx (ix1 i) ⟨List.idxOf (0 : Fin 1) (vecGatherDims N n wf).startIndexMap,
      List.idxOf_lt_length_iff.2 (List.mem_singleton.mpr rfl)⟩ = ix2 i (0 : Fin 1) := by
    funext b; refine Fin.ext ?_
    match b with
    | ⟨0, _⟩ => rfl
    | ⟨1, _⟩ => rfl
  rw [hsi]
  rfl

/-- The dimension numbers of a scatter of single elements: operand `[R]`, positions `[n, 1]`, updates `[n]`. -/
abbrev vecScatterDims (R n : Nat)
    (wf : ScatterDims.WF ⟨1, ![R]⟩ ⟨2, ![n, 1]⟩ ⟨1, ![n]⟩ [] [0] [0] 1) :
    ScatterDims ⟨1, ![R]⟩ ⟨2, ![n, 1]⟩ ⟨1, ![n]⟩ where
  updateWindowDims := []
  insertedWindowDims := [0]
  scatterDimsToOperandDims := [0]
  indexVectorDim := 1
  wf := wf

/-- A rank-1 index set is its one coordinate range … -/
private def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- On the operand's one axis the window of update element `i` starts at its position, read signed. -/
private theorem start_vec_zero {R n w : Nat}
    (wf : ScatterDims.WF ⟨1, ![R]⟩ ⟨2, ![n, 1]⟩ ⟨1, ![n]⟩ [] [0] [0] 1)
    (idx : IVec ⟨2, ![n, 1]⟩ w) (i : Fin n) :
    (vecScatterDims R n wf).start (ix1 i) idx 0 = (idx (ix2 i (0 : Fin 1))).toInt := by
  unfold ScatterDims.start
  rw [dif_pos (show (0 : Fin 1) ∈ (vecScatterDims R n wf).scatterDimsToOperandDims from List.mem_singleton.mpr rfl)]
  have hsi : (vecScatterDims R n wf).siIdx (ix1 i)
      ⟨List.idxOf (0 : Fin 1) (vecScatterDims R n wf).scatterDimsToOperandDims,
        List.idxOf_lt_length_iff.2 (List.mem_singleton.mpr rfl)⟩ = ix2 i (0 : Fin 1) := by
    funext b; refine Fin.ext ?_
    match b with
    | ⟨0, _⟩ => rfl
    | ⟨1, _⟩ => rfl
  rw [hsi]

/-- The operand's one axis is inserted: the window coordinate there is `0`. -/
private theorem window_vec_zero {R n : Nat}
    (wf : ScatterDims.WF ⟨1, ![R]⟩ ⟨2, ![n, 1]⟩ ⟨1, ![n]⟩ [] [0] [0] 1) (i : Fin n) :
    (vecScatterDims R n wf).window (ix1 i) 0 = 0 := by
  unfold ScatterDims.window
  have h : (0 : Fin 1) ∉ (vecScatterDims R n wf).sKept := by
    show (0 : Fin 1) ∉ (List.finRange 1).filter (· ∉ ([0] : List (Fin 1)))
    decide
  rw [dif_neg h]

/-- Where update element `i` of a vector scatter lands: at `r` exactly when its position is `r`. -/
private theorem resultIdx_vec_iff {R n w : Nat}
    (wf : ScatterDims.WF ⟨1, ![R]⟩ ⟨2, ![n, 1]⟩ ⟨1, ![n]⟩ [] [0] [0] 1)
    (idx : IVec ⟨2, ![n, 1]⟩ w) (i : Fin n) (r : Fin R) :
    (vecScatterDims R n wf).resultIdx? (ix1 i) idx = some (ix1 r)
      ↔ (idx (ix2 i (0 : Fin 1))).toInt = (r.val : Int) := by
  have hs0 := start_vec_zero wf idx i
  have hw0 := window_vec_zero wf i
  have hr := r.isLt
  unfold ScatterDims.resultIdx?
  by_cases h : ∀ a : Fin 1, 0 ≤ (vecScatterDims R n wf).start (ix1 i) idx a + (vecScatterDims R n wf).window (ix1 i) a
      ∧ (vecScatterDims R n wf).start (ix1 i) idx a + (vecScatterDims R n wf).window (ix1 i) a
          < ((⟨1, ![R]⟩ : Shape).size a : Int)
  · -- the position is inside the operand: the landing index is the position itself
    rw [dif_pos h, Option.some.injEq]
    have h0 := h 0
    rw [hs0, hw0] at h0
    constructor
    · intro hEq
      have e0 : ((vecScatterDims R n wf).start (ix1 i) idx 0 + (vecScatterDims R n wf).window (ix1 i) 0).toNat = r.val :=
        congrArg Fin.val (congrFun hEq 0)
      rw [hs0, hw0] at e0
      omega
    · intro hpos
      funext a
      obtain rfl : a = 0 := Subsingleton.elim _ _
      refine Fin.ext ?_
      show ((vecScatterDims R n wf).start (ix1 i) idx 0 + (vecScatterDims R n wf).window (ix1 i) 0).toNat = r.val
      rw [hs0, hw0]; omega
  · -- the position is outside the operand: the update is dropped, and a position equal to some `r < R` would be inside
    rw [dif_neg h]
    constructor
    · intro hEq; cases hEq
    · intro hpos
      exfalso; apply h
      intro a
      obtain rfl : a = 0 := Subsingleton.elim _ _
      show 0 ≤ (vecScatterDims R n wf).start (ix1 i) idx 0 + (vecScatterDims R n wf).window (ix1 i) 0
        ∧ (vecScatterDims R n wf).start (ix1 i) idx 0 + (vecScatterDims R n wf).window (ix1 i) 0 < (R : Int)
      rw [hs0, hw0]; omega

/-- Element `r` of a vector scatter-add at the ideal instance: the operand's element plus the updates whose position
    is `r`. -/
theorem scatterAdd_vec_apply {R n w : Nat}
    (wf : ScatterDims.WF ⟨1, ![R]⟩ ⟨2, ![n, 1]⟩ ⟨1, ![n]⟩ [] [0] [0] 1)
    (x : (⟨1, ![R]⟩ : Shape).Idx → EReal) (idx : IVec ⟨2, ![n, 1]⟩ w)
    (upd : (⟨1, ![n]⟩ : Shape).Idx → EReal) (r : Fin R) :
    Ideal.hostScatterAdd (vecScatterDims R n wf) x idx upd (ix1 r)
      = x (ix1 r) + ∑ i : Fin n, if (idx (ix2 i (0 : Fin 1))).toInt = (r.val : Int) then upd (ix1 i) else 0 := by
  unfold Ideal.hostScatterAdd
  show _ + _ = _ + _
  congr 1
  rw [Finset.sum_filter, sum_idx1]
  refine Finset.sum_congr rfl fun i _ => ?_
  -- element by element: an update whose position is `r` lands at `r`, any other lands elsewhere or nowhere
  by_cases hpos : (idx (ix2 i (0 : Fin 1))).toInt = (r.val : Int)
  · rw [if_pos hpos, if_pos ((resultIdx_vec_iff wf idx i r).2 hpos)]
  · rw [if_neg hpos, if_neg fun h => hpos ((resultIdx_vec_iff wf idx i r).1 h)]

end Idealize.ShloMosaic.VecIndex

end
-- ==== Proof.LiftIndex.lean ====
/-
  The integer index plumbing of an edge list, and gathers and scatter-adds under node numbers in range.

  An edge list is a 2 × E array of 32-bit words, row 0 the sources and row 1 the targets, every word a node number in
  [0, N). Each row is cut out as a 1 × E slice and reshaped to a vector; the wrap of negative indices (add N where the
  word is negative) leaves a non-negative word alone; the vector is made a column E × 1 and fed to a gather or a
  scatter-add. Appending the self loops is a concatenation with the iota 0, 1, …, N - 1.
  Under real operands a gather reads the real operand at the node a word names, and a scatter-add into zeros is, at
  node v, the sum of the real updates over the positions whose word names v.
-/
import proofs.«150153_g58806692217087_cont_9to1_m_85_2_alg».proof.Proof.RealLift
import proofs.«150153_g58806692217087_cont_9to1_m_85_2_alg».proof.Proof.LibRowIndex
import proofs.«150153_g58806692217087_cont_9to1_m_85_2_alg».proof.Proof.LibVecIndex
import proofs.«150153_g58806692217087_cont_9to1_m_85_2_alg».proof.KernelIdeal
import proofs.«150153_g58806692217087_cont_9to1_m_85_2_alg».proof.ReferenceIdeal
import proofs.«150153_g58806692217087_cont_9to1_m_85_2_alg».proof.Proof.Gen.KernelIdeal
import proofs.«150153_g58806692217087_cont_9to1_m_85_2_alg».proof.Proof.Gen.ReferenceIdeal
import Idealize.ShloMosaic.Lib.ValueIdx
import Idealize.ShloMosaic.Lib.ValueLayout
import Idealize.ShloMosaic.Lib.Pipeline.Value
import Idealize.ShloMosaic.Lib.IdealHost
import Idealize.ShloMosaic.Lib.Affine
import Idealize.ShloMosaic.PureOps.Ideal.Laws
import Mathlib.Algebra.BigOperators.Fin
import Mathlib.Data.EReal.Basic

noncomputable section

namespace Cert.RealLift

open Idealize.ShloMosaic Idealize.ShloMosaic.ValueIdx Idealize.ShloMosaic.RowIndex Idealize.ShloMosaic.VecIndex
open scoped BigOperators

/-- The coercion of a finite sum of reals is the sum of the coercions. -/
private theorem coe_sum {ι : Type*} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A natural number below 2 ^ 31, made a 32-bit word and read signed, is itself. -/
private theorem toInt_ofNat_lt (n : ℕ) (hn : n < 2 ^ 31) : (BitVec.ofNat 32 n).toInt = (n : Int) := by
  rw [BitVec.toInt_eq_toNat_cond, BitVec.toNat_ofNat]
  have hmod : n % 2 ^ 32 = n := Nat.mod_eq_of_lt (by omega)
  rw [hmod]
  split
  · rfl
  · omega

/-! ## 1. A row of the edge list as a vector -/

/-- Row `r` of a `2 × E` array, cut out as a `1 × E` slice and reshaped to a vector, reads at `t` the array at `(r, t)`. -/
theorem edgeRow_apply {α : Type} {E : ℕ} (ei : (⟨2, ![2, E]⟩ : Shape).Idx → α) (r : ℕ) (hr : r < 2)
    (hs : (⟨2, ![2, E]⟩ : Shape).Slices ![r, 0] ⟨2, ![1, E]⟩)
    (hc : (⟨2, ![1, E]⟩ : Shape).ShapeCasts ⟨1, ![E]⟩) (t : Fin E) :
    shapeCast ⟨1, ![E]⟩ (extractStridedSlice ⟨2, ![1, E]⟩ ![r, 0] ei hs) hc (ix1 t) = ei (ix2 (⟨r, hr⟩ : Fin 2) t) := by
  -- the reshape keeps the row-major position; the slice shifts the row coordinate by r
  refine (shapeCast_apply _ hc (ix1 t) (ix2 (0 : Fin 1) t) ?_).trans ?_
  · rw [Shape.rowMajor_val_two, Shape.rowMajor_val_one]
    show 0 * E + t.val = t.val
    omega
  · refine extractStridedSlice_apply _ ei hs _ (ix2 (⟨r, hr⟩ : Fin 2) t) fun a => ?_
    match a with
    | ⟨0, _⟩ => rfl
    | ⟨1, _⟩ => show t.val = 0 + t.val; omega

/-- Row 0 (the sources). -/
theorem edgeRow0_apply {α : Type} {E : ℕ} (ei : (⟨2, ![2, E]⟩ : Shape).Idx → α)
    (hs : (⟨2, ![2, E]⟩ : Shape).Slices ![0, 0] ⟨2, ![1, E]⟩)
    (hc : (⟨2, ![1, E]⟩ : Shape).ShapeCasts ⟨1, ![E]⟩) (t : Fin E) :
    shapeCast ⟨1, ![E]⟩ (extractStridedSlice ⟨2, ![1, E]⟩ ![0, 0] ei hs) hc (ix1 t) = ei (ix2 (0 : Fin 2) t) :=
  edgeRow_apply ei 0 (by omega) hs hc t

/-- Row 1 (the targets). -/
theorem edgeRow1_apply {α : Type} {E : ℕ} (ei : (⟨2, ![2, E]⟩ : Shape).Idx → α)
    (hs : (⟨2, ![2, E]⟩ : Shape).Slices ![1, 0] ⟨2, ![1, E]⟩)
    (hc : (⟨2, ![1, E]⟩ : Shape).ShapeCasts ⟨1, ![E]⟩) (t : Fin E) :
    shapeCast ⟨1, ![E]⟩ (extractStridedSlice ⟨2, ![1, E]⟩ ![1, 0] ei hs) hc (ix1 t) = ei (ix2 (1 : Fin 2) t) :=
  edgeRow_apply ei 1 (by omega) hs hc t

/-! ## 2. The wrap of negative indices -/

/-- Where every word is non-negative, "add `c` where the word is negative" changes nothing. -/
theorem wrap_eq_self {s : Shape} (v : IVec s 32) (c : BitVec 32)
    (h0 h1 : (⟨0, ![]⟩ : Shape).BroadcastsInDim s ![])
    (hv : ∀ i, 0 ≤ (v i).toInt) :
    select (cmpi .slt v (broadcastInDim s ![] h0 (constantI ⟨0, ![]⟩ 32 0#32)))
      (addi v (broadcastInDim s ![] h1 (constantI ⟨0, ![]⟩ 32 c))) v = v := by
  funext i
  -- the comparison "word < 0" is false on a non-negative word, so the select keeps the word
  have hz : (0#32 : BitVec 32).toInt = 0 := by decide
  have hne : ¬ (cmpi .slt v (broadcastInDim s ![] h0 (constantI ⟨0, ![]⟩ 32 0#32)) i = 1#1) := by
    show ¬ (IntOp.cmpi .slt (v i) 0#32 = 1#1)
    rw [IntOp.cmpi_slt, hz]
    have := hv i
    omega
  rw [select_apply]
  exact if_neg hne

/-! ## 3. Appending the self loops: a concatenation with the iota -/

/-- The extent of a two-piece concatenation of vectors is the sum of the pieces' extents. -/
theorem concat_extent {E N T : ℕ}
    (h : Shape.Concatenates [(⟨1, ![E]⟩ : Shape), ⟨1, ![N]⟩] ⟨1, ![T]⟩ 0) : T = E + N := by
  have e : E + (N + 0) = T := h.2.2
  omega

/-- Below `E` the appended vector reads the first piece. -/
theorem concat_iota_left {E N T : ℕ} (a : IVec ⟨1, ![E]⟩ 32)
    (h : Shape.Concatenates [(⟨1, ![E]⟩ : Shape), ⟨1, ![N]⟩] ⟨1, ![T]⟩ 0) (k : Fin T) (t : Fin E) (hk : k.val = t.val) :
    concatenate ⟨1, ![T]⟩ 0 [⟨⟨1, ![E]⟩, a⟩, ⟨⟨1, ![N]⟩, iotaInDim ⟨1, ![N]⟩ 32 0⟩] h (ix1 k) = a (ix1 t) := by
  refine concatenate_pair_apply_left (0 : Fin (⟨1, ![T]⟩ : Shape).rank) a _ h (ix1 k) rfl (ix1 t) fun b => ?_
  match b with
  | ⟨0, _⟩ => exact hk.symm

/-- At `E + v` the appended vector reads the word of `v`. -/
theorem concat_iota_right {E N T : ℕ} (a : IVec ⟨1, ![E]⟩ 32)
    (h : Shape.Concatenates [(⟨1, ![E]⟩ : Shape), ⟨1, ![N]⟩] ⟨1, ![T]⟩ 0) (k : Fin T) (v : Fin N) (hk : k.val = E + v.val) :
    concatenate ⟨1, ![T]⟩ 0 [⟨⟨1, ![E]⟩, a⟩, ⟨⟨1, ![N]⟩, iotaInDim ⟨1, ![N]⟩ 32 0⟩] h (ix1 k) = BitVec.ofNat 32 v.val := by
  refine (concatenate_pair_apply_right (0 : Fin (⟨1, ![T]⟩ : Shape).rank) a (iotaInDim ⟨1, ![N]⟩ 32 0) h (ix1 k) rfl rfl
    (ix1 v) (fun b hb => ?_) ?_).trans ?_
  · match b with
    | ⟨0, _⟩ => exact absurd rfl hb
  · show v.val + E = k.val
    omega
  · rfl

/-- Every word of the appended vector is a node number when the first piece's words are. -/
theorem concat_iota_inrange {E N T : ℕ} (hN32 : N ≤ 2 ^ 31) (a : IVec ⟨1, ![E]⟩ 32)
    (h : Shape.Concatenates [(⟨1, ![E]⟩ : Shape), ⟨1, ![N]⟩] ⟨1, ![T]⟩ 0)
    (ha : ∀ t : Fin E, 0 ≤ (a (ix1 t)).toInt ∧ (a (ix1 t)).toInt < (N : Int)) (k : Fin T) :
    0 ≤ (concatenate ⟨1, ![T]⟩ 0 [⟨⟨1, ![E]⟩, a⟩, ⟨⟨1, ![N]⟩, iotaInDim ⟨1, ![N]⟩ 32 0⟩] h (ix1 k)).toInt
      ∧ (concatenate ⟨1, ![T]⟩ 0 [⟨⟨1, ![E]⟩, a⟩, ⟨⟨1, ![N]⟩, iotaInDim ⟨1, ![N]⟩ 32 0⟩] h (ix1 k)).toInt < (N : Int) := by
  have hT := concat_extent h
  by_cases hk : k.val < E
  · rw [concat_iota_left a h k ⟨k.val, hk⟩ rfl]
    exact ha _
  · have hv : k.val - E < N := by have := k.isLt; omega
    rw [concat_iota_right a h k ⟨k.val - E, hv⟩ (by show k.val = E + (k.val - E); omega),
      toInt_ofNat_lt _ (by show k.val - E < 2 ^ 31; omega)]
    show 0 ≤ ((k.val - E : ℕ) : Int) ∧ ((k.val - E : ℕ) : Int) < (N : Int)
    omega

/-- The word of `v` names the node `v`. -/
theorem node_ofNat {N : ℕ} (hN : 0 < N) (hN32 : N ≤ 2 ^ 31) (v : Fin N) : node hN (BitVec.ofNat 32 v.val) = v := by
  apply Fin.ext
  have h1 : (BitVec.ofNat 32 v.val).toInt = (v.val : Int) := toInt_ofNat_lt v.val (by have := v.isLt; omega)
  have h2 := node_val hN (BitVec.ofNat 32 v.val) (by omega) (by have := v.isLt; omega)
  omega

/-- The appended part names each node once, in order. -/
theorem node_concat_iota_right {E N T : ℕ} (hN : 0 < N) (hN32 : N ≤ 2 ^ 31) (a : IVec ⟨1, ![E]⟩ 32)
    (h : Shape.Concatenates [(⟨1, ![E]⟩ : Shape), ⟨1, ![N]⟩] ⟨1, ![T]⟩ 0) (k : Fin T) (v : Fin N) (hk : k.val = E + v.val) :
    node hN (concatenate ⟨1, ![T]⟩ 0 [⟨⟨1, ![E]⟩, a⟩, ⟨⟨1, ![N]⟩, iotaInDim ⟨1, ![N]⟩ 32 0⟩] h (ix1 k)) = v := by
  rw [concat_iota_right a h k v hk]; exact node_ofNat hN hN32 v

/-! ## 4. The column form -/

/-- A vector made a column `M × 1` reads at `(t, 0)` the vector at `t`. -/
theorem column_apply {α : Type} {M : ℕ} (v : (⟨1, ![M]⟩ : Shape).Idx → α)
    (h : (⟨1, ![M]⟩ : Shape).BroadcastsInDim ⟨2, ![M, 1]⟩ ![0]) (t : Fin M) (u : Fin 1) :
    broadcastInDim ⟨2, ![M, 1]⟩ ![0] h v (ix2 t u) = v (ix1 t) := by
  refine broadcastInDim_apply ![0] h v (ix2 t u) (ix1 t) fun a => ?_
  match a with
  | ⟨0, _⟩ =>
    show t.val = if M = 1 then 0 else t.val
    split
    · have := t.isLt; omega
    · rfl

/-! ## 5. Gathers of real operands -/

/-- A vector gather of a real vector reads it at the node each word names. -/
theorem gather_vec_isReal {N M : ℕ} (hN : 0 < N)
    (wf : GatherDims.WF ⟨1, ![N]⟩ ⟨2, ![M, 1]⟩ ⟨1, ![M]⟩ [] [0] [] [0] [] 1 ![1])
    (x : (⟨1, ![N]⟩ : Shape).Idx → EReal) (x' : Fin N → ℝ) (hx : IsReal1 x x') (idx : IVec ⟨2, ![M, 1]⟩ 32) :
    IsReal1 (Host.gather (vecGatherDims N M wf) x idx) (fun t => x' (node hN (idx (ix2 t (0 : Fin 1))))) := by
  intro t
  rw [gather_vec_apply hN wf x idx t]
  exact hx (node hN (idx (ix2 t (0 : Fin 1))))

/-- A row gather of a real matrix reads the row of the node each word names. -/
theorem gather_rows_isReal {N C M : ℕ} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → EReal) (x' : Fin N → Fin C → ℝ) (hx : IsReal2 x x') (idx : IVec ⟨2, ![M, 1]⟩ 32) :
    IsReal2 (Host.gather (rowGatherDims N C M wf) x idx) (fun t j => x' (node hN (idx (ix2 t (0 : Fin 1)))) j) := by
  intro t j
  rw [gather_rows_apply hN wf x idx t j]
  exact hx (node hN (idx (ix2 t (0 : Fin 1)))) j

/-! ## 6. Scatter-adds of real updates -/

/-- A vector scatter-add of real updates into a real vector: at node `v`, the operand plus the updates whose word names `v`. -/
theorem scatterAdd_vec_isReal_add {N M : ℕ} {φ : FTy} (hN : 0 < N)
    (wf : ScatterDims.WF ⟨1, ![N]⟩ ⟨2, ![M, 1]⟩ ⟨1, ![M]⟩ [] [0] [0] 1)
    (z : FVec Ideal ⟨1, ![N]⟩ φ) (idx : IVec ⟨2, ![M, 1]⟩ 32) (upd : FVec Ideal ⟨1, ![M]⟩ φ)
    (z' : Fin N → ℝ) (u' : Fin M → ℝ) (hz : IsReal1 z z') (hu : IsReal1 upd u')
    (hidx : ∀ t : Fin M, 0 ≤ (idx (ix2 t (0 : Fin 1))).toInt ∧ (idx (ix2 t (0 : Fin 1))).toInt < (N : Int)) :
    IsReal1 (Host.scatterAdd (F := Ideal) (vecScatterDims N M wf) z idx upd)
      (fun v => z' v + ∑ t : Fin M, if node hN (idx (ix2 t (0 : Fin 1))) = v then u' t else 0) := by
  intro v
  show Ideal.hostScatterAdd (vecScatterDims N M wf) z idx upd (ix1 v)
    = ((z' v + ∑ t : Fin M, if node hN (idx (ix2 t (0 : Fin 1))) = v then u' t else 0 : ℝ) : EReal)
  rw [scatterAdd_vec_apply wf z idx upd v, hz v]
  -- term by term: for a word in range, "its value is v" says it names v, and the update there is real
  have hterm : ∀ t : Fin M, (if (idx (ix2 t (0 : Fin 1))).toInt = (v.val : Int) then upd (ix1 t) else 0)
      = (((if node hN (idx (ix2 t (0 : Fin 1))) = v then u' t else 0 : ℝ)) : EReal) := by
    intro t
    have hiff := toInt_eq_iff_node hN (idx (ix2 t (0 : Fin 1))) (hidx t).1 (hidx t).2 v
    by_cases hv : node hN (idx (ix2 t (0 : Fin 1))) = v
    · rw [if_pos hv, if_pos (hiff.2 hv), hu t]
    · rw [if_neg hv, if_neg (fun h' => hv (hiff.1 h')), EReal.coe_zero]
  rw [Finset.sum_congr rfl (fun t _ => hterm t), ← coe_sum, ← EReal.coe_add]

/-- Into zeros: at node `v`, the sum of the updates whose word names `v`. -/
theorem scatterAdd_vec_isReal {N M : ℕ} {φ : FTy} (hN : 0 < N)
    (wf : ScatterDims.WF ⟨1, ![N]⟩ ⟨2, ![M, 1]⟩ ⟨1, ![M]⟩ [] [0] [0] 1)
    (z : FVec Ideal ⟨1, ![N]⟩ φ) (idx : IVec ⟨2, ![M, 1]⟩ 32) (upd : FVec Ideal ⟨1, ![M]⟩ φ)
    (u' : Fin M → ℝ) (hz : IsReal1 z (fun _ => 0)) (hu : IsReal1 upd u')
    (hidx : ∀ t : Fin M, 0 ≤ (idx (ix2 t (0 : Fin 1))).toInt ∧ (idx (ix2 t (0 : Fin 1))).toInt < (N : Int)) :
    IsReal1 (Host.scatterAdd (F := Ideal) (vecScatterDims N M wf) z idx upd)
      (fun v => ∑ t : Fin M, if node hN (idx (ix2 t (0 : Fin 1))) = v then u' t else 0) := by
  intro v
  rw [scatterAdd_vec_isReal_add hN wf z idx upd (fun _ => 0) u' hz hu hidx v]
  show ((0 + _ : ℝ) : EReal) = _
  rw [zero_add]

/-- A row scatter-add of real update rows into a real matrix: at node `v`, column `j`, the operand plus the updates of the
    rows whose word names `v`. -/
theorem scatterAdd_rows_isReal_add {N C M : ℕ} {φ : FTy} (hN : 0 < N)
    (wf : ScatterDims.WF ⟨2, ![N, C]⟩ ⟨2, ![M, 1]⟩ ⟨2, ![M, C]⟩ [1] [0] [0] 1)
    (z : FVec Ideal ⟨2, ![N, C]⟩ φ) (idx : IVec ⟨2, ![M, 1]⟩ 32) (upd : FVec Ideal ⟨2, ![M, C]⟩ φ)
    (z' : Fin N → Fin C → ℝ) (u' : Fin M → Fin C → ℝ) (hz : IsReal2 z z') (hu : IsReal2 upd u')
    (hidx : ∀ t : Fin M, 0 ≤ (idx (ix2 t (0 : Fin 1))).toInt ∧ (idx (ix2 t (0 : Fin 1))).toInt < (N : Int)) :
    IsReal2 (Host.scatterAdd (F := Ideal) (rowScatterDims N C M wf) z idx upd)
      (fun v j => z' v j + ∑ t : Fin M, if node hN (idx (ix2 t (0 : Fin 1))) = v then u' t j else 0) := by
  intro v j
  show Ideal.hostScatterAdd (rowScatterDims N C M wf) z idx upd (ix2 v j)
    = ((z' v j + ∑ t : Fin M, if node hN (idx (ix2 t (0 : Fin 1))) = v then u' t j else 0 : ℝ) : EReal)
  rw [scatterAdd_rows_apply wf z idx upd v j, hz v j]
  -- row by row: for a word in range, "its value is v" says it names v, and the update there is real
  have hterm : ∀ t : Fin M, (if (idx (ix2 t (0 : Fin 1))).toInt = (v.val : Int) then upd (ix2 t j) else 0)
      = (((if node hN (idx (ix2 t (0 : Fin 1))) = v then u' t j else 0 : ℝ)) : EReal) := by
    intro t
    have hiff := toInt_eq_iff_node hN (idx (ix2 t (0 : Fin 1))) (hidx t).1 (hidx t).2 v
    by_cases hv : node hN (idx (ix2 t (0 : Fin 1))) = v
    · rw [if_pos hv, if_pos (hiff.2 hv), hu t j]
    · rw [if_neg hv, if_neg (fun h' => hv (hiff.1 h')), EReal.coe_zero]
  rw [Finset.sum_congr rfl (fun t _ => hterm t), ← coe_sum, ← EReal.coe_add]

/-- Into zeros: at node `v`, column `j`, the sum of the update rows whose word names `v`. -/
theorem scatterAdd_rows_isReal {N C M : ℕ} {φ : FTy} (hN : 0 < N)
    (wf : ScatterDims.WF ⟨2, ![N, C]⟩ ⟨2, ![M, 1]⟩ ⟨2, ![M, C]⟩ [1] [0] [0] 1)
    (z : FVec Ideal ⟨2, ![N, C]⟩ φ) (idx : IVec ⟨2, ![M, 1]⟩ 32) (upd : FVec Ideal ⟨2, ![M, C]⟩ φ)
    (u' : Fin M → Fin C → ℝ) (hz : IsReal2 z (fun _ _ => 0)) (hu : IsReal2 upd u')
    (hidx : ∀ t : Fin M, 0 ≤ (idx (ix2 t (0 : Fin 1))).toInt ∧ (idx (ix2 t (0 : Fin 1))).toInt < (N : Int)) :
    IsReal2 (Host.scatterAdd (F := Ideal) (rowScatterDims N C M wf) z idx upd)
      (fun v j => ∑ t : Fin M, if node hN (idx (ix2 t (0 : Fin 1))) = v then u' t j else 0) := by
  intro v j
  rw [scatterAdd_rows_isReal_add hN wf z idx upd (fun _ _ => 0) u' hz hu hidx v j]
  show ((0 + _ : ℝ) : EReal) = _
  rw [zero_add]

/-! ## 8. A sum over the appended index set -/

/-- A sum over `E + N` positions is the sum over the first `E` plus the sum over the last `N`. -/
theorem sum_append {A : Type*} [AddCommMonoid A] {E N T : ℕ} (hT : T = E + N) (F : Fin T → A) :
    ∑ k : Fin T, F k = (∑ t : Fin E, F ⟨t.val, by omega⟩) + ∑ v : Fin N, F ⟨E + v.val, by omega⟩ := by
  subst hT
  rw [Fin.sum_univ_add]
  rfl

/-- With the last `N` positions naming each node once, in order (the self loops): the sum over the positions naming `v` is
    the sum over the first `E` positions naming `v`, plus the term of `v`'s own loop. -/
theorem sum_append_selfLoops {E N T : ℕ} (hT : T = E + N) (n : Fin T → Fin N)
    (hn : ∀ v : Fin N, n ⟨E + v.val, by omega⟩ = v) (u : Fin T → ℝ) (v : Fin N) :
    (∑ k : Fin T, if n k = v then u k else 0)
      = (∑ t : Fin E, if n ⟨t.val, by omega⟩ = v then u ⟨t.val, by omega⟩ else 0) + u ⟨E + v.val, by omega⟩ := by
  rw [sum_append hT]
  congr 1
  -- among the loops only v's own names v
  rw [Finset.sum_eq_single v]
  · rw [if_pos (hn v)]
  · intro b _ hb
    rw [if_neg (by rw [hn b]; exact hb)]
  · intro hv
    exact absurd (Finset.mem_univ v) hv

/-! ## 7. The two programs' dimension-number records are the canonical ones -/

section Records

/-- The kernel program's row gather is the gather of whole rows. -/
theorem kernel_rowGather_eq :
    Cert.KernelIdeal.gather_S10000x256_S160000x1_S160000x256_1_0_n_n_0_1_1256
      = rowGatherDims 10000 256 160000 Cert.KernelIdeal.Facts₀.gather_S10000x256_S160000x1_S160000x256_1_0_n_n_0_1_1256_wf := rfl
/-- The kernel program's row scatter is the scatter of whole rows. -/
theorem kernel_rowScatter_eq :
    Cert.KernelIdeal.scatter_S10000x256_S160000x1_S160000x256_1_0_0_1
      = rowScatterDims 10000 256 160000 Cert.KernelIdeal.Facts₀.scatter_S10000x256_S160000x1_S160000x256_1_0_0_1_wf := rfl
/-- The kernel program's vector gather is the gather of single elements. -/
theorem kernel_vecGather_eq :
    Cert.KernelIdeal.gather_S10000_S160000x1_S160000_n_0_n_n_0_1_1
      = vecGatherDims 10000 160000 Cert.KernelIdeal.Facts₀.gather_S10000_S160000x1_S160000_n_0_n_n_0_1_1_wf := rfl
/-- The kernel program's vector scatter is the scatter of single elements. -/
theorem kernel_vecScatter_eq :
    Cert.KernelIdeal.scatter_S10000_S160000x1_S160000_n_0_0_1
      = vecScatterDims 10000 160000 Cert.KernelIdeal.Facts₀.scatter_S10000_S160000x1_S160000_n_0_0_1_wf := rfl
/-- The reference program's row gather is the gather of whole rows. -/
theorem reference_rowGather_eq :
    Cert.ReferenceIdeal.gather_S10000x256_S170000x1_S170000x256_1_0_n_n_0_1_1256
      = rowGatherDims 10000 256 170000 Cert.ReferenceIdeal.Facts₀.gather_S10000x256_S170000x1_S170000x256_1_0_n_n_0_1_1256_wf := rfl
/-- The reference program's row scatter is the scatter of whole rows. -/
theorem reference_rowScatter_eq :
    Cert.ReferenceIdeal.scatter_S10000x256_S170000x1_S170000x256_1_0_0_1
      = rowScatterDims 10000 256 170000 Cert.ReferenceIdeal.Facts₀.scatter_S10000x256_S170000x1_S170000x256_1_0_0_1_wf := rfl
/-- The reference program's vector gather is the gather of single elements. -/
theorem reference_vecGather_eq :
    Cert.ReferenceIdeal.gather_S10000_S170000x1_S170000_n_0_n_n_0_1_1
      = vecGatherDims 10000 170000 Cert.ReferenceIdeal.Facts₀.gather_S10000_S170000x1_S170000_n_0_n_n_0_1_1_wf := rfl
/-- The reference program's vector scatter is the scatter of single elements. -/
theorem reference_vecScatter_eq :
    Cert.ReferenceIdeal.scatter_S10000_S170000x1_S170000_n_0_0_1
      = vecScatterDims 10000 170000 Cert.ReferenceIdeal.Facts₀.scatter_S10000_S170000x1_S170000_n_0_0_1_wf := rfl

end Records

end Cert.RealLift

end
-- ==== Proof.KChain0.lean ====
/-
  The first kernel region's result, over the reals.

  The region normalises the node features column by column (subtract the column mean, scale by the column's
  reciprocal standard deviation folded with the scale row, add the shift row) and multiplies the normalised matrix
  by a weight matrix. Fed real arrays it leaves the real array "linear map of the batch-normalised features": each
  line of the region's value function is read as the real array it is, in the order the function computes them.
-/
import proofs.«150153_g58806692217087_cont_9to1_m_85_2_alg».proof.Proof.Gen.KernelIdeal.Skeleton
import proofs.«150153_g58806692217087_cont_9to1_m_85_2_alg».proof.Proof.Spec
import proofs.«150153_g58806692217087_cont_9to1_m_85_2_alg».proof.Proof.RealLift
import proofs.«150153_g58806692217087_cont_9to1_m_85_2_alg».proof.Proof.LiftPointwise
import proofs.«150153_g58806692217087_cont_9to1_m_85_2_alg».proof.Proof.LiftReduce

noncomputable section

namespace Cert.KernelSide

open Cert.KernelIdeal Cert.KernelIdeal.Gen Cert.RealLift
open Idealize.ShloMosaic Idealize.ShloMosaic.ValueIdx

/-- A real matrix named two ways: the array is the second as soon as the two agree entry by entry. -/
theorem isReal2_congr {a b : ℕ} {A : (⟨2, ![a, b]⟩ : Shape).Idx → EReal} {A' B' : Fin a → Fin b → ℝ}
    (h : IsReal2 A A') (e : ∀ i j, A' i j = B' i j) : IsReal2 A B' := fun i j => by rw [h i j, e i j]

/-- A real vector named two ways. -/
theorem isReal1_congr {a : ℕ} {A : (⟨1, ![a]⟩ : Shape).Idx → EReal} {A' B' : Fin a → ℝ}
    (h : IsReal1 A A') (e : ∀ i, A' i = B' i) : IsReal1 A B' := fun i => by rw [h i, e i]

/-- The first region's value at real inputs: the weight matrix applied to the batch-normalised features. -/
theorem k0_isReal (X : FVec Ideal S10000x256 .f32) (G B : FVec Ideal S1x256 .f32) (W : FVec Ideal S256x256 .f32)
    (x' : Fin 10000 → Fin 256 → ℝ) (γ' β' : Fin 256 → ℝ) (W' : Fin 256 → Fin 256 → ℝ)
    (hX : IsReal2 X x') (hG : IsReal2 G (fun _ j => γ' j)) (hB : IsReal2 B (fun _ j => β' j)) (hW : IsReal2 W W') :
    IsReal2 (Gen.k0_pay1 (F := Ideal) X G B W) (Cert.Spec.lin (Cert.Spec.bnK x' γ' β' eps) W') := by
  -- the column sums, as a row
  let v1 : FVec Ideal S256 .f32 := multiReduction .add [0] S256 X 0x00000000#32 reduces_S10000x256_S256 (.inl rfl) rfl
  have h1 : IsReal1 v1 (fun j => ∑ i, x' i j) :=
    isReal1_multiReduction_add_axis0 X x' 0x00000000#32 reduces_S10000x256_S256 (.inl rfl) rfl hX
  let v2 : FVec Ideal S1x256 .f32 := shapeCast S1x256 v1 shapeCasts_S256_S1x256
  have h2 : IsReal2 v2 (fun _ j => ∑ i, x' i j) := isReal2_shapeCast_row shapeCasts_S256_S1x256 h1
  -- divided by the number of rows: the column means
  let v3 : FVec Ideal S1x256 .f32 := broadcast S1x256 (Scalar.ofBits .f32 0x461C4000#32)
  have h3 : IsReal2 v3 (fun _ _ => (10000 : ℝ)) := isReal2_broadcast _ 10000 ofBits_10000
  let v4 : FVec Ideal S1x256 .f32 := divf v2 v3
  have h4 : IsReal2 v4 (fun _ j => Cert.Spec.mean x' j) :=
    isReal2_congr (isReal2_divf h2 h3 (fun _ _ => by norm_num)) (fun _ j => by unfold Cert.Spec.mean; norm_num)
  -- the centred entries
  let v5 : FVec Ideal S10000x256 .f32 := broadcastTo S10000x256 v4 broadcasts_S1x256_S10000x256
  have h5 : IsReal2 v5 (fun _ j => Cert.Spec.mean x' j) := isReal2_broadcastTo_row broadcasts_S1x256_S10000x256 h4
  let v6 : FVec Ideal S10000x256 .f32 := subf X v5
  have h6 : IsReal2 v6 (Cert.Spec.cen x') := isReal2_subf hX h5
  -- the column variances
  let v7 : FVec Ideal S10000x256 .f32 := mulf v6 v6
  have h7 : IsReal2 v7 (fun i j => Cert.Spec.cen x' i j * Cert.Spec.cen x' i j) := isReal2_mulf h6 h6
  let v8 : FVec Ideal S256 .f32 := multiReduction .add [0] S256 v7 0x00000000#32 reduces_S10000x256_S256 (.inl rfl) rfl
  have h8 : IsReal1 v8 (fun j => ∑ i, Cert.Spec.cen x' i j * Cert.Spec.cen x' i j) :=
    isReal1_multiReduction_add_axis0 v7 _ 0x00000000#32 reduces_S10000x256_S256 (.inl rfl) rfl h7
  let v9 : FVec Ideal S1x256 .f32 := shapeCast S1x256 v8 shapeCasts_S256_S1x256
  have h9 : IsReal2 v9 (fun _ j => ∑ i, Cert.Spec.cen x' i j * Cert.Spec.cen x' i j) :=
    isReal2_shapeCast_row shapeCasts_S256_S1x256 h8
  let v10 : FVec Ideal S1x256 .f32 := broadcast S1x256 (Scalar.ofBits .f32 0x461C4000#32)
  have h10 : IsReal2 v10 (fun _ _ => (10000 : ℝ)) := isReal2_broadcast _ 10000 ofBits_10000
  let v11 : FVec Ideal S1x256 .f32 := divf v9 v10
  have h11 : IsReal2 v11 (fun _ j => Cert.Spec.var x' j) :=
    isReal2_congr (isReal2_divf h9 h10 (fun _ _ => by norm_num)) (fun _ j => by unfold Cert.Spec.var; norm_num)
  -- the scale row times the reciprocal root of variance plus the offset (a positive number)
  let v13 : FVec Ideal S1x256 .f32 := shapeCast S1x256 G shapeCasts_S1x256_S1x256
  have h13 : IsReal2 v13 (fun _ j => γ' j) := isReal2_shapeCast_self shapeCasts_S1x256_S1x256 hG
  let v14 : FVec Ideal S1x256 .f32 := broadcast S1x256 (Scalar.ofBits .f32 0x3727C5AC#32)
  have h14 : IsReal2 v14 (fun _ _ => eps) := isReal2_broadcast _ eps ofBits_eps
  let v15 : FVec Ideal S1x256 .f32 := addf v11 v14
  have h15 : IsReal2 v15 (fun _ j => Cert.Spec.var x' j + eps) := isReal2_addf h11 h14
  let v16 : FVec Ideal S1x256 .f32 := rsqrt v15
  have h16 : IsReal2 v16 (fun _ j => (Real.sqrt (Cert.Spec.var x' j + eps))⁻¹) :=
    isReal2_rsqrt h15 (fun _ j => add_pos_of_nonneg_of_pos (Cert.Spec.var_nonneg x' j) eps_pos)
  let v17 : FVec Ideal S1x256 .f32 := mulf v13 v16
  have h17 : IsReal2 v17 (fun _ j => γ' j * (Real.sqrt (Cert.Spec.var x' j + eps))⁻¹) := isReal2_mulf h13 h16
  let v18 : FVec Ideal S10000x256 .f32 := broadcastTo S10000x256 v17 broadcasts_S1x256_S10000x256
  have h18 : IsReal2 v18 (fun _ j => γ' j * (Real.sqrt (Cert.Spec.var x' j + eps))⁻¹) :=
    isReal2_broadcastTo_row broadcasts_S1x256_S10000x256 h17
  let v19 : FVec Ideal S10000x256 .f32 := mulf v6 v18
  have h19 : IsReal2 v19 (fun i j => Cert.Spec.cen x' i j * (γ' j * (Real.sqrt (Cert.Spec.var x' j + eps))⁻¹)) :=
    isReal2_mulf h6 h18
  -- plus the shift row: the normalised features
  let v21 : FVec Ideal S1x256 .f32 := shapeCast S1x256 B shapeCasts_S1x256_S1x256
  have h21 : IsReal2 v21 (fun _ j => β' j) := isReal2_shapeCast_self shapeCasts_S1x256_S1x256 hB
  let v22 : FVec Ideal S10000x256 .f32 := broadcastTo S10000x256 v21 broadcasts_S1x256_S10000x256
  have h22 : IsReal2 v22 (fun _ j => β' j) := isReal2_broadcastTo_row broadcasts_S1x256_S10000x256 h21
  let v23 : FVec Ideal S10000x256 .f32 := addf v19 v22
  have h23 : IsReal2 v23 (Cert.Spec.bnK x' γ' β' eps) := isReal2_addf h19 h22
  -- the product with the weight matrix, into a zero accumulator
  have h25 : IsReal2 (matmul dot_S10000x256_S256x256_S10000x256_1_0_0_1_n_n none v23 W
      (constant (F := Ideal) S10000x256 .f32 0x00000000#32)) (Cert.Spec.lin (Cert.Spec.bnK x' γ' β' eps) W') :=
    isReal2_matmul_zero dot_S10000x256_S256x256_S10000x256_1_0_0_1_n_n rfl none v23 W _ W' h23 hW
  exact h25

end Cert.KernelSide

end
-- ==== Proof.KChainHost.lean ====
/-
  The host stretches of the kernel program, over the reals.

  The arguments are real arrays and a table of node numbers. The first stretch cuts the table into its source and
  target rows and turns four vectors into rows. The second stretch counts, for every node, the edges that end at it
  (a scatter-add of ones), takes the reciprocal root of the count plus one, scales the first region's result by it,
  gathers the scaled rows at the edge sources and adds them up at the edge targets, gathers the factors at the edge
  targets and adds them up at the edge sources, and lays the two per-node vectors out as columns. Each buffer is read
  as the real array it is, in the specification's terms.
-/
import proofs.«150153_g58806692217087_cont_9to1_m_85_2_alg».proof.Proof.KernelStages
import proofs.«150153_g58806692217087_cont_9to1_m_85_2_alg».proof.Proof.Spec
import proofs.«150153_g58806692217087_cont_9to1_m_85_2_alg».proof.Proof.RealLift
import proofs.«150153_g58806692217087_cont_9to1_m_85_2_alg».proof.Proof.LiftPointwise
import proofs.«150153_g58806692217087_cont_9to1_m_85_2_alg».proof.Proof.LiftReduce
import proofs.«150153_g58806692217087_cont_9to1_m_85_2_alg».proof.Proof.LiftIndex
import proofs.«150153_g58806692217087_cont_9to1_m_85_2_alg».proof.Proof.Result
import proofs.«150153_g58806692217087_cont_9to1_m_85_2_alg».proof.Proof.KChain0

noncomputable section

namespace Cert.KernelSide

open Cert.KernelIdeal Cert.KernelIdeal.Gen Cert.RealLift
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-! ## The arguments, and the real arrays and node lists they are -/

abbrev arg0 : (⟨2, ![10000, 256]⟩ : Shape).Idx → EReal := m ((c.tc : Thread nD τ).loc main_arg0)
abbrev arg1 : IVec ⟨2, ![2, 160000]⟩ 32 := m ((c.tc : Thread nD τ).loc main_arg1)
abbrev arg2 : (⟨1, ![256]⟩ : Shape).Idx → EReal := m ((c.tc : Thread nD τ).loc main_arg2)
abbrev arg3 : (⟨1, ![256]⟩ : Shape).Idx → EReal := m ((c.tc : Thread nD τ).loc main_arg3)
abbrev arg4 : (⟨2, ![256, 256]⟩ : Shape).Idx → EReal := m ((c.tc : Thread nD τ).loc main_arg4)
abbrev arg5 : (⟨1, ![256]⟩ : Shape).Idx → EReal := m ((c.tc : Thread nD τ).loc main_arg5)
abbrev arg6 : (⟨2, ![256, 256]⟩ : Shape).Idx → EReal := m ((c.tc : Thread nD τ).loc main_arg6)
abbrev arg7 : (⟨1, ![256]⟩ : Shape).Idx → EReal := m ((c.tc : Thread nD τ).loc main_arg7)

/-- What the precondition says of this core's arguments. -/
abbrev OkAt : Prop :=
  Cert.Result.Ok (arg0 m c) (arg1 m c) (arg2 m c) (arg3 m c) (arg4 m c) (arg5 m c) (arg6 m c) (arg7 m c)

/-- The node features. -/
abbrev rx : Fin 10000 → Fin 256 → ℝ := toReal2 (arg0 m c)
/-- Each edge's source node. -/
abbrev nsrc : Fin 160000 → Fin 10000 := Cert.Result.srcOf (arg1 m c)
/-- Each edge's target node. -/
abbrev ndst : Fin 160000 → Fin 10000 := Cert.Result.dstOf (arg1 m c)
/-- The normalisation's scale and shift. -/
abbrev rγ : Fin 256 → ℝ := toReal1 (arg2 m c)
abbrev rβ : Fin 256 → ℝ := toReal1 (arg3 m c)
/-- The two layers' weights and biases. -/
abbrev rW1 : Fin 256 → Fin 256 → ℝ := toReal2 (arg4 m c)
abbrev rb1 : Fin 256 → ℝ := toReal1 (arg5 m c)
abbrev rW2 : Fin 256 → Fin 256 → ℝ := toReal2 (arg6 m c)
abbrev rb2 : Fin 256 → ℝ := toReal1 (arg7 m c)
/-- The first linear map of the normalised features. -/
abbrev rY : Fin 10000 → Fin 256 → ℝ := Cert.Spec.lin (Cert.Spec.bnK (rx m c) (rγ m c) (rβ m c) eps) (rW1 m c)

/-- Every word of the edge table names a node. -/
theorem word_range (hok : OkAt m c) (i : (⟨2, ![2, 160000]⟩ : Shape).Idx) :
    0 ≤ (arg1 m c i).toInt ∧ (arg1 m c i).toInt < 10000 := hok.2.2.2.2.2.2.2 i

/-! ## The first host stretch -/

theorem W1_arg0_eq : Gen.W1 m ρ c (Proc.devRef .tc main_arg0) = arg0 m c := (keep0_main_arg0 m ρ c).trans (launch_main_arg0 m ρ c)
theorem W1_arg1_eq : Gen.W1 m ρ c (Proc.devRef .tc main_arg1) = arg1 m c := (keep0_main_arg1 m ρ c).trans (launch_main_arg1 m ρ c)
theorem W1_arg2_eq : Gen.W1 m ρ c (Proc.devRef .tc main_arg2) = arg2 m c := (keep0_main_arg2 m ρ c).trans (launch_main_arg2 m ρ c)
theorem W1_arg3_eq : Gen.W1 m ρ c (Proc.devRef .tc main_arg3) = arg3 m c := (keep0_main_arg3 m ρ c).trans (launch_main_arg3 m ρ c)
theorem W1_arg4_eq : Gen.W1 m ρ c (Proc.devRef .tc main_arg4) = arg4 m c := (keep0_main_arg4 m ρ c).trans (launch_main_arg4 m ρ c)
theorem W1_arg5_eq : Gen.W1 m ρ c (Proc.devRef .tc main_arg5) = arg5 m c := (keep0_main_arg5 m ρ c).trans (launch_main_arg5 m ρ c)
theorem W1_arg6_eq : Gen.W1 m ρ c (Proc.devRef .tc main_arg6) = arg6 m c := (keep0_main_arg6 m ρ c).trans (launch_main_arg6 m ρ c)
theorem W1_arg7_eq : Gen.W1 m ρ c (Proc.devRef .tc main_arg7) = arg7 m c := (keep0_main_arg7 m ρ c).trans (launch_main_arg7 m ρ c)

/-- The source vector: entry t is row 0 of the edge table at t. -/
theorem W1_v1_apply (t : Fin 160000) : Gen.W1 m ρ c (Proc.devRef .tc main_v1) (ix1 t) = arg1 m c (ix2 (0 : Fin 2) t) := by
  rw [st0_main_v1 m ρ c, st0_main_v0 m ρ c, W1_arg1_eq m ρ c]
  exact edgeRow0_apply _ _ _ t
/-- The target vector: entry t is row 1 of the edge table at t. -/
theorem W1_v3_apply (t : Fin 160000) : Gen.W1 m ρ c (Proc.devRef .tc main_v3) (ix1 t) = arg1 m c (ix2 (1 : Fin 2) t) := by
  rw [st0_main_v3 m ρ c, st0_main_v2 m ρ c, W1_arg1_eq m ρ c]
  exact edgeRow1_apply _ _ _ t

/-- The scale, the shift and the two biases as rows. -/
theorem W1_v4 (hok : OkAt m c) : IsReal2 (Gen.W1 m ρ c (Proc.devRef .tc main_v4)) (fun _ j => rγ m c j) := by
  rw [st0_main_v4 m ρ c, W1_arg2_eq m ρ c]
  exact isReal2_shapeCast_row shapeCasts_S256_S1x256 (isReal1_toReal _ hok.2.1)
theorem W1_v5 (hok : OkAt m c) : IsReal2 (Gen.W1 m ρ c (Proc.devRef .tc main_v5)) (fun _ j => rβ m c j) := by
  rw [st0_main_v5 m ρ c, W1_arg3_eq m ρ c]
  exact isReal2_shapeCast_row shapeCasts_S256_S1x256 (isReal1_toReal _ hok.2.2.1)
theorem W1_v6 (hok : OkAt m c) : IsReal2 (Gen.W1 m ρ c (Proc.devRef .tc main_v6)) (fun _ j => rb1 m c j) := by
  rw [st0_main_v6 m ρ c, W1_arg5_eq m ρ c]
  exact isReal2_shapeCast_row shapeCasts_S256_S1x256 (isReal1_toReal _ hok.2.2.2.2.1)
theorem W1_v7 (hok : OkAt m c) : IsReal2 (Gen.W1 m ρ c (Proc.devRef .tc main_v7)) (fun _ j => rb2 m c j) := by
  rw [st0_main_v7 m ρ c, W1_arg7_eq m ρ c]
  exact isReal2_shapeCast_row shapeCasts_S256_S1x256 (isReal1_toReal _ hok.2.2.2.2.2.2.1)

/-! ## The first kernel region -/

/-- The first region leaves the linear map of the normalised features. -/
theorem W2_v8 (hok : OkAt m c) : IsReal2 (Gen.W2 m ρ c (Proc.devRef .tc main_v8)) (rY m c) := by
  rw [W2_main_v8 m ρ c]
  refine k0_isReal _ _ _ _ (rx m c) (rγ m c) (rβ m c) (rW1 m c) ?_ (W1_v4 m ρ c hok) (W1_v5 m ρ c hok) ?_
  · rw [W1_arg0_eq m ρ c]; exact isReal2_toReal _ hok.1
  · rw [W1_arg4_eq m ρ c]; exact isReal2_toReal _ hok.2.2.2.1

/-! ## The second host stretch: what it inherits -/

theorem W3_v8 (hok : OkAt m c) : IsReal2 (Gen.W3 m ρ c (Proc.devRef .tc main_v8)) (rY m c) := by
  rw [keep1_main_v8 m ρ c]; exact W2_v8 m ρ c hok
theorem W3_v1_apply (t : Fin 160000) : Gen.W3 m ρ c (Proc.devRef .tc main_v1) (ix1 t) = arg1 m c (ix2 (0 : Fin 2) t) := by
  rw [keep1_main_v1 m ρ c, keepR0_main_v1 m ρ c]; exact W1_v1_apply m ρ c t
theorem W3_v3_apply (t : Fin 160000) : Gen.W3 m ρ c (Proc.devRef .tc main_v3) (ix1 t) = arg1 m c (ix2 (1 : Fin 2) t) := by
  rw [keep1_main_v3 m ρ c, keepR0_main_v3 m ρ c]; exact W1_v3_apply m ρ c t
theorem W3_v6 (hok : OkAt m c) : IsReal2 (Gen.W3 m ρ c (Proc.devRef .tc main_v6)) (fun _ j => rb1 m c j) := by
  rw [keep1_main_v6 m ρ c, keepR0_main_v6 m ρ c]; exact W1_v6 m ρ c hok
theorem W3_v7 (hok : OkAt m c) : IsReal2 (Gen.W3 m ρ c (Proc.devRef .tc main_v7)) (fun _ j => rb2 m c j) := by
  rw [keep1_main_v7 m ρ c, keepR0_main_v7 m ρ c]; exact W1_v7 m ρ c hok
theorem W3_arg6 (hok : OkAt m c) : IsReal2 (Gen.W3 m ρ c (Proc.devRef .tc main_arg6)) (rW2 m c) := by
  rw [keep1_main_arg6 m ρ c, keepR0_main_arg6 m ρ c, W1_arg6_eq m ρ c]; exact isReal2_toReal _ hok.2.2.2.2.2.1

theorem W3_v1_nonneg (hok : OkAt m c) (i : (⟨1, ![160000]⟩ : Shape).Idx) : 0 ≤ (Gen.W3 m ρ c (Proc.devRef .tc main_v1) i).toInt := by
  obtain ⟨t, rfl⟩ : ∃ t : Fin 160000, i = ix1 t := ⟨i 0, eq_ix1 i⟩
  rw [W3_v1_apply m ρ c t]; exact (word_range m c hok _).1
theorem W3_v3_nonneg (hok : OkAt m c) (i : (⟨1, ![160000]⟩ : Shape).Idx) : 0 ≤ (Gen.W3 m ρ c (Proc.devRef .tc main_v3) i).toInt := by
  obtain ⟨t, rfl⟩ : ∃ t : Fin 160000, i = ix1 t := ⟨i 0, eq_ix1 i⟩
  rw [W3_v3_apply m ρ c t]; exact (word_range m c hok _).1

/-! ## The wrap of negative indices changes nothing: every word is a node number -/

theorem W3_v14_eq (hok : OkAt m c) : Gen.W3 m ρ c (Proc.devRef .tc main_v14) = Gen.W3 m ρ c (Proc.devRef .tc main_v3) := by
  rw [st1_main_v14 m ρ c, st1_main_v11 m ρ c, st1_main_v13 m ρ c, st1_main_v10 m ρ c, st1_main_v12 m ρ c,
    st1_main_c m ρ c, st1_main_c_0 m ρ c]
  exact wrap_eq_self _ _ _ _ (W3_v3_nonneg m ρ c hok)

theorem W3_v29_eq (hok : OkAt m c) : Gen.W3 m ρ c (Proc.devRef .tc main_v29) = Gen.W3 m ρ c (Proc.devRef .tc main_v1) := by
  rw [st1_main_v29 m ρ c, st1_main_v26 m ρ c, st1_main_v28 m ρ c, st1_main_v25 m ρ c, st1_main_v27 m ρ c,
    st1_main_c_4 m ρ c, st1_main_c_5 m ρ c]
  exact wrap_eq_self _ _ _ _ (W3_v1_nonneg m ρ c hok)

theorem W3_v36_eq (hok : OkAt m c) : Gen.W3 m ρ c (Proc.devRef .tc main_v36) = Gen.W3 m ρ c (Proc.devRef .tc main_v3) := by
  rw [st1_main_v36 m ρ c, st1_main_v33 m ρ c, st1_main_v35 m ρ c, st1_main_v32 m ρ c, st1_main_v34 m ρ c,
    st1_main_c_6 m ρ c, st1_main_c_7 m ρ c]
  exact wrap_eq_self _ _ _ _ (W3_v3_nonneg m ρ c hok)

theorem W3_v44_eq (hok : OkAt m c) : Gen.W3 m ρ c (Proc.devRef .tc main_v44) = Gen.W3 m ρ c (Proc.devRef .tc main_v3) := by
  rw [st1_main_v44 m ρ c, st1_main_v41 m ρ c, st1_main_v43 m ρ c, st1_main_v40 m ρ c, st1_main_v42 m ρ c,
    st1_main_c_9 m ρ c, st1_main_c_10 m ρ c]
  exact wrap_eq_self _ _ _ _ (W3_v3_nonneg m ρ c hok)

theorem W3_v51_eq (hok : OkAt m c) : Gen.W3 m ρ c (Proc.devRef .tc main_v51) = Gen.W3 m ρ c (Proc.devRef .tc main_v1) := by
  rw [st1_main_v51 m ρ c, st1_main_v48 m ρ c, st1_main_v50 m ρ c, st1_main_v47 m ρ c, st1_main_v49 m ρ c,
    st1_main_c_11 m ρ c, st1_main_c_12 m ρ c]
  exact wrap_eq_self _ _ _ _ (W3_v1_nonneg m ρ c hok)

/-! ## The index columns -/

theorem W3_v15_apply (hok : OkAt m c) (t : Fin 160000) :
    Gen.W3 m ρ c (Proc.devRef .tc main_v15) (ix2 t (0 : Fin 1)) = arg1 m c (ix2 (1 : Fin 2) t) := by
  rw [st1_main_v15 m ρ c, W3_v14_eq m ρ c hok]
  exact (column_apply _ _ t 0).trans (W3_v3_apply m ρ c t)

theorem W3_v30_apply (hok : OkAt m c) (t : Fin 160000) :
    Gen.W3 m ρ c (Proc.devRef .tc main_v30) (ix2 t (0 : Fin 1)) = arg1 m c (ix2 (0 : Fin 2) t) := by
  rw [st1_main_v30 m ρ c, W3_v29_eq m ρ c hok]
  exact (column_apply _ _ t 0).trans (W3_v1_apply m ρ c t)

theorem W3_v37_apply (hok : OkAt m c) (t : Fin 160000) :
    Gen.W3 m ρ c (Proc.devRef .tc main_v37) (ix2 t (0 : Fin 1)) = arg1 m c (ix2 (1 : Fin 2) t) := by
  rw [st1_main_v37 m ρ c, W3_v36_eq m ρ c hok]
  exact (column_apply _ _ t 0).trans (W3_v3_apply m ρ c t)

theorem W3_v45_apply (hok : OkAt m c) (t : Fin 160000) :
    Gen.W3 m ρ c (Proc.devRef .tc main_v45) (ix2 t (0 : Fin 1)) = arg1 m c (ix2 (1 : Fin 2) t) := by
  rw [st1_main_v45 m ρ c, W3_v44_eq m ρ c hok]
  exact (column_apply _ _ t 0).trans (W3_v3_apply m ρ c t)

theorem W3_v52_apply (hok : OkAt m c) (t : Fin 160000) :
    Gen.W3 m ρ c (Proc.devRef .tc main_v52) (ix2 t (0 : Fin 1)) = arg1 m c (ix2 (0 : Fin 2) t) := by
  rw [st1_main_v52 m ρ c, W3_v51_eq m ρ c hok]
  exact (column_apply _ _ t 0).trans (W3_v1_apply m ρ c t)

/-- A column of target words is in range. -/
theorem range_of_apply (hok : OkAt m c) (idx : IVec ⟨2, ![160000, 1]⟩ 32) (r : Fin 2)
    (h : ∀ t : Fin 160000, idx (ix2 t (0 : Fin 1)) = arg1 m c (ix2 r t)) (t : Fin 160000) :
    0 ≤ (idx (ix2 t (0 : Fin 1))).toInt ∧ (idx (ix2 t (0 : Fin 1))).toInt < ((10000 : ℕ) : Int) := by
  rw [h t]
  have hr := word_range m c hok (ix2 r t)
  exact ⟨hr.1, by exact_mod_cast hr.2⟩

/-! ## Constants spread over a shape -/

theorem W3_v9 : IsReal1 (Gen.W3 m ρ c (Proc.devRef .tc main_v9)) (fun _ => (0 : ℝ)) := by
  rw [st1_main_v9 m ρ c, st1_main_cst m ρ c]
  exact isReal1_broadcastInDim_scalar _ _ 0 (isReal0_constant _ 0 ofBits_zero)
theorem W3_v16 : IsReal1 (Gen.W3 m ρ c (Proc.devRef .tc main_v16)) (fun _ => (1 : ℝ)) := by
  rw [st1_main_v16 m ρ c, st1_main_cst_1 m ρ c]
  exact isReal1_broadcastInDim_scalar _ _ 1 (isReal0_constant _ 1 ofBits_one)
theorem W3_v18 : IsReal1 (Gen.W3 m ρ c (Proc.devRef .tc main_v18)) (fun _ => (1 : ℝ)) := by
  rw [st1_main_v18 m ρ c, st1_main_cst_2 m ρ c]
  exact isReal1_broadcastInDim_scalar _ _ 1 (isReal0_constant _ 1 ofBits_one)
theorem W3_v24 : IsReal2 (Gen.W3 m ρ c (Proc.devRef .tc main_v24)) (fun _ _ => (0 : ℝ)) := by
  rw [st1_main_v24 m ρ c, st1_main_cst_3 m ρ c]
  exact isReal2_broadcastInDim_scalar _ _ 0 (isReal0_constant _ 0 ofBits_zero)
theorem W3_v39 : IsReal1 (Gen.W3 m ρ c (Proc.devRef .tc main_v39)) (fun _ => (0 : ℝ)) := by
  rw [st1_main_v39 m ρ c, st1_main_cst_8 m ρ c]
  exact isReal1_broadcastInDim_scalar _ _ 0 (isReal0_constant _ 0 ofBits_zero)

/-! ## Degrees -/

/-- The scatter-add of ones at the edge targets counts the edges that end at each node. -/
theorem W3_v17 (hok : OkAt m c) : IsReal1 (Gen.W3 m ρ c (Proc.devRef .tc main_v17)) (Cert.Spec.cnt (ndst m c)) := by
  rw [st1_main_v17 m ρ c, kernel_vecScatter_eq]
  refine isReal1_congr (scatterAdd_vec_isReal (by decide) _ _ _ _ (fun _ => (1 : ℝ)) (W3_v9 m ρ c) (W3_v16 m ρ c)
    (range_of_apply m c hok _ 1 (W3_v15_apply m ρ c hok))) (fun v => ?_)
  unfold Cert.Spec.cnt
  refine Finset.sum_congr rfl (fun t _ => ?_)
  rw [W3_v15_apply m ρ c hok t]
  rfl
theorem W3_v19 (hok : OkAt m c) : IsReal1 (Gen.W3 m ρ c (Proc.devRef .tc main_v19)) (fun v => Cert.Spec.cnt (ndst m c) v + 1) := by
  rw [st1_main_v19 m ρ c]
  exact isReal1_addf (W3_v17 m ρ c hok) (W3_v18 m ρ c)
/-- The reciprocal root of the degree with the self loop counted. -/
theorem W3_v20 (hok : OkAt m c) : IsReal1 (Gen.W3 m ρ c (Proc.devRef .tc main_v20)) (Cert.Spec.dis (ndst m c)) := by
  rw [st1_main_v20 m ρ c]
  exact isReal1_hostRsqrt (W3_v19 m ρ c hok) (fun v => Cert.Spec.deg_pos (ndst m c) v)

/-! ## The scaled features, gathered at the sources and summed at the targets -/

theorem W3_v21 (hok : OkAt m c) : IsReal2 (Gen.W3 m ρ c (Proc.devRef .tc main_v21)) (fun v _ => Cert.Spec.dis (ndst m c) v) := by
  rw [st1_main_v21 m ρ c]
  exact isReal2_broadcastInDim_vec_col _ (W3_v20 m ρ c hok)
theorem W3_v22 (hok : OkAt m c) : IsReal2 (Gen.W3 m ρ c (Proc.devRef .tc main_v22)) (fun v _ => Cert.Spec.dis (ndst m c) v) := by
  rw [st1_main_v22 m ρ c]
  exact isReal2_broadcastInDim_col _ (W3_v21 m ρ c hok)
theorem W3_v23 (hok : OkAt m c) : IsReal2 (Gen.W3 m ρ c (Proc.devRef .tc main_v23)) (Cert.Spec.zt (ndst m c) (rY m c)) := by
  rw [st1_main_v23 m ρ c]
  exact isReal2_mulf (W3_v22 m ρ c hok) (W3_v8 m ρ c hok)
theorem W3_v31 (hok : OkAt m c) :
    IsReal2 (Gen.W3 m ρ c (Proc.devRef .tc main_v31)) (fun t k => Cert.Spec.zt (ndst m c) (rY m c) (nsrc m c t) k) := by
  rw [st1_main_v31 m ρ c, kernel_rowGather_eq]
  refine isReal2_congr (gather_rows_isReal (by decide) _ _ _ (W3_v23 m ρ c hok) _) (fun t k => ?_)
  rw [W3_v30_apply m ρ c hok t]
  rfl
theorem W3_v38 (hok : OkAt m c) : IsReal2 (Gen.W3 m ρ c (Proc.devRef .tc main_v38)) (Cert.Spec.accK (nsrc m c) (ndst m c) (rY m c)) := by
  rw [st1_main_v38 m ρ c, kernel_rowScatter_eq]
  refine isReal2_congr (scatterAdd_rows_isReal (by decide) _ _ _ _ _ (W3_v24 m ρ c) (W3_v31 m ρ c hok)
    (range_of_apply m c hok _ 1 (W3_v37_apply m ρ c hok))) (fun v k => ?_)
  unfold Cert.Spec.accK
  refine Finset.sum_congr rfl (fun t _ => ?_)
  rw [W3_v37_apply m ρ c hok t]
  rfl

/-! ## The factors, gathered at the targets and summed at the sources -/

theorem W3_v46 (hok : OkAt m c) :
    IsReal1 (Gen.W3 m ρ c (Proc.devRef .tc main_v46)) (fun t => Cert.Spec.dis (ndst m c) (ndst m c t)) := by
  rw [st1_main_v46 m ρ c, kernel_vecGather_eq]
  refine isReal1_congr (gather_vec_isReal (by decide) _ _ _ (W3_v20 m ρ c hok) _) (fun t => ?_)
  rw [W3_v45_apply m ρ c hok t]
  rfl
theorem W3_v53 (hok : OkAt m c) : IsReal1 (Gen.W3 m ρ c (Proc.devRef .tc main_v53)) (Cert.Spec.ss (nsrc m c) (ndst m c)) := by
  rw [st1_main_v53 m ρ c, kernel_vecScatter_eq]
  refine isReal1_congr (scatterAdd_vec_isReal (by decide) _ _ _ _ _ (W3_v39 m ρ c) (W3_v46 m ρ c hok)
    (range_of_apply m c hok _ 0 (W3_v52_apply m ρ c hok))) (fun u => ?_)
  unfold Cert.Spec.ss
  refine Finset.sum_congr rfl (fun t _ => ?_)
  rw [W3_v52_apply m ρ c hok t]
  rfl

/-! ## The two per-node vectors as columns -/

theorem W3_v54 (hok : OkAt m c) : IsReal2 (Gen.W3 m ρ c (Proc.devRef .tc main_v54)) (fun v _ => Cert.Spec.dis (ndst m c) v) := by
  rw [st1_main_v54 m ρ c]
  exact isReal2_shapeCast_col shapeCasts_S10000_S10000x1 (W3_v20 m ρ c hok)
theorem W3_v55 (hok : OkAt m c) : IsReal2 (Gen.W3 m ρ c (Proc.devRef .tc main_v55)) (fun u _ => Cert.Spec.ss (nsrc m c) (ndst m c) u) := by
  rw [st1_main_v55 m ρ c]
  exact isReal2_shapeCast_col shapeCasts_S10000_S10000x1 (W3_v53 m ρ c hok)

end Cert.KernelSide

end
-- ==== Proof.KChain1.lean ====
/-
  The second kernel region's result, over the reals.

  The region finishes the first graph convolution (the target-side factor times the sum of the edge accumulator and
  the node's own scaled features, plus the bias), applies the leaky rectifier, weights every node by its column sum of
  the normalised adjacency, averages over the nodes, and applies the second linear map and bias. Fed real arrays it
  leaves the real row "average first, then the linear map": each line of the region's value function is read as the
  real array it is, in the order the function computes them.
-/
import proofs.«150153_g58806692217087_cont_9to1_m_85_2_alg».proof.Proof.Gen.KernelIdeal.Skeleton
import proofs.«150153_g58806692217087_cont_9to1_m_85_2_alg».proof.Proof.Spec
import proofs.«150153_g58806692217087_cont_9to1_m_85_2_alg».proof.Proof.RealLift
import proofs.«150153_g58806692217087_cont_9to1_m_85_2_alg».proof.Proof.LiftPointwise
import proofs.«150153_g58806692217087_cont_9to1_m_85_2_alg».proof.Proof.LiftReduce
import proofs.«150153_g58806692217087_cont_9to1_m_85_2_alg».proof.Proof.KChain0
import Idealize.ShloMosaic.PureOps.IdealRules

noncomputable section

namespace Cert.KernelSide

open Cert.KernelIdeal Cert.KernelIdeal.Gen Cert.RealLift
open Idealize.ShloMosaic Idealize.ShloMosaic.ValueIdx

/-- The named reciprocal of the number of nodes is the rational 1/10000, by the certificate's table. -/
theorem inv_10000 :
    Named.named (F := Ideal) Cert.KernelIdeal.κ "inv_10000" (φ := .f32) 0x38D1B717#32 = ((1 / 10000 : ℝ) : EReal) :=
  IdealRules.named_const.ideal_named_scalar _ _ _ _ rfl

/-- The second region's value at real inputs, in the specification's terms: with the target-side factors, the edge
    accumulator, the scaled features and the per-node sums of outgoing factors as inputs, the result is the
    "average first" form of the output at the rectified first convolution. -/
theorem k1_isReal {e : ℕ} (src dst : Fin e → Fin 10000) (Y : Fin 10000 → Fin 256 → ℝ)
    (D : FVec Ideal S10000x1 .f32) (ACC ZT : FVec Ideal S10000x256 .f32) (B1 : FVec Ideal S1x256 .f32)
    (SS : FVec Ideal S10000x1 .f32) (W2 : FVec Ideal S256x256 .f32) (B2 : FVec Ideal S1x256 .f32)
    (b1' : Fin 256 → ℝ) (W2' : Fin 256 → Fin 256 → ℝ) (b2' : Fin 256 → ℝ)
    (hD : IsReal2 D (fun v _ => Cert.Spec.dis dst v)) (hACC : IsReal2 ACC (Cert.Spec.accK src dst Y))
    (hZT : IsReal2 ZT (Cert.Spec.zt dst Y)) (hB1 : IsReal2 B1 (fun _ k => b1' k))
    (hSS : IsReal2 SS (fun u _ => Cert.Spec.ss src dst u)) (hW2 : IsReal2 W2 W2') (hB2 : IsReal2 B2 (fun _ j => b2' j)) :
    IsReal2 (Gen.k1_pay1 (F := Ideal) D ACC ZT B1 SS W2 B2)
      (fun _ j => Cert.Spec.outK src dst W2' b2' (fun v k => Cert.Spec.leaky slope (Cert.Spec.convK src dst Y b1' v k)) j) := by
  -- the first convolution before the rectifier
  let v1 : FVec Ideal S10000x1 .f32 := shapeCast S10000x1 D shapeCasts_S10000x1_S10000x1
  have h1 : IsReal2 v1 (fun v _ => Cert.Spec.dis dst v) := isReal2_shapeCast_self shapeCasts_S10000x1_S10000x1 hD
  let v3 : FVec Ideal S10000x256 .f32 := shapeCast S10000x256 ACC shapeCasts_S10000x256_S10000x256
  have h3 : IsReal2 v3 (Cert.Spec.accK src dst Y) := isReal2_shapeCast_self shapeCasts_S10000x256_S10000x256 hACC
  let v5 : FVec Ideal S10000x256 .f32 := shapeCast S10000x256 ZT shapeCasts_S10000x256_S10000x256
  have h5 : IsReal2 v5 (Cert.Spec.zt dst Y) := isReal2_shapeCast_self shapeCasts_S10000x256_S10000x256 hZT
  let v6 : FVec Ideal S10000x256 .f32 := addf v3 v5
  have h6 : IsReal2 v6 (fun v k => Cert.Spec.accK src dst Y v k + Cert.Spec.zt dst Y v k) := isReal2_addf h3 h5
  let v7 : FVec Ideal S10000x256 .f32 := broadcastTo S10000x256 v1 broadcasts_S10000x1_S10000x256
  have h7 : IsReal2 v7 (fun v _ => Cert.Spec.dis dst v) := isReal2_broadcastTo_col broadcasts_S10000x1_S10000x256 h1
  let v8 : FVec Ideal S10000x256 .f32 := mulf v7 v6
  have h8 : IsReal2 v8 (fun v k => Cert.Spec.dis dst v * (Cert.Spec.accK src dst Y v k + Cert.Spec.zt dst Y v k)) :=
    isReal2_mulf h7 h6
  let v10 : FVec Ideal S1x256 .f32 := shapeCast S1x256 B1 shapeCasts_S1x256_S1x256
  have h10 : IsReal2 v10 (fun _ k => b1' k) := isReal2_shapeCast_self shapeCasts_S1x256_S1x256 hB1
  let v11 : FVec Ideal S10000x256 .f32 := broadcastTo S10000x256 v10 broadcasts_S1x256_S10000x256
  have h11 : IsReal2 v11 (fun _ k => b1' k) := isReal2_broadcastTo_row broadcasts_S1x256_S10000x256 h10
  let v12 : FVec Ideal S10000x256 .f32 := addf v8 v11
  have h12 : IsReal2 v12 (Cert.Spec.convK src dst Y b1') := isReal2_addf h8 h11
  -- the leaky rectifier: the entry where it is positive, the slope times it elsewhere
  let v13 : FVec Ideal S10000x256 .f32 := broadcast S10000x256 (Scalar.ofBits .f32 0x00000000#32)
  have h13 : IsReal2 v13 (fun _ _ => (0 : ℝ)) := isReal2_broadcast _ 0 ofBits_zero
  let v14 : IVec S10000x256 1 := cmpf .ogt v12 v13
  let v15 : FVec Ideal S10000x256 .f32 := broadcast S10000x256 (Scalar.ofBits .f32 0x3DCCCCCD#32)
  have h15 : IsReal2 v15 (fun _ _ => slope) := isReal2_broadcast _ slope ofBits_slope
  let v16 : FVec Ideal S10000x256 .f32 := mulf v15 v12
  have h16 : IsReal2 v16 (fun v k => slope * Cert.Spec.convK src dst Y b1' v k) := isReal2_mulf h15 h12
  let v17 : FVec Ideal S10000x256 .f32 := select v14 v12 v16
  have h17 : IsReal2 v17 (fun v k => Cert.Spec.leaky slope (Cert.Spec.convK src dst Y b1' v k)) :=
    isReal2_select_ogt h12 h13 h16
  -- each node's column sum of the normalised adjacency
  let v19 : FVec Ideal S10000x1 .f32 := shapeCast S10000x1 SS shapeCasts_S10000x1_S10000x1
  have h19 : IsReal2 v19 (fun u _ => Cert.Spec.ss src dst u) := isReal2_shapeCast_self shapeCasts_S10000x1_S10000x1 hSS
  let v20 : FVec Ideal S10000x1 .f32 := addf v1 v19
  have h20 : IsReal2 v20 (fun u _ => Cert.Spec.dis dst u + Cert.Spec.ss src dst u) := isReal2_addf h1 h19
  let v21 : FVec Ideal S10000x1 .f32 := mulf v1 v20
  have h21 : IsReal2 v21 (fun u _ => Cert.Spec.wcol src dst u) := isReal2_mulf h1 h20
  let v22 : FVec Ideal S10000x256 .f32 := broadcastTo S10000x256 v21 broadcasts_S10000x1_S10000x256
  have h22 : IsReal2 v22 (fun u _ => Cert.Spec.wcol src dst u) := isReal2_broadcastTo_col broadcasts_S10000x1_S10000x256 h21
  -- the weighted average of the hidden features
  let v23 : FVec Ideal S10000x256 .f32 := mulf v17 v22
  have h23 : IsReal2 v23
      (fun u k => Cert.Spec.leaky slope (Cert.Spec.convK src dst Y b1' u k) * Cert.Spec.wcol src dst u) :=
    isReal2_mulf h17 h22
  let v24 : FVec Ideal S256 .f32 := multiReduction .add [0] S256 v23 0x00000000#32 reduces_S10000x256_S256 (.inl rfl) rfl
  have h24 : IsReal1 v24
      (fun k => ∑ u, Cert.Spec.leaky slope (Cert.Spec.convK src dst Y b1' u k) * Cert.Spec.wcol src dst u) :=
    isReal1_multiReduction_add_axis0 v23 _ 0x00000000#32 reduces_S10000x256_S256 (.inl rfl) rfl h23
  let v25 : FVec Ideal S1x256 .f32 := shapeCast S1x256 v24 shapeCasts_S256_S1x256
  have h25 : IsReal2 v25
      (fun _ k => ∑ u, Cert.Spec.leaky slope (Cert.Spec.convK src dst Y b1' u k) * Cert.Spec.wcol src dst u) :=
    isReal2_shapeCast_row shapeCasts_S256_S1x256 h24
  let v26 : FVec Ideal S1x256 .f32 := broadcast S1x256 (Named.named (F := Ideal) κ "inv_10000" (φ := .f32) 0x38D1B717#32)
  have h26 : IsReal2 v26 (fun _ _ => (1 / 10000 : ℝ)) := isReal2_broadcast _ (1 / 10000) inv_10000
  let v27 : FVec Ideal S1x256 .f32 := mulf v25 v26
  have h27 : IsReal2 v27
      (fun _ k => Cert.Spec.pooled src dst (fun v k => Cert.Spec.leaky slope (Cert.Spec.convK src dst Y b1' v k)) k) :=
    isReal2_congr (isReal2_mulf h25 h26) (fun _ k => by unfold Cert.Spec.pooled; norm_num)
  -- the second linear map and the bias
  have h29 : IsReal2 (matmul dot_S1x256_S256x256_S1x256_1_0_0_1_n_n none v27 W2
      (constant (F := Ideal) S1x256 .f32 0x00000000#32))
      (fun _ j => ∑ k, Cert.Spec.pooled src dst (fun v k => Cert.Spec.leaky slope (Cert.Spec.convK src dst Y b1' v k)) k
        * W2' k j) :=
    isReal2_matmul_zero dot_S1x256_S256x256_S1x256_1_0_0_1_n_n rfl none v27 W2 _ W2' h27 hW2
  let v31 : FVec Ideal S1x256 .f32 := shapeCast S1x256 B2 shapeCasts_S1x256_S1x256
  have h31 : IsReal2 v31 (fun _ j => b2' j) := isReal2_shapeCast_self shapeCasts_S1x256_S1x256 hB2
  have h32 := isReal2_addf h29 h31
  exact h32

end Cert.KernelSide

end
-- ==== Proof.KChainEnd.lean ====
/-
  The kernel program's result: the specification's row.

  The second region's value function, fed the buffers the second host stretch leaves, gives the "average first" form
  of the output at the rectified first convolution in its "factor taken out of the sum" form. The two convolution forms
  agree, and "average first" agrees with "node by node, then the mean": the result is the specification's.
-/
import proofs.«150153_g58806692217087_cont_9to1_m_85_2_alg».proof.Proof.KChainHost
import proofs.«150153_g58806692217087_cont_9to1_m_85_2_alg».proof.Proof.KChain1

noncomputable section

namespace Cert.KernelSide

open Cert.KernelIdeal Cert.KernelIdeal.Gen Cert.RealLift
open Idealize.ShloMosaic Idealize.ShloMosaic.TcCoe Idealize.SL.Sem Idealize.ShloMosaic.ValueIdx

/-- The rectified first convolution, with the factor taken out of the sum, is the specification's hidden features. -/
theorem hidden_eq {n d e : ℕ} (x : Fin n → Fin d → ℝ) (src dst : Fin e → Fin n) (γ β : Fin d → ℝ) (W1 : Fin d → Fin d → ℝ)
    (b1 : Fin d → ℝ) (ε s : ℝ) :
    (fun v k => Cert.Spec.leaky s (Cert.Spec.convK src dst (Cert.Spec.lin (Cert.Spec.bnK x γ β ε) W1) b1 v k))
      = Cert.Spec.hidden x src dst γ β W1 b1 ε s := by
  funext v k
  unfold Cert.Spec.hidden
  rw [Cert.Spec.convK_eq_convR]

theorem value_proved (m : (ℓ : Loc nD τ sig) → Buf (Elt Ideal) ℓ) (ρ : Dev nD → PrngReg) (c : Dev nD)
    (hok : Cert.Result.Ok (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))) :
    Gen.W4 m ρ c (Proc.devRef .tc main_v56)
      = Cert.Result.val (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  have hok' : OkAt m c := hok
  rw [W4_result m ρ c]
  apply Cert.Result.val_of_isReal2
  have h := k1_isReal (nsrc m c) (ndst m c) (rY m c) _ _ _ _ _ _ _ (rb1 m c) (rW2 m c) (rb2 m c)
    (W3_v54 m ρ c hok') (W3_v38 m ρ c hok') (W3_v23 m ρ c hok') (W3_v6 m ρ c hok') (W3_v55 m ρ c hok')
    (W3_arg6 m ρ c hok') (W3_v7 m ρ c hok')
  refine isReal2_congr h (fun _ j => ?_)
  rw [hidden_eq, Cert.Spec.outK_eq_outR (by decide)]
  rfl

end Cert.KernelSide

end
-- ==== Proof.KChain.lean ====
/-
  The kernel side's value: under the precondition's reading of the arguments, the result buffer at the last boundary
  holds the specification's row at the arguments read as real arrays.
-/
import proofs.«150153_g58806692217087_cont_9to1_m_85_2_alg».proof.Proof.KernelRun
import proofs.«150153_g58806692217087_cont_9to1_m_85_2_alg».proof.Proof.KChainEnd
import proofs.«150153_g58806692217087_cont_9to1_m_85_2_alg».proof.Proof.Result

noncomputable section

namespace Cert.KernelSide

open Cert.KernelIdeal Cert.KernelIdeal.Gen
open Idealize.ShloMosaic Idealize.ShloMosaic.TcCoe Idealize.SL.Sem

theorem value (m : (ℓ : Loc nD τ sig) → Buf (Elt Ideal) ℓ) (ρ : Dev nD → PrngReg) (c : Dev nD)
    (hok : Cert.Result.Ok (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))) :
    Gen.W4 m ρ c (Proc.devRef .tc main_v56)
      = Cert.Result.val (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  value_proved m ρ c hok

end Cert.KernelSide

end
-- ==== Proof.RefOps.lean ====
/- The reference program's @main as lists of its host operations in execution order, one list per printed window,
   each called function's operations standing in its call's place over that call's buffers; the reference each
   operation writes, position by position; and per window the builders' facts that every buffer touched is a
   TensorCore reference. Tables only: what is proved from them is in the module that imports this one. -/
import proofs.«150153_g58806692217087_cont_9to1_m_85_2_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 0 (83 of them). -/
abbrev ops0 : List (HloOp τ sig (Elt F)) :=
  [ StableHlo.nullary main_cst (constant S_ .f32 0x00000000#32),
    StableHlo.binary main_arg0 main_cst main_v0 ((fun x v => Host.reduceAdd x v reducesTo_S10000x256_S256_d0 h_S_) : (⟨S10000x256, .f32⟩ : BufTy).Contents (Elt F) → (⟨S_, .f32⟩ : BufTy).Contents (Elt F) → (⟨S256, .f32⟩ : BufTy).Contents (Elt F)),
    StableHlo.nullary main_cst_0 (constant S_ .f32 0x461C4000#32),
    StableHlo.unary main_cst_0 main_v1 (broadcastInDim S256 ![] bcast_S_S256 : (⟨S_, .f32⟩ : BufTy).Contents (Elt F) → (⟨S256, .f32⟩ : BufTy).Contents (Elt F)),
    StableHlo.binary main_v0 main_v1 main_v2 (Host.divf : (⟨S256, .f32⟩ : BufTy).Contents (Elt F) → (⟨S256, .f32⟩ : BufTy).Contents (Elt F) → (⟨S256, .f32⟩ : BufTy).Contents (Elt F)),
    StableHlo.nullary main_c (constantI S_ 32 0#32),
    StableHlo.TRef.nullary main_call0.cst (constant S_ .f32 0x00000000#32),
    StableHlo.TRef.binary (TRef.of main_arg0 : TRef sig ⟨S10000x256, .f32⟩) main_call0.cst main_call0.v0 (fun x v => Host.reduceAdd x v reducesTo_S10000x256_S256_d0 h_S_),
    StableHlo.TRef.unary main_call0.v0 main_call0.v1 (broadcastInDim S1x256 ![1] bcast_S256_S1x256_1),
    StableHlo.TRef.nullary main_call0.cst_0 (constant S_ .f32 0x461C4000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S10000x256 ![0, 1] bcast_S1x256_S10000x256_0_1),
    StableHlo.TRef.binary (TRef.of main_arg0 : TRef sig ⟨S10000x256, .f32⟩) main_call0.v4 main_call0.v5 subf,
    StableHlo.TRef.binary main_call0.v5 main_call0.v5 main_call0.v6 mulf,
    StableHlo.TRef.unary (TRef.of main_c : TRef sig ⟨S_, .i32⟩) main_call0.v7 (sitofp .f32),
    StableHlo.TRef.nullary main_call0.cst_1 (constant S_ .f32 0x461C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S10000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v2 main_v4 (broadcastInDim S1x256 ![1] bcast_S256_S1x256_1 : (⟨S256, .f32⟩ : BufTy).Contents (Elt F) → (⟨S1x256, .f32⟩ : BufTy).Contents (Elt F)),
    StableHlo.unary main_v4 main_v5 (broadcastInDim S10000x256 ![0, 1] bcast_S1x256_S10000x256_0_1 : (⟨S1x256, .f32⟩ : BufTy).Contents (Elt F) → (⟨S10000x256, .f32⟩ : BufTy).Contents (Elt F)),
    StableHlo.binary main_arg0 main_v5 main_v6 (subf : (⟨S10000x256, .f32⟩ : BufTy).Contents (Elt F) → (⟨S10000x256, .f32⟩ : BufTy).Contents (Elt F) → (⟨S10000x256, .f32⟩ : BufTy).Contents (Elt F)),
    StableHlo.nullary main_cst_1 (constant S_ .f32 0x3727C5AC#32),
    StableHlo.unary main_cst_1 main_v7 (broadcastInDim S256 ![] bcast_S_S256 : (⟨S_, .f32⟩ : BufTy).Contents (Elt F) → (⟨S256, .f32⟩ : BufTy).Contents (Elt F)),
    StableHlo.binary main_v3 main_v7 main_v8 (addf : (⟨S256, .f32⟩ : BufTy).Contents (Elt F) → (⟨S256, .f32⟩ : BufTy).Contents (Elt F) → (⟨S256, .f32⟩ : BufTy).Contents (Elt F)),
    StableHlo.unary main_v8 main_v9 (Host.sqrt : (⟨S256, .f32⟩ : BufTy).Contents (Elt F) → (⟨S256, .f32⟩ : BufTy).Contents (Elt F)),
    StableHlo.unary main_v9 main_v10 (broadcastInDim S1x256 ![1] bcast_S256_S1x256_1 : (⟨S256, .f32⟩ : BufTy).Contents (Elt F) → (⟨S1x256, .f32⟩ : BufTy).Contents (Elt F)),
    StableHlo.unary main_v10 main_v11 (broadcastInDim S10000x256 ![0, 1] bcast_S1x256_S10000x256_0_1 : (⟨S1x256, .f32⟩ : BufTy).Contents (Elt F) → (⟨S10000x256, .f32⟩ : BufTy).Contents (Elt F)),
    StableHlo.binary main_v6 main_v11 main_v12 (Host.divf : (⟨S10000x256, .f32⟩ : BufTy).Contents (Elt F) → (⟨S10000x256, .f32⟩ : BufTy).Contents (Elt F) → (⟨S10000x256, .f32⟩ : BufTy).Contents (Elt F)),
    StableHlo.unary main_arg2 main_v13 (broadcastInDim S1x256 ![1] bcast_S256_S1x256_1 : (⟨S256, .f32⟩ : BufTy).Contents (Elt F) → (⟨S1x256, .f32⟩ : BufTy).Contents (Elt F)),
    StableHlo.unary main_v13 main_v14 (broadcastInDim S10000x256 ![0, 1] bcast_S1x256_S10000x256_0_1 : (⟨S1x256, .f32⟩ : BufTy).Contents (Elt F) → (⟨S10000x256, .f32⟩ : BufTy).Contents (Elt F)),
    StableHlo.binary main_v12 main_v14 main_v15 (mulf : (⟨S10000x256, .f32⟩ : BufTy).Contents (Elt F) → (⟨S10000x256, .f32⟩ : BufTy).Contents (Elt F) → (⟨S10000x256, .f32⟩ : BufTy).Contents (Elt F)),
    StableHlo.unary main_arg3 main_v16 (broadcastInDim S1x256 ![1] bcast_S256_S1x256_1 : (⟨S256, .f32⟩ : BufTy).Contents (Elt F) → (⟨S1x256, .f32⟩ : BufTy).Contents (Elt F)),
    StableHlo.unary main_v16 main_v17 (broadcastInDim S10000x256 ![0, 1] bcast_S1x256_S10000x256_0_1 : (⟨S1x256, .f32⟩ : BufTy).Contents (Elt F) → (⟨S10000x256, .f32⟩ : BufTy).Contents (Elt F)),
    StableHlo.binary main_v15 main_v17 main_v18 (addf : (⟨S10000x256, .f32⟩ : BufTy).Contents (Elt F) → (⟨S10000x256, .f32⟩ : BufTy).Contents (Elt F) → (⟨S10000x256, .f32⟩ : BufTy).Contents (Elt F)),
    StableHlo.unary main_arg1 main_v19 ((extractStridedSlice S1x160000 ![0, 0] · slices_S2x160000_S1x160000_0_0) : (⟨S2x160000, .i32⟩ : BufTy).Contents (Elt F) → (⟨S1x160000, .i32⟩ : BufTy).Contents (Elt F)),
    StableHlo.reshape main_v19 main_v20 rfl shapeCasts_S1x160000_S160000,
    StableHlo.unary main_arg1 main_v21 ((extractStridedSlice S1x160000 ![1, 0] · slices_S2x160000_S1x160000_1_0) : (⟨S2x160000, .i32⟩ : BufTy).Contents (Elt F) → (⟨S1x160000, .i32⟩ : BufTy).Contents (Elt F)),
    StableHlo.reshape main_v21 main_v22 rfl shapeCasts_S1x160000_S160000,
    StableHlo.binary main_v18 main_arg4 main_v23 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    StableHlo.nullary main_v24 (iotaInDim S10000 32 0),
    StableHlo.binary main_v20 main_v24 main_v25 ((fun a b => concatenate S170000 0 [⟨S160000, a⟩, ⟨S10000, b⟩] concatenates_S160000_S10000_S170000_d0) : (⟨S160000, .i32⟩ : BufTy).Contents (Elt F) → (⟨S10000, .i32⟩ : BufTy).Contents (Elt F) → (⟨S170000, .i32⟩ : BufTy).Contents (Elt F)),
    StableHlo.binary main_v22 main_v24 main_v26 ((fun a b => concatenate S170000 0 [⟨S160000, a⟩, ⟨S10000, b⟩] concatenates_S160000_S10000_S170000_d0) : (⟨S160000, .i32⟩ : BufTy).Contents (Elt F) → (⟨S10000, .i32⟩ : BufTy).Contents (Elt F) → (⟨S170000, .i32⟩ : BufTy).Contents (Elt F)),
    StableHlo.nullary main_cst_2 (constant S_ .f32 0x00000000#32),
    StableHlo.unary main_cst_2 main_v27 (broadcastInDim S10000 ![] bcast_S_S10000 : (⟨S_, .f32⟩ : BufTy).Contents (Elt F) → (⟨S10000, .f32⟩ : BufTy).Contents (Elt F)),
    StableHlo.nullary main_c_3 (constantI S_ 32 0#32),
    StableHlo.unary main_c_3 main_v28 (broadcastInDim S170000 ![] bcast_S_S170000 : (⟨S_, .i32⟩ : BufTy).Contents (Elt F) → (⟨S170000, .i32⟩ : BufTy).Contents (Elt F)),
    StableHlo.binary main_v26 main_v28 main_v29 (cmpi .slt : (⟨S170000, .i32⟩ : BufTy).Contents (Elt F) → (⟨S170000, .i32⟩ : BufTy).Contents (Elt F) → (⟨S170000, .i1⟩ : BufTy).Contents (Elt F)),
    StableHlo.nullary main_c_4 (constantI S_ 32 10000#32),
    StableHlo.unary main_c_4 main_v30 (broadcastInDim S170000 ![] bcast_S_S170000 : (⟨S_, .i32⟩ : BufTy).Contents (Elt F) → (⟨S170000, .i32⟩ : BufTy).Contents (Elt F)),
    StableHlo.binary main_v26 main_v30 main_v31 (addi : (⟨S170000, .i32⟩ : BufTy).Contents (Elt F) → (⟨S170000, .i32⟩ : BufTy).Contents (Elt F) → (⟨S170000, .i32⟩ : BufTy).Contents (Elt F)),
    StableHlo.ternary main_v29 main_v31 main_v26 main_v32 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    StableHlo.unary main_v32 main_v33 (broadcastInDim S170000x1 ![0] bcast_S170000_S170000x1_0 : (⟨S170000, .i32⟩ : BufTy).Contents (Elt F) → (⟨S170000x1, .i32⟩ : BufTy).Contents (Elt F)),
    StableHlo.nullary main_cst_5 (constant S_ .f32 0x3F800000#32),
    StableHlo.unary main_cst_5 main_v34 (broadcastInDim S170000 ![] bcast_S_S170000 : (⟨S_, .f32⟩ : BufTy).Contents (Elt F) → (⟨S170000, .f32⟩ : BufTy).Contents (Elt F)),
    StableHlo.ternary main_v27 main_v33 main_v34 main_v35 ((fun x i u => Host.scatterAdd scatter_S10000_S170000x1_S170000_n_0_0_1 x i u) : (⟨S10000, .f32⟩ : BufTy).Contents (Elt F) → (⟨S170000x1, .i32⟩ : BufTy).Contents (Elt F) → (⟨S170000, .f32⟩ : BufTy).Contents (Elt F) → (⟨S10000, .f32⟩ : BufTy).Contents (Elt F)),
    StableHlo.nullary main_cst_6 (constant S_ .f32 0x00000000#32),
    StableHlo.unary main_cst_6 main_v36 (broadcastInDim S10000 ![] bcast_S_S10000 : (⟨S_, .f32⟩ : BufTy).Contents (Elt F) → (⟨S10000, .f32⟩ : BufTy).Contents (Elt F)),
    StableHlo.binary main_v35 main_v36 main_v37 (cmpf .ogt : (⟨S10000, .f32⟩ : BufTy).Contents (Elt F) → (⟨S10000, .f32⟩ : BufTy).Contents (Elt F) → (⟨S10000, .i1⟩ : BufTy).Contents (Elt F)),
    StableHlo.unary main_v35 main_v38 (Host.rsqrt : (⟨S10000, .f32⟩ : BufTy).Contents (Elt F) → (⟨S10000, .f32⟩ : BufTy).Contents (Elt F)),
    StableHlo.nullary main_cst_7 (constant S_ .f32 0x00000000#32),
    StableHlo.TRef.unary (TRef.of main_cst_7 : TRef sig ⟨S_, .f32⟩) main_call1.v0 id,
    StableHlo.TRef.unary main_call1.v0 main_call1.v1 (broadcastInDim S10000 ![] bcast_S_S10000),
    StableHlo.TRef.ternary (TRef.of main_v37 : TRef sig ⟨S10000, .i1⟩) (TRef.of main_v38 : TRef sig ⟨S10000, .f32⟩) main_call1.v1 main_call1.v2 select,
    StableHlo.nullary main_c_8 (constantI S_ 32 0#32),
    StableHlo.unary main_c_8 main_v40 (broadcastInDim S170000 ![] bcast_S_S170000 : (⟨S_, .i32⟩ : BufTy).Contents (Elt F) → (⟨S170000, .i32⟩ : BufTy).Contents (Elt F)),
    StableHlo.binary main_v25 main_v40 main_v41 (cmpi .slt : (⟨S170000, .i32⟩ : BufTy).Contents (Elt F) → (⟨S170000, .i32⟩ : BufTy).Contents (Elt F) → (⟨S170000, .i1⟩ : BufTy).Contents (Elt F)),
    StableHlo.nullary main_c_9 (constantI S_ 32 10000#32),
    StableHlo.unary main_c_9 main_v42 (broadcastInDim S170000 ![] bcast_S_S170000 : (⟨S_, .i32⟩ : BufTy).Contents (Elt F) → (⟨S170000, .i32⟩ : BufTy).Contents (Elt F)),
    StableHlo.binary main_v25 main_v42 main_v43 (addi : (⟨S170000, .i32⟩ : BufTy).Contents (Elt F) → (⟨S170000, .i32⟩ : BufTy).Contents (Elt F) → (⟨S170000, .i32⟩ : BufTy).Contents (Elt F)),
    StableHlo.ternary main_v41 main_v43 main_v25 main_v44 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    StableHlo.unary main_v44 main_v45 (broadcastInDim S170000x1 ![0] bcast_S170000_S170000x1_0 : (⟨S170000, .i32⟩ : BufTy).Contents (Elt F) → (⟨S170000x1, .i32⟩ : BufTy).Contents (Elt F)),
    StableHlo.binary main_v39 main_v45 main_v46 ((fun x i => Host.gather gather_S10000_S170000x1_S170000_n_0_n_n_0_1_1 x i) : (⟨S10000, .f32⟩ : BufTy).Contents (Elt F) → (⟨S170000x1, .i32⟩ : BufTy).Contents (Elt F) → (⟨S170000, .f32⟩ : BufTy).Contents (Elt F)),
    StableHlo.nullary main_c_10 (constantI S_ 32 0#32) ]

/-- The operations of @main's window 1 (60 of them). -/
abbrev ops1 : List (HloOp τ sig (Elt F)) :=
  [ StableHlo.unary main_c_10 main_v47 (broadcastInDim S170000 ![] bcast_S_S170000 : (⟨S_, .i32⟩ : BufTy).Contents (Elt F) → (⟨S170000, .i32⟩ : BufTy).Contents (Elt F)),
    StableHlo.binary main_v26 main_v47 main_v48 (cmpi .slt : (⟨S170000, .i32⟩ : BufTy).Contents (Elt F) → (⟨S170000, .i32⟩ : BufTy).Contents (Elt F) → (⟨S170000, .i1⟩ : BufTy).Contents (Elt F)),
    StableHlo.nullary main_c_11 (constantI S_ 32 10000#32),
    StableHlo.unary main_c_11 main_v49 (broadcastInDim S170000 ![] bcast_S_S170000 : (⟨S_, .i32⟩ : BufTy).Contents (Elt F) → (⟨S170000, .i32⟩ : BufTy).Contents (Elt F)),
    StableHlo.binary main_v26 main_v49 main_v50 (addi : (⟨S170000, .i32⟩ : BufTy).Contents (Elt F) → (⟨S170000, .i32⟩ : BufTy).Contents (Elt F) → (⟨S170000, .i32⟩ : BufTy).Contents (Elt F)),
    StableHlo.ternary main_v48 main_v50 main_v26 main_v51 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    StableHlo.unary main_v51 main_v52 (broadcastInDim S170000x1 ![0] bcast_S170000_S170000x1_0 : (⟨S170000, .i32⟩ : BufTy).Contents (Elt F) → (⟨S170000x1, .i32⟩ : BufTy).Contents (Elt F)),
    StableHlo.binary main_v39 main_v52 main_v53 ((fun x i => Host.gather gather_S10000_S170000x1_S170000_n_0_n_n_0_1_1 x i) : (⟨S10000, .f32⟩ : BufTy).Contents (Elt F) → (⟨S170000x1, .i32⟩ : BufTy).Contents (Elt F) → (⟨S170000, .f32⟩ : BufTy).Contents (Elt F)),
    StableHlo.binary main_v46 main_v53 main_v54 (mulf : (⟨S170000, .f32⟩ : BufTy).Contents (Elt F) → (⟨S170000, .f32⟩ : BufTy).Contents (Elt F) → (⟨S170000, .f32⟩ : BufTy).Contents (Elt F)),
    StableHlo.nullary main_c_12 (constantI S_ 32 0#32),
    StableHlo.unary main_c_12 main_v55 (broadcastInDim S170000 ![] bcast_S_S170000 : (⟨S_, .i32⟩ : BufTy).Contents (Elt F) → (⟨S170000, .i32⟩ : BufTy).Contents (Elt F)),
    StableHlo.binary main_v25 main_v55 main_v56 (cmpi .slt : (⟨S170000, .i32⟩ : BufTy).Contents (Elt F) → (⟨S170000, .i32⟩ : BufTy).Contents (Elt F) → (⟨S170000, .i1⟩ : BufTy).Contents (Elt F)),
    StableHlo.nullary main_c_13 (constantI S_ 32 10000#32),
    StableHlo.unary main_c_13 main_v57 (broadcastInDim S170000 ![] bcast_S_S170000 : (⟨S_, .i32⟩ : BufTy).Contents (Elt F) → (⟨S170000, .i32⟩ : BufTy).Contents (Elt F)),
    StableHlo.binary main_v25 main_v57 main_v58 (addi : (⟨S170000, .i32⟩ : BufTy).Contents (Elt F) → (⟨S170000, .i32⟩ : BufTy).Contents (Elt F) → (⟨S170000, .i32⟩ : BufTy).Contents (Elt F)),
    StableHlo.ternary main_v56 main_v58 main_v25 main_v59 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    StableHlo.unary main_v59 main_v60 (broadcastInDim S170000x1 ![0] bcast_S170000_S170000x1_0 : (⟨S170000, .i32⟩ : BufTy).Contents (Elt F) → (⟨S170000x1, .i32⟩ : BufTy).Contents (Elt F)),
    StableHlo.binary main_v23 main_v60 main_v61 ((fun x i => Host.gather gather_S10000x256_S170000x1_S170000x256_1_0_n_n_0_1_1256 x i) : (⟨S10000x256, .f32⟩ : BufTy).Contents (Elt F) → (⟨S170000x1, .i32⟩ : BufTy).Contents (Elt F) → (⟨S170000x256, .f32⟩ : BufTy).Contents (Elt F)),
    StableHlo.unary main_v54 main_v62 (broadcastInDim S170000x1 ![0] bcast_S170000_S170000x1_0 : (⟨S170000, .f32⟩ : BufTy).Contents (Elt F) → (⟨S170000x1, .f32⟩ : BufTy).Contents (Elt F)),
    StableHlo.unary main_v62 main_v63 (broadcastInDim S170000x256 ![0, 1] bcast_S170000x1_S170000x256_0_1 : (⟨S170000x1, .f32⟩ : BufTy).Contents (Elt F) → (⟨S170000x256, .f32⟩ : BufTy).Contents (Elt F)),
    StableHlo.binary main_v61 main_v63 main_v64 (mulf : (⟨S170000x256, .f32⟩ : BufTy).Contents (Elt F) → (⟨S170000x256, .f32⟩ : BufTy).Contents (Elt F) → (⟨S170000x256, .f32⟩ : BufTy).Contents (Elt F)),
    StableHlo.nullary main_cst_14 (constant S_ .f32 0x00000000#32),
    StableHlo.unary main_cst_14 main_v65 (broadcastInDim S10000x256 ![] bcast_S_S10000x256 : (⟨S_, .f32⟩ : BufTy).Contents (Elt F) → (⟨S10000x256, .f32⟩ : BufTy).Contents (Elt F)),
    StableHlo.nullary main_c_15 (constantI S_ 32 0#32),
    StableHlo.unary main_c_15 main_v66 (broadcastInDim S170000 ![] bcast_S_S170000 : (⟨S_, .i32⟩ : BufTy).Contents (Elt F) → (⟨S170000, .i32⟩ : BufTy).Contents (Elt F)),
    StableHlo.binary main_v26 main_v66 main_v67 (cmpi .slt : (⟨S170000, .i32⟩ : BufTy).Contents (Elt F) → (⟨S170000, .i32⟩ : BufTy).Contents (Elt F) → (⟨S170000, .i1⟩ : BufTy).Contents (Elt F)),
    StableHlo.nullary main_c_16 (constantI S_ 32 10000#32),
    StableHlo.unary main_c_16 main_v68 (broadcastInDim S170000 ![] bcast_S_S170000 : (⟨S_, .i32⟩ : BufTy).Contents (Elt F) → (⟨S170000, .i32⟩ : BufTy).Contents (Elt F)),
    StableHlo.binary main_v26 main_v68 main_v69 (addi : (⟨S170000, .i32⟩ : BufTy).Contents (Elt F) → (⟨S170000, .i32⟩ : BufTy).Contents (Elt F) → (⟨S170000, .i32⟩ : BufTy).Contents (Elt F)),
    StableHlo.ternary main_v67 main_v69 main_v26 main_v70 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    StableHlo.unary main_v70 main_v71 (broadcastInDim S170000x1 ![0] bcast_S170000_S170000x1_0 : (⟨S170000, .i32⟩ : BufTy).Contents (Elt F) → (⟨S170000x1, .i32⟩ : BufTy).Contents (Elt F)),
    StableHlo.ternary main_v65 main_v71 main_v64 main_v72 ((fun x i u => Host.scatterAdd scatter_S10000x256_S170000x1_S170000x256_1_0_0_1 x i u) : (⟨S10000x256, .f32⟩ : BufTy).Contents (Elt F) → (⟨S170000x1, .i32⟩ : BufTy).Contents (Elt F) → (⟨S170000x256, .f32⟩ : BufTy).Contents (Elt F) → (⟨S10000x256, .f32⟩ : BufTy).Contents (Elt F)),
    StableHlo.unary main_arg5 main_v73 (broadcastInDim S1x256 ![1] bcast_S256_S1x256_1 : (⟨S256, .f32⟩ : BufTy).Contents (Elt F) → (⟨S1x256, .f32⟩ : BufTy).Contents (Elt F)),
    StableHlo.unary main_v73 main_v74 (broadcastInDim S10000x256 ![0, 1] bcast_S1x256_S10000x256_0_1 : (⟨S1x256, .f32⟩ : BufTy).Contents (Elt F) → (⟨S10000x256, .f32⟩ : BufTy).Contents (Elt F)),
    StableHlo.binary main_v72 main_v74 main_v75 (addf : (⟨S10000x256, .f32⟩ : BufTy).Contents (Elt F) → (⟨S10000x256, .f32⟩ : BufTy).Contents (Elt F) → (⟨S10000x256, .f32⟩ : BufTy).Contents (Elt F)),
    StableHlo.nullary main_cst_17 (constant S_ .f32 0x00000000#32),
    StableHlo.unary main_cst_17 main_v76 (broadcastInDim S10000x256 ![] bcast_S_S10000x256 : (⟨S_, .f32⟩ : BufTy).Contents (Elt F) → (⟨S10000x256, .f32⟩ : BufTy).Contents (Elt F)),
    StableHlo.binary main_v75 main_v76 main_v77 (cmpf .ogt : (⟨S10000x256, .f32⟩ : BufTy).Contents (Elt F) → (⟨S10000x256, .f32⟩ : BufTy).Contents (Elt F) → (⟨S10000x256, .i1⟩ : BufTy).Contents (Elt F)),
    StableHlo.nullary main_cst_18 (constant S_ .f32 0x3DCCCCCD#32),
    StableHlo.unary main_cst_18 main_v78 (broadcastInDim S10000x256 ![] bcast_S_S10000x256 : (⟨S_, .f32⟩ : BufTy).Contents (Elt F) → (⟨S10000x256, .f32⟩ : BufTy).Contents (Elt F)),
    StableHlo.binary main_v78 main_v75 main_v79 (mulf : (⟨S10000x256, .f32⟩ : BufTy).Contents (Elt F) → (⟨S10000x256, .f32⟩ : BufTy).Contents (Elt F) → (⟨S10000x256, .f32⟩ : BufTy).Contents (Elt F)),
    StableHlo.TRef.ternary (TRef.of main_v77 : TRef sig ⟨S10000x256, .i1⟩) (TRef.of main_v75 : TRef sig ⟨S10000x256, .f32⟩) (TRef.of main_v79 : TRef sig ⟨S10000x256, .f32⟩) main_call2.v0 select,
    StableHlo.binary main_v80 main_arg6 main_v81 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    StableHlo.nullary main_v82 (iotaInDim S10000 32 0),
    StableHlo.binary main_v20 main_v82 main_v83 ((fun a b => concatenate S170000 0 [⟨S160000, a⟩, ⟨S10000, b⟩] concatenates_S160000_S10000_S170000_d0) : (⟨S160000, .i32⟩ : BufTy).Contents (Elt F) → (⟨S10000, .i32⟩ : BufTy).Contents (Elt F) → (⟨S170000, .i32⟩ : BufTy).Contents (Elt F)),
    StableHlo.binary main_v22 main_v82 main_v84 ((fun a b => concatenate S170000 0 [⟨S160000, a⟩, ⟨S10000, b⟩] concatenates_S160000_S10000_S170000_d0) : (⟨S160000, .i32⟩ : BufTy).Contents (Elt F) → (⟨S10000, .i32⟩ : BufTy).Contents (Elt F) → (⟨S170000, .i32⟩ : BufTy).Contents (Elt F)),
    StableHlo.nullary main_cst_19 (constant S_ .f32 0x00000000#32),
    StableHlo.unary main_cst_19 main_v85 (broadcastInDim S10000 ![] bcast_S_S10000 : (⟨S_, .f32⟩ : BufTy).Contents (Elt F) → (⟨S10000, .f32⟩ : BufTy).Contents (Elt F)),
    StableHlo.nullary main_c_20 (constantI S_ 32 0#32),
    StableHlo.unary main_c_20 main_v86 (broadcastInDim S170000 ![] bcast_S_S170000 : (⟨S_, .i32⟩ : BufTy).Contents (Elt F) → (⟨S170000, .i32⟩ : BufTy).Contents (Elt F)),
    StableHlo.binary main_v84 main_v86 main_v87 (cmpi .slt : (⟨S170000, .i32⟩ : BufTy).Contents (Elt F) → (⟨S170000, .i32⟩ : BufTy).Contents (Elt F) → (⟨S170000, .i1⟩ : BufTy).Contents (Elt F)),
    StableHlo.nullary main_c_21 (constantI S_ 32 10000#32),
    StableHlo.unary main_c_21 main_v88 (broadcastInDim S170000 ![] bcast_S_S170000 : (⟨S_, .i32⟩ : BufTy).Contents (Elt F) → (⟨S170000, .i32⟩ : BufTy).Contents (Elt F)),
    StableHlo.binary main_v84 main_v88 main_v89 (addi : (⟨S170000, .i32⟩ : BufTy).Contents (Elt F) → (⟨S170000, .i32⟩ : BufTy).Contents (Elt F) → (⟨S170000, .i32⟩ : BufTy).Contents (Elt F)),
    StableHlo.ternary main_v87 main_v89 main_v84 main_v90 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    StableHlo.unary main_v90 main_v91 (broadcastInDim S170000x1 ![0] bcast_S170000_S170000x1_0 : (⟨S170000, .i32⟩ : BufTy).Contents (Elt F) → (⟨S170000x1, .i32⟩ : BufTy).Contents (Elt F)),
    StableHlo.nullary main_cst_22 (constant S_ .f32 0x3F800000#32),
    StableHlo.unary main_cst_22 main_v92 (broadcastInDim S170000 ![] bcast_S_S170000 : (⟨S_, .f32⟩ : BufTy).Contents (Elt F) → (⟨S170000, .f32⟩ : BufTy).Contents (Elt F)),
    StableHlo.ternary main_v85 main_v91 main_v92 main_v93 ((fun x i u => Host.scatterAdd scatter_S10000_S170000x1_S170000_n_0_0_1 x i u) : (⟨S10000, .f32⟩ : BufTy).Contents (Elt F) → (⟨S170000x1, .i32⟩ : BufTy).Contents (Elt F) → (⟨S170000, .f32⟩ : BufTy).Contents (Elt F) → (⟨S10000, .f32⟩ : BufTy).Contents (Elt F)),
    StableHlo.nullary main_cst_23 (constant S_ .f32 0x00000000#32) ]

/-- The operations of @main's window 2 (58 of them). -/
abbrev ops2 : List (HloOp τ sig (Elt F)) :=
  [ StableHlo.unary main_cst_23 main_v94 (broadcastInDim S10000 ![] bcast_S_S10000 : (⟨S_, .f32⟩ : BufTy).Contents (Elt F) → (⟨S10000, .f32⟩ : BufTy).Contents (Elt F)),
    StableHlo.binary main_v93 main_v94 main_v95 (cmpf .ogt : (⟨S10000, .f32⟩ : BufTy).Contents (Elt F) → (⟨S10000, .f32⟩ : BufTy).Contents (Elt F) → (⟨S10000, .i1⟩ : BufTy).Contents (Elt F)),
    StableHlo.unary main_v93 main_v96 (Host.rsqrt : (⟨S10000, .f32⟩ : BufTy).Contents (Elt F) → (⟨S10000, .f32⟩ : BufTy).Contents (Elt F)),
    StableHlo.nullary main_cst_24 (constant S_ .f32 0x00000000#32),
    StableHlo.TRef.unary (TRef.of main_cst_24 : TRef sig ⟨S_, .f32⟩) main_call3.v0 id,
    StableHlo.TRef.unary main_call3.v0 main_call3.v1 (broadcastInDim S10000 ![] bcast_S_S10000),
    StableHlo.TRef.ternary (TRef.of main_v95 : TRef sig ⟨S10000, .i1⟩) (TRef.of main_v96 : TRef sig ⟨S10000, .f32⟩) main_call3.v1 main_call3.v2 select,
    StableHlo.nullary main_c_25 (constantI S_ 32 0#32),
    StableHlo.unary main_c_25 main_v98 (broadcastInDim S170000 ![] bcast_S_S170000 : (⟨S_, .i32⟩ : BufTy).Contents (Elt F) → (⟨S170000, .i32⟩ : BufTy).Contents (Elt F)),
    StableHlo.binary main_v83 main_v98 main_v99 (cmpi .slt : (⟨S170000, .i32⟩ : BufTy).Contents (Elt F) → (⟨S170000, .i32⟩ : BufTy).Contents (Elt F) → (⟨S170000, .i1⟩ : BufTy).Contents (Elt F)),
    StableHlo.nullary main_c_26 (constantI S_ 32 10000#32),
    StableHlo.unary main_c_26 main_v100 (broadcastInDim S170000 ![] bcast_S_S170000 : (⟨S_, .i32⟩ : BufTy).Contents (Elt F) → (⟨S170000, .i32⟩ : BufTy).Contents (Elt F)),
    StableHlo.binary main_v83 main_v100 main_v101 (addi : (⟨S170000, .i32⟩ : BufTy).Contents (Elt F) → (⟨S170000, .i32⟩ : BufTy).Contents (Elt F) → (⟨S170000, .i32⟩ : BufTy).Contents (Elt F)),
    StableHlo.ternary main_v99 main_v101 main_v83 main_v102 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    StableHlo.unary main_v102 main_v103 (broadcastInDim S170000x1 ![0] bcast_S170000_S170000x1_0 : (⟨S170000, .i32⟩ : BufTy).Contents (Elt F) → (⟨S170000x1, .i32⟩ : BufTy).Contents (Elt F)),
    StableHlo.binary main_v97 main_v103 main_v104 ((fun x i => Host.gather gather_S10000_S170000x1_S170000_n_0_n_n_0_1_1 x i) : (⟨S10000, .f32⟩ : BufTy).Contents (Elt F) → (⟨S170000x1, .i32⟩ : BufTy).Contents (Elt F) → (⟨S170000, .f32⟩ : BufTy).Contents (Elt F)),
    StableHlo.nullary main_c_27 (constantI S_ 32 0#32),
    StableHlo.unary main_c_27 main_v105 (broadcastInDim S170000 ![] bcast_S_S170000 : (⟨S_, .i32⟩ : BufTy).Contents (Elt F) → (⟨S170000, .i32⟩ : BufTy).Contents (Elt F)),
    StableHlo.binary main_v84 main_v105 main_v106 (cmpi .slt : (⟨S170000, .i32⟩ : BufTy).Contents (Elt F) → (⟨S170000, .i32⟩ : BufTy).Contents (Elt F) → (⟨S170000, .i1⟩ : BufTy).Contents (Elt F)),
    StableHlo.nullary main_c_28 (constantI S_ 32 10000#32),
    StableHlo.unary main_c_28 main_v107 (broadcastInDim S170000 ![] bcast_S_S170000 : (⟨S_, .i32⟩ : BufTy).Contents (Elt F) → (⟨S170000, .i32⟩ : BufTy).Contents (Elt F)),
    StableHlo.binary main_v84 main_v107 main_v108 (addi : (⟨S170000, .i32⟩ : BufTy).Contents (Elt F) → (⟨S170000, .i32⟩ : BufTy).Contents (Elt F) → (⟨S170000, .i32⟩ : BufTy).Contents (Elt F)),
    StableHlo.ternary main_v106 main_v108 main_v84 main_v109 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    StableHlo.unary main_v109 main_v110 (broadcastInDim S170000x1 ![0] bcast_S170000_S170000x1_0 : (⟨S170000, .i32⟩ : BufTy).Contents (Elt F) → (⟨S170000x1, .i32⟩ : BufTy).Contents (Elt F)),
    StableHlo.binary main_v97 main_v110 main_v111 ((fun x i => Host.gather gather_S10000_S170000x1_S170000_n_0_n_n_0_1_1 x i) : (⟨S10000, .f32⟩ : BufTy).Contents (Elt F) → (⟨S170000x1, .i32⟩ : BufTy).Contents (Elt F) → (⟨S170000, .f32⟩ : BufTy).Contents (Elt F)),
    StableHlo.binary main_v104 main_v111 main_v112 (mulf : (⟨S170000, .f32⟩ : BufTy).Contents (Elt F) → (⟨S170000, .f32⟩ : BufTy).Contents (Elt F) → (⟨S170000, .f32⟩ : BufTy).Contents (Elt F)),
    StableHlo.nullary main_c_29 (constantI S_ 32 0#32),
    StableHlo.unary main_c_29 main_v113 (broadcastInDim S170000 ![] bcast_S_S170000 : (⟨S_, .i32⟩ : BufTy).Contents (Elt F) → (⟨S170000, .i32⟩ : BufTy).Contents (Elt F)),
    StableHlo.binary main_v83 main_v113 main_v114 (cmpi .slt : (⟨S170000, .i32⟩ : BufTy).Contents (Elt F) → (⟨S170000, .i32⟩ : BufTy).Contents (Elt F) → (⟨S170000, .i1⟩ : BufTy).Contents (Elt F)),
    StableHlo.nullary main_c_30 (constantI S_ 32 10000#32),
    StableHlo.unary main_c_30 main_v115 (broadcastInDim S170000 ![] bcast_S_S170000 : (⟨S_, .i32⟩ : BufTy).Contents (Elt F) → (⟨S170000, .i32⟩ : BufTy).Contents (Elt F)),
    StableHlo.binary main_v83 main_v115 main_v116 (addi : (⟨S170000, .i32⟩ : BufTy).Contents (Elt F) → (⟨S170000, .i32⟩ : BufTy).Contents (Elt F) → (⟨S170000, .i32⟩ : BufTy).Contents (Elt F)),
    StableHlo.ternary main_v114 main_v116 main_v83 main_v117 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    StableHlo.unary main_v117 main_v118 (broadcastInDim S170000x1 ![0] bcast_S170000_S170000x1_0 : (⟨S170000, .i32⟩ : BufTy).Contents (Elt F) → (⟨S170000x1, .i32⟩ : BufTy).Contents (Elt F)),
    StableHlo.binary main_v81 main_v118 main_v119 ((fun x i => Host.gather gather_S10000x256_S170000x1_S170000x256_1_0_n_n_0_1_1256 x i) : (⟨S10000x256, .f32⟩ : BufTy).Contents (Elt F) → (⟨S170000x1, .i32⟩ : BufTy).Contents (Elt F) → (⟨S170000x256, .f32⟩ : BufTy).Contents (Elt F)),
    StableHlo.unary main_v112 main_v120 (broadcastInDim S170000x1 ![0] bcast_S170000_S170000x1_0 : (⟨S170000, .f32⟩ : BufTy).Contents (Elt F) → (⟨S170000x1, .f32⟩ : BufTy).Contents (Elt F)),
    StableHlo.unary main_v120 main_v121 (broadcastInDim S170000x256 ![0, 1] bcast_S170000x1_S170000x256_0_1 : (⟨S170000x1, .f32⟩ : BufTy).Contents (Elt F) → (⟨S170000x256, .f32⟩ : BufTy).Contents (Elt F)),
    StableHlo.binary main_v119 main_v121 main_v122 (mulf : (⟨S170000x256, .f32⟩ : BufTy).Contents (Elt F) → (⟨S170000x256, .f32⟩ : BufTy).Contents (Elt F) → (⟨S170000x256, .f32⟩ : BufTy).Contents (Elt F)),
    StableHlo.nullary main_cst_31 (constant S_ .f32 0x00000000#32),
    StableHlo.unary main_cst_31 main_v123 (broadcastInDim S10000x256 ![] bcast_S_S10000x256 : (⟨S_, .f32⟩ : BufTy).Contents (Elt F) → (⟨S10000x256, .f32⟩ : BufTy).Contents (Elt F)),
    StableHlo.nullary main_c_32 (constantI S_ 32 0#32),
    StableHlo.unary main_c_32 main_v124 (broadcastInDim S170000 ![] bcast_S_S170000 : (⟨S_, .i32⟩ : BufTy).Contents (Elt F) → (⟨S170000, .i32⟩ : BufTy).Contents (Elt F)),
    StableHlo.binary main_v84 main_v124 main_v125 (cmpi .slt : (⟨S170000, .i32⟩ : BufTy).Contents (Elt F) → (⟨S170000, .i32⟩ : BufTy).Contents (Elt F) → (⟨S170000, .i1⟩ : BufTy).Contents (Elt F)),
    StableHlo.nullary main_c_33 (constantI S_ 32 10000#32),
    StableHlo.unary main_c_33 main_v126 (broadcastInDim S170000 ![] bcast_S_S170000 : (⟨S_, .i32⟩ : BufTy).Contents (Elt F) → (⟨S170000, .i32⟩ : BufTy).Contents (Elt F)),
    StableHlo.binary main_v84 main_v126 main_v127 (addi : (⟨S170000, .i32⟩ : BufTy).Contents (Elt F) → (⟨S170000, .i32⟩ : BufTy).Contents (Elt F) → (⟨S170000, .i32⟩ : BufTy).Contents (Elt F)),
    StableHlo.ternary main_v125 main_v127 main_v84 main_v128 (select : (⟨S170000, .i1⟩ : BufTy).Contents (Elt F) → (⟨S170000, .i32⟩ : BufTy).Contents (Elt F) → (⟨S170000, .i32⟩ : BufTy).Contents (Elt F) → (⟨S170000, .i32⟩ : BufTy).Contents (Elt F)),
    StableHlo.unary main_v128 main_v129 (broadcastInDim S170000x1 ![0] bcast_S170000_S170000x1_0 : (⟨S170000, .i32⟩ : BufTy).Contents (Elt F) → (⟨S170000x1, .i32⟩ : BufTy).Contents (Elt F)),
    StableHlo.ternary main_v123 main_v129 main_v122 main_v130 ((fun x i u => Host.scatterAdd scatter_S10000x256_S170000x1_S170000x256_1_0_0_1 x i u) : (⟨S10000x256, .f32⟩ : BufTy).Contents (Elt F) → (⟨S170000x1, .i32⟩ : BufTy).Contents (Elt F) → (⟨S170000x256, .f32⟩ : BufTy).Contents (Elt F) → (⟨S10000x256, .f32⟩ : BufTy).Contents (Elt F)),
    StableHlo.unary main_arg7 main_v131 (broadcastInDim S1x256 ![1] bcast_S256_S1x256_1 : (⟨S256, .f32⟩ : BufTy).Contents (Elt F) → (⟨S1x256, .f32⟩ : BufTy).Contents (Elt F)),
    StableHlo.unary main_v131 main_v132 (broadcastInDim S10000x256 ![0, 1] bcast_S1x256_S10000x256_0_1 : (⟨S1x256, .f32⟩ : BufTy).Contents (Elt F) → (⟨S10000x256, .f32⟩ : BufTy).Contents (Elt F)),
    StableHlo.binary main_v130 main_v132 main_v133 (addf : (⟨S10000x256, .f32⟩ : BufTy).Contents (Elt F) → (⟨S10000x256, .f32⟩ : BufTy).Contents (Elt F) → (⟨S10000x256, .f32⟩ : BufTy).Contents (Elt F)),
    StableHlo.nullary main_cst_34 (constant S_ .f32 0x00000000#32),
    StableHlo.binary main_v133 main_cst_34 main_v134 ((fun x v => Host.reduceAdd x v reducesTo_S10000x256_S256_d0 h_S_) : (⟨S10000x256, .f32⟩ : BufTy).Contents (Elt F) → (⟨S_, .f32⟩ : BufTy).Contents (Elt F) → (⟨S256, .f32⟩ : BufTy).Contents (Elt F)),
    StableHlo.unary main_v134 main_v135 (broadcastInDim S1x256 ![1] bcast_S256_S1x256_1 : (⟨S256, .f32⟩ : BufTy).Contents (Elt F) → (⟨S1x256, .f32⟩ : BufTy).Contents (Elt F)),
    StableHlo.nullary main_cst_35 (constant S_ .f32 0x461C4000#32),
    StableHlo.unary main_cst_35 main_v136 (broadcastInDim S1x256 ![] bcast_S_S1x256 : (⟨S_, .f32⟩ : BufTy).Contents (Elt F) → (⟨S1x256, .f32⟩ : BufTy).Contents (Elt F)),
    StableHlo.binary main_v135 main_v136 main_v137 (Host.divf : (⟨S1x256, .f32⟩ : BufTy).Contents (Elt F) → (⟨S1x256, .f32⟩ : BufTy).Contents (Elt F) → (⟨S1x256, .f32⟩ : BufTy).Contents (Elt F)) ]

/-- @main's 201 operations, in order. -/
abbrev ops : List (HloOp τ sig (Elt F)) := ops0 ++ (ops1 ++ ops2)

/-- The reference each operation writes, position by position. -/
abbrev wl : List (Ref sig .tc) :=
  [ main_cst, main_v0, main_cst_0, main_v1, main_v2, main_c, main_call0_cst, main_call0_v0,
    main_call0_v1, main_call0_cst_0, main_call0_v2, main_call0_v3, main_call0_v4, main_call0_v5, main_call0_v6, main_call0_v7,
    main_call0_cst_1, main_call0_v8, main_call0_cst_2, main_call0_v9, main_call0_v10, main_call0_v11, main_call0_cst_3, main_call0_v12,
    main_call0_cst_4, main_call0_call0_v0, main_call0_call0_v1, main_v3, main_v4, main_v5, main_v6, main_cst_1,
    main_v7, main_v8, main_v9, main_v10, main_v11, main_v12, main_v13, main_v14,
    main_v15, main_v16, main_v17, main_v18, main_v19, main_v20, main_v21, main_v22,
    main_v23, main_v24, main_v25, main_v26, main_cst_2, main_v27, main_c_3, main_v28,
    main_v29, main_c_4, main_v30, main_v31, main_v32, main_v33, main_cst_5, main_v34,
    main_v35, main_cst_6, main_v36, main_v37, main_v38, main_cst_7, main_call1_v0, main_call1_v1,
    main_v39, main_c_8, main_v40, main_v41, main_c_9, main_v42, main_v43, main_v44,
    main_v45, main_v46, main_c_10, main_v47, main_v48, main_c_11, main_v49, main_v50,
    main_v51, main_v52, main_v53, main_v54, main_c_12, main_v55, main_v56, main_c_13,
    main_v57, main_v58, main_v59, main_v60, main_v61, main_v62, main_v63, main_v64,
    main_cst_14, main_v65, main_c_15, main_v66, main_v67, main_c_16, main_v68, main_v69,
    main_v70, main_v71, main_v72, main_v73, main_v74, main_v75, main_cst_17, main_v76,
    main_v77, main_cst_18, main_v78, main_v79, main_v80, main_v81, main_v82, main_v83,
    main_v84, main_cst_19, main_v85, main_c_20, main_v86, main_v87, main_c_21, main_v88,
    main_v89, main_v90, main_v91, main_cst_22, main_v92, main_v93, main_cst_23, main_v94,
    main_v95, main_v96, main_cst_24, main_call3_v0, main_call3_v1, main_v97, main_c_25, main_v98,
    main_v99, main_c_26, main_v100, main_v101, main_v102, main_v103, main_v104, main_c_27,
    main_v105, main_v106, main_c_28, main_v107, main_v108, main_v109, main_v110, main_v111,
    main_v112, main_c_29, main_v113, main_v114, main_c_30, main_v115, main_v116, main_v117,
    main_v118, main_v119, main_v120, main_v121, main_v122, main_cst_31, main_v123, main_c_32,
    main_v124, main_v125, main_c_33, main_v126, main_v127, main_v128, main_v129, main_v130,
    main_v131, main_v132, main_v133, main_cst_34, main_v134, main_v135, main_cst_35, main_v136,
    main_v137 ]

set_option maxRecDepth 8192 in
theorem ops0_sub : (ops0 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., reshape_bufs_sub .., binary_bufs_sub .., nullary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub ..⟩

set_option maxRecDepth 8192 in
theorem ops1_sub : (ops1 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., nullary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub ..⟩

set_option maxRecDepth 8192 in
theorem ops2_sub : (ops2 : List (HloOp τ sig (Elt F))).Forall fun op => op.bufs ⊆ tcRefs τ sig :=
  ⟨unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub .., nullary_bufs_sub .., binary_bufs_sub .., unary_bufs_sub .., nullary_bufs_sub .., unary_bufs_sub .., binary_bufs_sub ..⟩

end Cert.RefSide

end
-- ==== Proof.RefRun.lean ====
/-
  The run of the reference program, read as one straight line of host operations.

  The program's @main is three windows run in order; four of its statements are calls of module-local functions, and a
  call executes the callee's body on the caller's buffers. Unfolding each callee at its call (its operations over that call's
  buffer record) every window is a chain of single operations, so @main is the line of all of them. A straight line started
  from any memory terminates, and each buffer then holds the fold of the operations' results over the launch contents.
  Every operation writes exactly one buffer, and no buffer twice: the list of written references is recorded here for
  reading the fold one operation at a time.
-/
import proofs.«150153_g58806692217087_cont_9to1_m_85_2_alg».proof.Proof.RefOps
import proofs.«150153_g58806692217087_cont_9to1_m_85_2_alg».proof.Proof.LibAfterAt

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! ## @main is the line -/

-- a window is a chain of some sixty to eighty binds, each callee one more chain spliced in: re-associating them
-- recurses once per statement
set_option maxRecDepth 8192 in
set_option maxHeartbeats 4000000 in
/-- The first window: the variance function (which itself calls the scalar-predicate selection) and the first masked
    selection unfolded at their calls. -/
theorem main_part0_eq (c : Dev nD) : main_part0 (F := F) c = seq ops0 := by
  simp only [main_part0, fn_var.body, fn_where.body, fn_where_0.body, seq, bind_assoc, pure_bind]
  rfl

set_option maxRecDepth 8192 in
set_option maxHeartbeats 4000000 in
/-- The second window: the elementwise selection unfolded at its call. -/
theorem main_part1_eq (c : Dev nD) : main_part1 (F := F) c = seq ops1 := by
  simp only [main_part1, fn_where_1.body, seq, bind_assoc, pure_bind]
  rfl

set_option maxRecDepth 8192 in
set_option maxHeartbeats 4000000 in
/-- The third window: the second masked selection unfolded at its call. -/
theorem main_part2_eq (c : Dev nD) : main_part2 (F := F) c = seq ops2 := by
  simp only [main_part2, fn_where_0.body, seq, bind_assoc, pure_bind]

/-- @main runs its windows in order, and lines run in order are their concatenation run as one. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every buffer the line touches is a TensorCore reference: window by window. -/
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h,
      List.forall_iff_forall_mem.mp ops2_sub op h]

/-! ## No operation leaves a result undetermined -/

set_option maxRecDepth 8192 in
theorem ops0_fresh : ∀ op ∈ (ops0 : List (HloOp τ sig (Elt F))), op.fresh = ∅ := by
  intro _ h; (repeat (cases h with | head => rfl | tail _ h => ?_)); exact nomatch h

set_option maxRecDepth 8192 in
theorem ops1_fresh : ∀ op ∈ (ops1 : List (HloOp τ sig (Elt F))), op.fresh = ∅ := by
  intro _ h; (repeat (cases h with | head => rfl | tail _ h => ?_)); exact nomatch h

set_option maxRecDepth 8192 in
theorem ops2_fresh : ∀ op ∈ (ops2 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with h | h | h
  exacts [ops0_fresh op h, ops1_fresh op h, ops2_fresh op h]

/-! ## The run -/

/-- At the compiled mesh, for any float values, from any memory with zero counters: every weakly fair execution of @main
    on the TensorCore terminates, and every final state has each TensorCore buffer at the line's fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## Each operation writes one buffer, its own -/

/-- The written references of a concatenation are the concatenation of the written references. -/
theorem writesAre_append {o₁ o₂ : List (HloOp τ sig (Elt F))} {w₁ w₂ : List (Ref sig .tc)}
    (h₁ : WritesAre o₁ w₁) (h₂ : WritesAre o₂ w₂) : WritesAre (o₁ ++ o₂) (w₁ ++ w₂) := by
  induction h₁ with
  | nil => exact h₂
  | cons hop _ ih => exact List.Forall₂.cons hop ih

set_option maxRecDepth 8192 in
theorem writesAre0 : WritesAre (ops0 (F := F)) (wl.take 83) := by
  repeat (first | exact List.Forall₂.nil | refine List.Forall₂.cons rfl ?_)

set_option maxRecDepth 8192 in
theorem writesAre1 : WritesAre (ops1 (F := F)) ((wl.drop 83).take 60) := by
  repeat (first | exact List.Forall₂.nil | refine List.Forall₂.cons rfl ?_)

set_option maxRecDepth 8192 in
theorem writesAre2 : WritesAre (ops2 (F := F)) (wl.drop 143) := by
  repeat (first | exact List.Forall₂.nil | refine List.Forall₂.cons rfl ?_)

/-- Position by position, the operation at a place of the line writes the reference at that place of the list. -/
theorem writesAre : WritesAre (ops (F := F)) wl :=
  (writesAre_append (writesAre0 (F := F)) (writesAre_append (writesAre1 (F := F)) (writesAre2 (F := F))) :)

end Cert.RefSide

end
-- ==== Proof.RefStages.lean ====
/- One equation per operation of the reference's line: the buffer it writes holds, at the END of the line, the
   operation's function of what its operands hold at the END of the line (every buffer is written once, and an
   operand before its reader). Each is the write-once lemma of its arity at the operation's position. -/
import proofs.«150153_g58806692217087_cont_9to1_m_85_2_alg».proof.Proof.RefRun

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

theorem st_main_arg0 (V : Valuation τ sig (Elt F)) : after ops V (Proc.devRef .tc main_arg0) = V (Proc.devRef .tc main_arg0) :=
  after_of_writesAre writesAre V (by decide)
theorem st_main_arg1 (V : Valuation τ sig (Elt F)) : after ops V (Proc.devRef .tc main_arg1) = V (Proc.devRef .tc main_arg1) :=
  after_of_writesAre writesAre V (by decide)
theorem st_main_arg2 (V : Valuation τ sig (Elt F)) : after ops V (Proc.devRef .tc main_arg2) = V (Proc.devRef .tc main_arg2) :=
  after_of_writesAre writesAre V (by decide)
theorem st_main_arg3 (V : Valuation τ sig (Elt F)) : after ops V (Proc.devRef .tc main_arg3) = V (Proc.devRef .tc main_arg3) :=
  after_of_writesAre writesAre V (by decide)
theorem st_main_arg4 (V : Valuation τ sig (Elt F)) : after ops V (Proc.devRef .tc main_arg4) = V (Proc.devRef .tc main_arg4) :=
  after_of_writesAre writesAre V (by decide)
theorem st_main_arg5 (V : Valuation τ sig (Elt F)) : after ops V (Proc.devRef .tc main_arg5) = V (Proc.devRef .tc main_arg5) :=
  after_of_writesAre writesAre V (by decide)
theorem st_main_arg6 (V : Valuation τ sig (Elt F)) : after ops V (Proc.devRef .tc main_arg6) = V (Proc.devRef .tc main_arg6) :=
  after_of_writesAre writesAre V (by decide)
theorem st_main_arg7 (V : Valuation τ sig (Elt F)) : after ops V (Proc.devRef .tc main_arg7) = V (Proc.devRef .tc main_arg7) :=
  after_of_writesAre writesAre V (by decide)

theorem st_main_cst (V : Valuation τ sig (Elt F)) :
    (after ops V (Proc.devRef .tc main_cst) : (⟨S_, .f32⟩ : BufTy).Contents (Elt F))
      = constant S_ .f32 0x00000000#32 :=
  after_nullary_at writesAre V 0 rfl (by decide)
theorem st_main_v0 (V : Valuation τ sig (Elt F)) :
    (after ops V (Proc.devRef .tc main_v0) : (⟨S256, .f32⟩ : BufTy).Contents (Elt F))
      = Host.reduceAdd (after ops V (Proc.devRef .tc main_arg0) : (⟨S10000x256, .f32⟩ : BufTy).Contents (Elt F)) (after ops V (Proc.devRef .tc main_cst) : (⟨S_, .f32⟩ : BufTy).Contents (Elt F)) reducesTo_S10000x256_S256_d0 h_S_ :=
  after_binary_at writesAre V 1 rfl (by decide) (by decide) (by decide)
theorem st_main_cst_0 (V : Valuation τ sig (Elt F)) :
    (after ops V (Proc.devRef .tc main_cst_0) : (⟨S_, .f32⟩ : BufTy).Contents (Elt F))
      = constant S_ .f32 0x461C4000#32 :=
  after_nullary_at writesAre V 2 rfl (by decide)
theorem st_main_v1 (V : Valuation τ sig (Elt F)) :
    (after ops V (Proc.devRef .tc main_v1) : (⟨S256, .f32⟩ : BufTy).Contents (Elt F))
      = broadcastInDim S256 ![] bcast_S_S256 (after ops V (Proc.devRef .tc main_cst_0) : (⟨S_, .f32⟩ : BufTy).Contents (Elt F)) :=
  after_unary_at writesAre V 3 rfl (by decide) (by decide)
theorem st_main_v2 (V : Valuation τ sig (Elt F)) :
    (after ops V (Proc.devRef .tc main_v2) : (⟨S256, .f32⟩ : BufTy).Contents (Elt F))
      = Host.divf (after ops V (Proc.devRef .tc main_v0) : (⟨S256, .f32⟩ : BufTy).Contents (Elt F)) (after ops V (Proc.devRef .tc main_v1) : (⟨S256, .f32⟩ : BufTy).Contents (Elt F)) :=
  after_binary_at writesAre V 4 rfl (by decide) (by decide) (by decide)
theorem st_main_c (V : Valuation τ sig (Elt F)) :
    (after ops V (Proc.devRef .tc main_c) : (⟨S_, .i32⟩ : BufTy).Contents (Elt F))
      = constantI S_ 32 0#32 :=
  after_nullary_at writesAre V 5 rfl (by decide)
theorem st_main_call0_cst (V : Valuation τ sig (Elt F)) :
    (after ops V (Proc.devRef .tc main_call0_cst) : (⟨S_, .f32⟩ : BufTy).Contents (Elt F))
      = constant S_ .f32 0x00000000#32 :=
  after_nullary_at writesAre V 6 rfl (by decide)
theorem st_main_call0_v0 (V : Valuation τ sig (Elt F)) :
    (after ops V (Proc.devRef .tc main_call0_v0) : (⟨S256, .f32⟩ : BufTy).Contents (Elt F))
      = Host.reduceAdd (after ops V (Proc.devRef .tc main_arg0) : (⟨S10000x256, .f32⟩ : BufTy).Contents (Elt F)) (after ops V (Proc.devRef .tc main_call0_cst) : (⟨S_, .f32⟩ : BufTy).Contents (Elt F)) reducesTo_S10000x256_S256_d0 h_S_ :=
  after_binary_at writesAre V 7 rfl (by decide) (by decide) (by decide)
theorem st_main_call0_v1 (V : Valuation τ sig (Elt F)) :
    (after ops V (Proc.devRef .tc main_call0_v1) : (⟨S1x256, .f32⟩ : BufTy).Contents (Elt F))
      = (broadcastInDim S1x256 ![1] bcast_S256_S1x256_1) (after ops V (Proc.devRef .tc main_call0_v0) : (⟨S256, .f32⟩ : BufTy).Contents (Elt F)) :=
  after_unary_at writesAre V 8 rfl (by decide) (by decide)
theorem st_main_call0_cst_0 (V : Valuation τ sig (Elt F)) :
    (after ops V (Proc.devRef .tc main_call0_cst_0) : (⟨S_, .f32⟩ : BufTy).Contents (Elt F))
      = constant S_ .f32 0x461C4000#32 :=
  after_nullary_at writesAre V 9 rfl (by decide)
theorem st_main_call0_v2 (V : Valuation τ sig (Elt F)) :
    (after ops V (Proc.devRef .tc main_call0_v2) : (⟨S1x256, .f32⟩ : BufTy).Contents (Elt F))
      = (broadcastInDim S1x256 ![] bcast_S_S1x256) (after ops V (Proc.devRef .tc main_call0_cst_0) : (⟨S_, .f32⟩ : BufTy).Contents (Elt F)) :=
  after_unary_at writesAre V 10 rfl (by decide) (by decide)
theorem st_main_call0_v3 (V : Valuation τ sig (Elt F)) :
    (after ops V (Proc.devRef .tc main_call0_v3) : (⟨S1x256, .f32⟩ : BufTy).Contents (Elt F))
      = Host.divf (after ops V (Proc.devRef .tc main_call0_v1) : (⟨S1x256, .f32⟩ : BufTy).Contents (Elt F)) (after ops V (Proc.devRef .tc main_call0_v2) : (⟨S1x256, .f32⟩ : BufTy).Contents (Elt F)) :=
  after_binary_at writesAre V 11 rfl (by decide) (by decide) (by decide)
theorem st_main_call0_v4 (V : Valuation τ sig (Elt F)) :
    (after ops V (Proc.devRef .tc main_call0_v4) : (⟨S10000x256, .f32⟩ : BufTy).Contents (Elt F))
      = (broadcastInDim S10000x256 ![0, 1] bcast_S1x256_S10000x256_0_1) (after ops V (Proc.devRef .tc main_call0_v3) : (⟨S1x256, .f32⟩ : BufTy).Contents (Elt F)) :=
  after_unary_at writesAre V 12 rfl (by decide) (by decide)
theorem st_main_call0_v5 (V : Valuation τ sig (Elt F)) :
    (after ops V (Proc.devRef .tc main_call0_v5) : (⟨S10000x256, .f32⟩ : BufTy).Contents (Elt F))
      = subf (after ops V (Proc.devRef .tc main_arg0) : (⟨S10000x256, .f32⟩ : BufTy).Contents (Elt F)) (after ops V (Proc.devRef .tc main_call0_v4) : (⟨S10000x256, .f32⟩ : BufTy).Contents (Elt F)) :=
  after_binary_at writesAre V 13 rfl (by decide) (by decide) (by decide)
theorem st_main_call0_v6 (V : Valuation τ sig (Elt F)) :
    (after ops V (Proc.devRef .tc main_call0_v6) : (⟨S10000x256, .f32⟩ : BufTy).Contents (Elt F))
      = mulf (after ops V (Proc.devRef .tc main_call0_v5) : (⟨S10000x256, .f32⟩ : BufTy).Contents (Elt F)) (after ops V (Proc.devRef .tc main_call0_v5) : (⟨S10000x256, .f32⟩ : BufTy).Contents (Elt F)) :=
  after_binary_at writesAre V 14 rfl (by decide) (by decide) (by decide)
theorem st_main_call0_v7 (V : Valuation τ sig (Elt F)) :
    (after ops V (Proc.devRef .tc main_call0_v7) : (⟨S_, .f32⟩ : BufTy).Contents (Elt F))
      = (sitofp .f32) (after ops V (Proc.devRef .tc main_c) : (⟨S_, .i32⟩ : BufTy).Contents (Elt F)) :=
  after_unary_at writesAre V 15 rfl (by decide) (by decide)
theorem st_main_call0_cst_1 (V : Valuation τ sig (Elt F)) :
    (after ops V (Proc.devRef .tc main_call0_cst_1) : (⟨S_, .f32⟩ : BufTy).Contents (Elt F))
      = constant S_ .f32 0x461C4000#32 :=
  after_nullary_at writesAre V 16 rfl (by decide)
theorem st_main_call0_v8 (V : Valuation τ sig (Elt F)) :
    (after ops V (Proc.devRef .tc main_call0_v8) : (⟨S_, .f32⟩ : BufTy).Contents (Elt F))
      = subf (after ops V (Proc.devRef .tc main_call0_cst_1) : (⟨S_, .f32⟩ : BufTy).Contents (Elt F)) (after ops V (Proc.devRef .tc main_call0_v7) : (⟨S_, .f32⟩ : BufTy).Contents (Elt F)) :=
  after_binary_at writesAre V 17 rfl (by decide) (by decide) (by decide)
theorem st_main_call0_cst_2 (V : Valuation τ sig (Elt F)) :
    (after ops V (Proc.devRef .tc main_call0_cst_2) : (⟨S_, .f32⟩ : BufTy).Contents (Elt F))
      = constant S_ .f32 0x00000000#32 :=
  after_nullary_at writesAre V 18 rfl (by decide)
theorem st_main_call0_v9 (V : Valuation τ sig (Elt F)) :
    (after ops V (Proc.devRef .tc main_call0_v9) : (⟨S256, .f32⟩ : BufTy).Contents (Elt F))
      = Host.reduceAdd (after ops V (Proc.devRef .tc main_call0_v6) : (⟨S10000x256, .f32⟩ : BufTy).Contents (Elt F)) (after ops V (Proc.devRef .tc main_call0_cst_2) : (⟨S_, .f32⟩ : BufTy).Contents (Elt F)) reducesTo_S10000x256_S256_d0 h_S_ :=
  after_binary_at writesAre V 19 rfl (by decide) (by decide) (by decide)
theorem st_main_call0_v10 (V : Valuation τ sig (Elt F)) :
    (after ops V (Proc.devRef .tc main_call0_v10) : (⟨S256, .f32⟩ : BufTy).Contents (Elt F))
      = (broadcastInDim S256 ![] bcast_S_S256) (after ops V (Proc.devRef .tc main_call0_v8) : (⟨S_, .f32⟩ : BufTy).Contents (Elt F)) :=
  after_unary_at writesAre V 20 rfl (by decide) (by decide)
theorem st_main_call0_v11 (V : Valuation τ sig (Elt F)) :
    (after ops V (Proc.devRef .tc main_call0_v11) : (⟨S256, .f32⟩ : BufTy).Contents (Elt F))
      = Host.divf (after ops V (Proc.devRef .tc main_call0_v9) : (⟨S256, .f32⟩ : BufTy).Contents (Elt F)) (after ops V (Proc.devRef .tc main_call0_v10) : (⟨S256, .f32⟩ : BufTy).Contents (Elt F)) :=
  after_binary_at writesAre V 21 rfl (by decide) (by decide) (by decide)
theorem st_main_call0_cst_3 (V : Valuation τ sig (Elt F)) :
    (after ops V (Proc.devRef .tc main_call0_cst_3) : (⟨S_, .f32⟩ : BufTy).Contents (Elt F))
      = constant S_ .f32 0x00000000#32 :=
  after_nullary_at writesAre V 22 rfl (by decide)
theorem st_main_call0_v12 (V : Valuation τ sig (Elt F)) :
    (after ops V (Proc.devRef .tc main_call0_v12) : (⟨S_, .i1⟩ : BufTy).Contents (Elt F))
      = (cmpf .ogt) (after ops V (Proc.devRef .tc main_call0_v8) : (⟨S_, .f32⟩ : BufTy).Contents (Elt F)) (after ops V (Proc.devRef .tc main_call0_cst_3) : (⟨S_, .f32⟩ : BufTy).Contents (Elt F)) :=
  after_binary_at writesAre V 23 rfl (by decide) (by decide) (by decide)
theorem st_main_call0_cst_4 (V : Valuation τ sig (Elt F)) :
    (after ops V (Proc.devRef .tc main_call0_cst_4) : (⟨S_, .f32⟩ : BufTy).Contents (Elt F))
      = constant S_ .f32 0x7FC00000#32 :=
  after_nullary_at writesAre V 24 rfl (by decide)
theorem st_main_call0_call0_v0 (V : Valuation τ sig (Elt F)) :
    (after ops V (Proc.devRef .tc main_call0_call0_v0) : (⟨S_, .f32⟩ : BufTy).Contents (Elt F))
      = (after ops V (Proc.devRef .tc main_call0_cst_4) : (⟨S_, .f32⟩ : BufTy).Contents (Elt F)) :=
  (after_unary_at writesAre V 25 rfl (by decide) (by decide) :)
theorem st_main_call0_call0_v1 (V : Valuation τ sig (Elt F)) :
    (after ops V (Proc.devRef .tc main_call0_call0_v1) : (⟨S256, .f32⟩ : BufTy).Contents (Elt F))
      = (broadcastInDim S256 ![] bcast_S_S256) (after ops V (Proc.devRef .tc main_call0_call0_v0) : (⟨S_, .f32⟩ : BufTy).Contents (Elt F)) :=
  after_unary_at writesAre V 26 rfl (by decide) (by decide)
theorem st_main_v3 (V : Valuation τ sig (Elt F)) :
    (after ops V (Proc.devRef .tc main_v3) : (⟨S256, .f32⟩ : BufTy).Contents (Elt F))
      = select (broadcastInDim S256 ![] bcast_S_S256 (after ops V (Proc.devRef .tc main_call0_v12) : (⟨S_, .i1⟩ : BufTy).Contents (Elt F))) (after ops V (Proc.devRef .tc main_call0_v11) : (⟨S256, .f32⟩ : BufTy).Contents (Elt F)) (after ops V (Proc.devRef .tc main_call0_call0_v1) : (⟨S256, .f32⟩ : BufTy).Contents (Elt F)) :=
  after_ternary_at writesAre V 27 rfl (by decide) (by decide) (by decide) (by decide)
theorem st_main_v4 (V : Valuation τ sig (Elt F)) :
    (after ops V (Proc.devRef .tc main_v4) : (⟨S1x256, .f32⟩ : BufTy).Contents (Elt F))
      = broadcastInDim S1x256 ![1] bcast_S256_S1x256_1 (after ops V (Proc.devRef .tc main_v2) : (⟨S256, .f32⟩ : BufTy).Contents (Elt F)) :=
  after_unary_at writesAre V 28 rfl (by decide) (by decide)
theorem st_main_v5 (V : Valuation τ sig (Elt F)) :
    (after ops V (Proc.devRef .tc main_v5) : (⟨S10000x256, .f32⟩ : BufTy).Contents (Elt F))
      = broadcastInDim S10000x256 ![0, 1] bcast_S1x256_S10000x256_0_1 (after ops V (Proc.devRef .tc main_v4) : (⟨S1x256, .f32⟩ : BufTy).Contents (Elt F)) :=
  after_unary_at writesAre V 29 rfl (by decide) (by decide)
theorem st_main_v6 (V : Valuation τ sig (Elt F)) :
    (after ops V (Proc.devRef .tc main_v6) : (⟨S10000x256, .f32⟩ : BufTy).Contents (Elt F))
      = subf (after ops V (Proc.devRef .tc main_arg0) : (⟨S10000x256, .f32⟩ : BufTy).Contents (Elt F)) (after ops V (Proc.devRef .tc main_v5) : (⟨S10000x256, .f32⟩ : BufTy).Contents (Elt F)) :=
  after_binary_at writesAre V 30 rfl (by decide) (by decide) (by decide)
theorem st_main_cst_1 (V : Valuation τ sig (Elt F)) :
    (after ops V (Proc.devRef .tc main_cst_1) : (⟨S_, .f32⟩ : BufTy).Contents (Elt F))
      = constant S_ .f32 0x3727C5AC#32 :=
  after_nullary_at writesAre V 31 rfl (by decide)
theorem st_main_v7 (V : Valuation τ sig (Elt F)) :
    (after ops V (Proc.devRef .tc main_v7) : (⟨S256, .f32⟩ : BufTy).Contents (Elt F))
      = broadcastInDim S256 ![] bcast_S_S256 (after ops V (Proc.devRef .tc main_cst_1) : (⟨S_, .f32⟩ : BufTy).Contents (Elt F)) :=
  after_unary_at writesAre V 32 rfl (by decide) (by decide)
theorem st_main_v8 (V : Valuation τ sig (Elt F)) :
    (after ops V (Proc.devRef .tc main_v8) : (⟨S256, .f32⟩ : BufTy).Contents (Elt F))
      = addf (after ops V (Proc.devRef .tc main_v3) : (⟨S256, .f32⟩ : BufTy).Contents (Elt F)) (after ops V (Proc.devRef .tc main_v7) : (⟨S256, .f32⟩ : BufTy).Contents (Elt F)) :=
  after_binary_at writesAre V 33 rfl (by decide) (by decide) (by decide)
theorem st_main_v9 (V : Valuation τ sig (Elt F)) :
    (after ops V (Proc.devRef .tc main_v9) : (⟨S256, .f32⟩ : BufTy).Contents (Elt F))
      = Host.sqrt (after ops V (Proc.devRef .tc main_v8) : (⟨S256, .f32⟩ : BufTy).Contents (Elt F)) :=
  after_unary_at writesAre V 34 rfl (by decide) (by decide)
theorem st_main_v10 (V : Valuation τ sig (Elt F)) :
    (after ops V (Proc.devRef .tc main_v10) : (⟨S1x256, .f32⟩ : BufTy).Contents (Elt F))
      = broadcastInDim S1x256 ![1] bcast_S256_S1x256_1 (after ops V (Proc.devRef .tc main_v9) : (⟨S256, .f32⟩ : BufTy).Contents (Elt F)) :=
  after_unary_at writesAre V 35 rfl (by decide) (by decide)
theorem st_main_v11 (V : Valuation τ sig (Elt F)) :
    (after ops V (Proc.devRef .tc main_v11) : (⟨S10000x256, .f32⟩ : BufTy).Contents (Elt F))
      = broadcastInDim S10000x256 ![0, 1] bcast_S1x256_S10000x256_0_1 (after ops V (Proc.devRef .tc main_v10) : (⟨S1x256, .f32⟩ : BufTy).Contents (Elt F)) :=
  after_unary_at writesAre V 36 rfl (by decide) (by decide)
theorem st_main_v12 (V : Valuation τ sig (Elt F)) :
    (after ops V (Proc.devRef .tc main_v12) : (⟨S10000x256, .f32⟩ : BufTy).Contents (Elt F))
      = Host.divf (after ops V (Proc.devRef .tc main_v6) : (⟨S10000x256, .f32⟩ : BufTy).Contents (Elt F)) (after ops V (Proc.devRef .tc main_v11) : (⟨S10000x256, .f32⟩ : BufTy).Contents (Elt F)) :=
  after_binary_at writesAre V 37 rfl (by decide) (by decide) (by decide)
theorem st_main_v13 (V : Valuation τ sig (Elt F)) :
    (after ops V (Proc.devRef .tc main_v13) : (⟨S1x256, .f32⟩ : BufTy).Contents (Elt F))
      = broadcastInDim S1x256 ![1] bcast_S256_S1x256_1 (after ops V (Proc.devRef .tc main_arg2) : (⟨S256, .f32⟩ : BufTy).Contents (Elt F)) :=
  after_unary_at writesAre V 38 rfl (by decide) (by decide)
theorem st_main_v14 (V : Valuation τ sig (Elt F)) :
    (after ops V (Proc.devRef .tc main_v14) : (⟨S10000x256, .f32⟩ : BufTy).Contents (Elt F))
      = broadcastInDim S10000x256 ![0, 1] bcast_S1x256_S10000x256_0_1 (after ops V (Proc.devRef .tc main_v13) : (⟨S1x256, .f32⟩ : BufTy).Contents (Elt F)) :=
  after_unary_at writesAre V 39 rfl (by decide) (by decide)
theorem st_main_v15 (V : Valuation τ sig (Elt F)) :
    (after ops V (Proc.devRef .tc main_v15) : (⟨S10000x256, .f32⟩ : BufTy).Contents (Elt F))
      = mulf (after ops V (Proc.devRef .tc main_v12) : (⟨S10000x256, .f32⟩ : BufTy).Contents (Elt F)) (after ops V (Proc.devRef .tc main_v14) : (⟨S10000x256, .f32⟩ : BufTy).Contents (Elt F)) :=
  after_binary_at writesAre V 40 rfl (by decide) (by decide) (by decide)
theorem st_main_v16 (V : Valuation τ sig (Elt F)) :
    (after ops V (Proc.devRef .tc main_v16) : (⟨S1x256, .f32⟩ : BufTy).Contents (Elt F))
      = broadcastInDim S1x256 ![1] bcast_S256_S1x256_1 (after ops V (Proc.devRef .tc main_arg3) : (⟨S256, .f32⟩ : BufTy).Contents (Elt F)) :=
  after_unary_at writesAre V 41 rfl (by decide) (by decide)
theorem st_main_v17 (V : Valuation τ sig (Elt F)) :
    (after ops V (Proc.devRef .tc main_v17) : (⟨S10000x256, .f32⟩ : BufTy).Contents (Elt F))
      = broadcastInDim S10000x256 ![0, 1] bcast_S1x256_S10000x256_0_1 (after ops V (Proc.devRef .tc main_v16) : (⟨S1x256, .f32⟩ : BufTy).Contents (Elt F)) :=
  after_unary_at writesAre V 42 rfl (by decide) (by decide)
theorem st_main_v18 (V : Valuation τ sig (Elt F)) :
    (after ops V (Proc.devRef .tc main_v18) : (⟨S10000x256, .f32⟩ : BufTy).Contents (Elt F))
      = addf (after ops V (Proc.devRef .tc main_v15) : (⟨S10000x256, .f32⟩ : BufTy).Contents (Elt F)) (after ops V (Proc.devRef .tc main_v17) : (⟨S10000x256, .f32⟩ : BufTy).Contents (Elt F)) :=
  after_binary_at writesAre V 43 rfl (by decide) (by decide) (by decide)
theorem st_main_v19 (V : Valuation τ sig (Elt F)) :
    (after ops V (Proc.devRef .tc main_v19) : (⟨S1x160000, .i32⟩ : BufTy).Contents (Elt F))
      = extractStridedSlice S1x160000 ![0, 0] (after ops V (Proc.devRef .tc main_arg1) : (⟨S2x160000, .i32⟩ : BufTy).Contents (Elt F)) slices_S2x160000_S1x160000_0_0 :=
  after_unary_at writesAre V 44 rfl (by decide) (by decide)
theorem st_main_v20 (V : Valuation τ sig (Elt F)) :
    (after ops V (Proc.devRef .tc main_v20) : (⟨S160000, .i32⟩ : BufTy).Contents (Elt F))
      = shapeCast S160000 (after ops V (Proc.devRef .tc main_v19) : (⟨S1x160000, .i32⟩ : BufTy).Contents (Elt F)) shapeCasts_S1x160000_S160000 :=
  after_reshape_at writesAre V 45 rfl (by decide) (by decide)
theorem st_main_v21 (V : Valuation τ sig (Elt F)) :
    (after ops V (Proc.devRef .tc main_v21) : (⟨S1x160000, .i32⟩ : BufTy).Contents (Elt F))
      = extractStridedSlice S1x160000 ![1, 0] (after ops V (Proc.devRef .tc main_arg1) : (⟨S2x160000, .i32⟩ : BufTy).Contents (Elt F)) slices_S2x160000_S1x160000_1_0 :=
  after_unary_at writesAre V 46 rfl (by decide) (by decide)
theorem st_main_v22 (V : Valuation τ sig (Elt F)) :
    (after ops V (Proc.devRef .tc main_v22) : (⟨S160000, .i32⟩ : BufTy).Contents (Elt F))
      = shapeCast S160000 (after ops V (Proc.devRef .tc main_v21) : (⟨S1x160000, .i32⟩ : BufTy).Contents (Elt F)) shapeCasts_S1x160000_S160000 :=
  after_reshape_at writesAre V 47 rfl (by decide) (by decide)
theorem st_main_v23 (V : Valuation τ sig (Elt F)) :
    (after ops V (Proc.devRef .tc main_v23) : (⟨S10000x256, .f32⟩ : BufTy).Contents (Elt F))
      = Host.dotGeneral dot_S10000x256_S256x256_S10000x256_1_0_0_1_n_n none (after ops V (Proc.devRef .tc main_v18) : (⟨S10000x256, .f32⟩ : BufTy).Contents (Elt F)) (after ops V (Proc.devRef .tc main_arg4) : (⟨S256x256, .f32⟩ : BufTy).Contents (Elt F)) :=
  after_binary_at writesAre V 48 rfl (by decide) (by decide) (by decide)
theorem st_main_v24 (V : Valuation τ sig (Elt F)) :
    (after ops V (Proc.devRef .tc main_v24) : (⟨S10000, .i32⟩ : BufTy).Contents (Elt F))
      = iotaInDim S10000 32 0 :=
  after_nullary_at writesAre V 49 rfl (by decide)
theorem st_main_v25 (V : Valuation τ sig (Elt F)) :
    (after ops V (Proc.devRef .tc main_v25) : (⟨S170000, .i32⟩ : BufTy).Contents (Elt F))
      = concatenate S170000 0 [⟨S160000, (after ops V (Proc.devRef .tc main_v20) : (⟨S160000, .i32⟩ : BufTy).Contents (Elt F))⟩, ⟨S10000, (after ops V (Proc.devRef .tc main_v24) : (⟨S10000, .i32⟩ : BufTy).Contents (Elt F))⟩] concatenates_S160000_S10000_S170000_d0 :=
  after_binary_at writesAre V 50 rfl (by decide) (by decide) (by decide)
theorem st_main_v26 (V : Valuation τ sig (Elt F)) :
    (after ops V (Proc.devRef .tc main_v26) : (⟨S170000, .i32⟩ : BufTy).Contents (Elt F))
      = concatenate S170000 0 [⟨S160000, (after ops V (Proc.devRef .tc main_v22) : (⟨S160000, .i32⟩ : BufTy).Contents (Elt F))⟩, ⟨S10000, (after ops V (Proc.devRef .tc main_v24) : (⟨S10000, .i32⟩ : BufTy).Contents (Elt F))⟩] concatenates_S160000_S10000_S170000_d0 :=
  after_binary_at writesAre V 51 rfl (by decide) (by decide) (by decide)
theorem st_main_cst_2 (V : Valuation τ sig (Elt F)) :
    (after ops V (Proc.devRef .tc main_cst_2) : (⟨S_, .f32⟩ : BufTy).Contents (Elt F))
      = constant S_ .f32 0x00000000#32 :=
  after_nullary_at writesAre V 52 rfl (by decide)
theorem st_main_v27 (V : Valuation τ sig (Elt F)) :
    (after ops V (Proc.devRef .tc main_v27) : (⟨S10000, .f32⟩ : BufTy).Contents (Elt F))
      = broadcastInDim S10000 ![] bcast_S_S10000 (after ops V (Proc.devRef .tc main_cst_2) : (⟨S_, .f32⟩ : BufTy).Contents (Elt F)) :=
  after_unary_at writesAre V 53 rfl (by decide) (by decide)
theorem st_main_c_3 (V : Valuation τ sig (Elt F)) :
    (after ops V (Proc.devRef .tc main_c_3) : (⟨S_, .i32⟩ : BufTy).Contents (Elt F))
      = constantI S_ 32 0#32 :=
  after_nullary_at writesAre V 54 rfl (by decide)
theorem st_main_v28 (V : Valuation τ sig (Elt F)) :
    (after ops V (Proc.devRef .tc main_v28) : (⟨S170000, .i32⟩ : BufTy).Contents (Elt F))
      = broadcastInDim S170000 ![] bcast_S_S170000 (after ops V (Proc.devRef .tc main_c_3) : (⟨S_, .i32⟩ : BufTy).Contents (Elt F)) :=
  after_unary_at writesAre V 55 rfl (by decide) (by decide)
theorem st_main_v29 (V : Valuation τ sig (Elt F)) :
    (after ops V (Proc.devRef .tc main_v29) : (⟨S170000, .i1⟩ : BufTy).Contents (Elt F))
      = cmpi .slt (after ops V (Proc.devRef .tc main_v26) : (⟨S170000, .i32⟩ : BufTy).Contents (Elt F)) (after ops V (Proc.devRef .tc main_v28) : (⟨S170000, .i32⟩ : BufTy).Contents (Elt F)) :=
  after_binary_at writesAre V 56 rfl (by decide) (by decide) (by decide)
theorem st_main_c_4 (V : Valuation τ sig (Elt F)) :
    (after ops V (Proc.devRef .tc main_c_4) : (⟨S_, .i32⟩ : BufTy).Contents (Elt F))
      = constantI S_ 32 10000#32 :=
  after_nullary_at writesAre V 57 rfl (by decide)
theorem st_main_v30 (V : Valuation τ sig (Elt F)) :
    (after ops V (Proc.devRef .tc main_v30) : (⟨S170000, .i32⟩ : BufTy).Contents (Elt F))
      = broadcastInDim S170000 ![] bcast_S_S170000 (after ops V (Proc.devRef .tc main_c_4) : (⟨S_, .i32⟩ : BufTy).Contents (Elt F)) :=
  after_unary_at writesAre V 58 rfl (by decide) (by decide)
theorem st_main_v31 (V : Valuation τ sig (Elt F)) :
    (after ops V (Proc.devRef .tc main_v31) : (⟨S170000, .i32⟩ : BufTy).Contents (Elt F))
      = addi (after ops V (Proc.devRef .tc main_v26) : (⟨S170000, .i32⟩ : BufTy).Contents (Elt F)) (after ops V (Proc.devRef .tc main_v30) : (⟨S170000, .i32⟩ : BufTy).Contents (Elt F)) :=
  after_binary_at writesAre V 59 rfl (by decide) (by decide) (by decide)
theorem st_main_v32 (V : Valuation τ sig (Elt F)) :
    (after ops V (Proc.devRef .tc main_v32) : (⟨S170000, .i32⟩ : BufTy).Contents (Elt F))
      = select (after ops V (Proc.devRef .tc main_v29) : (⟨S170000, .i1⟩ : BufTy).Contents (Elt F)) (after ops V (Proc.devRef .tc main_v31) : (⟨S170000, .i32⟩ : BufTy).Contents (Elt F)) (after ops V (Proc.devRef .tc main_v26) : (⟨S170000, .i32⟩ : BufTy).Contents (Elt F)) :=
  after_ternary_at writesAre V 60 rfl (by decide) (by decide) (by decide) (by decide)
theorem st_main_v33 (V : Valuation τ sig (Elt F)) :
    (after ops V (Proc.devRef .tc main_v33) : (⟨S170000x1, .i32⟩ : BufTy).Contents (Elt F))
      = broadcastInDim S170000x1 ![0] bcast_S170000_S170000x1_0 (after ops V (Proc.devRef .tc main_v32) : (⟨S170000, .i32⟩ : BufTy).Contents (Elt F)) :=
  after_unary_at writesAre V 61 rfl (by decide) (by decide)
theorem st_main_cst_5 (V : Valuation τ sig (Elt F)) :
    (after ops V (Proc.devRef .tc main_cst_5) : (⟨S_, .f32⟩ : BufTy).Contents (Elt F))
      = constant S_ .f32 0x3F800000#32 :=
  after_nullary_at writesAre V 62 rfl (by decide)
theorem st_main_v34 (V : Valuation τ sig (Elt F)) :
    (after ops V (Proc.devRef .tc main_v34) : (⟨S170000, .f32⟩ : BufTy).Contents (Elt F))
      = broadcastInDim S170000 ![] bcast_S_S170000 (after ops V (Proc.devRef .tc main_cst_5) : (⟨S_, .f32⟩ : BufTy).Contents (Elt F)) :=
  after_unary_at writesAre V 63 rfl (by decide) (by decide)
theorem st_main_v35 (V : Valuation τ sig (Elt F)) :
    (after ops V (Proc.devRef .tc main_v35) : (⟨S10000, .f32⟩ : BufTy).Contents (Elt F))
      = Host.scatterAdd scatter_S10000_S170000x1_S170000_n_0_0_1 (after ops V (Proc.devRef .tc main_v27) : (⟨S10000, .f32⟩ : BufTy).Contents (Elt F)) (after ops V (Proc.devRef .tc main_v33) : (⟨S170000x1, .i32⟩ : BufTy).Contents (Elt F)) (after ops V (Proc.devRef .tc main_v34) : (⟨S170000, .f32⟩ : BufTy).Contents (Elt F)) :=
  after_ternary_at writesAre V 64 rfl (by decide) (by decide) (by decide) (by decide)
theorem st_main_cst_6 (V : Valuation τ sig (Elt F)) :
    (after ops V (Proc.devRef .tc main_cst_6) : (⟨S_, .f32⟩ : BufTy).Contents (Elt F))
      = constant S_ .f32 0x00000000#32 :=
  after_nullary_at writesAre V 65 rfl (by decide)
theorem st_main_v36 (V : Valuation τ sig (Elt F)) :
    (after ops V (Proc.devRef .tc main_v36) : (⟨S10000, .f32⟩ : BufTy).Contents (Elt F))
      = broadcastInDim S10000 ![] bcast_S_S10000 (after ops V (Proc.devRef .tc main_cst_6) : (⟨S_, .f32⟩ : BufTy).Contents (Elt F)) :=
  after_unary_at writesAre V 66 rfl (by decide) (by decide)
theorem st_main_v37 (V : Valuation τ sig (Elt F)) :
    (after ops V (Proc.devRef .tc main_v37) : (⟨S10000, .i1⟩ : BufTy).Contents (Elt F))
      = cmpf .ogt (after ops V (Proc.devRef .tc main_v35) : (⟨S10000, .f32⟩ : BufTy).Contents (Elt F)) (after ops V (Proc.devRef .tc main_v36) : (⟨S10000, .f32⟩ : BufTy).Contents (Elt F)) :=
  after_binary_at writesAre V 67 rfl (by decide) (by decide) (by decide)
theorem st_main_v38 (V : Valuation τ sig (Elt F)) :
    (after ops V (Proc.devRef .tc main_v38) : (⟨S10000, .f32⟩ : BufTy).Contents (Elt F))
      = Host.rsqrt (after ops V (Proc.devRef .tc main_v35) : (⟨S10000, .f32⟩ : BufTy).Contents (Elt F)) :=
  after_unary_at writesAre V 68 rfl (by decide) (by decide)
theorem st_main_cst_7 (V : Valuation τ sig (Elt F)) :
    (after ops V (Proc.devRef .tc main_cst_7) : (⟨S_, .f32⟩ : BufTy).Contents (Elt F))
      = constant S_ .f32 0x00000000#32 :=
  after_nullary_at writesAre V 69 rfl (by decide)
theorem st_main_call1_v0 (V : Valuation τ sig (Elt F)) :
    (after ops V (Proc.devRef .tc main_call1_v0) : (⟨S_, .f32⟩ : BufTy).Contents (Elt F))
      = (after ops V (Proc.devRef .tc main_cst_7) : (⟨S_, .f32⟩ : BufTy).Contents (Elt F)) :=
  (after_unary_at writesAre V 70 rfl (by decide) (by decide) :)
theorem st_main_call1_v1 (V : Valuation τ sig (Elt F)) :
    (after ops V (Proc.devRef .tc main_call1_v1) : (⟨S10000, .f32⟩ : BufTy).Contents (Elt F))
      = (broadcastInDim S10000 ![] bcast_S_S10000) (after ops V (Proc.devRef .tc main_call1_v0) : (⟨S_, .f32⟩ : BufTy).Contents (Elt F)) :=
  after_unary_at writesAre V 71 rfl (by decide) (by decide)
theorem st_main_v39 (V : Valuation τ sig (Elt F)) :
    (after ops V (Proc.devRef .tc main_v39) : (⟨S10000, .f32⟩ : BufTy).Contents (Elt F))
      = select (after ops V (Proc.devRef .tc main_v37) : (⟨S10000, .i1⟩ : BufTy).Contents (Elt F)) (after ops V (Proc.devRef .tc main_v38) : (⟨S10000, .f32⟩ : BufTy).Contents (Elt F)) (after ops V (Proc.devRef .tc main_call1_v1) : (⟨S10000, .f32⟩ : BufTy).Contents (Elt F)) :=
  after_ternary_at writesAre V 72 rfl (by decide) (by decide) (by decide) (by decide)
theorem st_main_c_8 (V : Valuation τ sig (Elt F)) :
    (after ops V (Proc.devRef .tc main_c_8) : (⟨S_, .i32⟩ : BufTy).Contents (Elt F))
      = constantI S_ 32 0#32 :=
  after_nullary_at writesAre V 73 rfl (by decide)
theorem st_main_v40 (V : Valuation τ sig (Elt F)) :
    (after ops V (Proc.devRef .tc main_v40) : (⟨S170000, .i32⟩ : BufTy).Contents (Elt F))
      = broadcastInDim S170000 ![] bcast_S_S170000 (after ops V (Proc.devRef .tc main_c_8) : (⟨S_, .i32⟩ : BufTy).Contents (Elt F)) :=
  after_unary_at writesAre V 74 rfl (by decide) (by decide)
theorem st_main_v41 (V : Valuation τ sig (Elt F)) :
    (after ops V (Proc.devRef .tc main_v41) : (⟨S170000, .i1⟩ : BufTy).Contents (Elt F))
      = cmpi .slt (after ops V (Proc.devRef .tc main_v25) : (⟨S170000, .i32⟩ : BufTy).Contents (Elt F)) (after ops V (Proc.devRef .tc main_v40) : (⟨S170000, .i32⟩ : BufTy).Contents (Elt F)) :=
  after_binary_at writesAre V 75 rfl (by decide) (by decide) (by decide)
theorem st_main_c_9 (V : Valuation τ sig (Elt F)) :
    (after ops V (Proc.devRef .tc main_c_9) : (⟨S_, .i32⟩ : BufTy).Contents (Elt F))
      = constantI S_ 32 10000#32 :=
  after_nullary_at writesAre V 76 rfl (by decide)
theorem st_main_v42 (V : Valuation τ sig (Elt F)) :
    (after ops V (Proc.devRef .tc main_v42) : (⟨S170000, .i32⟩ : BufTy).Contents (Elt F))
      = broadcastInDim S170000 ![] bcast_S_S170000 (after ops V (Proc.devRef .tc main_c_9) : (⟨S_, .i32⟩ : BufTy).Contents (Elt F)) :=
  after_unary_at writesAre V 77 rfl (by decide) (by decide)
theorem st_main_v43 (V : Valuation τ sig (Elt F)) :
    (after ops V (Proc.devRef .tc main_v43) : (⟨S170000, .i32⟩ : BufTy).Contents (Elt F))
      = addi (after ops V (Proc.devRef .tc main_v25) : (⟨S170000, .i32⟩ : BufTy).Contents (Elt F)) (after ops V (Proc.devRef .tc main_v42) : (⟨S170000, .i32⟩ : BufTy).Contents (Elt F)) :=
  after_binary_at writesAre V 78 rfl (by decide) (by decide) (by decide)
theorem st_main_v44 (V : Valuation τ sig (Elt F)) :
    (after ops V (Proc.devRef .tc main_v44) : (⟨S170000, .i32⟩ : BufTy).Contents (Elt F))
      = select (after ops V (Proc.devRef .tc main_v41) : (⟨S170000, .i1⟩ : BufTy).Contents (Elt F)) (after ops V (Proc.devRef .tc main_v43) : (⟨S170000, .i32⟩ : BufTy).Contents (Elt F)) (after ops V (Proc.devRef .tc main_v25) : (⟨S170000, .i32⟩ : BufTy).Contents (Elt F)) :=
  after_ternary_at writesAre V 79 rfl (by decide) (by decide) (by decide) (by decide)
theorem st_main_v45 (V : Valuation τ sig (Elt F)) :
    (after ops V (Proc.devRef .tc main_v45) : (⟨S170000x1, .i32⟩ : BufTy).Contents (Elt F))
      = broadcastInDim S170000x1 ![0] bcast_S170000_S170000x1_0 (after ops V (Proc.devRef .tc main_v44) : (⟨S170000, .i32⟩ : BufTy).Contents (Elt F)) :=
  after_unary_at writesAre V 80 rfl (by decide) (by decide)
theorem st_main_v46 (V : Valuation τ sig (Elt F)) :
    (after ops V (Proc.devRef .tc main_v46) : (⟨S170000, .f32⟩ : BufTy).Contents (Elt F))
      = Host.gather gather_S10000_S170000x1_S170000_n_0_n_n_0_1_1 (after ops V (Proc.devRef .tc main_v39) : (⟨S10000, .f32⟩ : BufTy).Contents (Elt F)) (after ops V (Proc.devRef .tc main_v45) : (⟨S170000x1, .i32⟩ : BufTy).Contents (Elt F)) :=
  after_binary_at writesAre V 81 rfl (by decide) (by decide) (by decide)
theorem st_main_c_10 (V : Valuation τ sig (Elt F)) :
    (after ops V (Proc.devRef .tc main_c_10) : (⟨S_, .i32⟩ : BufTy).Contents (Elt F))
      = constantI S_ 32 0#32 :=
  after_nullary_at writesAre V 82 rfl (by decide)
theorem st_main_v47 (V : Valuation τ sig (Elt F)) :
    (after ops V (Proc.devRef .tc main_v47) : (⟨S170000, .i32⟩ : BufTy).Contents (Elt F))
      = broadcastInDim S170000 ![] bcast_S_S170000 (after ops V (Proc.devRef .tc main_c_10) : (⟨S_, .i32⟩ : BufTy).Contents (Elt F)) :=
  after_unary_at writesAre V 83 rfl (by decide) (by decide)
theorem st_main_v48 (V : Valuation τ sig (Elt F)) :
    (after ops V (Proc.devRef .tc main_v48) : (⟨S170000, .i1⟩ : BufTy).Contents (Elt F))
      = cmpi .slt (after ops V (Proc.devRef .tc main_v26) : (⟨S170000, .i32⟩ : BufTy).Contents (Elt F)) (after ops V (Proc.devRef .tc main_v47) : (⟨S170000, .i32⟩ : BufTy).Contents (Elt F)) :=
  after_binary_at writesAre V 84 rfl (by decide) (by decide) (by decide)
theorem st_main_c_11 (V : Valuation τ sig (Elt F)) :
    (after ops V (Proc.devRef .tc main_c_11) : (⟨S_, .i32⟩ : BufTy).Contents (Elt F))
      = constantI S_ 32 10000#32 :=
  after_nullary_at writesAre V 85 rfl (by decide)
theorem st_main_v49 (V : Valuation τ sig (Elt F)) :
    (after ops V (Proc.devRef .tc main_v49) : (⟨S170000, .i32⟩ : BufTy).Contents (Elt F))
      = broadcastInDim S170000 ![] bcast_S_S170000 (after ops V (Proc.devRef .tc main_c_11) : (⟨S_, .i32⟩ : BufTy).Contents (Elt F)) :=
  after_unary_at writesAre V 86 rfl (by decide) (by decide)
theorem st_main_v50 (V : Valuation τ sig (Elt F)) :
    (after ops V (Proc.devRef .tc main_v50) : (⟨S170000, .i32⟩ : BufTy).Contents (Elt F))
      = addi (after ops V (Proc.devRef .tc main_v26) : (⟨S170000, .i32⟩ : BufTy).Contents (Elt F)) (after ops V (Proc.devRef .tc main_v49) : (⟨S170000, .i32⟩ : BufTy).Contents (Elt F)) :=
  after_binary_at writesAre V 87 rfl (by decide) (by decide) (by decide)
theorem st_main_v51 (V : Valuation τ sig (Elt F)) :
    (after ops V (Proc.devRef .tc main_v51) : (⟨S170000, .i32⟩ : BufTy).Contents (Elt F))
      = select (after ops V (Proc.devRef .tc main_v48) : (⟨S170000, .i1⟩ : BufTy).Contents (Elt F)) (after ops V (Proc.devRef .tc main_v50) : (⟨S170000, .i32⟩ : BufTy).Contents (Elt F)) (after ops V (Proc.devRef .tc main_v26) : (⟨S170000, .i32⟩ : BufTy).Contents (Elt F)) :=
  after_ternary_at writesAre V 88 rfl (by decide) (by decide) (by decide) (by decide)
theorem st_main_v52 (V : Valuation τ sig (Elt F)) :
    (after ops V (Proc.devRef .tc main_v52) : (⟨S170000x1, .i32⟩ : BufTy).Contents (Elt F))
      = broadcastInDim S170000x1 ![0] bcast_S170000_S170000x1_0 (after ops V (Proc.devRef .tc main_v51) : (⟨S170000, .i32⟩ : BufTy).Contents (Elt F)) :=
  after_unary_at writesAre V 89 rfl (by decide) (by decide)
theorem st_main_v53 (V : Valuation τ sig (Elt F)) :
    (after ops V (Proc.devRef .tc main_v53) : (⟨S170000, .f32⟩ : BufTy).Contents (Elt F))
      = Host.gather gather_S10000_S170000x1_S170000_n_0_n_n_0_1_1 (after ops V (Proc.devRef .tc main_v39) : (⟨S10000, .f32⟩ : BufTy).Contents (Elt F)) (after ops V (Proc.devRef .tc main_v52) : (⟨S170000x1, .i32⟩ : BufTy).Contents (Elt F)) :=
  after_binary_at writesAre V 90 rfl (by decide) (by decide) (by decide)
theorem st_main_v54 (V : Valuation τ sig (Elt F)) :
    (after ops V (Proc.devRef .tc main_v54) : (⟨S170000, .f32⟩ : BufTy).Contents (Elt F))
      = mulf (after ops V (Proc.devRef .tc main_v46) : (⟨S170000, .f32⟩ : BufTy).Contents (Elt F)) (after ops V (Proc.devRef .tc main_v53) : (⟨S170000, .f32⟩ : BufTy).Contents (Elt F)) :=
  after_binary_at writesAre V 91 rfl (by decide) (by decide) (by decide)
theorem st_main_c_12 (V : Valuation τ sig (Elt F)) :
    (after ops V (Proc.devRef .tc main_c_12) : (⟨S_, .i32⟩ : BufTy).Contents (Elt F))
      = constantI S_ 32 0#32 :=
  after_nullary_at writesAre V 92 rfl (by decide)
theorem st_main_v55 (V : Valuation τ sig (Elt F)) :
    (after ops V (Proc.devRef .tc main_v55) : (⟨S170000, .i32⟩ : BufTy).Contents (Elt F))
      = broadcastInDim S170000 ![] bcast_S_S170000 (after ops V (Proc.devRef .tc main_c_12) : (⟨S_, .i32⟩ : BufTy).Contents (Elt F)) :=
  after_unary_at writesAre V 93 rfl (by decide) (by decide)
theorem st_main_v56 (V : Valuation τ sig (Elt F)) :
    (after ops V (Proc.devRef .tc main_v56) : (⟨S170000, .i1⟩ : BufTy).Contents (Elt F))
      = cmpi .slt (after ops V (Proc.devRef .tc main_v25) : (⟨S170000, .i32⟩ : BufTy).Contents (Elt F)) (after ops V (Proc.devRef .tc main_v55) : (⟨S170000, .i32⟩ : BufTy).Contents (Elt F)) :=
  after_binary_at writesAre V 94 rfl (by decide) (by decide) (by decide)
theorem st_main_c_13 (V : Valuation τ sig (Elt F)) :
    (after ops V (Proc.devRef .tc main_c_13) : (⟨S_, .i32⟩ : BufTy).Contents (Elt F))
      = constantI S_ 32 10000#32 :=
  after_nullary_at writesAre V 95 rfl (by decide)
theorem st_main_v57 (V : Valuation τ sig (Elt F)) :
    (after ops V (Proc.devRef .tc main_v57) : (⟨S170000, .i32⟩ : BufTy).Contents (Elt F))
      = broadcastInDim S170000 ![] bcast_S_S170000 (after ops V (Proc.devRef .tc main_c_13) : (⟨S_, .i32⟩ : BufTy).Contents (Elt F)) :=
  after_unary_at writesAre V 96 rfl (by decide) (by decide)
theorem st_main_v58 (V : Valuation τ sig (Elt F)) :
    (after ops V (Proc.devRef .tc main_v58) : (⟨S170000, .i32⟩ : BufTy).Contents (Elt F))
      = addi (after ops V (Proc.devRef .tc main_v25) : (⟨S170000, .i32⟩ : BufTy).Contents (Elt F)) (after ops V (Proc.devRef .tc main_v57) : (⟨S170000, .i32⟩ : BufTy).Contents (Elt F)) :=
  after_binary_at writesAre V 97 rfl (by decide) (by decide) (by decide)
theorem st_main_v59 (V : Valuation τ sig (Elt F)) :
    (after ops V (Proc.devRef .tc main_v59) : (⟨S170000, .i32⟩ : BufTy).Contents (Elt F))
      = select (after ops V (Proc.devRef .tc main_v56) : (⟨S170000, .i1⟩ : BufTy).Contents (Elt F)) (after ops V (Proc.devRef .tc main_v58) : (⟨S170000, .i32⟩ : BufTy).Contents (Elt F)) (after ops V (Proc.devRef .tc main_v25) : (⟨S170000, .i32⟩ : BufTy).Contents (Elt F)) :=
  after_ternary_at writesAre V 98 rfl (by decide) (by decide) (by decide) (by decide)
theorem st_main_v60 (V : Valuation τ sig (Elt F)) :
    (after ops V (Proc.devRef .tc main_v60) : (⟨S170000x1, .i32⟩ : BufTy).Contents (Elt F))
      = broadcastInDim S170000x1 ![0] bcast_S170000_S170000x1_0 (after ops V (Proc.devRef .tc main_v59) : (⟨S170000, .i32⟩ : BufTy).Contents (Elt F)) :=
  after_unary_at writesAre V 99 rfl (by decide) (by decide)
theorem st_main_v61 (V : Valuation τ sig (Elt F)) :
    (after ops V (Proc.devRef .tc main_v61) : (⟨S170000x256, .f32⟩ : BufTy).Contents (Elt F))
      = Host.gather gather_S10000x256_S170000x1_S170000x256_1_0_n_n_0_1_1256 (after ops V (Proc.devRef .tc main_v23) : (⟨S10000x256, .f32⟩ : BufTy).Contents (Elt F)) (after ops V (Proc.devRef .tc main_v60) : (⟨S170000x1, .i32⟩ : BufTy).Contents (Elt F)) :=
  after_binary_at writesAre V 100 rfl (by decide) (by decide) (by decide)
theorem st_main_v62 (V : Valuation τ sig (Elt F)) :
    (after ops V (Proc.devRef .tc main_v62) : (⟨S170000x1, .f32⟩ : BufTy).Contents (Elt F))
      = broadcastInDim S170000x1 ![0] bcast_S170000_S170000x1_0 (after ops V (Proc.devRef .tc main_v54) : (⟨S170000, .f32⟩ : BufTy).Contents (Elt F)) :=
  after_unary_at writesAre V 101 rfl (by decide) (by decide)
theorem st_main_v63 (V : Valuation τ sig (Elt F)) :
    (after ops V (Proc.devRef .tc main_v63) : (⟨S170000x256, .f32⟩ : BufTy).Contents (Elt F))
      = broadcastInDim S170000x256 ![0, 1] bcast_S170000x1_S170000x256_0_1 (after ops V (Proc.devRef .tc main_v62) : (⟨S170000x1, .f32⟩ : BufTy).Contents (Elt F)) :=
  after_unary_at writesAre V 102 rfl (by decide) (by decide)
theorem st_main_v64 (V : Valuation τ sig (Elt F)) :
    (after ops V (Proc.devRef .tc main_v64) : (⟨S170000x256, .f32⟩ : BufTy).Contents (Elt F))
      = mulf (after ops V (Proc.devRef .tc main_v61) : (⟨S170000x256, .f32⟩ : BufTy).Contents (Elt F)) (after ops V (Proc.devRef .tc main_v63) : (⟨S170000x256, .f32⟩ : BufTy).Contents (Elt F)) :=
  after_binary_at writesAre V 103 rfl (by decide) (by decide) (by decide)
theorem st_main_cst_14 (V : Valuation τ sig (Elt F)) :
    (after ops V (Proc.devRef .tc main_cst_14) : (⟨S_, .f32⟩ : BufTy).Contents (Elt F))
      = constant S_ .f32 0x00000000#32 :=
  after_nullary_at writesAre V 104 rfl (by decide)
theorem st_main_v65 (V : Valuation τ sig (Elt F)) :
    (after ops V (Proc.devRef .tc main_v65) : (⟨S10000x256, .f32⟩ : BufTy).Contents (Elt F))
      = broadcastInDim S10000x256 ![] bcast_S_S10000x256 (after ops V (Proc.devRef .tc main_cst_14) : (⟨S_, .f32⟩ : BufTy).Contents (Elt F)) :=
  after_unary_at writesAre V 105 rfl (by decide) (by decide)
theorem st_main_c_15 (V : Valuation τ sig (Elt F)) :
    (after ops V (Proc.devRef .tc main_c_15) : (⟨S_, .i32⟩ : BufTy).Contents (Elt F))
      = constantI S_ 32 0#32 :=
  after_nullary_at writesAre V 106 rfl (by decide)
theorem st_main_v66 (V : Valuation τ sig (Elt F)) :
    (after ops V (Proc.devRef .tc main_v66) : (⟨S170000, .i32⟩ : BufTy).Contents (Elt F))
      = broadcastInDim S170000 ![] bcast_S_S170000 (after ops V (Proc.devRef .tc main_c_15) : (⟨S_, .i32⟩ : BufTy).Contents (Elt F)) :=
  after_unary_at writesAre V 107 rfl (by decide) (by decide)
theorem st_main_v67 (V : Valuation τ sig (Elt F)) :
    (after ops V (Proc.devRef .tc main_v67) : (⟨S170000, .i1⟩ : BufTy).Contents (Elt F))
      = cmpi .slt (after ops V (Proc.devRef .tc main_v26) : (⟨S170000, .i32⟩ : BufTy).Contents (Elt F)) (after ops V (Proc.devRef .tc main_v66) : (⟨S170000, .i32⟩ : BufTy).Contents (Elt F)) :=
  after_binary_at writesAre V 108 rfl (by decide) (by decide) (by decide)
theorem st_main_c_16 (V : Valuation τ sig (Elt F)) :
    (after ops V (Proc.devRef .tc main_c_16) : (⟨S_, .i32⟩ : BufTy).Contents (Elt F))
      = constantI S_ 32 10000#32 :=
  after_nullary_at writesAre V 109 rfl (by decide)
theorem st_main_v68 (V : Valuation τ sig (Elt F)) :
    (after ops V (Proc.devRef .tc main_v68) : (⟨S170000, .i32⟩ : BufTy).Contents (Elt F))
      = broadcastInDim S170000 ![] bcast_S_S170000 (after ops V (Proc.devRef .tc main_c_16) : (⟨S_, .i32⟩ : BufTy).Contents (Elt F)) :=
  after_unary_at writesAre V 110 rfl (by decide) (by decide)
theorem st_main_v69 (V : Valuation τ sig (Elt F)) :
    (after ops V (Proc.devRef .tc main_v69) : (⟨S170000, .i32⟩ : BufTy).Contents (Elt F))
      = addi (after ops V (Proc.devRef .tc main_v26) : (⟨S170000, .i32⟩ : BufTy).Contents (Elt F)) (after ops V (Proc.devRef .tc main_v68) : (⟨S170000, .i32⟩ : BufTy).Contents (Elt F)) :=
  after_binary_at writesAre V 111 rfl (by decide) (by decide) (by decide)
theorem st_main_v70 (V : Valuation τ sig (Elt F)) :
    (after ops V (Proc.devRef .tc main_v70) : (⟨S170000, .i32⟩ : BufTy).Contents (Elt F))
      = select (after ops V (Proc.devRef .tc main_v67) : (⟨S170000, .i1⟩ : BufTy).Contents (Elt F)) (after ops V (Proc.devRef .tc main_v69) : (⟨S170000, .i32⟩ : BufTy).Contents (Elt F)) (after ops V (Proc.devRef .tc main_v26) : (⟨S170000, .i32⟩ : BufTy).Contents (Elt F)) :=
  after_ternary_at writesAre V 112 rfl (by decide) (by decide) (by decide) (by decide)
theorem st_main_v71 (V : Valuation τ sig (Elt F)) :
    (after ops V (Proc.devRef .tc main_v71) : (⟨S170000x1, .i32⟩ : BufTy).Contents (Elt F))
      = broadcastInDim S170000x1 ![0] bcast_S170000_S170000x1_0 (after ops V (Proc.devRef .tc main_v70) : (⟨S170000, .i32⟩ : BufTy).Contents (Elt F)) :=
  after_unary_at writesAre V 113 rfl (by decide) (by decide)
theorem st_main_v72 (V : Valuation τ sig (Elt F)) :
    (after ops V (Proc.devRef .tc main_v72) : (⟨S10000x256, .f32⟩ : BufTy).Contents (Elt F))
      = Host.scatterAdd scatter_S10000x256_S170000x1_S170000x256_1_0_0_1 (after ops V (Proc.devRef .tc main_v65) : (⟨S10000x256, .f32⟩ : BufTy).Contents (Elt F)) (after ops V (Proc.devRef .tc main_v71) : (⟨S170000x1, .i32⟩ : BufTy).Contents (Elt F)) (after ops V (Proc.devRef .tc main_v64) : (⟨S170000x256, .f32⟩ : BufTy).Contents (Elt F)) :=
  after_ternary_at writesAre V 114 rfl (by decide) (by decide) (by decide) (by decide)
theorem st_main_v73 (V : Valuation τ sig (Elt F)) :
    (after ops V (Proc.devRef .tc main_v73) : (⟨S1x256, .f32⟩ : BufTy).Contents (Elt F))
      = broadcastInDim S1x256 ![1] bcast_S256_S1x256_1 (after ops V (Proc.devRef .tc main_arg5) : (⟨S256, .f32⟩ : BufTy).Contents (Elt F)) :=
  after_unary_at writesAre V 115 rfl (by decide) (by decide)
theorem st_main_v74 (V : Valuation τ sig (Elt F)) :
    (after ops V (Proc.devRef .tc main_v74) : (⟨S10000x256, .f32⟩ : BufTy).Contents (Elt F))
      = broadcastInDim S10000x256 ![0, 1] bcast_S1x256_S10000x256_0_1 (after ops V (Proc.devRef .tc main_v73) : (⟨S1x256, .f32⟩ : BufTy).Contents (Elt F)) :=
  after_unary_at writesAre V 116 rfl (by decide) (by decide)
theorem st_main_v75 (V : Valuation τ sig (Elt F)) :
    (after ops V (Proc.devRef .tc main_v75) : (⟨S10000x256, .f32⟩ : BufTy).Contents (Elt F))
      = addf (after ops V (Proc.devRef .tc main_v72) : (⟨S10000x256, .f32⟩ : BufTy).Contents (Elt F)) (after ops V (Proc.devRef .tc main_v74) : (⟨S10000x256, .f32⟩ : BufTy).Contents (Elt F)) :=
  after_binary_at writesAre V 117 rfl (by decide) (by decide) (by decide)
theorem st_main_cst_17 (V : Valuation τ sig (Elt F)) :
    (after ops V (Proc.devRef .tc main_cst_17) : (⟨S_, .f32⟩ : BufTy).Contents (Elt F))
      = constant S_ .f32 0x00000000#32 :=
  after_nullary_at writesAre V 118 rfl (by decide)
theorem st_main_v76 (V : Valuation τ sig (Elt F)) :
    (after ops V (Proc.devRef .tc main_v76) : (⟨S10000x256, .f32⟩ : BufTy).Contents (Elt F))
      = broadcastInDim S10000x256 ![] bcast_S_S10000x256 (after ops V (Proc.devRef .tc main_cst_17) : (⟨S_, .f32⟩ : BufTy).Contents (Elt F)) :=
  after_unary_at writesAre V 119 rfl (by decide) (by decide)
theorem st_main_v77 (V : Valuation τ sig (Elt F)) :
    (after ops V (Proc.devRef .tc main_v77) : (⟨S10000x256, .i1⟩ : BufTy).Contents (Elt F))
      = cmpf .ogt (after ops V (Proc.devRef .tc main_v75) : (⟨S10000x256, .f32⟩ : BufTy).Contents (Elt F)) (after ops V (Proc.devRef .tc main_v76) : (⟨S10000x256, .f32⟩ : BufTy).Contents (Elt F)) :=
  after_binary_at writesAre V 120 rfl (by decide) (by decide) (by decide)
theorem st_main_cst_18 (V : Valuation τ sig (Elt F)) :
    (after ops V (Proc.devRef .tc main_cst_18) : (⟨S_, .f32⟩ : BufTy).Contents (Elt F))
      = constant S_ .f32 0x3DCCCCCD#32 :=
  after_nullary_at writesAre V 121 rfl (by decide)
theorem st_main_v78 (V : Valuation τ sig (Elt F)) :
    (after ops V (Proc.devRef .tc main_v78) : (⟨S10000x256, .f32⟩ : BufTy).Contents (Elt F))
      = broadcastInDim S10000x256 ![] bcast_S_S10000x256 (after ops V (Proc.devRef .tc main_cst_18) : (⟨S_, .f32⟩ : BufTy).Contents (Elt F)) :=
  after_unary_at writesAre V 122 rfl (by decide) (by decide)
theorem st_main_v79 (V : Valuation τ sig (Elt F)) :
    (after ops V (Proc.devRef .tc main_v79) : (⟨S10000x256, .f32⟩ : BufTy).Contents (Elt F))
      = mulf (after ops V (Proc.devRef .tc main_v78) : (⟨S10000x256, .f32⟩ : BufTy).Contents (Elt F)) (after ops V (Proc.devRef .tc main_v75) : (⟨S10000x256, .f32⟩ : BufTy).Contents (Elt F)) :=
  after_binary_at writesAre V 123 rfl (by decide) (by decide) (by decide)
theorem st_main_v80 (V : Valuation τ sig (Elt F)) :
    (after ops V (Proc.devRef .tc main_v80) : (⟨S10000x256, .f32⟩ : BufTy).Contents (Elt F))
      = select (after ops V (Proc.devRef .tc main_v77) : (⟨S10000x256, .i1⟩ : BufTy).Contents (Elt F)) (after ops V (Proc.devRef .tc main_v75) : (⟨S10000x256, .f32⟩ : BufTy).Contents (Elt F)) (after ops V (Proc.devRef .tc main_v79) : (⟨S10000x256, .f32⟩ : BufTy).Contents (Elt F)) :=
  after_ternary_at writesAre V 124 rfl (by decide) (by decide) (by decide) (by decide)
theorem st_main_v81 (V : Valuation τ sig (Elt F)) :
    (after ops V (Proc.devRef .tc main_v81) : (⟨S10000x256, .f32⟩ : BufTy).Contents (Elt F))
      = Host.dotGeneral dot_S10000x256_S256x256_S10000x256_1_0_0_1_n_n none (after ops V (Proc.devRef .tc main_v80) : (⟨S10000x256, .f32⟩ : BufTy).Contents (Elt F)) (after ops V (Proc.devRef .tc main_arg6) : (⟨S256x256, .f32⟩ : BufTy).Contents (Elt F)) :=
  after_binary_at writesAre V 125 rfl (by decide) (by decide) (by decide)
theorem st_main_v82 (V : Valuation τ sig (Elt F)) :
    (after ops V (Proc.devRef .tc main_v82) : (⟨S10000, .i32⟩ : BufTy).Contents (Elt F))
      = iotaInDim S10000 32 0 :=
  after_nullary_at writesAre V 126 rfl (by decide)
theorem st_main_v83 (V : Valuation τ sig (Elt F)) :
    (after ops V (Proc.devRef .tc main_v83) : (⟨S170000, .i32⟩ : BufTy).Contents (Elt F))
      = concatenate S170000 0 [⟨S160000, (after ops V (Proc.devRef .tc main_v20) : (⟨S160000, .i32⟩ : BufTy).Contents (Elt F))⟩, ⟨S10000, (after ops V (Proc.devRef .tc main_v82) : (⟨S10000, .i32⟩ : BufTy).Contents (Elt F))⟩] concatenates_S160000_S10000_S170000_d0 :=
  after_binary_at writesAre V 127 rfl (by decide) (by decide) (by decide)
theorem st_main_v84 (V : Valuation τ sig (Elt F)) :
    (after ops V (Proc.devRef .tc main_v84) : (⟨S170000, .i32⟩ : BufTy).Contents (Elt F))
      = concatenate S170000 0 [⟨S160000, (after ops V (Proc.devRef .tc main_v22) : (⟨S160000, .i32⟩ : BufTy).Contents (Elt F))⟩, ⟨S10000, (after ops V (Proc.devRef .tc main_v82) : (⟨S10000, .i32⟩ : BufTy).Contents (Elt F))⟩] concatenates_S160000_S10000_S170000_d0 :=
  after_binary_at writesAre V 128 rfl (by decide) (by decide) (by decide)
theorem st_main_cst_19 (V : Valuation τ sig (Elt F)) :
    (after ops V (Proc.devRef .tc main_cst_19) : (⟨S_, .f32⟩ : BufTy).Contents (Elt F))
      = constant S_ .f32 0x00000000#32 :=
  after_nullary_at writesAre V 129 rfl (by decide)
theorem st_main_v85 (V : Valuation τ sig (Elt F)) :
    (after ops V (Proc.devRef .tc main_v85) : (⟨S10000, .f32⟩ : BufTy).Contents (Elt F))
      = broadcastInDim S10000 ![] bcast_S_S10000 (after ops V (Proc.devRef .tc main_cst_19) : (⟨S_, .f32⟩ : BufTy).Contents (Elt F)) :=
  after_unary_at writesAre V 130 rfl (by decide) (by decide)
theorem st_main_c_20 (V : Valuation τ sig (Elt F)) :
    (after ops V (Proc.devRef .tc main_c_20) : (⟨S_, .i32⟩ : BufTy).Contents (Elt F))
      = constantI S_ 32 0#32 :=
  after_nullary_at writesAre V 131 rfl (by decide)
theorem st_main_v86 (V : Valuation τ sig (Elt F)) :
    (after ops V (Proc.devRef .tc main_v86) : (⟨S170000, .i32⟩ : BufTy).Contents (Elt F))
      = broadcastInDim S170000 ![] bcast_S_S170000 (after ops V (Proc.devRef .tc main_c_20) : (⟨S_, .i32⟩ : BufTy).Contents (Elt F)) :=
  after_unary_at writesAre V 132 rfl (by decide) (by decide)
theorem st_main_v87 (V : Valuation τ sig (Elt F)) :
    (after ops V (Proc.devRef .tc main_v87) : (⟨S170000, .i1⟩ : BufTy).Contents (Elt F))
      = cmpi .slt (after ops V (Proc.devRef .tc main_v84) : (⟨S170000, .i32⟩ : BufTy).Contents (Elt F)) (after ops V (Proc.devRef .tc main_v86) : (⟨S170000, .i32⟩ : BufTy).Contents (Elt F)) :=
  after_binary_at writesAre V 133 rfl (by decide) (by decide) (by decide)
theorem st_main_c_21 (V : Valuation τ sig (Elt F)) :
    (after ops V (Proc.devRef .tc main_c_21) : (⟨S_, .i32⟩ : BufTy).Contents (Elt F))
      = constantI S_ 32 10000#32 :=
  after_nullary_at writesAre V 134 rfl (by decide)
theorem st_main_v88 (V : Valuation τ sig (Elt F)) :
    (after ops V (Proc.devRef .tc main_v88) : (⟨S170000, .i32⟩ : BufTy).Contents (Elt F))
      = broadcastInDim S170000 ![] bcast_S_S170000 (after ops V (Proc.devRef .tc main_c_21) : (⟨S_, .i32⟩ : BufTy).Contents (Elt F)) :=
  after_unary_at writesAre V 135 rfl (by decide) (by decide)
theorem st_main_v89 (V : Valuation τ sig (Elt F)) :
    (after ops V (Proc.devRef .tc main_v89) : (⟨S170000, .i32⟩ : BufTy).Contents (Elt F))
      = addi (after ops V (Proc.devRef .tc main_v84) : (⟨S170000, .i32⟩ : BufTy).Contents (Elt F)) (after ops V (Proc.devRef .tc main_v88) : (⟨S170000, .i32⟩ : BufTy).Contents (Elt F)) :=
  after_binary_at writesAre V 136 rfl (by decide) (by decide) (by decide)
theorem st_main_v90 (V : Valuation τ sig (Elt F)) :
    (after ops V (Proc.devRef .tc main_v90) : (⟨S170000, .i32⟩ : BufTy).Contents (Elt F))
      = select (after ops V (Proc.devRef .tc main_v87) : (⟨S170000, .i1⟩ : BufTy).Contents (Elt F)) (after ops V (Proc.devRef .tc main_v89) : (⟨S170000, .i32⟩ : BufTy).Contents (Elt F)) (after ops V (Proc.devRef .tc main_v84) : (⟨S170000, .i32⟩ : BufTy).Contents (Elt F)) :=
  after_ternary_at writesAre V 137 rfl (by decide) (by decide) (by decide) (by decide)
theorem st_main_v91 (V : Valuation τ sig (Elt F)) :
    (after ops V (Proc.devRef .tc main_v91) : (⟨S170000x1, .i32⟩ : BufTy).Contents (Elt F))
      = broadcastInDim S170000x1 ![0] bcast_S170000_S170000x1_0 (after ops V (Proc.devRef .tc main_v90) : (⟨S170000, .i32⟩ : BufTy).Contents (Elt F)) :=
  after_unary_at writesAre V 138 rfl (by decide) (by decide)
theorem st_main_cst_22 (V : Valuation τ sig (Elt F)) :
    (after ops V (Proc.devRef .tc main_cst_22) : (⟨S_, .f32⟩ : BufTy).Contents (Elt F))
      = constant S_ .f32 0x3F800000#32 :=
  after_nullary_at writesAre V 139 rfl (by decide)
theorem st_main_v92 (V : Valuation τ sig (Elt F)) :
    (after ops V (Proc.devRef .tc main_v92) : (⟨S170000, .f32⟩ : BufTy).Contents (Elt F))
      = broadcastInDim S170000 ![] bcast_S_S170000 (after ops V (Proc.devRef .tc main_cst_22) : (⟨S_, .f32⟩ : BufTy).Contents (Elt F)) :=
  after_unary_at writesAre V 140 rfl (by decide) (by decide)
theorem st_main_v93 (V : Valuation τ sig (Elt F)) :
    (after ops V (Proc.devRef .tc main_v93) : (⟨S10000, .f32⟩ : BufTy).Contents (Elt F))
      = Host.scatterAdd scatter_S10000_S170000x1_S170000_n_0_0_1 (after ops V (Proc.devRef .tc main_v85) : (⟨S10000, .f32⟩ : BufTy).Contents (Elt F)) (after ops V (Proc.devRef .tc main_v91) : (⟨S170000x1, .i32⟩ : BufTy).Contents (Elt F)) (after ops V (Proc.devRef .tc main_v92) : (⟨S170000, .f32⟩ : BufTy).Contents (Elt F)) :=
  after_ternary_at writesAre V 141 rfl (by decide) (by decide) (by decide) (by decide)
theorem st_main_cst_23 (V : Valuation τ sig (Elt F)) :
    (after ops V (Proc.devRef .tc main_cst_23) : (⟨S_, .f32⟩ : BufTy).Contents (Elt F))
      = constant S_ .f32 0x00000000#32 :=
  after_nullary_at writesAre V 142 rfl (by decide)
theorem st_main_v94 (V : Valuation τ sig (Elt F)) :
    (after ops V (Proc.devRef .tc main_v94) : (⟨S10000, .f32⟩ : BufTy).Contents (Elt F))
      = broadcastInDim S10000 ![] bcast_S_S10000 (after ops V (Proc.devRef .tc main_cst_23) : (⟨S_, .f32⟩ : BufTy).Contents (Elt F)) :=
  after_unary_at writesAre V 143 rfl (by decide) (by decide)
theorem st_main_v95 (V : Valuation τ sig (Elt F)) :
    (after ops V (Proc.devRef .tc main_v95) : (⟨S10000, .i1⟩ : BufTy).Contents (Elt F))
      = cmpf .ogt (after ops V (Proc.devRef .tc main_v93) : (⟨S10000, .f32⟩ : BufTy).Contents (Elt F)) (after ops V (Proc.devRef .tc main_v94) : (⟨S10000, .f32⟩ : BufTy).Contents (Elt F)) :=
  after_binary_at writesAre V 144 rfl (by decide) (by decide) (by decide)
theorem st_main_v96 (V : Valuation τ sig (Elt F)) :
    (after ops V (Proc.devRef .tc main_v96) : (⟨S10000, .f32⟩ : BufTy).Contents (Elt F))
      = Host.rsqrt (after ops V (Proc.devRef .tc main_v93) : (⟨S10000, .f32⟩ : BufTy).Contents (Elt F)) :=
  after_unary_at writesAre V 145 rfl (by decide) (by decide)
theorem st_main_cst_24 (V : Valuation τ sig (Elt F)) :
    (after ops V (Proc.devRef .tc main_cst_24) : (⟨S_, .f32⟩ : BufTy).Contents (Elt F))
      = constant S_ .f32 0x00000000#32 :=
  after_nullary_at writesAre V 146 rfl (by decide)
theorem st_main_call3_v0 (V : Valuation τ sig (Elt F)) :
    (after ops V (Proc.devRef .tc main_call3_v0) : (⟨S_, .f32⟩ : BufTy).Contents (Elt F))
      = (after ops V (Proc.devRef .tc main_cst_24) : (⟨S_, .f32⟩ : BufTy).Contents (Elt F)) :=
  (after_unary_at writesAre V 147 rfl (by decide) (by decide) :)
theorem st_main_call3_v1 (V : Valuation τ sig (Elt F)) :
    (after ops V (Proc.devRef .tc main_call3_v1) : (⟨S10000, .f32⟩ : BufTy).Contents (Elt F))
      = (broadcastInDim S10000 ![] bcast_S_S10000) (after ops V (Proc.devRef .tc main_call3_v0) : (⟨S_, .f32⟩ : BufTy).Contents (Elt F)) :=
  after_unary_at writesAre V 148 rfl (by decide) (by decide)
theorem st_main_v97 (V : Valuation τ sig (Elt F)) :
    (after ops V (Proc.devRef .tc main_v97) : (⟨S10000, .f32⟩ : BufTy).Contents (Elt F))
      = select (after ops V (Proc.devRef .tc main_v95) : (⟨S10000, .i1⟩ : BufTy).Contents (Elt F)) (after ops V (Proc.devRef .tc main_v96) : (⟨S10000, .f32⟩ : BufTy).Contents (Elt F)) (after ops V (Proc.devRef .tc main_call3_v1) : (⟨S10000, .f32⟩ : BufTy).Contents (Elt F)) :=
  after_ternary_at writesAre V 149 rfl (by decide) (by decide) (by decide) (by decide)
theorem st_main_c_25 (V : Valuation τ sig (Elt F)) :
    (after ops V (Proc.devRef .tc main_c_25) : (⟨S_, .i32⟩ : BufTy).Contents (Elt F))
      = constantI S_ 32 0#32 :=
  after_nullary_at writesAre V 150 rfl (by decide)
theorem st_main_v98 (V : Valuation τ sig (Elt F)) :
    (after ops V (Proc.devRef .tc main_v98) : (⟨S170000, .i32⟩ : BufTy).Contents (Elt F))
      = broadcastInDim S170000 ![] bcast_S_S170000 (after ops V (Proc.devRef .tc main_c_25) : (⟨S_, .i32⟩ : BufTy).Contents (Elt F)) :=
  after_unary_at writesAre V 151 rfl (by decide) (by decide)
theorem st_main_v99 (V : Valuation τ sig (Elt F)) :
    (after ops V (Proc.devRef .tc main_v99) : (⟨S170000, .i1⟩ : BufTy).Contents (Elt F))
      = cmpi .slt (after ops V (Proc.devRef .tc main_v83) : (⟨S170000, .i32⟩ : BufTy).Contents (Elt F)) (after ops V (Proc.devRef .tc main_v98) : (⟨S170000, .i32⟩ : BufTy).Contents (Elt F)) :=
  after_binary_at writesAre V 152 rfl (by decide) (by decide) (by decide)
theorem st_main_c_26 (V : Valuation τ sig (Elt F)) :
    (after ops V (Proc.devRef .tc main_c_26) : (⟨S_, .i32⟩ : BufTy).Contents (Elt F))
      = constantI S_ 32 10000#32 :=
  after_nullary_at writesAre V 153 rfl (by decide)
theorem st_main_v100 (V : Valuation τ sig (Elt F)) :
    (after ops V (Proc.devRef .tc main_v100) : (⟨S170000, .i32⟩ : BufTy).Contents (Elt F))
      = broadcastInDim S170000 ![] bcast_S_S170000 (after ops V (Proc.devRef .tc main_c_26) : (⟨S_, .i32⟩ : BufTy).Contents (Elt F)) :=
  after_unary_at writesAre V 154 rfl (by decide) (by decide)
theorem st_main_v101 (V : Valuation τ sig (Elt F)) :
    (after ops V (Proc.devRef .tc main_v101) : (⟨S170000, .i32⟩ : BufTy).Contents (Elt F))
      = addi (after ops V (Proc.devRef .tc main_v83) : (⟨S170000, .i32⟩ : BufTy).Contents (Elt F)) (after ops V (Proc.devRef .tc main_v100) : (⟨S170000, .i32⟩ : BufTy).Contents (Elt F)) :=
  after_binary_at writesAre V 155 rfl (by decide) (by decide) (by decide)
theorem st_main_v102 (V : Valuation τ sig (Elt F)) :
    (after ops V (Proc.devRef .tc main_v102) : (⟨S170000, .i32⟩ : BufTy).Contents (Elt F))
      = select (after ops V (Proc.devRef .tc main_v99) : (⟨S170000, .i1⟩ : BufTy).Contents (Elt F)) (after ops V (Proc.devRef .tc main_v101) : (⟨S170000, .i32⟩ : BufTy).Contents (Elt F)) (after ops V (Proc.devRef .tc main_v83) : (⟨S170000, .i32⟩ : BufTy).Contents (Elt F)) :=
  after_ternary_at writesAre V 156 rfl (by decide) (by decide) (by decide) (by decide)
theorem st_main_v103 (V : Valuation τ sig (Elt F)) :
    (after ops V (Proc.devRef .tc main_v103) : (⟨S170000x1, .i32⟩ : BufTy).Contents (Elt F))
      = broadcastInDim S170000x1 ![0] bcast_S170000_S170000x1_0 (after ops V (Proc.devRef .tc main_v102) : (⟨S170000, .i32⟩ : BufTy).Contents (Elt F)) :=
  after_unary_at writesAre V 157 rfl (by decide) (by decide)
theorem st_main_v104 (V : Valuation τ sig (Elt F)) :
    (after ops V (Proc.devRef .tc main_v104) : (⟨S170000, .f32⟩ : BufTy).Contents (Elt F))
      = Host.gather gather_S10000_S170000x1_S170000_n_0_n_n_0_1_1 (after ops V (Proc.devRef .tc main_v97) : (⟨S10000, .f32⟩ : BufTy).Contents (Elt F)) (after ops V (Proc.devRef .tc main_v103) : (⟨S170000x1, .i32⟩ : BufTy).Contents (Elt F)) :=
  after_binary_at writesAre V 158 rfl (by decide) (by decide) (by decide)
theorem st_main_c_27 (V : Valuation τ sig (Elt F)) :
    (after ops V (Proc.devRef .tc main_c_27) : (⟨S_, .i32⟩ : BufTy).Contents (Elt F))
      = constantI S_ 32 0#32 :=
  after_nullary_at writesAre V 159 rfl (by decide)
theorem st_main_v105 (V : Valuation τ sig (Elt F)) :
    (after ops V (Proc.devRef .tc main_v105) : (⟨S170000, .i32⟩ : BufTy).Contents (Elt F))
      = broadcastInDim S170000 ![] bcast_S_S170000 (after ops V (Proc.devRef .tc main_c_27) : (⟨S_, .i32⟩ : BufTy).Contents (Elt F)) :=
  after_unary_at writesAre V 160 rfl (by decide) (by decide)
theorem st_main_v106 (V : Valuation τ sig (Elt F)) :
    (after ops V (Proc.devRef .tc main_v106) : (⟨S170000, .i1⟩ : BufTy).Contents (Elt F))
      = cmpi .slt (after ops V (Proc.devRef .tc main_v84) : (⟨S170000, .i32⟩ : BufTy).Contents (Elt F)) (after ops V (Proc.devRef .tc main_v105) : (⟨S170000, .i32⟩ : BufTy).Contents (Elt F)) :=
  after_binary_at writesAre V 161 rfl (by decide) (by decide) (by decide)
theorem st_main_c_28 (V : Valuation τ sig (Elt F)) :
    (after ops V (Proc.devRef .tc main_c_28) : (⟨S_, .i32⟩ : BufTy).Contents (Elt F))
      = constantI S_ 32 10000#32 :=
  after_nullary_at writesAre V 162 rfl (by decide)
theorem st_main_v107 (V : Valuation τ sig (Elt F)) :
    (after ops V (Proc.devRef .tc main_v107) : (⟨S170000, .i32⟩ : BufTy).Contents (Elt F))
      = broadcastInDim S170000 ![] bcast_S_S170000 (after ops V (Proc.devRef .tc main_c_28) : (⟨S_, .i32⟩ : BufTy).Contents (Elt F)) :=
  after_unary_at writesAre V 163 rfl (by decide) (by decide)
theorem st_main_v108 (V : Valuation τ sig (Elt F)) :
    (after ops V (Proc.devRef .tc main_v108) : (⟨S170000, .i32⟩ : BufTy).Contents (Elt F))
      = addi (after ops V (Proc.devRef .tc main_v84) : (⟨S170000, .i32⟩ : BufTy).Contents (Elt F)) (after ops V (Proc.devRef .tc main_v107) : (⟨S170000, .i32⟩ : BufTy).Contents (Elt F)) :=
  after_binary_at writesAre V 164 rfl (by decide) (by decide) (by decide)
theorem st_main_v109 (V : Valuation τ sig (Elt F)) :
    (after ops V (Proc.devRef .tc main_v109) : (⟨S170000, .i32⟩ : BufTy).Contents (Elt F))
      = select (after ops V (Proc.devRef .tc main_v106) : (⟨S170000, .i1⟩ : BufTy).Contents (Elt F)) (after ops V (Proc.devRef .tc main_v108) : (⟨S170000, .i32⟩ : BufTy).Contents (Elt F)) (after ops V (Proc.devRef .tc main_v84) : (⟨S170000, .i32⟩ : BufTy).Contents (Elt F)) :=
  after_ternary_at writesAre V 165 rfl (by decide) (by decide) (by decide) (by decide)
theorem st_main_v110 (V : Valuation τ sig (Elt F)) :
    (after ops V (Proc.devRef .tc main_v110) : (⟨S170000x1, .i32⟩ : BufTy).Contents (Elt F))
      = broadcastInDim S170000x1 ![0] bcast_S170000_S170000x1_0 (after ops V (Proc.devRef .tc main_v109) : (⟨S170000, .i32⟩ : BufTy).Contents (Elt F)) :=
  after_unary_at writesAre V 166 rfl (by decide) (by decide)
theorem st_main_v111 (V : Valuation τ sig (Elt F)) :
    (after ops V (Proc.devRef .tc main_v111) : (⟨S170000, .f32⟩ : BufTy).Contents (Elt F))
      = Host.gather gather_S10000_S170000x1_S170000_n_0_n_n_0_1_1 (after ops V (Proc.devRef .tc main_v97) : (⟨S10000, .f32⟩ : BufTy).Contents (Elt F)) (after ops V (Proc.devRef .tc main_v110) : (⟨S170000x1, .i32⟩ : BufTy).Contents (Elt F)) :=
  after_binary_at writesAre V 167 rfl (by decide) (by decide) (by decide)
theorem st_main_v112 (V : Valuation τ sig (Elt F)) :
    (after ops V (Proc.devRef .tc main_v112) : (⟨S170000, .f32⟩ : BufTy).Contents (Elt F))
      = mulf (after ops V (Proc.devRef .tc main_v104) : (⟨S170000, .f32⟩ : BufTy).Contents (Elt F)) (after ops V (Proc.devRef .tc main_v111) : (⟨S170000, .f32⟩ : BufTy).Contents (Elt F)) :=
  after_binary_at writesAre V 168 rfl (by decide) (by decide) (by decide)
theorem st_main_c_29 (V : Valuation τ sig (Elt F)) :
    (after ops V (Proc.devRef .tc main_c_29) : (⟨S_, .i32⟩ : BufTy).Contents (Elt F))
      = constantI S_ 32 0#32 :=
  after_nullary_at writesAre V 169 rfl (by decide)
theorem st_main_v113 (V : Valuation τ sig (Elt F)) :
    (after ops V (Proc.devRef .tc main_v113) : (⟨S170000, .i32⟩ : BufTy).Contents (Elt F))
      = broadcastInDim S170000 ![] bcast_S_S170000 (after ops V (Proc.devRef .tc main_c_29) : (⟨S_, .i32⟩ : BufTy).Contents (Elt F)) :=
  after_unary_at writesAre V 170 rfl (by decide) (by decide)
theorem st_main_v114 (V : Valuation τ sig (Elt F)) :
    (after ops V (Proc.devRef .tc main_v114) : (⟨S170000, .i1⟩ : BufTy).Contents (Elt F))
      = cmpi .slt (after ops V (Proc.devRef .tc main_v83) : (⟨S170000, .i32⟩ : BufTy).Contents (Elt F)) (after ops V (Proc.devRef .tc main_v113) : (⟨S170000, .i32⟩ : BufTy).Contents (Elt F)) :=
  after_binary_at writesAre V 171 rfl (by decide) (by decide) (by decide)
theorem st_main_c_30 (V : Valuation τ sig (Elt F)) :
    (after ops V (Proc.devRef .tc main_c_30) : (⟨S_, .i32⟩ : BufTy).Contents (Elt F))
      = constantI S_ 32 10000#32 :=
  after_nullary_at writesAre V 172 rfl (by decide)
theorem st_main_v115 (V : Valuation τ sig (Elt F)) :
    (after ops V (Proc.devRef .tc main_v115) : (⟨S170000, .i32⟩ : BufTy).Contents (Elt F))
      = broadcastInDim S170000 ![] bcast_S_S170000 (after ops V (Proc.devRef .tc main_c_30) : (⟨S_, .i32⟩ : BufTy).Contents (Elt F)) :=
  after_unary_at writesAre V 173 rfl (by decide) (by decide)
theorem st_main_v116 (V : Valuation τ sig (Elt F)) :
    (after ops V (Proc.devRef .tc main_v116) : (⟨S170000, .i32⟩ : BufTy).Contents (Elt F))
      = addi (after ops V (Proc.devRef .tc main_v83) : (⟨S170000, .i32⟩ : BufTy).Contents (Elt F)) (after ops V (Proc.devRef .tc main_v115) : (⟨S170000, .i32⟩ : BufTy).Contents (Elt F)) :=
  after_binary_at writesAre V 174 rfl (by decide) (by decide) (by decide)
theorem st_main_v117 (V : Valuation τ sig (Elt F)) :
    (after ops V (Proc.devRef .tc main_v117) : (⟨S170000, .i32⟩ : BufTy).Contents (Elt F))
      = select (after ops V (Proc.devRef .tc main_v114) : (⟨S170000, .i1⟩ : BufTy).Contents (Elt F)) (after ops V (Proc.devRef .tc main_v116) : (⟨S170000, .i32⟩ : BufTy).Contents (Elt F)) (after ops V (Proc.devRef .tc main_v83) : (⟨S170000, .i32⟩ : BufTy).Contents (Elt F)) :=
  after_ternary_at writesAre V 175 rfl (by decide) (by decide) (by decide) (by decide)
theorem st_main_v118 (V : Valuation τ sig (Elt F)) :
    (after ops V (Proc.devRef .tc main_v118) : (⟨S170000x1, .i32⟩ : BufTy).Contents (Elt F))
      = broadcastInDim S170000x1 ![0] bcast_S170000_S170000x1_0 (after ops V (Proc.devRef .tc main_v117) : (⟨S170000, .i32⟩ : BufTy).Contents (Elt F)) :=
  after_unary_at writesAre V 176 rfl (by decide) (by decide)
theorem st_main_v119 (V : Valuation τ sig (Elt F)) :
    (after ops V (Proc.devRef .tc main_v119) : (⟨S170000x256, .f32⟩ : BufTy).Contents (Elt F))
      = Host.gather gather_S10000x256_S170000x1_S170000x256_1_0_n_n_0_1_1256 (after ops V (Proc.devRef .tc main_v81) : (⟨S10000x256, .f32⟩ : BufTy).Contents (Elt F)) (after ops V (Proc.devRef .tc main_v118) : (⟨S170000x1, .i32⟩ : BufTy).Contents (Elt F)) :=
  after_binary_at writesAre V 177 rfl (by decide) (by decide) (by decide)
theorem st_main_v120 (V : Valuation τ sig (Elt F)) :
    (after ops V (Proc.devRef .tc main_v120) : (⟨S170000x1, .f32⟩ : BufTy).Contents (Elt F))
      = broadcastInDim S170000x1 ![0] bcast_S170000_S170000x1_0 (after ops V (Proc.devRef .tc main_v112) : (⟨S170000, .f32⟩ : BufTy).Contents (Elt F)) :=
  after_unary_at writesAre V 178 rfl (by decide) (by decide)
theorem st_main_v121 (V : Valuation τ sig (Elt F)) :
    (after ops V (Proc.devRef .tc main_v121) : (⟨S170000x256, .f32⟩ : BufTy).Contents (Elt F))
      = broadcastInDim S170000x256 ![0, 1] bcast_S170000x1_S170000x256_0_1 (after ops V (Proc.devRef .tc main_v120) : (⟨S170000x1, .f32⟩ : BufTy).Contents (Elt F)) :=
  after_unary_at writesAre V 179 rfl (by decide) (by decide)
theorem st_main_v122 (V : Valuation τ sig (Elt F)) :
    (after ops V (Proc.devRef .tc main_v122) : (⟨S170000x256, .f32⟩ : BufTy).Contents (Elt F))
      = mulf (after ops V (Proc.devRef .tc main_v119) : (⟨S170000x256, .f32⟩ : BufTy).Contents (Elt F)) (after ops V (Proc.devRef .tc main_v121) : (⟨S170000x256, .f32⟩ : BufTy).Contents (Elt F)) :=
  after_binary_at writesAre V 180 rfl (by decide) (by decide) (by decide)
theorem st_main_cst_31 (V : Valuation τ sig (Elt F)) :
    (after ops V (Proc.devRef .tc main_cst_31) : (⟨S_, .f32⟩ : BufTy).Contents (Elt F))
      = constant S_ .f32 0x00000000#32 :=
  after_nullary_at writesAre V 181 rfl (by decide)
theorem st_main_v123 (V : Valuation τ sig (Elt F)) :
    (after ops V (Proc.devRef .tc main_v123) : (⟨S10000x256, .f32⟩ : BufTy).Contents (Elt F))
      = broadcastInDim S10000x256 ![] bcast_S_S10000x256 (after ops V (Proc.devRef .tc main_cst_31) : (⟨S_, .f32⟩ : BufTy).Contents (Elt F)) :=
  after_unary_at writesAre V 182 rfl (by decide) (by decide)
theorem st_main_c_32 (V : Valuation τ sig (Elt F)) :
    (after ops V (Proc.devRef .tc main_c_32) : (⟨S_, .i32⟩ : BufTy).Contents (Elt F))
      = constantI S_ 32 0#32 :=
  after_nullary_at writesAre V 183 rfl (by decide)
theorem st_main_v124 (V : Valuation τ sig (Elt F)) :
    (after ops V (Proc.devRef .tc main_v124) : (⟨S170000, .i32⟩ : BufTy).Contents (Elt F))
      = broadcastInDim S170000 ![] bcast_S_S170000 (after ops V (Proc.devRef .tc main_c_32) : (⟨S_, .i32⟩ : BufTy).Contents (Elt F)) :=
  after_unary_at writesAre V 184 rfl (by decide) (by decide)
theorem st_main_v125 (V : Valuation τ sig (Elt F)) :
    (after ops V (Proc.devRef .tc main_v125) : (⟨S170000, .i1⟩ : BufTy).Contents (Elt F))
      = cmpi .slt (after ops V (Proc.devRef .tc main_v84) : (⟨S170000, .i32⟩ : BufTy).Contents (Elt F)) (after ops V (Proc.devRef .tc main_v124) : (⟨S170000, .i32⟩ : BufTy).Contents (Elt F)) :=
  after_binary_at writesAre V 185 rfl (by decide) (by decide) (by decide)
theorem st_main_c_33 (V : Valuation τ sig (Elt F)) :
    (after ops V (Proc.devRef .tc main_c_33) : (⟨S_, .i32⟩ : BufTy).Contents (Elt F))
      = constantI S_ 32 10000#32 :=
  after_nullary_at writesAre V 186 rfl (by decide)
theorem st_main_v126 (V : Valuation τ sig (Elt F)) :
    (after ops V (Proc.devRef .tc main_v126) : (⟨S170000, .i32⟩ : BufTy).Contents (Elt F))
      = broadcastInDim S170000 ![] bcast_S_S170000 (after ops V (Proc.devRef .tc main_c_33) : (⟨S_, .i32⟩ : BufTy).Contents (Elt F)) :=
  after_unary_at writesAre V 187 rfl (by decide) (by decide)
theorem st_main_v127 (V : Valuation τ sig (Elt F)) :
    (after ops V (Proc.devRef .tc main_v127) : (⟨S170000, .i32⟩ : BufTy).Contents (Elt F))
      = addi (after ops V (Proc.devRef .tc main_v84) : (⟨S170000, .i32⟩ : BufTy).Contents (Elt F)) (after ops V (Proc.devRef .tc main_v126) : (⟨S170000, .i32⟩ : BufTy).Contents (Elt F)) :=
  after_binary_at writesAre V 188 rfl (by decide) (by decide) (by decide)
theorem st_main_v128 (V : Valuation τ sig (Elt F)) :
    (after ops V (Proc.devRef .tc main_v128) : (⟨S170000, .i32⟩ : BufTy).Contents (Elt F))
      = select (after ops V (Proc.devRef .tc main_v125) : (⟨S170000, .i1⟩ : BufTy).Contents (Elt F)) (after ops V (Proc.devRef .tc main_v127) : (⟨S170000, .i32⟩ : BufTy).Contents (Elt F)) (after ops V (Proc.devRef .tc main_v84) : (⟨S170000, .i32⟩ : BufTy).Contents (Elt F)) :=
  after_ternary_at writesAre V 189 rfl (by decide) (by decide) (by decide) (by decide)
theorem st_main_v129 (V : Valuation τ sig (Elt F)) :
    (after ops V (Proc.devRef .tc main_v129) : (⟨S170000x1, .i32⟩ : BufTy).Contents (Elt F))
      = broadcastInDim S170000x1 ![0] bcast_S170000_S170000x1_0 (after ops V (Proc.devRef .tc main_v128) : (⟨S170000, .i32⟩ : BufTy).Contents (Elt F)) :=
  after_unary_at writesAre V 190 rfl (by decide) (by decide)
theorem st_main_v130 (V : Valuation τ sig (Elt F)) :
    (after ops V (Proc.devRef .tc main_v130) : (⟨S10000x256, .f32⟩ : BufTy).Contents (Elt F))
      = Host.scatterAdd scatter_S10000x256_S170000x1_S170000x256_1_0_0_1 (after ops V (Proc.devRef .tc main_v123) : (⟨S10000x256, .f32⟩ : BufTy).Contents (Elt F)) (after ops V (Proc.devRef .tc main_v129) : (⟨S170000x1, .i32⟩ : BufTy).Contents (Elt F)) (after ops V (Proc.devRef .tc main_v122) : (⟨S170000x256, .f32⟩ : BufTy).Contents (Elt F)) :=
  after_ternary_at writesAre V 191 rfl (by decide) (by decide) (by decide) (by decide)
theorem st_main_v131 (V : Valuation τ sig (Elt F)) :
    (after ops V (Proc.devRef .tc main_v131) : (⟨S1x256, .f32⟩ : BufTy).Contents (Elt F))
      = broadcastInDim S1x256 ![1] bcast_S256_S1x256_1 (after ops V (Proc.devRef .tc main_arg7) : (⟨S256, .f32⟩ : BufTy).Contents (Elt F)) :=
  after_unary_at writesAre V 192 rfl (by decide) (by decide)
theorem st_main_v132 (V : Valuation τ sig (Elt F)) :
    (after ops V (Proc.devRef .tc main_v132) : (⟨S10000x256, .f32⟩ : BufTy).Contents (Elt F))
      = broadcastInDim S10000x256 ![0, 1] bcast_S1x256_S10000x256_0_1 (after ops V (Proc.devRef .tc main_v131) : (⟨S1x256, .f32⟩ : BufTy).Contents (Elt F)) :=
  after_unary_at writesAre V 193 rfl (by decide) (by decide)
theorem st_main_v133 (V : Valuation τ sig (Elt F)) :
    (after ops V (Proc.devRef .tc main_v133) : (⟨S10000x256, .f32⟩ : BufTy).Contents (Elt F))
      = addf (after ops V (Proc.devRef .tc main_v130) : (⟨S10000x256, .f32⟩ : BufTy).Contents (Elt F)) (after ops V (Proc.devRef .tc main_v132) : (⟨S10000x256, .f32⟩ : BufTy).Contents (Elt F)) :=
  after_binary_at writesAre V 194 rfl (by decide) (by decide) (by decide)
theorem st_main_cst_34 (V : Valuation τ sig (Elt F)) :
    (after ops V (Proc.devRef .tc main_cst_34) : (⟨S_, .f32⟩ : BufTy).Contents (Elt F))
      = constant S_ .f32 0x00000000#32 :=
  after_nullary_at writesAre V 195 rfl (by decide)
theorem st_main_v134 (V : Valuation τ sig (Elt F)) :
    (after ops V (Proc.devRef .tc main_v134) : (⟨S256, .f32⟩ : BufTy).Contents (Elt F))
      = Host.reduceAdd (after ops V (Proc.devRef .tc main_v133) : (⟨S10000x256, .f32⟩ : BufTy).Contents (Elt F)) (after ops V (Proc.devRef .tc main_cst_34) : (⟨S_, .f32⟩ : BufTy).Contents (Elt F)) reducesTo_S10000x256_S256_d0 h_S_ :=
  after_binary_at writesAre V 196 rfl (by decide) (by decide) (by decide)
theorem st_main_v135 (V : Valuation τ sig (Elt F)) :
    (after ops V (Proc.devRef .tc main_v135) : (⟨S1x256, .f32⟩ : BufTy).Contents (Elt F))
      = broadcastInDim S1x256 ![1] bcast_S256_S1x256_1 (after ops V (Proc.devRef .tc main_v134) : (⟨S256, .f32⟩ : BufTy).Contents (Elt F)) :=
  after_unary_at writesAre V 197 rfl (by decide) (by decide)
theorem st_main_cst_35 (V : Valuation τ sig (Elt F)) :
    (after ops V (Proc.devRef .tc main_cst_35) : (⟨S_, .f32⟩ : BufTy).Contents (Elt F))
      = constant S_ .f32 0x461C4000#32 :=
  after_nullary_at writesAre V 198 rfl (by decide)
theorem st_main_v136 (V : Valuation τ sig (Elt F)) :
    (after ops V (Proc.devRef .tc main_v136) : (⟨S1x256, .f32⟩ : BufTy).Contents (Elt F))
      = broadcastInDim S1x256 ![] bcast_S_S1x256 (after ops V (Proc.devRef .tc main_cst_35) : (⟨S_, .f32⟩ : BufTy).Contents (Elt F)) :=
  after_unary_at writesAre V 199 rfl (by decide) (by decide)
theorem st_main_v137 (V : Valuation τ sig (Elt F)) :
    (after ops V (Proc.devRef .tc main_v137) : (⟨S1x256, .f32⟩ : BufTy).Contents (Elt F))
      = Host.divf (after ops V (Proc.devRef .tc main_v135) : (⟨S1x256, .f32⟩ : BufTy).Contents (Elt F)) (after ops V (Proc.devRef .tc main_v136) : (⟨S1x256, .f32⟩ : BufTy).Contents (Elt F)) :=
  after_binary_at writesAre V 200 rfl (by decide) (by decide) (by decide)

end Cert.RefSide

end
-- ==== Proof.RConv.lean ====
/-
  One graph convolution of the reference, over abstract arrays.

  The reference evaluates the convolution edge by edge over the edge list with the self loops appended: the source and
  target word vectors are each extended by the words 0, 1, …, 9999; the degree of a node is the number of extended
  positions whose target word names it (the edges that end there, plus its own loop); each extended position carries the
  factor dis(source) · dis(target); the input's rows are read at the extended sources, scaled by the factor, and summed
  into the rows of the extended targets; the bias row is added. Every index vector passes the negative-index wrap (which
  leaves a node number alone) and is made a column before it is used.

  Here each buffer is a variable and each operation an equation between variables, so that the statement applies to either
  of the program's two convolutions; the conclusion is that the last buffer is, entry by entry, the real convolution.
-/
import proofs.«150153_g58806692217087_cont_9to1_m_85_2_alg».proof.Proof.Gen.ReferenceIdeal
import proofs.«150153_g58806692217087_cont_9to1_m_85_2_alg».proof.Proof.Spec
import proofs.«150153_g58806692217087_cont_9to1_m_85_2_alg».proof.Proof.RealLift
import proofs.«150153_g58806692217087_cont_9to1_m_85_2_alg».proof.Proof.LiftPointwise
import proofs.«150153_g58806692217087_cont_9to1_m_85_2_alg».proof.Proof.LiftIndex

noncomputable section

namespace Cert.RefSide

open Cert.ReferenceIdeal Cert.ReferenceIdeal.Gen Idealize.ShloMosaic Idealize.ShloMosaic.ValueIdx Cert.RealLift
open Idealize.ShloMosaic.RowIndex Idealize.ShloMosaic.VecIndex
open scoped BigOperators

/-- There is a node. -/
theorem nodes_pos : 0 < 10000 := by decide

/-- An array that is a real vector is any pointwise-equal real vector. -/
theorem isReal1_congr {a : ℕ} {A : (⟨1, ![a]⟩ : Shape).Idx → EReal} {A' B' : Fin a → ℝ} (h : IsReal1 A A')
    (e : ∀ i, A' i = B' i) : IsReal1 A B' := fun i => by rw [h i, e i]

/-- An array that is a real matrix is any pointwise-equal real matrix. -/
theorem isReal2_congr {a b : ℕ} {A : (⟨2, ![a, b]⟩ : Shape).Idx → EReal} {A' B' : Fin a → Fin b → ℝ} (h : IsReal2 A A')
    (e : ∀ i j, A' i j = B' i j) : IsReal2 A B' := fun i j => by rw [h i j, e i j]

/-- A sum over the positions of an appended word vector that name `v`: the edges whose word names `v`, plus `v`'s own
    loop. -/
theorem sum_nodes_append {x : IVec S170000 32} {p : Fin 160000 → Fin 10000}
    (left : ∀ t : Fin 160000, node nodes_pos (x (ix1 (⟨t.val, by omega⟩ : Fin 170000))) = p t)
    (right : ∀ v : Fin 10000, node nodes_pos (x (ix1 (⟨160000 + v.val, by omega⟩ : Fin 170000))) = v)
    (u : Fin 170000 → ℝ) (v : Fin 10000) :
    (∑ k : Fin 170000, if node nodes_pos (x (ix1 k)) = v then u k else 0)
      = (∑ t : Fin 160000, if p t = v then u ⟨t.val, by omega⟩ else 0) + u ⟨160000 + v.val, by omega⟩ := by
  rw [sum_append_selfLoops (E := 160000) (N := 10000) (T := 170000) rfl (fun k => node nodes_pos (x (ix1 k))) right u v]
  simp only [left]

/-- Every word of an appended vector is non-negative when the edges' words are node numbers. -/
theorem appended_nonneg {w : IVec S160000 32}
    (hw : ∀ t : Fin 160000, 0 ≤ (w (ix1 t)).toInt ∧ (w (ix1 t)).toInt < (10000 : Int))
    {io : IVec S10000 32} {x : IVec S170000 32} (e_io : io = iotaInDim S10000 32 0)
    (e_x : x = concatenate S170000 0 [⟨S160000, w⟩, ⟨S10000, io⟩] concatenates_S160000_S10000_S170000_d0) :
    ∀ i, 0 ≤ (x i).toInt := by
  intro i
  rw [congrArg x (eq_ix1 i), e_x, e_io]
  exact (concat_iota_inrange (by norm_num) w concatenates_S160000_S10000_S170000_d0
    (fun t => ⟨(hw t).1, by have := (hw t).2; omega⟩) (i 0)).1

/-- A vector of non-negative words, passed through the negative-index wrap and made a column, reads at (t, 0) the
    vector at t. -/
theorem wrapCol_apply {w : IVec S170000 32} (hw : ∀ i, 0 ≤ (w i).toInt)
    {c0 c1 : IVec S_ 32} {b0 b1 s sel : IVec S170000 32} {m : IVec S170000 1} {col : IVec S170000x1 32}
    (e_c0 : c0 = constantI S_ 32 0#32) (e_b0 : b0 = broadcastInDim S170000 ![] bcast_S_S170000 c0)
    (e_m : m = cmpi .slt w b0)
    (e_c1 : c1 = constantI S_ 32 10000#32) (e_b1 : b1 = broadcastInDim S170000 ![] bcast_S_S170000 c1)
    (e_s : s = addi w b1) (e_sel : sel = select m s w)
    (e_col : col = broadcastInDim S170000x1 ![0] bcast_S170000_S170000x1_0 sel) (t : Fin 170000) :
    col (ix2 t (0 : Fin 1)) = w (ix1 t) := by
  subst e_c0 e_b0 e_m e_c1 e_b1 e_s e_sel e_col
  rw [column_apply, wrap_eq_self w 10000#32 _ _ hw]

/-- The convolution. `wS`, `wD` are the edges' source and target words, `G` the input with real matrix `g'`, `B` the bias
    with real row `b'`; `xS`, `xD` the word vectors with the self loops appended; the five columns are the wrapped index
    vectors at their five uses; the remaining variables are the float buffers in program order. -/
theorem conv_isReal2
    {wS wD : IVec S160000 32}
    (hS : ∀ t : Fin 160000, 0 ≤ (wS (ix1 t)).toInt ∧ (wS (ix1 t)).toInt < (10000 : Int))
    (hD : ∀ t : Fin 160000, 0 ≤ (wD (ix1 t)).toInt ∧ (wD (ix1 t)).toInt < (10000 : Int))
    {src dst : Fin 160000 → Fin 10000}
    (hsrc : ∀ t, node nodes_pos (wS (ix1 t)) = src t) (hdst : ∀ t, node nodes_pos (wD (ix1 t)) = dst t)
    {G : FVec Ideal S10000x256 .f32} {g' : Fin 10000 → Fin 256 → ℝ} (hG : IsReal2 G g')
    {B : FVec Ideal S256 .f32} {b' : Fin 256 → ℝ} (hB : IsReal1 B b')
    {io : IVec S10000 32} {xS xD : IVec S170000 32}
    {colD1 colS2 colD2 colS3 colD3 : IVec S170000x1 32}
    {z0 o0 z1 z2 z2' z3 : FVec Ideal S_ .f32}
    {zN zN1 zN2 deg rs dis : FVec Ideal S10000 .f32} {pos : IVec S10000 1}
    {oT gS gD fac : FVec Ideal S170000 .f32} {facC : FVec Ideal S170000x1 .f32}
    {rows facM upd : FVec Ideal S170000x256 .f32}
    {zM acc bM out : FVec Ideal S10000x256 .f32} {bR : FVec Ideal S1x256 .f32}
    (e_io : io = iotaInDim S10000 32 0)
    (e_xS : xS = concatenate S170000 0 [⟨S160000, wS⟩, ⟨S10000, io⟩] concatenates_S160000_S10000_S170000_d0)
    (e_xD : xD = concatenate S170000 0 [⟨S160000, wD⟩, ⟨S10000, io⟩] concatenates_S160000_S10000_S170000_d0)
    (h_colD1 : ∀ t : Fin 170000, colD1 (ix2 t (0 : Fin 1)) = xD (ix1 t))
    (h_colS2 : ∀ t : Fin 170000, colS2 (ix2 t (0 : Fin 1)) = xS (ix1 t))
    (h_colD2 : ∀ t : Fin 170000, colD2 (ix2 t (0 : Fin 1)) = xD (ix1 t))
    (h_colS3 : ∀ t : Fin 170000, colS3 (ix2 t (0 : Fin 1)) = xS (ix1 t))
    (h_colD3 : ∀ t : Fin 170000, colD3 (ix2 t (0 : Fin 1)) = xD (ix1 t))
    (e_z0 : z0 = constant S_ .f32 0x00000000#32) (e_zN : zN = broadcastInDim S10000 ![] bcast_S_S10000 z0)
    (e_o0 : o0 = constant S_ .f32 0x3F800000#32) (e_oT : oT = broadcastInDim S170000 ![] bcast_S_S170000 o0)
    (e_deg : deg = Host.scatterAdd scatter_S10000_S170000x1_S170000_n_0_0_1 zN colD1 oT)
    (e_z1 : z1 = constant S_ .f32 0x00000000#32) (e_zN1 : zN1 = broadcastInDim S10000 ![] bcast_S_S10000 z1)
    (e_pos : pos = cmpf .ogt deg zN1) (e_rs : rs = Host.rsqrt deg)
    (e_z2 : z2 = constant S_ .f32 0x00000000#32) (e_z2' : z2' = z2)
    (e_zN2 : zN2 = broadcastInDim S10000 ![] bcast_S_S10000 z2')
    (e_dis : dis = select pos rs zN2)
    (e_gS : gS = Host.gather gather_S10000_S170000x1_S170000_n_0_n_n_0_1_1 dis colS2)
    (e_gD : gD = Host.gather gather_S10000_S170000x1_S170000_n_0_n_n_0_1_1 dis colD2)
    (e_fac : fac = mulf gS gD)
    (e_rows : rows = Host.gather gather_S10000x256_S170000x1_S170000x256_1_0_n_n_0_1_1256 G colS3)
    (e_facC : facC = broadcastInDim S170000x1 ![0] bcast_S170000_S170000x1_0 fac)
    (e_facM : facM = broadcastInDim S170000x256 ![0, 1] bcast_S170000x1_S170000x256_0_1 facC)
    (e_upd : upd = mulf rows facM)
    (e_z3 : z3 = constant S_ .f32 0x00000000#32) (e_zM : zM = broadcastInDim S10000x256 ![] bcast_S_S10000x256 z3)
    (e_acc : acc = Host.scatterAdd scatter_S10000x256_S170000x1_S170000x256_1_0_0_1 zM colD3 upd)
    (e_bR : bR = broadcastInDim S1x256 ![1] bcast_S256_S1x256_1 B)
    (e_bM : bM = broadcastInDim S10000x256 ![0, 1] bcast_S1x256_S10000x256_0_1 bR)
    (e_out : out = addf acc bM) :
    IsReal2 out (Cert.Spec.convR src dst g' b') := by
  -- the appended word vectors: below 160000 the edge's word, at 160000 + v the word of v; all are node numbers
  have xS_left : ∀ t : Fin 160000, node nodes_pos (xS (ix1 (⟨t.val, by omega⟩ : Fin 170000))) = src t := by
    intro t; rw [e_xS, e_io, concat_iota_left wS concatenates_S160000_S10000_S170000_d0 (⟨t.val, by omega⟩ : Fin 170000) t rfl]; exact hsrc t
  have xD_left : ∀ t : Fin 160000, node nodes_pos (xD (ix1 (⟨t.val, by omega⟩ : Fin 170000))) = dst t := by
    intro t; rw [e_xD, e_io, concat_iota_left wD concatenates_S160000_S10000_S170000_d0 (⟨t.val, by omega⟩ : Fin 170000) t rfl]; exact hdst t
  have xS_right : ∀ v : Fin 10000, node nodes_pos (xS (ix1 (⟨160000 + v.val, by omega⟩ : Fin 170000))) = v := by
    intro v; rw [e_xS, e_io]; exact node_concat_iota_right nodes_pos (by norm_num) wS concatenates_S160000_S10000_S170000_d0 (⟨160000 + v.val, by omega⟩ : Fin 170000) v rfl
  have xD_right : ∀ v : Fin 10000, node nodes_pos (xD (ix1 (⟨160000 + v.val, by omega⟩ : Fin 170000))) = v := by
    intro v; rw [e_xD, e_io]; exact node_concat_iota_right nodes_pos (by norm_num) wD concatenates_S160000_S10000_S170000_d0 (⟨160000 + v.val, by omega⟩ : Fin 170000) v rfl
  have xD_rng : ∀ k : Fin 170000, 0 ≤ (xD (ix1 k)).toInt ∧ (xD (ix1 k)).toInt < ((10000 : ℕ) : Int) := by
    intro k; rw [e_xD, e_io]
    exact concat_iota_inrange (by norm_num) wD _ (fun t => ⟨(hD t).1, by have := (hD t).2; omega⟩) k
  -- the degrees: ones summed into the targets; the appended part gives each node its own loop
  have h_zN : IsReal1 zN (fun _ => (0 : ℝ)) := by
    rw [e_zN, e_z0]; exact isReal1_broadcastInDim_scalar _ _ 0 (isReal0_constant _ 0 ofBits_zero)
  have h_oT : IsReal1 oT (fun _ => (1 : ℝ)) := by
    rw [e_oT, e_o0]; exact isReal1_broadcastInDim_scalar _ _ 1 (isReal0_constant _ 1 ofBits_one)
  have h_deg : IsReal1 deg (fun v => Cert.Spec.cnt dst v + 1) := by
    rw [e_deg]
    refine isReal1_congr (scatterAdd_vec_isReal nodes_pos _ zN colD1 oT (fun _ => (1 : ℝ)) h_zN h_oT
      (fun t => by rw [h_colD1 t]; exact xD_rng t)) (fun v => ?_)
    simp only [h_colD1]
    rw [sum_nodes_append xD_left xD_right (fun _ => (1 : ℝ)) v]
    rfl
  -- the reciprocal root of the degree; the guard "degree exceeds zero" always holds
  have hpos : ∀ v, 0 < Cert.Spec.cnt dst v + 1 := Cert.Spec.deg_pos dst
  have h_zN1 : IsReal1 zN1 (fun _ => (0 : ℝ)) := by
    rw [e_zN1, e_z1]; exact isReal1_broadcastInDim_scalar _ _ 0 (isReal0_constant _ 0 ofBits_zero)
  have h_rs : IsReal1 rs (Cert.Spec.dis dst) := by
    rw [e_rs]; exact isReal1_hostRsqrt h_deg hpos
  have h_dis : IsReal1 dis (Cert.Spec.dis dst) := by
    rw [e_dis, e_pos, select_ogt_pos1 h_deg h_zN1 hpos rs zN2]; exact h_rs
  -- the factor of each appended position
  have h_gS : IsReal1 gS (fun k => Cert.Spec.dis dst (node nodes_pos (xS (ix1 k)))) := by
    rw [e_gS]
    exact isReal1_congr (gather_vec_isReal nodes_pos _ dis _ h_dis colS2) (fun k => by simp only [h_colS2])
  have h_gD : IsReal1 gD (fun k => Cert.Spec.dis dst (node nodes_pos (xD (ix1 k)))) := by
    rw [e_gD]
    exact isReal1_congr (gather_vec_isReal nodes_pos _ dis _ h_dis colD2) (fun k => by simp only [h_colD2])
  have h_fac : IsReal1 fac (fun k => Cert.Spec.dis dst (node nodes_pos (xS (ix1 k)))
      * Cert.Spec.dis dst (node nodes_pos (xD (ix1 k)))) := by
    rw [e_fac]; exact isReal1_mulf h_gS h_gD
  -- the input's rows at the appended sources, scaled
  have h_rows : IsReal2 rows (fun k j => g' (node nodes_pos (xS (ix1 k))) j) := by
    rw [e_rows]
    exact isReal2_congr (gather_rows_isReal nodes_pos _ G g' hG colS3) (fun k j => by simp only [h_colS3])
  have h_facC : IsReal2 facC (fun k _ => Cert.Spec.dis dst (node nodes_pos (xS (ix1 k)))
      * Cert.Spec.dis dst (node nodes_pos (xD (ix1 k)))) := by
    rw [e_facC]; exact isReal2_broadcastInDim_vec_col _ h_fac
  have h_facM : IsReal2 facM (fun k _ => Cert.Spec.dis dst (node nodes_pos (xS (ix1 k)))
      * Cert.Spec.dis dst (node nodes_pos (xD (ix1 k)))) := by
    rw [e_facM]; exact isReal2_broadcastInDim_col _ h_facC
  have h_upd : IsReal2 upd (fun k j => g' (node nodes_pos (xS (ix1 k))) j
      * (Cert.Spec.dis dst (node nodes_pos (xS (ix1 k))) * Cert.Spec.dis dst (node nodes_pos (xD (ix1 k))))) := by
    rw [e_upd]; exact isReal2_mulf h_rows h_facM
  -- summed into the rows of the appended targets: the edges that end at v, and v's own loop
  have h_zM : IsReal2 zM (fun _ _ => (0 : ℝ)) := by
    rw [e_zM, e_z3]; exact isReal2_broadcastInDim_scalar _ _ 0 (isReal0_constant _ 0 ofBits_zero)
  have h_acc : IsReal2 acc (fun v j =>
      (∑ t : Fin 160000, if dst t = v then g' (src t) j * (Cert.Spec.dis dst (src t) * Cert.Spec.dis dst (dst t)) else 0)
        + g' v j * (Cert.Spec.dis dst v * Cert.Spec.dis dst v)) := by
    rw [e_acc]
    refine isReal2_congr (scatterAdd_rows_isReal nodes_pos _ zM colD3 upd _ h_zM h_upd
      (fun t => by rw [h_colD3 t]; exact xD_rng t)) (fun v j => ?_)
    simp only [h_colD3]
    rw [sum_nodes_append xD_left xD_right (fun k => g' (node nodes_pos (xS (ix1 k))) j
      * (Cert.Spec.dis dst (node nodes_pos (xS (ix1 k))) * Cert.Spec.dis dst (node nodes_pos (xD (ix1 k))))) v]
    simp only [xS_left, xD_left, xS_right, xD_right]
  -- the bias row under every node
  have h_bR : IsReal2 bR (fun _ j => b' j) := by
    rw [e_bR]; exact isReal2_broadcastInDim_vec_row _ hB
  have h_bM : IsReal2 bM (fun _ j => b' j) := by
    rw [e_bM]; exact isReal2_broadcastInDim_row _ h_bR
  rw [e_out]
  exact isReal2_addf h_acc h_bM

end Cert.RefSide

end
-- ==== Proof.RChainA.lean ====
/-
  The reference program, first half, read buffer by buffer as real arrays.

  Under the precondition every float argument is a real array and every word of the edge table names a node. Going down
  the program: the column means; the variance function (its own means, the centred entries, their squares, the count
  10000 - 0, the column sums of the squares divided by the count, and a guard "count exceeds zero" that always holds);
  the normalised features (centred, divided by the root of variance plus the small constant, scaled, shifted); the first
  linear map; the first graph convolution; the leaky rectifier (a compare with zero selecting between the value and the
  slope times the value); the second linear map. Each buffer holds the specification's array of that name.
-/
import proofs.«150153_g58806692217087_cont_9to1_m_85_2_alg».proof.Proof.RefStages
import proofs.«150153_g58806692217087_cont_9to1_m_85_2_alg».proof.Proof.RConv
import proofs.«150153_g58806692217087_cont_9to1_m_85_2_alg».proof.Proof.LiftReduce
import proofs.«150153_g58806692217087_cont_9to1_m_85_2_alg».proof.Proof.Result

noncomputable section

namespace Cert.RefSide

open Cert.ReferenceIdeal Cert.ReferenceIdeal.Gen Idealize.ShloMosaic Idealize.ShloMosaic.TcCoe Idealize.SL.Sem Idealize.ShloMosaic.StableHlo
open Idealize.ShloMosaic.ValueIdx Cert.RealLift
open scoped BigOperators

section ChainA

variable (V : Valuation τ sig (Elt Ideal))

set_option quotPrecheck false

local notation "R[" b "]" => after ops V (Proc.devRef .tc b)
local notation "A[" b "]" => V (Proc.devRef .tc b)

/-- The source words: row 0 of the edge table, cut out and reshaped. -/
theorem chainA_src (t : Fin 160000) : R[main_v20] (ix1 t) = A[main_arg1] (ix2 (0 : Fin 2) t) := by
  rw [st_main_v20 V, st_main_v19 V, st_main_arg1 V]
  exact edgeRow0_apply _ _ _ t

/-- The target words: row 1 of the edge table, cut out and reshaped. -/
theorem chainA_dst (t : Fin 160000) : R[main_v22] (ix1 t) = A[main_arg1] (ix2 (1 : Fin 2) t) := by
  rw [st_main_v22 V, st_main_v21 V, st_main_arg1 V]
  exact edgeRow1_apply _ _ _ t

variable (hok : Cert.Result.Ok (V (Proc.devRef .tc main_arg0)) (V (Proc.devRef .tc main_arg1)) (V (Proc.devRef .tc main_arg2)) (V (Proc.devRef .tc main_arg3))
  (V (Proc.devRef .tc main_arg4)) (V (Proc.devRef .tc main_arg5)) (V (Proc.devRef .tc main_arg6)) (V (Proc.devRef .tc main_arg7)))
include hok

local notation "Xr" => toReal2 A[main_arg0]
local notation "Gr" => toReal1 A[main_arg2]
local notation "Br" => toReal1 A[main_arg3]
local notation "W1r" => toReal2 A[main_arg4]
local notation "B1r" => toReal1 A[main_arg5]
local notation "W2r" => toReal2 A[main_arg6]
local notation "SRC" => Cert.Result.srcOf A[main_arg1]
local notation "DST" => Cert.Result.dstOf A[main_arg1]

/-! ## The arguments are the real arrays they are read as -/

theorem chainA_arg0_isReal : IsReal2 R[main_arg0] Xr := by rw [st_main_arg0 V]; exact isReal2_toReal _ hok.1
theorem chainA_arg2_isReal : IsReal1 R[main_arg2] Gr := by rw [st_main_arg2 V]; exact isReal1_toReal _ hok.2.1
theorem chainA_arg3_isReal : IsReal1 R[main_arg3] Br := by rw [st_main_arg3 V]; exact isReal1_toReal _ hok.2.2.1
theorem chainA_arg4_isReal : IsReal2 R[main_arg4] W1r := by rw [st_main_arg4 V]; exact isReal2_toReal _ hok.2.2.2.1
theorem chainA_arg5_isReal : IsReal1 R[main_arg5] B1r := by rw [st_main_arg5 V]; exact isReal1_toReal _ hok.2.2.2.2.1
theorem chainA_arg6_isReal : IsReal2 R[main_arg6] W2r := by rw [st_main_arg6 V]; exact isReal2_toReal _ hok.2.2.2.2.2.1

/-! ## Column means -/

theorem chainA_mean : IsReal1 R[main_v2] (Cert.Spec.mean Xr) := by
  have h_x := chainA_arg0_isReal V hok
  have h_cst : IsReal0 R[main_cst] 0 := by rw [st_main_cst V]; exact isReal0_constant _ 0 ofBits_zero
  have h_v0 : IsReal1 R[main_v0] (fun j => ∑ i, Xr i j) := by
    rw [st_main_v0 V]; exact isReal1_hostReduceAdd_axis0 _ _ _ reducesTo_S10000x256_S256_d0 h_S_ h_x h_cst
  have h_cst_0 : IsReal0 R[main_cst_0] 10000 := by rw [st_main_cst_0 V]; exact isReal0_constant _ 10000 ofBits_10000
  have h_v1 : IsReal1 R[main_v1] (fun _ => (10000 : ℝ)) := by
    rw [st_main_v1 V]; exact isReal1_broadcastInDim_scalar _ _ 10000 h_cst_0
  rw [st_main_v2 V]
  exact isReal1_congr (isReal1_hostDivf h_v0 h_v1 (fun _ => by norm_num))
    (fun j => by simp only [Cert.Spec.mean, Nat.cast_ofNat])

/-! ## The variance function -/

theorem chainA_var : IsReal1 R[main_v3] (Cert.Spec.var Xr) := by
  have h_x := chainA_arg0_isReal V hok
  have h_cst : IsReal0 R[main_call0_cst] 0 := by rw [st_main_call0_cst V]; exact isReal0_constant _ 0 ofBits_zero
  have h_v0 : IsReal1 R[main_call0_v0] (fun j => ∑ i, Xr i j) := by
    rw [st_main_call0_v0 V]; exact isReal1_hostReduceAdd_axis0 _ _ _ reducesTo_S10000x256_S256_d0 h_S_ h_x h_cst
  have h_v1 : IsReal2 R[main_call0_v1] (fun _ j => ∑ i, Xr i j) := by
    rw [st_main_call0_v1 V]; exact isReal2_broadcastInDim_vec_row _ h_v0
  have h_cst_0 : IsReal0 R[main_call0_cst_0] 10000 := by
    rw [st_main_call0_cst_0 V]; exact isReal0_constant _ 10000 ofBits_10000
  have h_v2 : IsReal2 R[main_call0_v2] (fun _ _ => (10000 : ℝ)) := by
    rw [st_main_call0_v2 V]; exact isReal2_broadcastInDim_scalar _ _ 10000 h_cst_0
  have h_v3 : IsReal2 R[main_call0_v3] (fun _ j => (∑ i, Xr i j) / 10000) := by
    rw [st_main_call0_v3 V]; exact isReal2_hostDivf h_v1 h_v2 (fun _ _ => by norm_num)
  have h_v4 : IsReal2 R[main_call0_v4] (fun _ j => (∑ i, Xr i j) / 10000) := by
    rw [st_main_call0_v4 V]; exact isReal2_broadcastInDim_row _ h_v3
  have h_v5 : IsReal2 R[main_call0_v5] (Cert.Spec.cen Xr) := by
    rw [st_main_call0_v5 V]
    exact isReal2_congr (isReal2_subf h_x h_v4)
      (fun i j => by simp only [Cert.Spec.cen, Cert.Spec.mean, Nat.cast_ofNat])
  have h_v6 : IsReal2 R[main_call0_v6] (fun i j => Cert.Spec.cen Xr i j * Cert.Spec.cen Xr i j) := by
    rw [st_main_call0_v6 V]; exact isReal2_mulf h_v5 h_v5
  -- the count: 10000 minus the integer 0 converted
  have h_v7 : IsReal0 R[main_call0_v7] 0 := by
    rw [st_main_call0_v7 V, st_main_c V]; exact isReal0_sitofp_constantI_zero
  have h_cst_1 : IsReal0 R[main_call0_cst_1] 10000 := by
    rw [st_main_call0_cst_1 V]; exact isReal0_constant _ 10000 ofBits_10000
  have h_v8 : IsReal0 R[main_call0_v8] (10000 - 0) := by rw [st_main_call0_v8 V]; exact isReal0_subf h_cst_1 h_v7
  have h_cst_2 : IsReal0 R[main_call0_cst_2] 0 := by
    rw [st_main_call0_cst_2 V]; exact isReal0_constant _ 0 ofBits_zero
  have h_v9 : IsReal1 R[main_call0_v9] (fun j => ∑ i, Cert.Spec.cen Xr i j * Cert.Spec.cen Xr i j) := by
    rw [st_main_call0_v9 V]; exact isReal1_hostReduceAdd_axis0 _ _ _ reducesTo_S10000x256_S256_d0 h_S_ h_v6 h_cst_2
  have h_v10 : IsReal1 R[main_call0_v10] (fun _ => (10000 - 0 : ℝ)) := by
    rw [st_main_call0_v10 V]; exact isReal1_broadcastInDim_scalar _ _ _ h_v8
  have h_v11 : IsReal1 R[main_call0_v11] (Cert.Spec.var Xr) := by
    rw [st_main_call0_v11 V]
    exact isReal1_congr (isReal1_hostDivf h_v9 h_v10 (fun _ => by norm_num))
      (fun j => by simp only [Cert.Spec.var, Nat.cast_ofNat, sub_zero])
  -- the guard "count exceeds zero" holds, so the selection is the quotient
  have h_cst_3 : IsReal0 R[main_call0_cst_3] 0 := by
    rw [st_main_call0_cst_3 V]; exact isReal0_constant _ 0 ofBits_zero
  have e3 : (R[main_v3] : (⟨S256, .f32⟩ : BufTy).Contents (Elt Ideal)) = R[main_call0_v11] := by
    rw [st_main_v3 V, st_main_call0_v12 V]
    exact select_scalar_ogt bcast_S_S256 h_v8 h_cst_3 (by norm_num) _ _
  rw [e3]; exact h_v11

/-! ## The normalised features -/

theorem chainA_bn : IsReal2 R[main_v18] (Cert.Spec.bnK Xr Gr Br eps) := by
  have h_x := chainA_arg0_isReal V hok
  have h_mean := chainA_mean V hok
  have h_var := chainA_var V hok
  have h_v4 : IsReal2 R[main_v4] (fun _ j => Cert.Spec.mean Xr j) := by
    rw [st_main_v4 V]; exact isReal2_broadcastInDim_vec_row _ h_mean
  have h_v5 : IsReal2 R[main_v5] (fun _ j => Cert.Spec.mean Xr j) := by
    rw [st_main_v5 V]; exact isReal2_broadcastInDim_row _ h_v4
  have h_v6 : IsReal2 R[main_v6] (Cert.Spec.cen Xr) := by rw [st_main_v6 V]; exact isReal2_subf h_x h_v5
  have h_cst_1 : IsReal0 R[main_cst_1] eps := by rw [st_main_cst_1 V]; exact isReal0_constant _ eps ofBits_eps
  have h_v7 : IsReal1 R[main_v7] (fun _ => eps) := by
    rw [st_main_v7 V]; exact isReal1_broadcastInDim_scalar _ _ eps h_cst_1
  have h_v8 : IsReal1 R[main_v8] (fun j => Cert.Spec.var Xr j + eps) := by
    rw [st_main_v8 V]; exact isReal1_addf h_var h_v7
  have hpos : ∀ j, 0 < Cert.Spec.var Xr j + eps := fun j =>
    add_pos_of_nonneg_of_pos (Cert.Spec.var_nonneg Xr j) eps_pos
  have h_v9 : IsReal1 R[main_v9] (fun j => Real.sqrt (Cert.Spec.var Xr j + eps)) := by
    rw [st_main_v9 V]; exact isReal1_hostSqrt h_v8 (fun j => (hpos j).le)
  have h_v10 : IsReal2 R[main_v10] (fun _ j => Real.sqrt (Cert.Spec.var Xr j + eps)) := by
    rw [st_main_v10 V]; exact isReal2_broadcastInDim_vec_row _ h_v9
  have h_v11 : IsReal2 R[main_v11] (fun _ j => Real.sqrt (Cert.Spec.var Xr j + eps)) := by
    rw [st_main_v11 V]; exact isReal2_broadcastInDim_row _ h_v10
  have h_v12 : IsReal2 R[main_v12] (fun i j => Cert.Spec.cen Xr i j / Real.sqrt (Cert.Spec.var Xr j + eps)) := by
    rw [st_main_v12 V]; exact isReal2_hostDivf h_v6 h_v11 (fun _ j => (Real.sqrt_pos.mpr (hpos j)).ne')
  have h_v13 : IsReal2 R[main_v13] (fun _ j => Gr j) := by
    rw [st_main_v13 V]; exact isReal2_broadcastInDim_vec_row _ (chainA_arg2_isReal V hok)
  have h_v14 : IsReal2 R[main_v14] (fun _ j => Gr j) := by
    rw [st_main_v14 V]; exact isReal2_broadcastInDim_row _ h_v13
  have h_v15 : IsReal2 R[main_v15]
      (fun i j => Cert.Spec.cen Xr i j / Real.sqrt (Cert.Spec.var Xr j + eps) * Gr j) := by
    rw [st_main_v15 V]; exact isReal2_mulf h_v12 h_v14
  have h_v16 : IsReal2 R[main_v16] (fun _ j => Br j) := by
    rw [st_main_v16 V]; exact isReal2_broadcastInDim_vec_row _ (chainA_arg3_isReal V hok)
  have h_v17 : IsReal2 R[main_v17] (fun _ j => Br j) := by
    rw [st_main_v17 V]; exact isReal2_broadcastInDim_row _ h_v16
  rw [st_main_v18 V]
  -- divided by the root and then scaled is scaled by the folded factor
  exact isReal2_congr (isReal2_addf h_v15 h_v17) (fun i j => by
    show Cert.Spec.bnR Xr Gr Br eps i j = _
    rw [Cert.Spec.bnR_eq_bnK])

/-! ## The first linear map -/

theorem chainA_v23 : IsReal2 R[main_v23] (Cert.Spec.lin (Cert.Spec.bnK Xr Gr Br eps) W1r) := by
  rw [st_main_v23 V]
  exact isReal2_dotGeneral dot_S10000x256_S256x256_S10000x256_1_0_0_1_n_n rfl none _ _ _ _
    (chainA_bn V hok) (chainA_arg4_isReal V hok)

/-! ## The first convolution -/

theorem chainA_conv : IsReal2 R[main_v75]
    (Cert.Spec.convR SRC DST (Cert.Spec.lin (Cert.Spec.bnK Xr Gr Br eps) W1r) B1r) := by
  have hrng := hok.2.2.2.2.2.2.2
  have hS : ∀ t : Fin 160000, 0 ≤ (R[main_v20] (ix1 t)).toInt ∧ (R[main_v20] (ix1 t)).toInt < (10000 : Int) := by
    intro t; rw [chainA_src V t]; exact hrng _
  have hD : ∀ t : Fin 160000, 0 ≤ (R[main_v22] (ix1 t)).toInt ∧ (R[main_v22] (ix1 t)).toInt < (10000 : Int) := by
    intro t; rw [chainA_dst V t]; exact hrng _
  have hsrc : ∀ t, node nodes_pos (R[main_v20] (ix1 t)) = SRC t := by intro t; rw [chainA_src V t]; rfl
  have hdst : ∀ t, node nodes_pos (R[main_v22] (ix1 t)) = DST t := by intro t; rw [chainA_dst V t]; rfl
  have nS := appended_nonneg hS (st_main_v24 V) (st_main_v25 V)
  have nD := appended_nonneg hD (st_main_v24 V) (st_main_v26 V)
  exact conv_isReal2 hS hD hsrc hdst (chainA_v23 V hok) (chainA_arg5_isReal V hok)
    (e_io := st_main_v24 V) (e_xS := st_main_v25 V) (e_xD := st_main_v26 V)
    (h_colD1 := wrapCol_apply nD (st_main_c_3 V) (st_main_v28 V) (st_main_v29 V) (st_main_c_4 V) (st_main_v30 V)
      (st_main_v31 V) (st_main_v32 V) (st_main_v33 V))
    (h_colS2 := wrapCol_apply nS (st_main_c_8 V) (st_main_v40 V) (st_main_v41 V) (st_main_c_9 V) (st_main_v42 V)
      (st_main_v43 V) (st_main_v44 V) (st_main_v45 V))
    (h_colD2 := wrapCol_apply nD (st_main_c_10 V) (st_main_v47 V) (st_main_v48 V) (st_main_c_11 V) (st_main_v49 V)
      (st_main_v50 V) (st_main_v51 V) (st_main_v52 V))
    (h_colS3 := wrapCol_apply nS (st_main_c_12 V) (st_main_v55 V) (st_main_v56 V) (st_main_c_13 V) (st_main_v57 V)
      (st_main_v58 V) (st_main_v59 V) (st_main_v60 V))
    (h_colD3 := wrapCol_apply nD (st_main_c_15 V) (st_main_v66 V) (st_main_v67 V) (st_main_c_16 V) (st_main_v68 V)
      (st_main_v69 V) (st_main_v70 V) (st_main_v71 V))
    (e_z0 := st_main_cst_2 V) (e_zN := st_main_v27 V) (e_o0 := st_main_cst_5 V) (e_oT := st_main_v34 V)
    (e_deg := st_main_v35 V) (e_z1 := st_main_cst_6 V) (e_zN1 := st_main_v36 V) (e_pos := st_main_v37 V)
    (e_rs := st_main_v38 V) (e_z2 := st_main_cst_7 V) (e_z2' := st_main_call1_v0 V) (e_zN2 := st_main_call1_v1 V)
    (e_dis := st_main_v39 V) (e_gS := st_main_v46 V) (e_gD := st_main_v53 V) (e_fac := st_main_v54 V)
    (e_rows := st_main_v61 V) (e_facC := st_main_v62 V) (e_facM := st_main_v63 V) (e_upd := st_main_v64 V)
    (e_z3 := st_main_cst_14 V) (e_zM := st_main_v65 V) (e_acc := st_main_v72 V)
    (e_bR := st_main_v73 V) (e_bM := st_main_v74 V) (e_out := st_main_v75 V)

/-! ## The leaky rectifier and the second linear map -/

theorem chainA_hidden : IsReal2 R[main_v80] (Cert.Spec.hidden Xr SRC DST Gr Br W1r B1r eps slope) := by
  have h75 := chainA_conv V hok
  have h_cst_17 : IsReal0 R[main_cst_17] 0 := by rw [st_main_cst_17 V]; exact isReal0_constant _ 0 ofBits_zero
  have h76 : IsReal2 R[main_v76] (fun _ _ => (0 : ℝ)) := by
    rw [st_main_v76 V]; exact isReal2_broadcastInDim_scalar _ _ 0 h_cst_17
  have h_cst_18 : IsReal0 R[main_cst_18] slope := by
    rw [st_main_cst_18 V]; exact isReal0_constant _ slope ofBits_slope
  have h78 : IsReal2 R[main_v78] (fun _ _ => slope) := by
    rw [st_main_v78 V]; exact isReal2_broadcastInDim_scalar _ _ slope h_cst_18
  have h79 := isReal2_mulf h78 h75
  rw [← st_main_v79 V] at h79
  rw [st_main_v80 V, st_main_v77 V]
  exact isReal2_select_ogt h75 h76 h79

theorem chainA_v81 : IsReal2 R[main_v81]
    (Cert.Spec.lin (Cert.Spec.hidden Xr SRC DST Gr Br W1r B1r eps slope) W2r) := by
  rw [st_main_v81 V]
  exact isReal2_dotGeneral dot_S10000x256_S256x256_S10000x256_1_0_0_1_n_n rfl none _ _ _ _
    (chainA_hidden V hok) (chainA_arg6_isReal V hok)

end ChainA

end Cert.RefSide

end
-- ==== Proof.RChainB.lean ====
/-
  The reference, second half: from the output of the second linear map to the result.

  The second graph convolution runs over the edge list with the self loops appended (the 160000 edges, then one loop
  v → v for each of the 10000 nodes): its buffers are, one by one, the variables of the convolution stated over abstract
  arrays, and each of its operations is one of that statement's equations; the appended word vectors hold node numbers
  throughout, so the negative-index wrap in front of each gather and scatter changes nothing. What the convolution leaves
  is, entry by entry, the specification's convolution of the second linear map's output. Then the column sums over the
  nodes, laid out as one row and divided by the number of nodes: the specification's result.
-/
import proofs.«150153_g58806692217087_cont_9to1_m_85_2_alg».proof.Proof.RefStages
import proofs.«150153_g58806692217087_cont_9to1_m_85_2_alg».proof.Proof.LiftPointwise
import proofs.«150153_g58806692217087_cont_9to1_m_85_2_alg».proof.Proof.LiftReduce
import proofs.«150153_g58806692217087_cont_9to1_m_85_2_alg».proof.Proof.LiftIndex
import proofs.«150153_g58806692217087_cont_9to1_m_85_2_alg».proof.Proof.RConv
import proofs.«150153_g58806692217087_cont_9to1_m_85_2_alg».proof.Proof.Result
import proofs.«150153_g58806692217087_cont_9to1_m_85_2_alg».proof.Proof.Spec

noncomputable section

namespace Cert.RefSide

open Cert.ReferenceIdeal Cert.ReferenceIdeal.Gen Idealize.ShloMosaic Idealize.ShloMosaic.TcCoe Idealize.SL.Sem
  Idealize.ShloMosaic.StableHlo Idealize.ShloMosaic.ValueIdx Cert.RealLift Cert.Result
open scoped BigOperators

section Chain

variable (V : Valuation τ sig (Elt Ideal))

/-! ## The appended word vectors of the second convolution hold node numbers -/

/-- Every word of the appended source vector is a node number, when the source vector's words are. -/
theorem v83_inrange
    (h : ∀ t : Fin 160000, 0 ≤ (after ops V (Proc.devRef .tc main_v20) (ix1 t)).toInt
      ∧ (after ops V (Proc.devRef .tc main_v20) (ix1 t)).toInt < ((10000 : ℕ) : Int)) (k : Fin 170000) :
    0 ≤ (after ops V (Proc.devRef .tc main_v83) (ix1 k)).toInt
      ∧ (after ops V (Proc.devRef .tc main_v83) (ix1 k)).toInt < ((10000 : ℕ) : Int) := by
  rw [st_main_v83 V, st_main_v82 V]
  exact concat_iota_inrange (by norm_num) _ _ h k

/-- Every word of the appended target vector is a node number, when the target vector's words are. -/
theorem v84_inrange
    (h : ∀ t : Fin 160000, 0 ≤ (after ops V (Proc.devRef .tc main_v22) (ix1 t)).toInt
      ∧ (after ops V (Proc.devRef .tc main_v22) (ix1 t)).toInt < ((10000 : ℕ) : Int)) (k : Fin 170000) :
    0 ≤ (after ops V (Proc.devRef .tc main_v84) (ix1 k)).toInt
      ∧ (after ops V (Proc.devRef .tc main_v84) (ix1 k)).toInt < ((10000 : ℕ) : Int) := by
  rw [st_main_v84 V, st_main_v82 V]
  exact concat_iota_inrange (by norm_num) _ _ h k

/-! ## The second convolution -/

/-- From the second linear map's output g' to the second convolution's output: the specification's convolution of g' over
    the edges the edge table names, with the last bias. -/
theorem chainB_v133
    (hA1 : ∀ i, 0 ≤ (V (Proc.devRef .tc main_arg1) i).toInt ∧ (V (Proc.devRef .tc main_arg1) i).toInt < 10000)
    {g' : Fin 10000 → Fin 256 → ℝ} (h81 : IsReal2 (after ops V (Proc.devRef .tc main_v81)) g')
    {b' : Fin 256 → ℝ} (hb : IsReal1 (V (Proc.devRef .tc main_arg7)) b')
    (hsrc : ∀ t : Fin 160000, after ops V (Proc.devRef .tc main_v20) (ix1 t) = V (Proc.devRef .tc main_arg1) (ix2 (0 : Fin 2) t))
    (hdst : ∀ t : Fin 160000, after ops V (Proc.devRef .tc main_v22) (ix1 t) = V (Proc.devRef .tc main_arg1) (ix2 (1 : Fin 2) t)) :
    IsReal2 (after ops V (Proc.devRef .tc main_v133))
      (Cert.Spec.convR (srcOf (V (Proc.devRef .tc main_arg1))) (dstOf (V (Proc.devRef .tc main_arg1))) g' b') := by
  -- the edge words are node numbers
  have hS : ∀ t : Fin 160000, 0 ≤ (after ops V (Proc.devRef .tc main_v20) (ix1 t)).toInt
      ∧ (after ops V (Proc.devRef .tc main_v20) (ix1 t)).toInt < (10000 : Int) := fun t => by rw [hsrc t]; exact hA1 _
  have hD : ∀ t : Fin 160000, 0 ≤ (after ops V (Proc.devRef .tc main_v22) (ix1 t)).toInt
      ∧ (after ops V (Proc.devRef .tc main_v22) (ix1 t)).toInt < (10000 : Int) := fun t => by rw [hdst t]; exact hA1 _
  -- so the appended vectors' words are not negative
  have nn83 : ∀ i, 0 ≤ (after ops V (Proc.devRef .tc main_v83) i).toInt := fun i => by
    rw [eq_ix1 i]; exact (v83_inrange V (fun t => by exact_mod_cast hS t) _).1
  have nn84 : ∀ i, 0 ≤ (after ops V (Proc.devRef .tc main_v84) i).toInt := fun i => by
    rw [eq_ix1 i]; exact (v84_inrange V (fun t => by exact_mod_cast hD t) _).1
  have hB : IsReal1 (after ops V (Proc.devRef .tc main_arg7)) b' := by rw [st_main_arg7 V]; exact hb
  exact conv_isReal2 hS hD
    (src := srcOf (V (Proc.devRef .tc main_arg1))) (dst := dstOf (V (Proc.devRef .tc main_arg1)))
    (fun t => by rw [hsrc t]; rfl) (fun t => by rw [hdst t]; rfl) h81 hB
    (st_main_v82 V) (st_main_v83 V) (st_main_v84 V)
    (wrapCol_apply nn84 (st_main_c_20 V) (st_main_v86 V) (st_main_v87 V) (st_main_c_21 V) (st_main_v88 V) (st_main_v89 V) (st_main_v90 V) (st_main_v91 V))
    (wrapCol_apply nn83 (st_main_c_25 V) (st_main_v98 V) (st_main_v99 V) (st_main_c_26 V) (st_main_v100 V) (st_main_v101 V) (st_main_v102 V) (st_main_v103 V))
    (wrapCol_apply nn84 (st_main_c_27 V) (st_main_v105 V) (st_main_v106 V) (st_main_c_28 V) (st_main_v107 V) (st_main_v108 V) (st_main_v109 V) (st_main_v110 V))
    (wrapCol_apply nn83 (st_main_c_29 V) (st_main_v113 V) (st_main_v114 V) (st_main_c_30 V) (st_main_v115 V) (st_main_v116 V) (st_main_v117 V) (st_main_v118 V))
    (wrapCol_apply nn84 (st_main_c_32 V) (st_main_v124 V) (st_main_v125 V) (st_main_c_33 V) (st_main_v126 V) (st_main_v127 V) (st_main_v128 V) (st_main_v129 V))
    (st_main_cst_19 V) (st_main_v85 V) (st_main_cst_22 V) (st_main_v92 V) (st_main_v93 V)
    (st_main_cst_23 V) (st_main_v94 V) (st_main_v95 V) (st_main_v96 V)
    (st_main_cst_24 V) (st_main_call3_v0 V) (st_main_call3_v1 V) (st_main_v97 V)
    (st_main_v104 V) (st_main_v111 V) (st_main_v112 V) (st_main_v119 V) (st_main_v120 V) (st_main_v121 V)
    (st_main_v122 V) (st_main_cst_31 V) (st_main_v123 V) (st_main_v130 V) (st_main_v131 V) (st_main_v132 V)
    (st_main_v133 V)

/-! ## The mean over the nodes -/

/-- From the second convolution's output C' to the result: the column sums of C' over the nodes, as one row, divided by
    the number of nodes. -/
theorem chainB_v137_of_v133 {C' : Fin 10000 → Fin 256 → ℝ} (h133 : IsReal2 (after ops V (Proc.devRef .tc main_v133)) C') :
    IsReal2 (after ops V (Proc.devRef .tc main_v137)) (fun _ j => (∑ v, C' v j) / 10000) := by
  have h_c34 : IsReal0 (after ops V (Proc.devRef .tc main_cst_34)) 0 := by
    rw [st_main_cst_34 V]; exact isReal0_constant _ 0 ofBits_zero
  have h134 : IsReal1 (after ops V (Proc.devRef .tc main_v134)) (fun j => ∑ v, C' v j) := by
    rw [st_main_v134 V]; exact isReal1_hostReduceAdd_axis0 _ C' _ _ _ h133 h_c34
  have h135 : IsReal2 (after ops V (Proc.devRef .tc main_v135)) (fun _ j => ∑ v, C' v j) := by
    rw [st_main_v135 V]; exact isReal2_broadcastInDim_vec_row _ h134
  have h_c35 : IsReal0 (after ops V (Proc.devRef .tc main_cst_35)) 10000 := by
    rw [st_main_cst_35 V]; exact isReal0_constant _ 10000 ofBits_10000
  have h136 : IsReal2 (after ops V (Proc.devRef .tc main_v136)) (fun _ _ => 10000) := by
    rw [st_main_v136 V]; exact isReal2_broadcastInDim_scalar _ _ 10000 h_c35
  rw [st_main_v137 V]
  exact isReal2_hostDivf h135 h136 (fun _ _ => by norm_num)

/-- The reference's result buffer is the specification's result row, given the first half of the chain: the second
    linear map's output, and the source and target word vectors read off the edge table. -/
theorem chainB_v137
    (hA1 : ∀ i, 0 ≤ (V (Proc.devRef .tc main_arg1) i).toInt ∧ (V (Proc.devRef .tc main_arg1) i).toInt < 10000)
    {h' : Fin 10000 → Fin 256 → ℝ} {W2' : Fin 256 → Fin 256 → ℝ}
    (h81 : IsReal2 (after ops V (Proc.devRef .tc main_v81)) (Cert.Spec.lin h' W2'))
    {b2' : Fin 256 → ℝ} (hb : IsReal1 (V (Proc.devRef .tc main_arg7)) b2')
    (hsrc : ∀ t : Fin 160000, after ops V (Proc.devRef .tc main_v20) (ix1 t) = V (Proc.devRef .tc main_arg1) (ix2 (0 : Fin 2) t))
    (hdst : ∀ t : Fin 160000, after ops V (Proc.devRef .tc main_v22) (ix1 t) = V (Proc.devRef .tc main_arg1) (ix2 (1 : Fin 2) t)) :
    IsReal2 (after ops V (Proc.devRef .tc main_v137))
      (fun _ j => Cert.Spec.outR (srcOf (V (Proc.devRef .tc main_arg1))) (dstOf (V (Proc.devRef .tc main_arg1))) W2' b2' h' j) := by
  refine isReal2_congr (chainB_v137_of_v133 V (chainB_v133 V hA1 h81 hb hsrc hdst)) (fun _ j => ?_)
  unfold Cert.Spec.outR
  rw [Nat.cast_ofNat]

/-! ## The reference's value, given the first half of the chain -/

/-- Under the precondition's reading of the arguments, and given the first half of the chain (the second linear map's
    output, the source and target word vectors), the result buffer holds the specification's result. -/
theorem value_of_firstHalf
    (hok : Cert.Result.Ok (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)))
    (h81 : IsReal2 (after ops V (Proc.devRef .tc main_v81))
      (Cert.Spec.lin (Cert.Spec.hidden (toReal2 (V (Proc.devRef .tc main_arg0))) (srcOf (V (Proc.devRef .tc main_arg1))) (dstOf (V (Proc.devRef .tc main_arg1))) (toReal1 (V (Proc.devRef .tc main_arg2))) (toReal1 (V (Proc.devRef .tc main_arg3)))
        (toReal2 (V (Proc.devRef .tc main_arg4))) (toReal1 (V (Proc.devRef .tc main_arg5))) eps slope) (toReal2 (V (Proc.devRef .tc main_arg6)))))
    (hsrc : ∀ t : Fin 160000, after ops V (Proc.devRef .tc main_v20) (ix1 t) = V (Proc.devRef .tc main_arg1) (ix2 (0 : Fin 2) t))
    (hdst : ∀ t : Fin 160000, after ops V (Proc.devRef .tc main_v22) (ix1 t) = V (Proc.devRef .tc main_arg1) (ix2 (1 : Fin 2) t)) :
    StableHlo.after ops V (Proc.devRef .tc main_v137) = Cert.Result.val (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  obtain ⟨h0, h2, h3, h4, h5, h6, h7, h1⟩ := hok
  exact val_of_isReal2 (chainB_v137 V h1 h81 (isReal1_toReal _ h7) hsrc hdst)

end Chain

end Cert.RefSide

end
-- ==== Proof.RChain.lean ====
/-
  The reference side's value: under the precondition's reading of the arguments, the fold of the reference's
  operations holds, at the result buffer, the specification's row at the arguments read as real arrays. The first half
  of the line (normalisation, first linear map, first convolution, rectifier, second linear map) gives the buffer that
  feeds the second convolution; the second half (second convolution, mean over the nodes) gives the result.
-/
import proofs.«150153_g58806692217087_cont_9to1_m_85_2_alg».proof.Proof.RefStages
import proofs.«150153_g58806692217087_cont_9to1_m_85_2_alg».proof.Proof.RChainA
import proofs.«150153_g58806692217087_cont_9to1_m_85_2_alg».proof.Proof.RChainB
import proofs.«150153_g58806692217087_cont_9to1_m_85_2_alg».proof.Proof.Result

noncomputable section

namespace Cert.RefSide

open Cert.ReferenceIdeal Cert.ReferenceIdeal.Gen Idealize.ShloMosaic Idealize.ShloMosaic.TcCoe Idealize.SL.Sem
  Idealize.ShloMosaic.StableHlo

theorem value (V : Valuation τ sig (Elt Ideal))
    (hok : Cert.Result.Ok (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))) :
    StableHlo.after ops V (Proc.devRef .tc main_v137)
      = Cert.Result.val (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  value_of_firstHalf V hok (chainA_v81 V hok) (chainA_src V) (chainA_dst V)

end Cert.RefSide

end
-- ==== Proof.lean ====
/-
  The certificate's five claims. The three programs run and leave their arguments as launched; the idealized kernel
  differs from the kernel by one named constant, 1/10000; and at the extended reals, from arguments every float entry
  of which is a real number and every edge word of which names one of the 10000 nodes (what the precondition says),
  the idealized kernel and the idealized reference end with ONE array: batch normalisation, two graph convolutions
  with self loops and symmetric degree scaling, a leaky rectifier between them, and the mean over the nodes.
-/
import proofs.«150153_g58806692217087_cont_9to1_m_85_2_alg».proof.Defs
import proofs.«150153_g58806692217087_cont_9to1_m_85_2_alg».proof.Proof.Gen.Kernel
import proofs.«150153_g58806692217087_cont_9to1_m_85_2_alg».proof.Proof.Gen.Kernel.Skeleton
import proofs.«150153_g58806692217087_cont_9to1_m_85_2_alg».proof.Proof.Gen.Kernel.Launch
import proofs.«150153_g58806692217087_cont_9to1_m_85_2_alg».proof.Proof.Gen.Kernel.Points
import proofs.«150153_g58806692217087_cont_9to1_m_85_2_alg».proof.Proof.Gen.Kernel.Frame
import proofs.«150153_g58806692217087_cont_9to1_m_85_2_alg».proof.Proof.Gen.KernelIdeal
import proofs.«150153_g58806692217087_cont_9to1_m_85_2_alg».proof.Proof.Gen.KernelIdeal.Skeleton
import proofs.«150153_g58806692217087_cont_9to1_m_85_2_alg».proof.Proof.Gen.KernelIdeal.Launch
import proofs.«150153_g58806692217087_cont_9to1_m_85_2_alg».proof.Proof.Gen.KernelIdeal.Points
import proofs.«150153_g58806692217087_cont_9to1_m_85_2_alg».proof.Proof.Gen.KernelIdeal.Frame
import proofs.«150153_g58806692217087_cont_9to1_m_85_2_alg».proof.Proof.Gen.ReferenceIdeal
import proofs.«150153_g58806692217087_cont_9to1_m_85_2_alg».proof.Proof.Gen.Pre_finite_inputs
import Idealize.ShloMosaic.Adequacy
import Idealize.ShloMosaic.Init
import Idealize.ShloMosaic.Lib.StableHlo.Run
import proofs.«150153_g58806692217087_cont_9to1_m_85_2_alg».proof.Proof.PreDecode
import proofs.«150153_g58806692217087_cont_9to1_m_85_2_alg».proof.Proof.Result
import proofs.«150153_g58806692217087_cont_9to1_m_85_2_alg».proof.Proof.KernelRun
import proofs.«150153_g58806692217087_cont_9to1_m_85_2_alg».proof.Proof.KChain
import proofs.«150153_g58806692217087_cont_9to1_m_85_2_alg».proof.Proof.RChain

noncomputable section

namespace Cert.Proof

open Idealize.ShloMosaic Idealize.ShloMosaic.TcCoe Idealize.ShloMosaic.StableHlo Idealize.SL.Sem

/-- The kernel runs and its arguments end as launched. -/
theorem frame_k : Cert.frame_Kernel := fun m ρ _ => Cert.Kernel.Gen.frame m ρ

/-- The idealized kernel runs and its arguments end as launched. -/
theorem frame_ki : Cert.frame_KernelIdeal := fun m ρ _ => Cert.KernelIdeal.Gen.frame m ρ

/-- The idealized reference runs, and the fold of its operations leaves each argument buffer as it was. -/
theorem frame_ri : Cert.frame_ReferenceIdeal := by
  intro m ρ _
  exact (θ_run Cert.ReferenceIdeal.defs _ _).mono
    (fun _ h c => ⟨(h c Cert.ReferenceIdeal.main_arg0).trans (Cert.RefSide.st_main_arg0 _),
      (h c Cert.ReferenceIdeal.main_arg1).trans (Cert.RefSide.st_main_arg1 _),
      (h c Cert.ReferenceIdeal.main_arg2).trans (Cert.RefSide.st_main_arg2 _),
      (h c Cert.ReferenceIdeal.main_arg3).trans (Cert.RefSide.st_main_arg3 _),
      (h c Cert.ReferenceIdeal.main_arg4).trans (Cert.RefSide.st_main_arg4 _),
      (h c Cert.ReferenceIdeal.main_arg5).trans (Cert.RefSide.st_main_arg5 _),
      (h c Cert.ReferenceIdeal.main_arg6).trans (Cert.RefSide.st_main_arg6 _),
      (h c Cert.ReferenceIdeal.main_arg7).trans (Cert.RefSide.st_main_arg7 _)⟩)
    (Cert.RefSide.run_main (F := Ideal) m ρ)

/-- The one rewrite of the idealization: the table gives the name "inv_10000" the rational 1/10000. -/
theorem preserves : Cert.preserves_Kernel_KernelIdeal :=
  IdealRules.named_const.statement Cert.KernelIdeal.κ "inv_10000" .f32 0x38D1B717#32 ((1 / 10000 : ℝ) : EReal) rfl

/-- From arguments that agree and satisfy the precondition, both idealized programs end with the specification's row
    at the kernel's arguments read as real arrays, and with their arguments as launched. -/
theorem algebraic : Cert.algebraic_KernelIdeal_ReferenceIdeal := by
  intro m ρ m' ρ' hpre hagree
  have hok : ∀ c : Dev Cert.KernelIdeal.nD, Cert.Result.Ok (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) :=
    fun c => Cert.PreDecode.decode _ _ _ _ _ _ _ _ (hpre c)
  refine ⟨fun c => Cert.Result.val (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelSide.value m ρ c (hok c)), (h c).2⟩)
      (Cert.KernelSide.run_main (F := Ideal) m ρ)
  · have hok' : ∀ c : Dev Cert.ReferenceIdeal.nD, Cert.Result.Ok (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) := by
      intro c
      rw [(hagree c).1, (hagree c).2.1, (hagree c).2.2.1, (hagree c).2.2.2.1, (hagree c).2.2.2.2.1, (hagree c).2.2.2.2.2.1, (hagree c).2.2.2.2.2.2.1, (hagree c).2.2.2.2.2.2.2]
      exact hok c
    refine (θ_run Cert.ReferenceIdeal.defs _ _).mono
      (fun _ h c => ⟨((h c Cert.ReferenceIdeal.main_v137).trans (Cert.RefSide.value (launchContents m' c) (hok' c))).trans ?_,
        (h c Cert.ReferenceIdeal.main_arg0).trans (Cert.RefSide.st_main_arg0 _),
        (h c Cert.ReferenceIdeal.main_arg1).trans (Cert.RefSide.st_main_arg1 _),
        (h c Cert.ReferenceIdeal.main_arg2).trans (Cert.RefSide.st_main_arg2 _),
        (h c Cert.ReferenceIdeal.main_arg3).trans (Cert.RefSide.st_main_arg3 _),
        (h c Cert.ReferenceIdeal.main_arg4).trans (Cert.RefSide.st_main_arg4 _),
        (h c Cert.ReferenceIdeal.main_arg5).trans (Cert.RefSide.st_main_arg5 _),
        (h c Cert.ReferenceIdeal.main_arg6).trans (Cert.RefSide.st_main_arg6 _),
        (h c Cert.ReferenceIdeal.main_arg7).trans (Cert.RefSide.st_main_arg7 _)⟩)
      (Cert.RefSide.run_main (F := Ideal) m' ρ')
    show Cert.Result.val (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) = _
    rw [(hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
